-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  IdealRules.named_const.Statement Cert.KernelIdeal.κ "inv_sqrt_dk" .f32 0x3E3504F3#32 ((2097152 / 11863283 : ℝ) : EReal)
  ∧ IdealRules.named_const.Statement Cert.KernelIdeal.κ "inv_sqrt_dk" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128x4 : Shape := ⟨2, ![128, 4]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_
  bcast_S_S2x400000 : S_.BroadcastsInDim S2x400000 (![] : Fin 0 → Fin S2x400000.rank)
  reducesTo_S2x400000_S_d0_1 : S2x400000.ReducesTo [0, 1] S_

variable [Facts]

def fn_part7 {F : FTy → Type} [FloatOps F] (main_arg3 : IVec S2x400000 32) (main_v116 : IVec S_ 1) (main_v118 : IVec S2x400000 1) : IVec S_ 1 :=
  let main_c_47 : IVec S_ 1 := constantI S_ 1 1#1
  let main_v119 : IVec S_ 1 := (fun x v => Host.reduce IntOp.andi x v reducesTo_S2x400000_S_d0_1 h_S_) main_v118 main_c_47
  let main_v120 : IVec S_ 1 := andi main_v116 main_v119
  let main_c_48 : IVec S_ 32 := constantI S_ 32 50000#32
  let main_v121 : IVec S2x400000 32 := broadcastInDim S2x400000 ![] bcast_S_S2x400000 main_c_48
  let main_v122 : IVec S2x400000 1 := cmpi .slt main_arg3 main_v121
  let main_c_49 : IVec S_ 1 := constantI S_ 1 1#1
  let main_v123 : IVec S_ 1 := (fun x v => Host.reduce IntOp.andi x v reducesTo_S2x400000_S_d0_1 h_S_) main_v122 main_c_49
  let main_v124 : IVec S_ 1 := andi main_v120 main_v123
  main_v124

def fn_part6 {F : FTy → Type} [FloatOps F] (main_arg2 : IVec S2x400000 32) (main_arg3 : IVec S2x400000 32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S2x400000 32 := broadcastInDim S2x400000 ![] bcast_S_S2x400000 main_c_42
  let main_v110 : IVec S2x400000 1 := cmpi .sge main_arg2 main_v109
  let main_c_43 : IVec S_ 1 := constantI S_ 1 1#1
  let main_v111 : IVec S_ 1 := (fun x v => Host.reduce IntOp.andi x v reducesTo_S2x400000_S_d0_1 h_S_) main_v110 main_c_43
  let main_v112 : IVec S_ 1 := andi main_v108 main_v111
  let main_c_44 : IVec S_ 32 := constantI S_ 32 50000#32
  let main_v113 : IVec S2x400000 32 := broadcastInDim S2x400000 ![] bcast_S_S2x400000 main_c_44
  let main_v114 : IVec S2x400000 1 := cmpi .slt main_arg2 main_v113
  let main_c_45 : IVec S_ 1 := constantI S_ 1 1#1
  let main_v115 : IVec S_ 1 := (fun x v => Host.reduce IntOp.andi x v reducesTo_S2x400000_S_d0_1 h_S_) main_v114 main_c_45
  let main_v116 : IVec S_ 1 := andi main_v112 main_v115
  let main_c_46 : IVec S_ 32 := constantI S_ 32 0#32
  let main_v117 : IVec S2x400000 32 := broadcastInDim S2x400000 ![] bcast_S_S2x400000 main_c_46
  let main_v118 : IVec S2x400000 1 := cmpi .sge main_arg3 main_v117
  fn_part7 (F := F) main_arg3 main_v116 main_v118

def fn_part5 {F : FTy → Type} [FloatOps F] (main_arg2 : IVec S2x400000 32) (main_arg3 : IVec S2x400000 32) (main_arg20 : FVec F S128 .f32) (main_arg21 : FVec F S128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg2 main_arg3 main_arg23 main_v98 main_v101 main_c_39

def fn_part4 {F : FTy → Type} [FloatOps F] (main_arg2 : IVec S2x400000 32) (main_arg3 : IVec S2x400000 32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_arg20 main_arg21 main_arg22 main_arg23 main_v83 main_v84 main_cst_32

def fn_part3 {F : FTy → Type} [FloatOps F] (main_arg2 : IVec S2x400000 32) (main_arg3 : IVec S2x400000 32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_arg19 main_arg20 main_arg21 main_arg22 main_arg23 main_v63 main_v67

def fn_part2 {F : FTy → Type} [FloatOps F] (main_arg2 : IVec S2x400000 32) (main_arg3 : IVec S2x400000 32) (main_arg9 : FVec F S128x128 .f32) (main_arg10 : FVec F S128x4 .f32) (main_arg11 : FVec F S128x4 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x4 .f32 := Host.absf main_arg10
  let main_cst_14 : FVec F S_ .f32 := constant S_ .f32 0x7F800000#32
  let main_v40 : FVec F S128x4 .f32 := broadcastInDim S128x4 ![] bcast_S_S128x4 main_cst_14
  let main_v41 : IVec S128x4 1 := cmpf .olt main_v39 main_v40
  let main_c_15 : IVec S_ 1 := constantI S_ 1 1#1
  let main_v42 : IVec S_ 1 := (fun x v => Host.reduce IntOp.andi x v reducesTo_S128x4_S_d0_1 h_S_) main_v41 main_c_15
  let main_v43 : IVec S_ 1 := andi main_v38 main_v42
  let main_v44 : FVec F S128x4 .f32 := Host.absf main_arg11
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_arg18 main_arg19 main_arg20 main_arg21 main_arg22 main_arg23 main_v48 main_v49 main_v50

def fn_part1 {F : FTy → Type} [FloatOps F] (main_arg2 : IVec S2x400000 32) (main_arg3 : IVec S2x400000 32) (main_arg6 : FVec F S128x128 .f32) (main_arg7 : FVec F S128x128 .f32) (main_arg8 : FVec F S128x128 .f32) (main_arg9 : FVec F S128x128 .f32) (main_arg10 : FVec F S128x4 .f32) (main_arg11 : FVec F S128x4 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : FVec F S50000x128 .f32) (main_arg2 : IVec S2x400000 32) (main_arg3 : IVec S2x400000 32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x4 .f32) (main_arg11 : FVec F S128x4 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128x4 : Shape := ⟨2, ![128, 4]⟩
abbrev S128 : Shape := ⟨1, ![128]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S128x1 : Shape := ⟨2, ![128, 1]⟩
abbrev S4 : Shape := ⟨1, ![4]⟩
abbrev S1x4 : Shape := ⟨2, ![1, 4]⟩
abbrev S_ : Shape := ⟨0, ![]⟩
abbrev S4x128 : Shape := ⟨2, ![4, 128]⟩
abbrev S1x400000 : Shape := ⟨2, ![1, 400000]⟩
abbrev S400000 : Shape := ⟨1, ![400000]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S4000x128 : Shape := ⟨2, ![4000, 128]⟩
abbrev S4000x1 : Shape := ⟨2, ![4000, 1]⟩
abbrev S4000x4 : Shape := ⟨2, ![4000, 4]⟩
abbrev S4000 : Shape := ⟨1, ![4000]⟩
abbrev S50000 : Shape := ⟨1, ![50000]⟩
abbrev S50000x1 : Shape := ⟨2, ![50000, 1]⟩
abbrev S1x128 : Shape := ⟨2, ![1, 128]⟩
abbrev S5000x1 : Shape := ⟨2, ![5000, 1]⟩
abbrev S5000 : Shape := ⟨1, ![5000]⟩
abbrev S1x50000x128 : Shape := ⟨3, ![1, 50000, 128]⟩
abbrev S2x50000x128 : Shape := ⟨3, ![2, 50000, 128]⟩

abbrev nBuf : Space → Nat
  | .hbm => 244
  | .vmem => 64
  | .smem => 0
  | _ => 0

abbrev hbmTy0_0 (i : Nat) : BufTy := match i % 128 with
  | 0 => ⟨S50000x128, .f32⟩
  | 1 => ⟨S50000x128, .f32⟩
  | 2 => ⟨S2x400000, .i32⟩
  | 3 => ⟨S2x400000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x4, .f32⟩
  | 11 => ⟨S128x4, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S128x384, .f32⟩
  | 25 => ⟨S128x384, .f32⟩
  | 26 => ⟨S50000x384, .f32⟩
  | 27 => ⟨S50000x384, .f32⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S128, .i32⟩
  | 35 => ⟨S128x1, .i32⟩
  | 36 => ⟨S4, .i32⟩
  | 37 => ⟨S1x4, .i32⟩
  | 38 => ⟨S_, .i32⟩
  | 39 => ⟨S_, .i32⟩
  | 40 => ⟨S128x1, .i32⟩
  | 41 => ⟨S128x1, .i32⟩
  | 42 => ⟨S128x1, .i32⟩
  | 43 => ⟨S_, .i32⟩
  | 44 => ⟨S128x1, .i32⟩
  | 45 => ⟨S128x1, .i1⟩
  | 46 => ⟨S128x1, .i32⟩
  | 47 => ⟨S128x1, .i32⟩
  | 48 => ⟨S_, .i32⟩
  | 49 => ⟨S128x1, .i32⟩
  | 50 => ⟨S128x1, .i1⟩
  | 51 => ⟨S128x1, .i1⟩
  | 52 => ⟨S_, .i32⟩
  | 53 => ⟨S128x1, .i32⟩
  | 54 => ⟨S128x1, .i32⟩
  | 55 => ⟨S128x1, .i32⟩
  | 56 => ⟨S128x4, .i32⟩
  | 57 => ⟨S128x4, .i32⟩
  | 58 => ⟨S128x4, .i1⟩
  | 59 => ⟨S128x4, .f32⟩
  | 60 => ⟨S4x128, .f32⟩
  | 61 => ⟨S1x400000, .i32⟩
  | 62 => ⟨S400000, .i32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S1, .i32⟩
  | 74 => ⟨S_, .i32⟩
  | 75 => ⟨S400000x1, .i32⟩
  | 76 => ⟨S400000x1, .i1⟩
  | 77 => ⟨S1x1, .i32⟩
  | 78 => ⟨S400000x1, .i32⟩
  | 79 => ⟨S400000x1, .i1⟩
  | 80 => ⟨S400000x1, .i1⟩
  | 81 => ⟨S_, .i1⟩
  | 82 => ⟨S400000, .i1⟩
  | 83 => ⟨S400000x128, .f32⟩
  | 84 => ⟨S400000x128, .i1⟩
  | 85 => ⟨S_, .f32⟩
  | 86 => ⟨S400000x128, .f32⟩
  | 87 => ⟨S400000x128, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S1, .i32⟩
  | 97 => ⟨S_, .i32⟩
  | 98 => ⟨S400000x1, .i32⟩
  | 99 => ⟨S400000x1, .i1⟩
  | 100 => ⟨S1x1, .i32⟩
  | 101 => ⟨S400000x1, .i32⟩
  | 102 => ⟨S400000x1, .i1⟩
  | 103 => ⟨S400000x1, .i1⟩
  | 104 => ⟨S_, .i1⟩
  | 105 => ⟨S400000, .i1⟩
  | 106 => ⟨S400000x128, .f32⟩
  | 107 => ⟨S400000x128, .i1⟩
  | 108 => ⟨S_, .f32⟩
  | 109 => ⟨S400000x128, .f32⟩
  | 110 => ⟨S400000x128, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S1, .i32⟩
  | 120 => ⟨S_, .i32⟩
  | 121 => ⟨S400000x1, .i32⟩
  | 122 => ⟨S400000x1, .i1⟩
  | 123 => ⟨S1x1, .i32⟩
  | 124 => ⟨S400000x1, .i32⟩
  | 125 => ⟨S400000x1, .i1⟩
  | 126 => ⟨S400000x1, .i1⟩
  | 127 => ⟨S_, .i1⟩
  | _ => ⟨S50000x128, .f32⟩

abbrev hbmTy0_1 (i : Nat) : BufTy := match i % 128 with
  | 0 => ⟨S400000, .i1⟩
  | 1 => ⟨S400000x128, .f32⟩
  | 2 => ⟨S400000x128, .i1⟩
  | 3 => ⟨S_, .f32⟩
  | 4 => ⟨S400000x128, .f32⟩
  | 5 => ⟨S400000x128, .f32⟩
  | 6 => ⟨S400000x128, .f32⟩
  | 7 => ⟨S400000x1, .f32⟩
  | 8 => ⟨S_, .f32⟩
  | 9 => ⟨S50000x128, .f32⟩
  | 10 => ⟨S400000x1, .i32⟩
  | 11 => ⟨S50000x128, .f32⟩
  | 12 => ⟨S400000, .f32⟩
  | 13 => ⟨S_, .f32⟩
  | 14 => ⟨S50000, .f32⟩
  | 15 => ⟨S400000x1, .i32⟩
  | 16 => ⟨S50000, .f32⟩
  | 17 => ⟨S50000x1, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S1, .i32⟩
  | 31 => ⟨S_, .i32⟩
  | 32 => ⟨S400000x1, .i32⟩
  | 33 => ⟨S400000x1, .i1⟩
  | 34 => ⟨S1x1, .i32⟩
  | 35 => ⟨S400000x1, .i32⟩
  | 36 => ⟨S400000x1, .i1⟩
  | 37 => ⟨S400000x1, .i1⟩
  | 38 => ⟨S_, .i1⟩
  | 39 => ⟨S400000, .i1⟩
  | 40 => ⟨S400000x128, .f32⟩
  | 41 => ⟨S400000x128, .i1⟩
  | 42 => ⟨S_, .f32⟩
  | 43 => ⟨S400000x128, .f32⟩
  | 44 => ⟨S400000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S1, .i32⟩
  | 54 => ⟨S_, .i32⟩
  | 55 => ⟨S400000x1, .i32⟩
  | 56 => ⟨S400000x1, .i1⟩
  | 57 => ⟨S1x1, .i32⟩
  | 58 => ⟨S400000x1, .i32⟩
  | 59 => ⟨S400000x1, .i1⟩
  | 60 => ⟨S400000x1, .i1⟩
  | 61 => ⟨S_, .i1⟩
  | 62 => ⟨S400000, .i1⟩
  | 63 => ⟨S400000x128, .f32⟩
  | 64 => ⟨S400000x128, .i1⟩
  | 65 => ⟨S_, .f32⟩
  | 66 => ⟨S400000x128, .f32⟩
  | 67 => ⟨S400000x128, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S1, .i32⟩
  | 77 => ⟨S_, .i32⟩
  | 78 => ⟨S400000x1, .i32⟩
  | 79 => ⟨S400000x1, .i1⟩
  | 80 => ⟨S1x1, .i32⟩
  | 81 => ⟨S400000x1, .i32⟩
  | 82 => ⟨S400000x1, .i1⟩
  | 83 => ⟨S400000x1, .i1⟩
  | 84 => ⟨S_, .i1⟩
  | 85 => ⟨S400000, .i1⟩
  | 86 => ⟨S400000x128, .f32⟩
  | 87 => ⟨S400000x128, .i1⟩
  | 88 => ⟨S_, .f32⟩
  | 89 => ⟨S400000x128, .f32⟩
  | 90 => ⟨S400000x128, .f32⟩
  | 91 => ⟨S400000x128, .f32⟩
  | 92 => ⟨S400000x1, .f32⟩
  | 93 => ⟨S_, .f32⟩
  | 94 => ⟨S50000x128, .f32⟩
  | 95 => ⟨S400000x1, .i32⟩
  | 96 => ⟨S50000x128, .f32⟩
  | 97 => ⟨S400000, .f32⟩
  | 98 => ⟨S_, .f32⟩
  | 99 => ⟨S50000, .f32⟩
  | 100 => ⟨S400000x1, .i32⟩
  | 101 => ⟨S50000, .f32⟩
  | 102 => ⟨S50000x1, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S1x128, .f32⟩
  | 109 => ⟨S1x128, .f32⟩
  | 110 => ⟨S1x128, .f32⟩
  | 111 => ⟨S1x128, .f32⟩
  | 112 => ⟨S50000x128, .f32⟩
  | 113 => ⟨S1x50000x128, .f32⟩
  | 114 => ⟨S1x50000x128, .f32⟩
  | 115 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S5000x128, .f32⟩
  | .local _ .vmem, ⟨6, _⟩ => ⟨S5000x128, .f32⟩
  | .local _ .vmem, ⟨7, _⟩ => ⟨S128x384, .f32⟩
  | .local _ .vmem, ⟨8, _⟩ => ⟨S5000x384, .f32⟩
  | .local _ .vmem, ⟨9, _⟩ => ⟨S5000x384, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x4, .f32⟩
  | .local _ .vmem, ⟨17, _⟩ => ⟨S128x4, .f32⟩
  | .local _ .vmem, ⟨18, _⟩ => ⟨S4x128, .f32⟩
  | .local _ .vmem, ⟨19, _⟩ => ⟨S4000x128, .f32⟩
  | .local _ .vmem, ⟨20, _⟩ => ⟨S4000x128, .f32⟩
  | .local _ .vmem, ⟨21, _⟩ => ⟨S4000x1, .f32⟩
  | .local _ .vmem, ⟨22, _⟩ => ⟨S4000x1, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S128x4, .f32⟩
  | .local _ .vmem, ⟨30, _⟩ => ⟨S128x4, .f32⟩
  | .local _ .vmem, ⟨31, _⟩ => ⟨S4x128, .f32⟩
  | .local _ .vmem, ⟨32, _⟩ => ⟨S4000x128, .f32⟩
  | .local _ .vmem, ⟨33, _⟩ => ⟨S4000x128, .f32⟩
  | .local _ .vmem, ⟨34, _⟩ => ⟨S4000x1, .f32⟩
  | .local _ .vmem, ⟨35, _⟩ => ⟨S4000x1, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v24 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v25 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v26 : Ref sig .tc := ⟨.hbm, 133, rfl⟩
abbrev main_v27_0 : Ref sig .tc := ⟨.hbm, 134, rfl⟩
abbrev main_v27_1 : Ref sig .tc := ⟨.hbm, 135, rfl⟩
abbrev main_cst : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_cst_0 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_v14 : Ref sig .tc := ⟨.hbm, 169, rfl⟩
abbrev main_call4_cst : Ref sig .tc := ⟨.hbm, 170, rfl⟩
abbrev main_call4_v15 : Ref sig .tc := ⟨.hbm, 171, rfl⟩
abbrev main_v40 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v41 : Ref sig .tc := ⟨.hbm, 195, rfl⟩
abbrev main_call6_c : Ref sig .tc := ⟨.hbm, 196, rfl⟩
abbrev main_call6_v0 : Ref sig .tc := ⟨.hbm, 197, rfl⟩
abbrev main_call6_v1 : Ref sig .tc := ⟨.hbm, 198, rfl⟩
abbrev main_call6_c_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_c_1 : Ref sig .tc := ⟨.hbm, 204, rfl⟩
abbrev main_call6_c_2 : Ref sig .tc := ⟨.hbm, 205, rfl⟩
abbrev main_call6_v6 : Ref sig .tc := ⟨.hbm, 206, rfl⟩
abbrev main_call6_v7 : Ref sig .tc := ⟨.hbm, 207, rfl⟩
abbrev main_call6_v8 : Ref sig .tc := ⟨.hbm, 208, rfl⟩
abbrev main_call6_v9 : Ref sig .tc := ⟨.hbm, 209, rfl⟩
abbrev main_call6_v10 : Ref sig .tc := ⟨.hbm, 210, rfl⟩
abbrev main_call6_v11 : Ref sig .tc := ⟨.hbm, 211, rfl⟩
abbrev main_call6_c_3 : Ref sig .tc := ⟨.hbm, 212, rfl⟩
abbrev main_call6_v12 : Ref sig .tc := ⟨.hbm, 213, rfl⟩
abbrev main_call6_v13 : Ref sig .tc := ⟨.hbm, 214, rfl⟩
abbrev main_call6_v14 : Ref sig .tc := ⟨.hbm, 215, rfl⟩
abbrev main_call6_cst : Ref sig .tc := ⟨.hbm, 216, rfl⟩
abbrev main_call6_v15 : Ref sig .tc := ⟨.hbm, 217, rfl⟩
abbrev main_v42 : Ref sig .tc := ⟨.hbm, 218, rfl⟩
abbrev main_v43_0 : Ref sig .tc := ⟨.hbm, 219, rfl⟩
abbrev main_v43_1 : Ref sig .tc := ⟨.hbm, 220, rfl⟩
abbrev main_cst_1 : Ref sig .tc := ⟨.hbm, 221, rfl⟩
abbrev main_v44 : Ref sig .tc := ⟨.hbm, 222, rfl⟩
abbrev main_v45 : Ref sig .tc := ⟨.hbm, 223, rfl⟩
abbrev main_v46 : Ref sig .tc := ⟨.hbm, 224, rfl⟩
abbrev main_v47 : Ref sig .tc := ⟨.hbm, 225, rfl⟩
abbrev main_cst_2 : Ref sig .tc := ⟨.hbm, 226, rfl⟩
abbrev main_v48 : Ref sig .tc := ⟨.hbm, 227, rfl⟩
abbrev main_v49 : Ref sig .tc := ⟨.hbm, 228, rfl⟩
abbrev main_v50 : Ref sig .tc := ⟨.hbm, 229, rfl⟩
abbrev main_v51 : Ref sig .tc := ⟨.hbm, 230, rfl⟩
abbrev main_v52 : Ref sig .tc := ⟨.hbm, 231, rfl⟩
abbrev main_v53 : Ref sig .tc := ⟨.hbm, 232, rfl⟩
abbrev main_v54 : Ref sig .tc := ⟨.hbm, 233, rfl⟩
abbrev main_v55 : Ref sig .tc := ⟨.hbm, 234, rfl⟩
abbrev main_v56 : Ref sig .tc := ⟨.hbm, 235, rfl⟩
abbrev main_v57 : Ref sig .tc := ⟨.hbm, 236, rfl⟩
abbrev main_v58 : Ref sig .tc := ⟨.hbm, 237, rfl⟩
abbrev main_v59 : Ref sig .tc := ⟨.hbm, 238, rfl⟩
abbrev main_v60 : Ref sig .tc := ⟨.hbm, 239, rfl⟩
abbrev main_v61 : Ref sig .tc := ⟨.hbm, 240, rfl⟩
abbrev main_v62 : Ref sig .tc := ⟨.hbm, 241, rfl⟩
abbrev main_v63 : Ref sig .tc := ⟨.hbm, 242, rfl⟩
abbrev main_v64 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg8_0 : Ref sig .tc := ⟨.vmem, 61, rfl⟩
abbrev cc5_stg9_0 : Ref sig .tc := ⟨.vmem, 62, rfl⟩
abbrev cc5_stg9_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem8_0 : DmaSem sig := 61
abbrev cc5_sem9_0 : DmaSem sig := 62
abbrev cc5_sem9_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S128_S128x1_0 : S128.BroadcastsInDim S128x1 (![0] : Fin 1 → Fin S128x1.rank)
  bcast_S4_S1x4_1 : S4.BroadcastsInDim S1x4 (![1] : Fin 1 → Fin S1x4.rank)
  bcast_S_S128x1 : S_.BroadcastsInDim S128x1 (![] : Fin 0 → Fin S128x1.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  transposes_S128x4_S4x128_1_0 : S128x4.Transposes [1, 0] S4x128
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  reduces_S4000x4_S4000 : S4000x4.Reduces [1] S4000
  shapeCasts_S4000_S4000x1 : S4000.ShapeCasts S4000x1
  broadcasts_S4000x1_S4000x4 : S4000x1.Broadcasts S4000x4
  inb_S4000x1_S4000x1_0_0 : ∀ a, (![0, 0] : Fin 2 → Nat) a + S4000x1.size a ≤ S4000x1.size a
  h_S4000x1 : 0 < S4000x1.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  bcast_S_S50000x128 : S_.BroadcastsInDim S50000x128 (![] : Fin 0 → Fin S50000x128.rank)
  shapeCasts_S400000x1_S400000 : S400000x1.ShapeCasts S400000
  bcast_S_S50000 : S_.BroadcastsInDim S50000 (![] : Fin 0 → Fin S50000.rank)
  bcast_S50000_S50000x1_0 : S50000.BroadcastsInDim S50000x1 (![0] : Fin 1 → Fin S50000x1.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S5000x128_S128x384_S5000x384_1_0_0_1_n_n_wf : DotDims.WF S5000x128 S128x384 S5000x384 [1] [0] [0] [1] [] []
  gather_S50000x128_S400000x1_S400000x128_1_0_n_n_0_1_1128_wf : GatherDims.WF S50000x128 S400000x1 S400000x128 [1] [0] [] [0] [] 1 ![1, 128]
  dot_S4000x128_S128x4_S4000x4_1_0_0_1_n_n_wf : DotDims.WF S4000x128 S128x4 S4000x4 [1] [0] [0] [1] [] []
  dot_S4000x4_S4x128_S4000x128_1_0_0_1_n_n_wf : DotDims.WF S4000x4 S4x128 S4000x128 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .f32 = 32 ∨ (Rect.block (s := S128x384) S128x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x384.size a ≤ S50000x384.size a
  hwx1_2 : ∀ i : grid1.Coords, EltTy.bits .f32 = 32 ∨ (Rect.block (s := S50000x384) S5000x384.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S400000x128.size a
  hwx2_2 : ∀ i : grid2.Coords, EltTy.bits .f32 = 32 ∨ (Rect.block (s := S400000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x4.size a ≤ S128x4.size a
  hwx2_3 : ∀ i : grid2.Coords, EltTy.bits .f32 = 32 ∨ (Rect.block (s := S128x4) S128x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x4.size a ≤ S128x4.size a
  hwx2_4 : ∀ i : grid2.Coords, EltTy.bits .f32 = 32 ∨ (Rect.block (s := S128x4) S128x4.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x128.size a ≤ S4x128.size a
  hwx2_5 : ∀ i : grid2.Coords, EltTy.bits .f32 = 32 ∨ (Rect.block (s := S4x128) S4x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S400000x128.size a
  hwx2_6 : ∀ i : grid2.Coords, EltTy.bits .f32 = 32 ∨ (Rect.block (s := S400000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S400000x1.size a
  hwx2_7 : ∀ i : grid2.Coords, EltTy.bits .f32 = 32 ∨ (Rect.block (s := S400000x1) S4000x1.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S400000x128.size a
  hwx3_1 : ∀ i : grid3.Coords, EltTy.bits .f32 = 32 ∨ (Rect.block (s := S400000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S400000x128.size a
  hwx3_2 : ∀ i : grid3.Coords, EltTy.bits .f32 = 32 ∨ (Rect.block (s := S400000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x4.size a ≤ S128x4.size a
  hwx3_3 : ∀ i : grid3.Coords, EltTy.bits .f32 = 32 ∨ (Rect.block (s := S128x4) S128x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x4.size a ≤ S128x4.size a
  hwx3_4 : ∀ i : grid3.Coords, EltTy.bits .f32 = 32 ∨ (Rect.block (s := S128x4) S128x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x128.size a ≤ S4x128.size a
  hwx3_5 : ∀ i : grid3.Coords, EltTy.bits .f32 = 32 ∨ (Rect.block (s := S4x128) S4x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S400000x128.size a
  hwx3_6 : ∀ i : grid3.Coords, EltTy.bits .f32 = 32 ∨ (Rect.block (s := S400000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x1.size a ≤ S400000x1.size a
  hwx3_7 : ∀ i : grid3.Coords, EltTy.bits .f32 = 32 ∨ (Rect.block (s := S400000x1) S4000x1.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S50000x128.size a
  hwx4_9 : ∀ i : grid4.Coords, EltTy.bits .f32 = 32 ∨ (Rect.block (s := S50000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S128x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S4x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v27_1) S4000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S128x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S4x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43_0) S4000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v43_1) S4000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v30) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v54) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v55) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v56) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v46) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg16) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v59) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v60) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v61) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128x4 : Shape := ⟨2, ![128, 4]⟩
abbrev S128 : Shape := ⟨1, ![128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x4x32 : Shape := ⟨3, ![400000, 4, 32]⟩
abbrev S400000x4 : Shape := ⟨2, ![400000, 4]⟩
abbrev S400000x4x1 : Shape := ⟨3, ![400000, 4, 1]⟩
abbrev S50000 : Shape := ⟨1, ![50000]⟩
abbrev S50000x1 : Shape := ⟨2, ![50000, 1]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 263
  | .vmem => 0
  | .smem => 0
  | _ => 0

abbrev hbmTy0_0 (i : Nat) : BufTy := match i % 128 with
  | 0 => ⟨S50000x128, .f32⟩
  | 1 => ⟨S50000x128, .f32⟩
  | 2 => ⟨S2x400000, .i32⟩
  | 3 => ⟨S2x400000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x4, .f32⟩
  | 11 => ⟨S128x4, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S50000x128, .f32⟩
  | 25 => ⟨S50000x128, .f32⟩
  | 26 => ⟨S50000x128, .f32⟩
  | 27 => ⟨S50000x128, .f32⟩
  | 28 => ⟨S50000x128, .f32⟩
  | 29 => ⟨S50000x128, .f32⟩
  | 30 => ⟨S1x400000, .i32⟩
  | 31 => ⟨S400000, .i32⟩
  | 32 => ⟨S1x400000, .i32⟩
  | 33 => ⟨S400000, .i32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000x128, .f32⟩
  | 52 => ⟨S400000x4x32, .f32⟩
  | 53 => ⟨S400000x4x32, .f32⟩
  | 54 => ⟨S400000x4x32, .f32⟩
  | 55 => ⟨S_, .f32⟩
  | 56 => ⟨S400000x4, .f32⟩
  | 57 => ⟨S_, .f32⟩
  | 58 => ⟨S400000x4, .f32⟩
  | 59 => ⟨S400000x4, .f32⟩
  | 60 => ⟨S400000x4, .f32⟩
  | 61 => ⟨S400000x4, .f32⟩
  | 62 => ⟨S_, .f32⟩
  | 63 => ⟨S400000, .f32⟩
  | 64 => ⟨S_, .f32⟩
  | 65 => ⟨S400000, .f32⟩
  | 66 => ⟨S400000, .f32⟩
  | 67 => ⟨S400000x1, .f32⟩
  | 68 => ⟨S400000x4, .f32⟩
  | 69 => ⟨S400000x4, .f32⟩
  | 70 => ⟨S400000x4, .f32⟩
  | 71 => ⟨S_, .f32⟩
  | 72 => ⟨S400000, .f32⟩
  | 73 => ⟨S400000x1, .f32⟩
  | 74 => ⟨S400000x4, .f32⟩
  | 75 => ⟨S400000x4, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x128, .f32⟩
  | 85 => ⟨S400000x4x32, .f32⟩
  | 86 => ⟨S400000x4x1, .f32⟩
  | 87 => ⟨S400000x4x32, .f32⟩
  | 88 => ⟨S400000x4x32, .f32⟩
  | 89 => ⟨S400000x128, .f32⟩
  | 90 => ⟨S_, .f32⟩
  | 91 => ⟨S50000x128, .f32⟩
  | 92 => ⟨S400000x1, .i32⟩
  | 93 => ⟨S50000x128, .f32⟩
  | 94 => ⟨S_, .f32⟩
  | 95 => ⟨S400000, .f32⟩
  | 96 => ⟨S_, .f32⟩
  | 97 => ⟨S50000, .f32⟩
  | 98 => ⟨S400000x1, .i32⟩
  | 99 => ⟨S50000, .f32⟩
  | 100 => ⟨S_, .f32⟩
  | 101 => ⟨S_, .f32⟩
  | 102 => ⟨S50000, .f32⟩
  | 103 => ⟨S50000, .f32⟩
  | 104 => ⟨S50000x1, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x1, .f32⟩
  | 7 => ⟨S50000x1, .f32⟩
  | 8 => ⟨S50000x1, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x400000, .i32⟩
  | 18 => ⟨S400000, .i32⟩
  | 19 => ⟨S1x400000, .i32⟩
  | 20 => ⟨S400000, .i32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x128, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S400000x4x32, .f32⟩
  | 40 => ⟨S400000x4x32, .f32⟩
  | 41 => ⟨S400000x4x32, .f32⟩
  | 42 => ⟨S_, .f32⟩
  | 43 => ⟨S400000x4, .f32⟩
  | 44 => ⟨S_, .f32⟩
  | 45 => ⟨S400000x4, .f32⟩
  | 46 => ⟨S400000x4, .f32⟩
  | 47 => ⟨S400000x4, .f32⟩
  | 48 => ⟨S400000x4, .f32⟩
  | 49 => ⟨S_, .f32⟩
  | 50 => ⟨S400000, .f32⟩
  | 51 => ⟨S_, .f32⟩
  | 52 => ⟨S400000, .f32⟩
  | 53 => ⟨S400000, .f32⟩
  | 54 => ⟨S400000x1, .f32⟩
  | 55 => ⟨S400000x4, .f32⟩
  | 56 => ⟨S400000x4, .f32⟩
  | 57 => ⟨S400000x4, .f32⟩
  | 58 => ⟨S_, .f32⟩
  | 59 => ⟨S400000, .f32⟩
  | 60 => ⟨S400000x1, .f32⟩
  | 61 => ⟨S400000x4, .f32⟩
  | 62 => ⟨S400000x4, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x128, .f32⟩
  | 72 => ⟨S400000x4x32, .f32⟩
  | 73 => ⟨S400000x4x1, .f32⟩
  | 74 => ⟨S400000x4x32, .f32⟩
  | 75 => ⟨S400000x4x32, .f32⟩
  | 76 => ⟨S400000x128, .f32⟩
  | 77 => ⟨S_, .f32⟩
  | 78 => ⟨S50000x128, .f32⟩
  | 79 => ⟨S400000x1, .i32⟩
  | 80 => ⟨S50000x128, .f32⟩
  | 81 => ⟨S_, .f32⟩
  | 82 => ⟨S400000, .f32⟩
  | 83 => ⟨S_, .f32⟩
  | 84 => ⟨S50000, .f32⟩
  | 85 => ⟨S400000x1, .i32⟩
  | 86 => ⟨S50000, .f32⟩
  | 87 => ⟨S_, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S_, .f32⟩
  | 121 => ⟨S50000x1, .f32⟩
  | 122 => ⟨S50000x1, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x50000x128, .f32⟩
  | 5 => ⟨S1x50000x128, .f32⟩
  | 6 => ⟨S2x50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_cst_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_v43 : Ref sig .tc := ⟨.hbm, 77, rfl⟩
abbrev main_v44 : Ref sig .tc := ⟨.hbm, 78, rfl⟩
abbrev main_c_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_call0_v0 : Ref sig .tc := ⟨.hbm, 101, rfl⟩
abbrev main_call0_v1 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_13 : Ref sig .tc := ⟨.hbm, 116, rfl⟩
abbrev main_v75 : Ref sig .tc := ⟨.hbm, 117, rfl⟩
abbrev main_v76 : Ref sig .tc := ⟨.hbm, 118, rfl⟩
abbrev main_cst_14 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_15 : Ref sig .tc := ⟨.hbm, 125, rfl⟩
abbrev main_v82 : Ref sig .tc := ⟨.hbm, 126, rfl⟩
abbrev main_v83 : Ref sig .tc := ⟨.hbm, 127, rfl⟩
abbrev main_cst_16 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_17 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_c_18 : Ref sig .tc := ⟨.hbm, 149, rfl⟩
abbrev main_v103 : Ref sig .tc := ⟨.hbm, 150, rfl⟩
abbrev main_v104 : Ref sig .tc := ⟨.hbm, 151, rfl⟩
abbrev main_c_19 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_20 : Ref sig .tc := ⟨.hbm, 158, rfl⟩
abbrev main_v110 : Ref sig .tc := ⟨.hbm, 159, rfl⟩
abbrev main_v111 : Ref sig .tc := ⟨.hbm, 160, rfl⟩
abbrev main_c_21 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_22 : Ref sig .tc := ⟨.hbm, 170, rfl⟩
abbrev main_v120 : Ref sig .tc := ⟨.hbm, 171, rfl⟩
abbrev main_cst_23 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_24 : Ref sig .tc := ⟨.hbm, 177, rfl⟩
abbrev main_v125 : Ref sig .tc := ⟨.hbm, 178, rfl⟩
abbrev main_cst_25 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_26 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_27 : Ref sig .tc := ⟨.hbm, 191, rfl⟩
abbrev main_v136 : Ref sig .tc := ⟨.hbm, 192, rfl⟩
abbrev main_v137 : Ref sig .tc := ⟨.hbm, 193, rfl⟩
abbrev main_c_28 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_29 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_30 : Ref sig .tc := ⟨.hbm, 209, rfl⟩
abbrev main_v151 : Ref sig .tc := ⟨.hbm, 210, rfl⟩
abbrev main_cst_31 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_32 : Ref sig .tc := ⟨.hbm, 215, rfl⟩
abbrev main_call1_v0 : Ref sig .tc := ⟨.hbm, 216, rfl⟩
abbrev main_call1_v1 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_33 : Ref sig .tc := ⟨.hbm, 231, rfl⟩
abbrev main_v168 : Ref sig .tc := ⟨.hbm, 232, rfl⟩
abbrev main_v169 : Ref sig .tc := ⟨.hbm, 233, rfl⟩
abbrev main_cst_34 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_35 : Ref sig .tc := ⟨.hbm, 240, rfl⟩
abbrev main_v175 : Ref sig .tc := ⟨.hbm, 241, rfl⟩
abbrev main_v176 : Ref sig .tc := ⟨.hbm, 242, rfl⟩
abbrev main_cst_36 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_37 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  shapeCasts_S400000x128_S400000x4x32 : S400000x128.ShapeCasts S400000x4x32
  reducesTo_S400000x4x32_S400000x4_d2 : S400000x4x32.ReducesTo [2] S400000x4
  h_S_ : 0 < S_.numel
  bcast_S_S400000x4 : S_.BroadcastsInDim S400000x4 (![] : Fin 0 → Fin S400000x4.rank)
  reducesTo_S400000x4_S400000_d1 : S400000x4.ReducesTo [1] S400000
  bcast_S400000x1_S400000x4_0_1 : S400000x1.BroadcastsInDim S400000x4 (![0, 1] : Fin 2 → Fin S400000x4.rank)
  bcast_S400000x4_S400000x4x1_0_1 : S400000x4.BroadcastsInDim S400000x4x1 (![0, 1] : Fin 2 → Fin S400000x4x1.rank)
  bcast_S400000x4x1_S400000x4x32_0_1_2 : S400000x4x1.BroadcastsInDim S400000x4x32 (![0, 1, 2] : Fin 3 → Fin S400000x4x32.rank)
  shapeCasts_S400000x4x32_S400000x128 : S400000x4x32.ShapeCasts S400000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  dot_S400000x128_S128x4_S400000x4_1_0_0_1_n_n_wf : DotDims.WF S400000x128 S128x4 S400000x4 [1] [0] [0] [1] [] []
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x4_S400000x4_1_0_0_1_n_n : DotDims S400000x128 S128x4 S400000x4 where
  lhsContracting := [1]
  rhsContracting := [0]
  lhsNonContracting := [0]
  rhsNonContracting := [1]
  lhsBatch := []
  rhsBatch := []
  wf := dot_S400000x128_S128x4_S400000x4_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.Kernel.Reg0.lean ====
/- A projection region of the program. One grid point multiplies a block of
   5000 rows of the node features by the whole 128 x 384 weight matrix (the three projection matrices side by side)
   and stores the 5000 x 384 product as the output block. This module runs the body once, names what it leaves in the
   output block, and packages the pipeline's proof data and body obligation at an arbitrary entry valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight input (one block for the whole grid, fetched once) holds that block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S5000x128 := Rect.unit (s := S5000x128) ![0, 0] S5000x128.size inb_S5000x128_S5000x128_0_0
abbrev r0_w : Rect S128x384 := Rect.unit (s := S128x384) ![0, 0] S128x384.size inb_S128x384_S128x384_0_0
abbrev r0_out : Rect S5000x384 := Rect.unit (s := S5000x384) ![0, 0] S5000x384.size inb_S5000x384_S5000x384_0_0

/-- What the body leaves in the output block: the product of the row block and the weights, stored whole. -/
def out0_2 (x0 : Vec F S5000x128 .f32) (x1 : Vec F S128x384 .f32) : Vec F S5000x384 .f32 :=
  View.canon [⟨r0_out, k0_pay1 (View.ld x0 r0_x) (View.ld x1 r0_w)⟩]

/-- The single store covers the block. -/
theorem cover0_2 (p0 : Vec F S5000x384 .f32) (y : S5000x384.Idx) :
    ∃ pc ∈ ([⟨r0_out, p0⟩] : List (View.Piece (Elt F) S5000x384 .f32)), y ∈ pc.1.set :=
  View.cover_of_tiled [⟨r0_out, p0⟩] S5000x384.size (by rfl) y

set_option maxHeartbeats 1000000 in
/-- One run of the body: with the two inputs' buffers at `x0`, `x1` and the output's at anything, it ends with the
    inputs untouched and the output at `out0_2 x0 x1`. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: arrays as found; after the body each input's buffer at its block, the output's at
    the product of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1.lean ====
/- A projection region of the program. One grid point multiplies a block of
   5000 rows of the node features by the whole 128 x 384 weight matrix (the three projection matrices side by side)
   and stores the 5000 x 384 product as the output block. This module runs the body once, names what it leaves in the
   output block, and packages the pipeline's proof data and body obligation at an arbitrary entry valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight input (one block for the whole grid, fetched once) holds that block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S5000x128 := Rect.unit (s := S5000x128) ![0, 0] S5000x128.size inb_S5000x128_S5000x128_0_0
abbrev r1_w : Rect S128x384 := Rect.unit (s := S128x384) ![0, 0] S128x384.size inb_S128x384_S128x384_0_0
abbrev r1_out : Rect S5000x384 := Rect.unit (s := S5000x384) ![0, 0] S5000x384.size inb_S5000x384_S5000x384_0_0

/-- What the body leaves in the output block: the product of the row block and the weights, stored whole. -/
def out1_2 (x0 : Vec F S5000x128 .f32) (x1 : Vec F S128x384 .f32) : Vec F S5000x384 .f32 :=
  View.canon [⟨r1_out, k1_pay1 (View.ld x0 r1_x) (View.ld x1 r1_w)⟩]

/-- The single store covers the block. -/
theorem cover1_2 (p0 : Vec F S5000x384 .f32) (y : S5000x384.Idx) :
    ∃ pc ∈ ([⟨r1_out, p0⟩] : List (View.Piece (Elt F) S5000x384 .f32)), y ∈ pc.1.set :=
  View.cover_of_tiled [⟨r1_out, p0⟩] S5000x384.size (by rfl) y

set_option maxHeartbeats 1000000 in
/-- One run of the body: with the two inputs' buffers at `x0`, `x1` and the output's at anything, it ends with the
    inputs untouched and the output at `out1_2 x0 x1`. -/
theorem sound_kernel1 (c : Dev nD) (E : Set ℕ) (i : grid1.Coords)
    (arg1 : Memref sig .tc .vmem S5000x128 .f32) (harg1 : arg1.IsWhole) (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: arrays as found; after the body each input's buffer at its block, the output's at
    the product of the two input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2.lean ====
/- An edge-attention region of the program. One grid point takes a block of 4000 edges: three 4000 x 128 row blocks
   `a`, `b`, `v`, two 128 x 4 matrices and one 4 x 128 matrix. It forms the 4000 x 4 scores (the elementwise product of `a`
   and `b` times one 128 x 4 matrix, scaled by a constant, plus `a` times the other), turns each row of scores into weights by
   a softmax over its four entries, stores the row sums of the weights in the 4000 x 1 output block and, in the 4000 x 128
   output block, the weights times the 4 x 128 matrix multiplied elementwise by `v`. This module runs the body once, names what
   it leaves in the two output blocks, and packages the pipeline's proof data and body obligation at an arbitrary entry
   valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first row-block input holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second row-block input holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The third row-block input holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first small matrix input (one block for the whole grid, fetched once) holds that block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second small matrix input (one block for the whole grid, fetched once) holds that block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The third small matrix input (one block for the whole grid, fetched once) holds that block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through: the 4000 x 128 row blocks, the 128 x 4 matrices, the
    4 x 128 matrix and the 4000 x 1 column. -/
abbrev r2_e : Rect S4000x128 := Rect.unit (s := S4000x128) ![0, 0] S4000x128.size inb_S4000x128_S4000x128_0_0
abbrev r2_h : Rect S128x4 := Rect.unit (s := S128x4) ![0, 0] S128x4.size inb_S128x4_S128x4_0_0
abbrev r2_x : Rect S4x128 := Rect.unit (s := S4x128) ![0, 0] S4x128.size inb_S4x128_S4x128_0_0
abbrev r2_s : Rect S4000x1 := Rect.unit (s := S4000x1) ![0, 0] S4000x1.size inb_S4000x1_S4000x1_0_0

/-- What the body leaves in the wide output block: the softmax weights times the 4 x 128 matrix, multiplied elementwise by the
    third row block, stored whole. -/
def out2_6 (x0 x1 x2 : Vec F S4000x128 .f32) (x3 x4 : Vec F S128x4 .f32) (x5 : Vec F S4x128 .f32) : Vec F S4000x128 .f32 :=
  View.canon [⟨r2_e, k2_pay3 (View.ld x0 r2_e) (View.ld x1 r2_e) (View.ld x2 r2_e) (View.ld x4 r2_h) (View.ld x3 r2_h) (View.ld x5 r2_x)⟩]

/-- What the body leaves in the column output block: the row sums of the softmax weights, stored whole. -/
def out2_7 (x0 x1 : Vec F S4000x128 .f32) (x3 x4 : Vec F S128x4 .f32) : Vec F S4000x1 .f32 :=
  View.canon [⟨r2_s, k2_pay2 (View.ld x0 r2_e) (View.ld x1 r2_e) (View.ld x4 r2_h) (View.ld x3 r2_h)⟩]

/-- Each single store covers its block. -/
theorem cover2_6 (p0 : Vec F S4000x128 .f32) (y : S4000x128.Idx) :
    ∃ pc ∈ ([⟨r2_e, p0⟩] : List (View.Piece (Elt F) S4000x128 .f32)), y ∈ pc.1.set :=
  View.cover_of_tiled [⟨r2_e, p0⟩] S4000x128.size (by rfl) y
theorem cover2_7 (p0 : Vec F S4000x1 .f32) (y : S4000x1.Idx) :
    ∃ pc ∈ ([⟨r2_s, p0⟩] : List (View.Piece (Elt F) S4000x1 .f32)), y ∈ pc.1.set :=
  View.cover_of_tiled [⟨r2_s, p0⟩] S4000x1.size (by rfl) y

set_option maxHeartbeats 2000000 in
/-- One run of the body: with the six inputs' buffers at `x0` … `x5` and the two outputs' at anything, it ends with the
    inputs untouched, the wide output at `out2_6 x0 x1 x2 x3 x4 x5` and the column output at `out2_7 x0 x1 x3 x4`. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x4 .f32) (harg4 : arg4.IsWhole)
    (arg5 : Memref sig .tc .vmem S128x4 .f32) (harg5 : arg5.IsWhole) (arg6 : Memref sig .tc .vmem S4x128 .f32) (harg6 : arg6.IsWhole)
    (arg7 : Memref sig .tc .vmem S4000x128 .f32) (harg7 : arg7.IsWhole) (arg8 : Memref sig .tc .vmem S4000x1 .f32) (harg8 : arg8.IsWhole)
    (x0 x1 x2 : Vec F S4000x128 .f32) (x3 x4 : Vec F S128x4 .f32) (x5 : Vec F S4x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x3 x4)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8) K := by
  simp only [cc2__edge_kernel_eq_skeleton]; unfold cc2__edge_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-- The pipeline's proof data on core `c`: arrays as found; after the body each input's buffer at its block, the wide output's at
    the weighted product and the column output's at the weights' row sums of the input blocks; the class invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) :
    (dat2 V c).after 7 t = out2_7 (iblk2 V c 0 t) (iblk2 V c 1 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the run above applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Reg3.lean ====
/- An edge-attention region of the program. One grid point takes a block of 4000 edges: three 4000 x 128 row blocks
   `a`, `b`, `v`, two 128 x 4 matrices and one 4 x 128 matrix. It forms the 4000 x 4 scores (the elementwise product of `a`
   and `b` times one 128 x 4 matrix, scaled by a constant, plus `a` times the other), turns each row of scores into weights by
   a softmax over its four entries, stores the row sums of the weights in the 4000 x 1 output block and, in the 4000 x 128
   output block, the weights times the 4 x 128 matrix multiplied elementwise by `v`. This module runs the body once, names what
   it leaves in the two output blocks, and packages the pipeline's proof data and body obligation at an arbitrary entry
   valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first row-block input holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second row-block input holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The third row-block input holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The first small matrix input (one block for the whole grid, fetched once) holds that block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The second small matrix input (one block for the whole grid, fetched once) holds that block at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The third small matrix input (one block for the whole grid, fetched once) holds that block at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through: the 4000 x 128 row blocks, the 128 x 4 matrices, the
    4 x 128 matrix and the 4000 x 1 column. -/
abbrev r3_e : Rect S4000x128 := Rect.unit (s := S4000x128) ![0, 0] S4000x128.size inb_S4000x128_S4000x128_0_0
abbrev r3_h : Rect S128x4 := Rect.unit (s := S128x4) ![0, 0] S128x4.size inb_S128x4_S128x4_0_0
abbrev r3_x : Rect S4x128 := Rect.unit (s := S4x128) ![0, 0] S4x128.size inb_S4x128_S4x128_0_0
abbrev r3_s : Rect S4000x1 := Rect.unit (s := S4000x1) ![0, 0] S4000x1.size inb_S4000x1_S4000x1_0_0

/-- What the body leaves in the wide output block: the softmax weights times the 4 x 128 matrix, multiplied elementwise by the
    third row block, stored whole. -/
def out3_6 (x0 x1 x2 : Vec F S4000x128 .f32) (x3 x4 : Vec F S128x4 .f32) (x5 : Vec F S4x128 .f32) : Vec F S4000x128 .f32 :=
  View.canon [⟨r3_e, k3_pay3 (View.ld x0 r3_e) (View.ld x1 r3_e) (View.ld x2 r3_e) (View.ld x4 r3_h) (View.ld x3 r3_h) (View.ld x5 r3_x)⟩]

/-- What the body leaves in the column output block: the row sums of the softmax weights, stored whole. -/
def out3_7 (x0 x1 : Vec F S4000x128 .f32) (x3 x4 : Vec F S128x4 .f32) : Vec F S4000x1 .f32 :=
  View.canon [⟨r3_s, k3_pay2 (View.ld x0 r3_e) (View.ld x1 r3_e) (View.ld x4 r3_h) (View.ld x3 r3_h)⟩]

/-- Each single store covers its block. -/
theorem cover3_6 (p0 : Vec F S4000x128 .f32) (y : S4000x128.Idx) :
    ∃ pc ∈ ([⟨r3_e, p0⟩] : List (View.Piece (Elt F) S4000x128 .f32)), y ∈ pc.1.set :=
  View.cover_of_tiled [⟨r3_e, p0⟩] S4000x128.size (by rfl) y
theorem cover3_7 (p0 : Vec F S4000x1 .f32) (y : S4000x1.Idx) :
    ∃ pc ∈ ([⟨r3_s, p0⟩] : List (View.Piece (Elt F) S4000x1 .f32)), y ∈ pc.1.set :=
  View.cover_of_tiled [⟨r3_s, p0⟩] S4000x1.size (by rfl) y

set_option maxHeartbeats 2000000 in
/-- One run of the body: with the six inputs' buffers at `x0` … `x5` and the two outputs' at anything, it ends with the
    inputs untouched, the wide output at `out3_6 x0 x1 x2 x3 x4 x5` and the column output at `out3_7 x0 x1 x3 x4`. -/
theorem sound_kernel3 (c : Dev nD) (E : Set ℕ) (i : grid3.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x4 .f32) (harg4 : arg4.IsWhole)
    (arg5 : Memref sig .tc .vmem S128x4 .f32) (harg5 : arg5.IsWhole) (arg6 : Memref sig .tc .vmem S4x128 .f32) (harg6 : arg6.IsWhole)
    (arg7 : Memref sig .tc .vmem S4000x128 .f32) (harg7 : arg7.IsWhole) (arg8 : Memref sig .tc .vmem S4000x1 .f32) (harg8 : arg8.IsWhole)
    (x0 x1 x2 : Vec F S4000x128 .f32) (x3 x4 : Vec F S128x4 .f32) (x5 : Vec F S4x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)
            ∗ owns (c : Thread nD τ) arg8 fullShare (out3_7 x0 x1 x3 x4)) -∗ K ⟨⟩))
      ⊢ wp frame (wpE (defs₀ (F := F)) Variants.none c none) E (cc3__edge_kernel i arg1 harg1 arg2 harg2 arg3 harg3 arg4 harg4 arg5 harg5 arg6 harg6 arg7 harg7 arg8 harg8) K := by
  simp only [cc3__edge_kernel_eq_skeleton]; unfold cc3__edge_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover3_6 _)
  iexists _; isplitr
  swap; · iexact H7
  ipureintro
  try dsimp only
  exact View.read_writes_eq_canon _ _ _ (cover3_7 _)

/-- The pipeline's proof data on core `c`: arrays as found; after the body each input's buffer at its block, the wide output's at
    the weighted product and the column output's at the weights' row sums of the input blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) :
    (dat3 V c).after 7 t = out3_7 (iblk3 V c 0 t) (iblk3 V c 1 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the run above applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Reg4.lean ====
/- A node-update region of the program. One grid point takes a block of 5000 rows: it forms the residual sum of the
   row block with its two weighted terms, takes each row's mean and variance over the 128 features, normalises the row,
   scales and shifts it by the two parameter rows, and stores the 5000 x 128 result as the output block. This module runs
   the body once, names what it leaves in the output block, and packages the pipeline's proof data and body obligation at
   an arbitrary entry valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature row block holds its block at every point, for any proof data over `V` whose body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The per-row column input holds its block at every point, for any proof data over `V` whose body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The second row-block input (the residual's other summand) holds its block at every point, for any proof data over `V` whose body leaves it in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The first square weight input (one block for the whole grid, fetched once) holds its block at every point, for any proof data over `V` whose body leaves it in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first bias row (one block for the whole grid, fetched once) holds its block at every point, for any proof data over `V` whose body leaves it in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The second square weight input (one block for the whole grid, fetched once) holds its block at every point, for any proof data over `V` whose body leaves it in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The second bias row (one block for the whole grid, fetched once) holds its block at every point, for any proof data over `V` whose body leaves it in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The scale row of the normalisation (one block for the whole grid, fetched once) holds its block at every point, for any proof data over `V` whose body leaves it in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- The shift row of the normalisation (one block for the whole grid, fetched once) holds its block at every point, for any proof data over `V` whose body leaves it in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through: the row block, the per-row column, the square weight,
    and the parameter row. -/
abbrev r4_x : Rect S5000x128 := Rect.unit (s := S5000x128) ![0, 0] S5000x128.size inb_S5000x128_S5000x128_0_0
abbrev r4_c : Rect S5000x1 := Rect.unit (s := S5000x1) ![0, 0] S5000x1.size inb_S5000x1_S5000x1_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

/-- What the body leaves in the output block: the residual sum of the loaded blocks, normalised by its row mean and row
    variance, scaled by the scale row and shifted by the shift row, stored whole. The residual sum, the variance and the
    mean broadcast are each a function of the same seven loads (the second row block is the last of them). -/
def out4_9 (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) : Vec F S5000x128 .f32 :=
  View.canon [⟨r4_x, k4_pay1 (k4_pay2 (View.ld x0 r4_x) (View.ld x1 r4_c) (View.ld x3 r4_w) (View.ld x4 r4_b) (View.ld x5 r4_w) (View.ld x6 r4_b) (View.ld x2 r4_x))
    (k4_pay4 (View.ld x0 r4_x) (View.ld x1 r4_c) (View.ld x3 r4_w) (View.ld x4 r4_b) (View.ld x5 r4_w) (View.ld x6 r4_b) (View.ld x2 r4_x))
    (k4_pay5 (View.ld x0 r4_x) (View.ld x1 r4_c) (View.ld x3 r4_w) (View.ld x4 r4_b) (View.ld x5 r4_w) (View.ld x6 r4_b) (View.ld x2 r4_x))
    (View.ld x7 r4_b) (View.ld x8 r4_b)⟩]

/-- The single store covers the block. -/
theorem cover4_9 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 2000000 in
/-- One run of the body: with the nine inputs' buffers at `x0` … `x8` and the output's at anything, it ends with the
    inputs untouched and the output at `out4_9 x0 … x8`. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E
          (cc4__update_kernel i arg1 harg1 arg2 harg2 arg3 harg3 arg4 harg4 arg5 harg5 arg6 harg6 arg7 harg7 arg8 harg8 arg9 harg9 arg10 harg10) K := by
  simp only [cc4__update_kernel_eq_skeleton]; unfold cc4__update_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The pipeline's proof data on core `c`: arrays as found; after the body each input's buffer at its block, the output's at
    the normalised residual of the nine input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so the run above applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Reg5.lean ====
/- A node-update region of the program. One grid point takes a block of 5000 rows: it forms the residual sum of the
   row block with its two weighted terms, takes each row's mean and variance over the 128 features, normalises the row,
   scales and shifts it by the two parameter rows, and stores the 5000 x 128 result as the output block. This module runs
   the body once, names what it leaves in the output block, and packages the pipeline's proof data and body obligation at
   an arbitrary entry valuation `V`. -/
import proofs.«412788_j87737591923455_1_alg».proof.Proof.Gen.Kernel.Launch
import proofs.«412788_j87737591923455_1_alg».proof.Proof.Gen.Kernel.Skeleton
import proofs.«412788_j87737591923455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The node-feature row block holds its block at every point, for any proof data over `V` whose body leaves it in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The per-row column input holds its block at every point, for any proof data over `V` whose body leaves it in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The second row-block input (the residual's other summand) holds its block at every point, for any proof data over `V` whose body leaves it in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The first square weight input (one block for the whole grid, fetched once) holds its block at every point, for any proof data over `V` whose body leaves it in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The first bias row (one block for the whole grid, fetched once) holds its block at every point, for any proof data over `V` whose body leaves it in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The second square weight input (one block for the whole grid, fetched once) holds its block at every point, for any proof data over `V` whose body leaves it in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The second bias row (one block for the whole grid, fetched once) holds its block at every point, for any proof data over `V` whose body leaves it in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The scale row of the normalisation (one block for the whole grid, fetched once) holds its block at every point, for any proof data over `V` whose body leaves it in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The shift row of the normalisation (one block for the whole grid, fetched once) holds its block at every point, for any proof data over `V` whose body leaves it in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through: the row block, the per-row column, the square weight,
    and the parameter row. -/
abbrev r5_x : Rect S5000x128 := Rect.unit (s := S5000x128) ![0, 0] S5000x128.size inb_S5000x128_S5000x128_0_0
abbrev r5_c : Rect S5000x1 := Rect.unit (s := S5000x1) ![0, 0] S5000x1.size inb_S5000x1_S5000x1_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

/-- What the body leaves in the output block: the residual sum of the loaded blocks, normalised by its row mean and row
    variance, scaled by the scale row and shifted by the shift row, stored whole. The residual sum, the variance and the
    mean broadcast are each a function of the same seven loads (the second row block is the last of them). -/
def out5_9 (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) : Vec F S5000x128 .f32 :=
  View.canon [⟨r5_x, k5_pay1 (k5_pay2 (View.ld x0 r5_x) (View.ld x1 r5_c) (View.ld x3 r5_w) (View.ld x4 r5_b) (View.ld x5 r5_w) (View.ld x6 r5_b) (View.ld x2 r5_x))
    (k5_pay4 (View.ld x0 r5_x) (View.ld x1 r5_c) (View.ld x3 r5_w) (View.ld x4 r5_b) (View.ld x5 r5_w) (View.ld x6 r5_b) (View.ld x2 r5_x))
    (k5_pay5 (View.ld x0 r5_x) (View.ld x1 r5_c) (View.ld x3 r5_w) (View.ld x4 r5_b) (View.ld x5 r5_w) (View.ld x6 r5_b) (View.ld x2 r5_x))
    (View.ld x7 r5_b) (View.ld x8 r5_b)⟩]

/-- The single store covers the block. -/
theorem cover5_9 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 2000000 in
/-- One run of the body: with the nine inputs' buffers at `x0` … `x8` and the output's at anything, it ends with the
    inputs untouched and the output at `out5_9 x0 … x8`. -/
theorem sound_kernel5 (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out5_9 x0 x1 x2 x3 x4 x5 x6 x7 x8)) -∗ K ⟨⟩))
      ⊢ wp frame (wpE (defs₀ (F := F)) Variants.none c none) E
          (cc5__update_kernel i arg1 harg1 arg2 harg2 arg3 harg3 arg4 harg4 arg5 harg5 arg6 harg6 arg7 harg7 arg8 harg8 arg9 harg9 arg10 harg10) K := by
  simp only [cc5__update_kernel_eq_skeleton]; unfold cc5__update_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-- The pipeline's proof data on core `c`: arrays as found; after the body each input's buffer at its block, the output's at
    the normalised residual of the nine input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' buffers hold their blocks, so the run above applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.Base.lean ====
/- The program's main function is twenty items: stretches of host operations and six kernel regions. Between two items a
   core holds every unscoped buffer at a valuation: the launch memory, then each host stretch applied, then, after a
   region, the region's output arrays replaced by what its write-backs leave. This module names those valuations read at
   the core's references, states what the replaced contents must be (each output array after all the region's grid
   points), collects the six regions' proof data into one family, and fixes the state that rides beside the buffers
   through every item: the generator register at some state and nothing owed. -/
import proofs.«412788_j87737591923455_1_alg».proof.Proof.Gen.Kernel.Regions
import proofs.«412788_j87737591923455_1_alg».proof.Proof.Kernel.Reg0
import proofs.«412788_j87737591923455_1_alg».proof.Proof.Kernel.Reg1
import proofs.«412788_j87737591923455_1_alg».proof.Proof.Kernel.Reg2
import proofs.«412788_j87737591923455_1_alg».proof.Proof.Kernel.Reg3
import proofs.«412788_j87737591923455_1_alg».proof.Proof.Kernel.Reg4
import proofs.«412788_j87737591923455_1_alg».proof.Proof.Kernel.Reg5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A core's buffers, as a function of the core's own references, at the entry of each region and at its exit. -/
abbrev Vr1 : (c : Dev nD) → (b : Ref sig .tc) → Buf (Elt F) ((c : Thread nD τ).loc b) := fun c b => V1 m c b
abbrev Vr2 : (c : Dev nD) → (b : Ref sig .tc) → Buf (Elt F) ((c : Thread nD τ).loc b) := fun c b => V2 m outs c b
abbrev Vr3 : (c : Dev nD) → (b : Ref sig .tc) → Buf (Elt F) ((c : Thread nD τ).loc b) := fun c b => V3 m outs c b
abbrev Vr9 : (c : Dev nD) → (b : Ref sig .tc) → Buf (Elt F) ((c : Thread nD τ).loc b) := fun c b => V9 m outs c b
abbrev Vr10 : (c : Dev nD) → (b : Ref sig .tc) → Buf (Elt F) ((c : Thread nD τ).loc b) := fun c b => V10 m outs c b
abbrev Vr14 : (c : Dev nD) → (b : Ref sig .tc) → Buf (Elt F) ((c : Thread nD τ).loc b) := fun c b => V14 m outs c b
abbrev Vr15 : (c : Dev nD) → (b : Ref sig .tc) → Buf (Elt F) ((c : Thread nD τ).loc b) := fun c b => V15 m outs c b
abbrev Vr16 : (c : Dev nD) → (b : Ref sig .tc) → Buf (Elt F) ((c : Thread nD τ).loc b) := fun c b => V16 m outs c b
abbrev Vr17 : (c : Dev nD) → (b : Ref sig .tc) → Buf (Elt F) ((c : Thread nD τ).loc b) := fun c b => V17 m outs c b
abbrev Vr18 : (c : Dev nD) → (b : Ref sig .tc) → Buf (Elt F) ((c : Thread nD τ).loc b) := fun c b => V18 m outs c b
abbrev Vr19 : (c : Dev nD) → (b : Ref sig .tc) → Buf (Elt F) ((c : Thread nD τ).loc b) := fun c b => V19 m outs c b

/-- What the regions leave: each output array after every grid point's write-back, the region entered at the
    valuation before it. -/
structure OutsOk : Prop where
  h2 : ∀ c, outs 2 main_v2 c = (dat0 (Vr1 m) c).arrAt 2 cfg0.N
  h3 : ∀ c, outs 3 main_v3 c = (dat1 (Vr2 m outs) c).arrAt 2 cfg1.N
  h10a : ∀ c, outs 10 main_v27_0 c = (dat2 (Vr9 m outs) c).arrAt 6 cfg2.N
  h10b : ∀ c, outs 10 main_v27_1 c = (dat2 (Vr9 m outs) c).arrAt 7 cfg2.N
  h15a : ∀ c, outs 15 main_v43_0 c = (dat3 (Vr14 m outs) c).arrAt 6 cfg3.N
  h15b : ∀ c, outs 15 main_v43_1 c = (dat3 (Vr14 m outs) c).arrAt 7 cfg3.N
  h17 : ∀ c, outs 17 main_v56 c = (dat4 (Vr16 m outs) c).arrAt 9 cfg4.N
  h19 : ∀ c, outs 19 main_v61 c = (dat5 (Vr18 m outs) c).arrAt 9 cfg5.N

/-- Every pipeline's proof data, each at its region's entry valuation. -/
def pdats : (p : Fin 6) → (c : Dev nD) → Dat τ (Elt F) Unit ℕ (UR sig nD τ) ℕ (cfgs p) c
  | ⟨0, _⟩ => fun c => dat0 (Vr1 m) c
  | ⟨1, _⟩ => fun c => dat1 (Vr2 m outs) c
  | ⟨2, _⟩ => fun c => dat2 (Vr9 m outs) c
  | ⟨3, _⟩ => fun c => dat3 (Vr14 m outs) c
  | ⟨4, _⟩ => fun c => dat4 (Vr16 m outs) c
  | ⟨5, _⟩ => fun c => dat5 (Vr18 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item. -/
abbrev R (c : Dev nD) : sProp 𝕄 := iprop((∃ r, prngReg c r) ∗ ∃ W, owes (c : Thread nD τ) (0 : CellTallies nD τ sig Unit) W)
/-- The same at every boundary between items. -/
abbrev E : Fin 7 → Dev nD → sProp 𝕄 := fun _ c => R (F := F) c

end Cert.Kernel.Hand

end
-- ==== Proof.Kernel.Seg0.lean ====
/- A projection region as an item of the main function. It is entered with every unscoped buffer held at the valuation
   before it and left with them held at the valuation after it: at entry the region's three arrays are split out of the
   buffers, at exit they are put back, the inputs as found and the output at what the write-backs leave. The generator
   register passes into the pipeline's invariant and out again; nothing is owed; the kernel has no semaphore of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- At exit each array holds what the pipeline leaves: an input what it held, the output its written-back blocks. -/
theorem hF0 (hO : OutsOk m outs) (c : Dev nD) :
    ∀ w : Fin cfg0.W, (pdats m outs (0 : Fin 6) c).arrAt w cfg0.N = Vr2 m outs c (Pipeline.arrRef spec0 w)
  | ⟨0, _⟩ => ((dat0 (Vr1 m) c).arrAt_in 0 rfl _).trans ((A_eq0 (Vr1 m) c 0).trans (V2_of m outs c main_arg0 (by decide)).symm)
  | ⟨1, _⟩ => ((dat0 (Vr1 m) c).arrAt_in 1 rfl _).trans ((A_eq0 (Vr1 m) c 1).trans (V2_of m outs c main_v0 (by decide)).symm)
  | ⟨2, _⟩ => (hO.h2 c).symm.trans (by
      show _ = Function.update (V1 m c) main_v2 (outs 2 main_v2 c) main_v2
      exact (Function.update_self (Proc.devRef .tc main_v2) _ (V1 m c)).symm)

/-- Every other buffer is as at entry. -/
theorem hrest0 (c : Dev nD) : ∀ b, b ∉ Finset.univ.image (Pipeline.arrRef spec0) → Vr2 m outs c b = Vr1 m c b :=
  fun b hb => V2_of m outs c b fun h => hb (Finset.mem_image.mpr ⟨2, Finset.mem_univ _, by rw [List.mem_singleton.mp h]⟩)

set_option backward.isDefEq.respectTransparency.types false in
/-- The region's record. -/
def reg0 (hO : OutsOk m outs) : Pipeline.RegionSeg (pcfgs (F := F)) adm (pdats m outs) () defs₀ 𝒱₀ L lv (0 : Fin 6) where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv (0 : Fin 6) fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := (0 : Fin 6)) (pcfgs (F := F)) adm (pdats m outs) launch0.win launch0.arr_whole c
      ((pdats m outs (0 : Fin 6) c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m outs) ((pdats m outs (0 : Fin 6) c).share_full fun _ => rfl)
      (Vr1 m c) (Vr2 m outs c) ((pdats m outs (0 : Fin 6) c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg1.lean ====
/- A projection region as an item of the main function. It is entered with every unscoped buffer held at the valuation
   before it and left with them held at the valuation after it: at entry the region's three arrays are split out of the
   buffers, at exit they are put back, the inputs as found and the output at what the write-backs leave. The generator
   register passes into the pipeline's invariant and out again; nothing is owed; the kernel has no semaphore of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- At exit each array holds what the pipeline leaves: an input what it held, the output its written-back blocks. -/
theorem hF1 (hO : OutsOk m outs) (c : Dev nD) :
    ∀ w : Fin cfg1.W, (pdats m outs (1 : Fin 6) c).arrAt w cfg1.N = Vr3 m outs c (Pipeline.arrRef spec1 w)
  | ⟨0, _⟩ => ((dat1 (Vr2 m outs) c).arrAt_in 0 rfl _).trans ((A_eq1 (Vr2 m outs) c 0).trans (V3_of m outs c main_arg1 (by decide)).symm)
  | ⟨1, _⟩ => ((dat1 (Vr2 m outs) c).arrAt_in 1 rfl _).trans ((A_eq1 (Vr2 m outs) c 1).trans (V3_of m outs c main_v1 (by decide)).symm)
  | ⟨2, _⟩ => (hO.h3 c).symm.trans (by
      show _ = Function.update (V2 m outs c) main_v3 (outs 3 main_v3 c) main_v3
      exact (Function.update_self (Proc.devRef .tc main_v3) _ (V2 m outs c)).symm)

/-- Every other buffer is as at entry. -/
theorem hrest1 (c : Dev nD) : ∀ b, b ∉ Finset.univ.image (Pipeline.arrRef spec1) → Vr3 m outs c b = Vr2 m outs c b :=
  fun b hb => V3_of m outs c b fun h => hb (Finset.mem_image.mpr ⟨2, Finset.mem_univ _, by rw [List.mem_singleton.mp h]⟩)

set_option backward.isDefEq.respectTransparency.types false in
/-- The region's record. -/
def reg1 (hO : OutsOk m outs) : Pipeline.RegionSeg (pcfgs (F := F)) adm (pdats m outs) () defs₀ 𝒱₀ L lv (1 : Fin 6) where
  win := launch1.win.to₀
  block_pos := launch1.block_pos
  stage_whole := launch1.stage_whole
  K := PEmpty
  osem k := k.elim
  ho := Pipeline.OwnSemFacts.none _
  hbody c := (body_obligation1 (Vr2 m outs) c).loose
  hwaits := Pipeline.hwaits_of_owed_zero _ _ _ _ L lv (1 : Fin 6) fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (Vr2 m outs c)
  hentry c := by
    rw [Pipeline.ownSems0_none]
    have hsplit := Pipeline.arrays_of_unscopedBufs (p := (1 : Fin 6)) (pcfgs (F := F)) adm (pdats m outs) launch1.win launch1.arr_whole c
      ((pdats m outs (1 : Fin 6) c).share_full fun _ => rfl) (Vr2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m outs) ((pdats m outs (1 : Fin 6) c).share_full fun _ => rfl)
      (Vr2 m outs c) (Vr3 m outs c) ((pdats m outs (1 : Fin 6) c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg2.lean ====
/- An edge-attention region as an item of the main function. It is entered with every unscoped buffer held at the valuation
   before it and left with them held at the valuation after it: at entry the region's eight arrays are split out of the
   buffers, at exit they are put back, the six inputs as found and the two outputs at what the write-backs leave. The
   generator register passes into the pipeline's invariant and out again; nothing is owed; the kernel has no semaphore
   of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, an output its written-back blocks. -/
theorem hF2 (hO : OutsOk m outs) (c : Dev nD) :
    ∀ w : Fin cfg2.W, (pdats m outs (2 : Fin 6) c).arrAt w cfg2.N = Vr10 m outs c (Pipeline.arrRef spec2 w)
  | ⟨0, _⟩ => ((dat2 (Vr9 m outs) c).arrAt_in 0 rfl _).trans ((A_eq2 (Vr9 m outs) c 0).trans (V10_of m outs c main_v24 (by decide)).symm)
  | ⟨1, _⟩ => ((dat2 (Vr9 m outs) c).arrAt_in 1 rfl _).trans ((A_eq2 (Vr9 m outs) c 1).trans (V10_of m outs c main_v25 (by decide)).symm)
  | ⟨2, _⟩ => ((dat2 (Vr9 m outs) c).arrAt_in 2 rfl _).trans ((A_eq2 (Vr9 m outs) c 2).trans (V10_of m outs c main_v26 (by decide)).symm)
  | ⟨3, _⟩ => ((dat2 (Vr9 m outs) c).arrAt_in 3 rfl _).trans ((A_eq2 (Vr9 m outs) c 3).trans (V10_of m outs c main_arg10 (by decide)).symm)
  | ⟨4, _⟩ => ((dat2 (Vr9 m outs) c).arrAt_in 4 rfl _).trans ((A_eq2 (Vr9 m outs) c 4).trans (V10_of m outs c main_v18 (by decide)).symm)
  | ⟨5, _⟩ => ((dat2 (Vr9 m outs) c).arrAt_in 5 rfl _).trans ((A_eq2 (Vr9 m outs) c 5).trans (V10_of m outs c main_v19 (by decide)).symm)
  | ⟨6, _⟩ => (hO.h10a c).symm.trans (by
      show _ = Function.update (Function.update (V9 m outs c) main_v27_0 (outs 10 main_v27_0 c)) main_v27_1 (outs 10 main_v27_1 c) main_v27_0
      rw [Function.update_of_ne (StableHlo.devRef_ne_of_ne (by decide))]
      exact (Function.update_self (Proc.devRef .tc main_v27_0) _ (V9 m outs c)).symm)
  | ⟨7, _⟩ => (hO.h10b c).symm.trans (by
      show _ = Function.update (Function.update (V9 m outs c) main_v27_0 (outs 10 main_v27_0 c)) main_v27_1 (outs 10 main_v27_1 c) main_v27_1
      exact (Function.update_self (Proc.devRef .tc main_v27_1) (outs 10 main_v27_1 c) (Function.update (V9 m outs c) main_v27_0 (outs 10 main_v27_0 c))).symm)

/-- Every other buffer is as at entry. -/
theorem hrest2 (c : Dev nD) : ∀ b, b ∉ Finset.univ.image (Pipeline.arrRef spec2) → Vr10 m outs c b = Vr9 m outs c b :=
  fun b hb => V10_of m outs c b fun h => by
    rcases List.mem_cons.mp h with h | h
    · exact hb (Finset.mem_image.mpr ⟨6, Finset.mem_univ _, by rw [h]⟩)
    · exact hb (Finset.mem_image.mpr ⟨7, Finset.mem_univ _, by rw [List.mem_singleton.mp h]⟩)

set_option backward.isDefEq.respectTransparency.types false in
/-- The region's record. -/
def reg2 (hO : OutsOk m outs) : Pipeline.RegionSeg (pcfgs (F := F)) adm (pdats m outs) () defs₀ 𝒱₀ L lv (2 : Fin 6) where
  win := launch2.win.to₀
  block_pos := launch2.block_pos
  stage_whole := launch2.stage_whole
  K := PEmpty
  osem k := k.elim
  ho := Pipeline.OwnSemFacts.none _
  hbody c := (body_obligation2 (Vr9 m outs) c).loose
  hwaits := Pipeline.hwaits_of_owed_zero _ _ _ _ L lv (2 : Fin 6) fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (Vr9 m outs c)
  hentry c := by
    rw [Pipeline.ownSems0_none]
    have hsplit := Pipeline.arrays_of_unscopedBufs (p := (2 : Fin 6)) (pcfgs (F := F)) adm (pdats m outs) launch2.win launch2.arr_whole c
      ((pdats m outs (2 : Fin 6) c).share_full fun _ => rfl) (Vr9 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m outs) ((pdats m outs (2 : Fin 6) c).share_full fun _ => rfl)
      (Vr9 m outs c) (Vr10 m outs c) ((pdats m outs (2 : Fin 6) c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg3.lean ====
/- An edge-attention region as an item of the main function. It is entered with every unscoped buffer held at the valuation
   before it and left with them held at the valuation after it: at entry the region's eight arrays are split out of the
   buffers, at exit they are put back, the six inputs as found and the two outputs at what the write-backs leave. The
   generator register passes into the pipeline's invariant and out again; nothing is owed; the kernel has no semaphore
   of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, an output its written-back blocks. -/
theorem hF3 (hO : OutsOk m outs) (c : Dev nD) :
    ∀ w : Fin cfg3.W, (pdats m outs (3 : Fin 6) c).arrAt w cfg3.N = Vr15 m outs c (Pipeline.arrRef spec3 w)
  | ⟨0, _⟩ => ((dat3 (Vr14 m outs) c).arrAt_in 0 rfl _).trans ((A_eq3 (Vr14 m outs) c 0).trans (V15_of m outs c main_v40 (by decide)).symm)
  | ⟨1, _⟩ => ((dat3 (Vr14 m outs) c).arrAt_in 1 rfl _).trans ((A_eq3 (Vr14 m outs) c 1).trans (V15_of m outs c main_v41 (by decide)).symm)
  | ⟨2, _⟩ => ((dat3 (Vr14 m outs) c).arrAt_in 2 rfl _).trans ((A_eq3 (Vr14 m outs) c 2).trans (V15_of m outs c main_v42 (by decide)).symm)
  | ⟨3, _⟩ => ((dat3 (Vr14 m outs) c).arrAt_in 3 rfl _).trans ((A_eq3 (Vr14 m outs) c 3).trans (V15_of m outs c main_arg11 (by decide)).symm)
  | ⟨4, _⟩ => ((dat3 (Vr14 m outs) c).arrAt_in 4 rfl _).trans ((A_eq3 (Vr14 m outs) c 4).trans (V15_of m outs c main_v18 (by decide)).symm)
  | ⟨5, _⟩ => ((dat3 (Vr14 m outs) c).arrAt_in 5 rfl _).trans ((A_eq3 (Vr14 m outs) c 5).trans (V15_of m outs c main_v19 (by decide)).symm)
  | ⟨6, _⟩ => (hO.h15a c).symm.trans (by
      show _ = Function.update (Function.update (V14 m outs c) main_v43_0 (outs 15 main_v43_0 c)) main_v43_1 (outs 15 main_v43_1 c) main_v43_0
      rw [Function.update_of_ne (StableHlo.devRef_ne_of_ne (by decide))]
      exact (Function.update_self (Proc.devRef .tc main_v43_0) _ (V14 m outs c)).symm)
  | ⟨7, _⟩ => (hO.h15b c).symm.trans (by
      show _ = Function.update (Function.update (V14 m outs c) main_v43_0 (outs 15 main_v43_0 c)) main_v43_1 (outs 15 main_v43_1 c) main_v43_1
      exact (Function.update_self (Proc.devRef .tc main_v43_1) (outs 15 main_v43_1 c) (Function.update (V14 m outs c) main_v43_0 (outs 15 main_v43_0 c))).symm)

/-- Every other buffer is as at entry. -/
theorem hrest3 (c : Dev nD) : ∀ b, b ∉ Finset.univ.image (Pipeline.arrRef spec3) → Vr15 m outs c b = Vr14 m outs c b :=
  fun b hb => V15_of m outs c b fun h => by
    rcases List.mem_cons.mp h with h | h
    · exact hb (Finset.mem_image.mpr ⟨6, Finset.mem_univ _, by rw [h]⟩)
    · exact hb (Finset.mem_image.mpr ⟨7, Finset.mem_univ _, by rw [List.mem_singleton.mp h]⟩)

set_option backward.isDefEq.respectTransparency.types false in
/-- The region's record. -/
def reg3 (hO : OutsOk m outs) : Pipeline.RegionSeg (pcfgs (F := F)) adm (pdats m outs) () defs₀ 𝒱₀ L lv (3 : Fin 6) where
  win := launch3.win.to₀
  block_pos := launch3.block_pos
  stage_whole := launch3.stage_whole
  K := PEmpty
  osem k := k.elim
  ho := Pipeline.OwnSemFacts.none _
  hbody c := (body_obligation3 (Vr14 m outs) c).loose
  hwaits := Pipeline.hwaits_of_owed_zero _ _ _ _ L lv (3 : Fin 6) fun _ _ => rfl
  pre c := iprop(StableHlo.held (c : Thread nD τ) (Pipeline.ucRefs τ sig) (V14 m outs c) ∗ R c)
  post c := iprop(StableHlo.held (c : Thread nD τ) (Pipeline.ucRefs τ sig) (V15 m outs c) ∗ R c)
  X c := iprop(∃ r, prngReg c r)
  Y c := iprop(∃ r, prngReg c r)
  Z c := Pipeline.unscopedRest (Ix := Unit) (Name := ℕ) (U := UR sig nD τ) (Lvl := ℕ) spec3 c (Vr14 m outs c)
  hentry c := by
    rw [Pipeline.ownSems0_none]
    have hsplit := Pipeline.arrays_of_unscopedBufs (p := (3 : Fin 6)) (pcfgs (F := F)) adm (pdats m outs) launch3.win launch3.arr_whole c
      ((pdats m outs (3 : Fin 6) c).share_full fun _ => rfl) (Vr14 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m outs) ((pdats m outs (3 : Fin 6) c).share_full fun _ => rfl)
      (Vr14 m outs c) (Vr15 m outs c) ((pdats m outs (3 : Fin 6) c).arrAt · cfg3.N) (hF3 m outs hO c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg4.lean ====
/- A node-update region as an item of the main function. It is entered with every unscoped buffer held at the valuation
   before it and left with them held at the valuation after it: at entry the region's ten arrays are split out of the
   buffers, at exit they are put back, the nine inputs as found and the output at what the write-backs leave. The
   generator register passes into the pipeline's invariant and out again; nothing is owed; the kernel has no semaphore
   of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, the output its written-back blocks. -/
theorem hF4 (hO : OutsOk m outs) (c : Dev nD) :
    ∀ w : Fin cfg4.W, (pdats m outs (4 : Fin 6) c).arrAt w cfg4.N = Vr17 m outs c (Pipeline.arrRef spec4 w)
  | ⟨0, _⟩ => ((dat4 (Vr16 m outs) c).arrAt_in 0 rfl _).trans ((A_eq4 (Vr16 m outs) c 0).trans (V17_of m outs c main_v30 (by decide)).symm)
  | ⟨1, _⟩ => ((dat4 (Vr16 m outs) c).arrAt_in 1 rfl _).trans ((A_eq4 (Vr16 m outs) c 1).trans (V17_of m outs c main_v35 (by decide)).symm)
  | ⟨2, _⟩ => ((dat4 (Vr16 m outs) c).arrAt_in 2 rfl _).trans ((A_eq4 (Vr16 m outs) c 2).trans (V17_of m outs c main_arg1 (by decide)).symm)
  | ⟨3, _⟩ => ((dat4 (Vr16 m outs) c).arrAt_in 3 rfl _).trans ((A_eq4 (Vr16 m outs) c 3).trans (V17_of m outs c main_arg14 (by decide)).symm)
  | ⟨4, _⟩ => ((dat4 (Vr16 m outs) c).arrAt_in 4 rfl _).trans ((A_eq4 (Vr16 m outs) c 4).trans (V17_of m outs c main_v52 (by decide)).symm)
  | ⟨5, _⟩ => ((dat4 (Vr16 m outs) c).arrAt_in 5 rfl _).trans ((A_eq4 (Vr16 m outs) c 5).trans (V17_of m outs c main_arg18 (by decide)).symm)
  | ⟨6, _⟩ => ((dat4 (Vr16 m outs) c).arrAt_in 6 rfl _).trans ((A_eq4 (Vr16 m outs) c 6).trans (V17_of m outs c main_v53 (by decide)).symm)
  | ⟨7, _⟩ => ((dat4 (Vr16 m outs) c).arrAt_in 7 rfl _).trans ((A_eq4 (Vr16 m outs) c 7).trans (V17_of m outs c main_v54 (by decide)).symm)
  | ⟨8, _⟩ => ((dat4 (Vr16 m outs) c).arrAt_in 8 rfl _).trans ((A_eq4 (Vr16 m outs) c 8).trans (V17_of m outs c main_v55 (by decide)).symm)
  | ⟨9, _⟩ => (hO.h17 c).symm.trans (by
      show _ = Function.update (V16 m outs c) main_v56 (outs 17 main_v56 c) main_v56
      exact (Function.update_self (Proc.devRef .tc main_v56) _ (V16 m outs c)).symm)

/-- Every other buffer is as at entry. -/
theorem hrest4 (c : Dev nD) : ∀ b, b ∉ Finset.univ.image (Pipeline.arrRef spec4) → Vr17 m outs c b = Vr16 m outs c b :=
  fun b hb => V17_of m outs c b fun h => hb (Finset.mem_image.mpr ⟨9, Finset.mem_univ _, by rw [List.mem_singleton.mp h]⟩)

set_option backward.isDefEq.respectTransparency.types false in
/-- The region's record. -/
def reg4 (hO : OutsOk m outs) : Pipeline.RegionSeg (pcfgs (F := F)) adm (pdats m outs) () defs₀ 𝒱₀ L lv (4 : Fin 6) where
  win := launch4.win.to₀
  block_pos := launch4.block_pos
  stage_whole := launch4.stage_whole
  K := PEmpty
  osem k := k.elim
  ho := Pipeline.OwnSemFacts.none _
  hbody c := (body_obligation4 (Vr16 m outs) c).loose
  hwaits := Pipeline.hwaits_of_owed_zero _ _ _ _ L lv (4 : Fin 6) fun _ _ => rfl
  pre c := iprop(StableHlo.held (c : Thread nD τ) (Pipeline.ucRefs τ sig) (V16 m outs c) ∗ R c)
  post c := iprop(StableHlo.held (c : Thread nD τ) (Pipeline.ucRefs τ sig) (V17 m outs c) ∗ R c)
  X c := iprop(∃ r, prngReg c r)
  Y c := iprop(∃ r, prngReg c r)
  Z c := Pipeline.unscopedRest (Ix := Unit) (Name := ℕ) (U := UR sig nD τ) (Lvl := ℕ) spec4 c (Vr16 m outs c)
  hentry c := by
    rw [Pipeline.ownSems0_none]
    have hsplit := Pipeline.arrays_of_unscopedBufs (p := (4 : Fin 6)) (pcfgs (F := F)) adm (pdats m outs) launch4.win launch4.arr_whole c
      ((pdats m outs (4 : Fin 6) c).share_full fun _ => rfl) (Vr16 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m outs) ((pdats m outs (4 : Fin 6) c).share_full fun _ => rfl)
      (Vr16 m outs c) (Vr17 m outs c) ((pdats m outs (4 : Fin 6) c).arrAt · cfg4.N) (hF4 m outs hO c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg5.lean ====
/- A node-update region as an item of the main function. It is entered with every unscoped buffer held at the valuation
   before it and left with them held at the valuation after it: at entry the region's ten arrays are split out of the
   buffers, at exit they are put back, the nine inputs as found and the output at what the write-backs leave. The
   generator register passes into the pipeline's invariant and out again; nothing is owed; the kernel has no semaphore
   of its own. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, the output its written-back blocks. -/
theorem hF5 (hO : OutsOk m outs) (c : Dev nD) :
    ∀ w : Fin cfg5.W, (pdats m outs (5 : Fin 6) c).arrAt w cfg5.N = Vr19 m outs c (Pipeline.arrRef spec5 w)
  | ⟨0, _⟩ => ((dat5 (Vr18 m outs) c).arrAt_in 0 rfl _).trans ((A_eq5 (Vr18 m outs) c 0).trans (V19_of m outs c main_v46 (by decide)).symm)
  | ⟨1, _⟩ => ((dat5 (Vr18 m outs) c).arrAt_in 1 rfl _).trans ((A_eq5 (Vr18 m outs) c 1).trans (V19_of m outs c main_v51 (by decide)).symm)
  | ⟨2, _⟩ => ((dat5 (Vr18 m outs) c).arrAt_in 2 rfl _).trans ((A_eq5 (Vr18 m outs) c 2).trans (V19_of m outs c main_arg0 (by decide)).symm)
  | ⟨3, _⟩ => ((dat5 (Vr18 m outs) c).arrAt_in 3 rfl _).trans ((A_eq5 (Vr18 m outs) c 3).trans (V19_of m outs c main_arg12 (by decide)).symm)
  | ⟨4, _⟩ => ((dat5 (Vr18 m outs) c).arrAt_in 4 rfl _).trans ((A_eq5 (Vr18 m outs) c 4).trans (V19_of m outs c main_v57 (by decide)).symm)
  | ⟨5, _⟩ => ((dat5 (Vr18 m outs) c).arrAt_in 5 rfl _).trans ((A_eq5 (Vr18 m outs) c 5).trans (V19_of m outs c main_arg16 (by decide)).symm)
  | ⟨6, _⟩ => ((dat5 (Vr18 m outs) c).arrAt_in 6 rfl _).trans ((A_eq5 (Vr18 m outs) c 6).trans (V19_of m outs c main_v58 (by decide)).symm)
  | ⟨7, _⟩ => ((dat5 (Vr18 m outs) c).arrAt_in 7 rfl _).trans ((A_eq5 (Vr18 m outs) c 7).trans (V19_of m outs c main_v59 (by decide)).symm)
  | ⟨8, _⟩ => ((dat5 (Vr18 m outs) c).arrAt_in 8 rfl _).trans ((A_eq5 (Vr18 m outs) c 8).trans (V19_of m outs c main_v60 (by decide)).symm)
  | ⟨9, _⟩ => (hO.h19 c).symm.trans (by
      show _ = Function.update (V18 m outs c) main_v61 (outs 19 main_v61 c) main_v61
      exact (Function.update_self (Proc.devRef .tc main_v61) _ (V18 m outs c)).symm)

/-- Every other buffer is as at entry. -/
theorem hrest5 (c : Dev nD) : ∀ b, b ∉ Finset.univ.image (Pipeline.arrRef spec5) → Vr19 m outs c b = Vr18 m outs c b :=
  fun b hb => V19_of m outs c b fun h => hb (Finset.mem_image.mpr ⟨9, Finset.mem_univ _, by rw [List.mem_singleton.mp h]⟩)

set_option backward.isDefEq.respectTransparency.types false in
/-- The region's record. -/
def reg5 (hO : OutsOk m outs) : Pipeline.RegionSeg (pcfgs (F := F)) adm (pdats m outs) () defs₀ 𝒱₀ L lv (5 : Fin 6) where
  win := launch5.win.to₀
  block_pos := launch5.block_pos
  stage_whole := launch5.stage_whole
  K := PEmpty
  osem k := k.elim
  ho := Pipeline.OwnSemFacts.none _
  hbody c := (body_obligation5 (Vr18 m outs) c).loose
  hwaits := Pipeline.hwaits_of_owed_zero _ _ _ _ L lv (5 : Fin 6) fun _ _ => rfl
  pre c := iprop(StableHlo.held (c : Thread nD τ) (Pipeline.ucRefs τ sig) (V18 m outs c) ∗ R c)
  post c := iprop(StableHlo.held (c : Thread nD τ) (Pipeline.ucRefs τ sig) (V19 m outs c) ∗ R c)
  X c := iprop(∃ r, prngReg c r)
  Y c := iprop(∃ r, prngReg c r)
  Z c := Pipeline.unscopedRest (Ix := Unit) (Name := ℕ) (U := UR sig nD τ) (Lvl := ℕ) spec5 c (Vr18 m outs c)
  hentry c := by
    rw [Pipeline.ownSems0_none]
    have hsplit := Pipeline.arrays_of_unscopedBufs (p := (5 : Fin 6)) (pcfgs (F := F)) adm (pdats m outs) launch5.win launch5.arr_whole c
      ((pdats m outs (5 : Fin 6) c).share_full fun _ => rfl) (Vr18 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m outs) ((pdats m outs (5 : Fin 6) c).share_full fun _ => rfl)
      (Vr18 m outs c) (Vr19 m outs c) ((pdats m outs (5 : Fin 6) c).arrAt · cfg5.N) (hF5 m outs hO c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Frame.lean ====
/- The frame of the program: every weakly fair execution of the main function terminates without a fault and leaves every
   argument array as launched. The host side of this (the main function as twenty items, each host stretch, the chaining,
   the arguments read back through the valuations) is the generated conditional frame; supplied here are the six regions'
   records, the state that rides beside the buffers, the launch element and what each core makes of what the launch deals
   it. It holds for any contents the regions leave, provided they are what the regions' write-backs produce. -/
import proofs.«412788_j87737591923455_1_alg».proof.Proof.Kernel.Seg0
import proofs.«412788_j87737591923455_1_alg».proof.Proof.Kernel.Seg1
import proofs.«412788_j87737591923455_1_alg».proof.Proof.Kernel.Seg2
import proofs.«412788_j87737591923455_1_alg».proof.Proof.Kernel.Seg3
import proofs.«412788_j87737591923455_1_alg».proof.Proof.Kernel.Seg4
import proofs.«412788_j87737591923455_1_alg».proof.Proof.Kernel.Seg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

variable (ρ : Dev nD → PrngReg)

/-- The launch element yields the pipeline library's element at every pipeline's staging cells; no core takes a ghost resource. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the riding state from what the launch deals it: its generator register and its empty dues. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the riding state holds the core owing nothing. -/
theorem hE6 (c : Dev nD) : E (F := F) 6 c ⊢ (iprop(∃ W, owes (c : Thread nD τ) (0 : CellTallies nD τ sig Unit) W) : sProp 𝕄) := by
  iintro ⟨-, HO⟩
  iexact HO

set_option backward.isDefEq.respectTransparency.types false in
set_option maxHeartbeats 4000000 in
/-- The frame claim at any float instance. -/
theorem frame_of_outs (hO : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond (F := F) (Ix := Unit) (U := UR sig nD τ) (Lvl := ℕ) m emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := hu0 (F := F))
    (E := E (F := F))
    (hE0 := hE0 (F := F) ρ)
    (hE6 := hE6 (F := F))
    (R0 := reg0 m outs hO) (hpre0 := fun _ => .rfl) (hpost0 := fun _ => .rfl)
    (R1 := reg1 m outs hO) (hpre1 := fun _ => .rfl) (hpost1 := fun _ => .rfl)
    (R2 := reg2 m outs hO) (hpre2 := fun _ => .rfl) (hpost2 := fun _ => .rfl)
    (R3 := reg3 m outs hO) (hpre3 := fun _ => .rfl) (hpost3 := fun _ => .rfl)
    (R4 := reg4 m outs hO) (hpre4 := fun _ => .rfl) (hpost4 := fun _ => .rfl)
    (R5 := reg5 m outs hO) (hpre5 := fun _ => .rfl) (hpost5 := fun _ => .rfl)

end Cert.Kernel.Hand

end
-- ==== Proof.Kernel.Outs.lean ====
/- The contents the six regions leave, defined outright. Going through the main function's items in order: after the first
   host stretch the first projection region replaces its output array by its written-back blocks; the second likewise; six
   host stretches later the first edge region replaces its two output arrays; and so on to the last update region. Each
   replaced array is the region's output after all its grid points, the region entered at the valuation built so far.
   These valuations are the generated ones at exactly these contents, so the contents satisfy what the frame asks. -/
import proofs.«412788_j87737591923455_1_alg».proof.Proof.Kernel.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The valuations built item by item, each region's outputs put in place. -/
def U1 (c : Dev nD) : Valuation τ sig (Elt F) := V1 m c
abbrev Ur1 : (c : Dev nD) → (b : Ref sig .tc) → Buf (Elt F) ((c : Thread nD τ).loc b) := fun c b => U1 m c b
def U2 (c : Dev nD) : Valuation τ sig (Elt F) :=
  Function.update (U1 m c) main_v2 ((dat0 (Ur1 m) c).arrAt 2 cfg0.N : Buf (Elt F) ((c : Thread nD τ).loc main_v2))
abbrev Ur2 : (c : Dev nD) → (b : Ref sig .tc) → Buf (Elt F) ((c : Thread nD τ).loc b) := fun c b => U2 m c b
def U3 (c : Dev nD) : Valuation τ sig (Elt F) :=
  Function.update (U2 m c) main_v3 ((dat1 (Ur2 m) c).arrAt 2 cfg1.N : Buf (Elt F) ((c : Thread nD τ).loc main_v3))
def U9 (c : Dev nD) : Valuation τ sig (Elt F) :=
  StableHlo.after hostOps2_5 (StableHlo.after hostOps2_4 (StableHlo.after hostOps2_3 (StableHlo.after hostOps2_2
    (StableHlo.after hostOps2_1 (StableHlo.after hostOps2 (U3 m c))))))
abbrev Ur9 : (c : Dev nD) → (b : Ref sig .tc) → Buf (Elt F) ((c : Thread nD τ).loc b) := fun c b => U9 m c b
def U10 (c : Dev nD) : Valuation τ sig (Elt F) :=
  Function.update (Function.update (U9 m c) main_v27_0 ((dat2 (Ur9 m) c).arrAt 6 cfg2.N : Buf (Elt F) ((c : Thread nD τ).loc main_v27_0)))
    main_v27_1 ((dat2 (Ur9 m) c).arrAt 7 cfg2.N : Buf (Elt F) ((c : Thread nD τ).loc main_v27_1))
def U14 (c : Dev nD) : Valuation τ sig (Elt F) :=
  StableHlo.after hostOps3_3 (StableHlo.after hostOps3_2 (StableHlo.after hostOps3_1 (StableHlo.after hostOps3 (U10 m c))))
abbrev Ur14 : (c : Dev nD) → (b : Ref sig .tc) → Buf (Elt F) ((c : Thread nD τ).loc b) := fun c b => U14 m c b
def U15 (c : Dev nD) : Valuation τ sig (Elt F) :=
  Function.update (Function.update (U14 m c) main_v43_0 ((dat3 (Ur14 m) c).arrAt 6 cfg3.N : Buf (Elt F) ((c : Thread nD τ).loc main_v43_0)))
    main_v43_1 ((dat3 (Ur14 m) c).arrAt 7 cfg3.N : Buf (Elt F) ((c : Thread nD τ).loc main_v43_1))
def U16 (c : Dev nD) : Valuation τ sig (Elt F) := StableHlo.after hostOps4 (U15 m c)
abbrev Ur16 : (c : Dev nD) → (b : Ref sig .tc) → Buf (Elt F) ((c : Thread nD τ).loc b) := fun c b => U16 m c b
def U17 (c : Dev nD) : Valuation τ sig (Elt F) :=
  Function.update (U16 m c) main_v56 ((dat4 (Ur16 m) c).arrAt 9 cfg4.N : Buf (Elt F) ((c : Thread nD τ).loc main_v56))
def U18 (c : Dev nD) : Valuation τ sig (Elt F) := StableHlo.after hostOps5 (U17 m c)
abbrev Ur18 : (c : Dev nD) → (b : Ref sig .tc) → Buf (Elt F) ((c : Thread nD τ).loc b) := fun c b => U18 m c b
def U19 (c : Dev nD) : Valuation τ sig (Elt F) :=
  Function.update (U18 m c) main_v61 ((dat5 (Ur18 m) c).arrAt 9 cfg5.N : Buf (Elt F) ((c : Thread nD τ).loc main_v61))

/-- The contents the regions leave, read off those valuations. -/
def outsC : Outs (F := F) := fun J r c =>
  match J with
  | 2 => U2 m c r
  | 3 => U3 m c r
  | 10 => U10 m c r
  | 15 => U15 m c r
  | 17 => U17 m c r
  | 19 => U19 m c r
  | _ => V0 m c r

/-! ## The generated valuations at these contents are the ones built above -/

theorem V2_eq (c : Dev nD) : V2 m (outsC m) c = U2 m c :=
  congrArg (Function.update (V1 m c) (Proc.devRef .tc main_v2)) (Function.update_self (Proc.devRef .tc main_v2) _ (U1 m c))

theorem V3_eq (c : Dev nD) : V3 m (outsC m) c = U3 m c := by
  show Function.update (V2 m (outsC m) c) main_v3 (U3 m c main_v3) = U3 m c
  rw [V2_eq]
  exact congrArg (Function.update (U2 m c) (Proc.devRef .tc main_v3)) (Function.update_self (Proc.devRef .tc main_v3) _ (U2 m c))

theorem V9_eq (c : Dev nD) : V9 m (outsC m) c = U9 m c := by
  show StableHlo.after hostOps2_5 (StableHlo.after hostOps2_4 (StableHlo.after hostOps2_3 (StableHlo.after hostOps2_2
    (StableHlo.after hostOps2_1 (StableHlo.after hostOps2 (V3 m (outsC m) c)))))) = U9 m c
  rw [V3_eq]; rfl

theorem U10_a (c : Dev nD) : U10 m c main_v27_0 = (dat2 (Ur9 m) c).arrAt 6 cfg2.N := by
  unfold U10
  rw [Function.update_of_ne (StableHlo.devRef_ne_of_ne (by decide))]
  exact Function.update_self (Proc.devRef .tc main_v27_0) _ (U9 m c)
theorem U10_b (c : Dev nD) : U10 m c main_v27_1 = (dat2 (Ur9 m) c).arrAt 7 cfg2.N := by
  unfold U10
  exact Function.update_self (Proc.devRef .tc main_v27_1) _ _

theorem V10_eq (c : Dev nD) : V10 m (outsC m) c = U10 m c := by
  show Function.update (Function.update (V9 m (outsC m) c) main_v27_0 (U10 m c main_v27_0)) main_v27_1 (U10 m c main_v27_1) = U10 m c
  rw [V9_eq, U10_a, U10_b]; rfl

theorem V14_eq (c : Dev nD) : V14 m (outsC m) c = U14 m c := by
  show StableHlo.after hostOps3_3 (StableHlo.after hostOps3_2 (StableHlo.after hostOps3_1 (StableHlo.after hostOps3 (V10 m (outsC m) c)))) = U14 m c
  rw [V10_eq]; rfl

theorem U15_a (c : Dev nD) : U15 m c main_v43_0 = (dat3 (Ur14 m) c).arrAt 6 cfg3.N := by
  unfold U15
  rw [Function.update_of_ne (StableHlo.devRef_ne_of_ne (by decide))]
  exact Function.update_self (Proc.devRef .tc main_v43_0) _ (U14 m c)
theorem U15_b (c : Dev nD) : U15 m c main_v43_1 = (dat3 (Ur14 m) c).arrAt 7 cfg3.N := by
  unfold U15
  exact Function.update_self (Proc.devRef .tc main_v43_1) _ _

theorem V15_eq (c : Dev nD) : V15 m (outsC m) c = U15 m c := by
  show Function.update (Function.update (V14 m (outsC m) c) main_v43_0 (U15 m c main_v43_0)) main_v43_1 (U15 m c main_v43_1) = U15 m c
  rw [V14_eq, U15_a, U15_b]; rfl

theorem V16_eq (c : Dev nD) : V16 m (outsC m) c = U16 m c := by
  show StableHlo.after hostOps4 (V15 m (outsC m) c) = U16 m c
  rw [V15_eq]; rfl

theorem V17_eq (c : Dev nD) : V17 m (outsC m) c = U17 m c := by
  show Function.update (V16 m (outsC m) c) main_v56 (U17 m c main_v56) = U17 m c
  rw [V16_eq]
  exact congrArg (Function.update (U16 m c) (Proc.devRef .tc main_v56)) (Function.update_self (Proc.devRef .tc main_v56) _ (U16 m c))

theorem V18_eq (c : Dev nD) : V18 m (outsC m) c = U18 m c := by
  show StableHlo.after hostOps5 (V17 m (outsC m) c) = U18 m c
  rw [V17_eq]; rfl

/-- A region's entry valuation, as a function of the core's references, at these contents. -/
theorem Vr2_eq : Vr2 m (outsC m) = Ur2 m := funext fun c => funext fun b => congrFun (V2_eq m c) _
theorem Vr9_eq : Vr9 m (outsC m) = Ur9 m := funext fun c => funext fun b => congrFun (V9_eq m c) _
theorem Vr14_eq : Vr14 m (outsC m) = Ur14 m := funext fun c => funext fun b => congrFun (V14_eq m c) _
theorem Vr16_eq : Vr16 m (outsC m) = Ur16 m := funext fun c => funext fun b => congrFun (V16_eq m c) _
theorem Vr18_eq : Vr18 m (outsC m) = Ur18 m := funext fun c => funext fun b => congrFun (V18_eq m c) _

set_option maxHeartbeats 4000000 in
/-- The contents are what the regions' write-backs produce. -/
theorem outsC_ok : OutsOk m (outsC m) where
  h2 c := Function.update_self (Proc.devRef .tc main_v2) _ (U1 m c)
  h3 c := by
    rw [Vr2_eq]
    exact Function.update_self (Proc.devRef .tc main_v3) _ (U2 m c)
  h10a c := by rw [Vr9_eq]; exact U10_a m c
  h10b c := by rw [Vr9_eq]; exact U10_b m c
  h15a c := by rw [Vr14_eq]; exact U15_a m c
  h15b c := by rw [Vr14_eq]; exact U15_b m c
  h17 c := by
    rw [Vr16_eq]
    exact Function.update_self (Proc.devRef .tc main_v56) _ (U16 m c)
  h19 c := by
    rw [Vr18_eq]
    exact Function.update_self (Proc.devRef .tc main_v61) _ (U18 m c)

end Cert.Kernel.Hand

end
-- ==== Proof.Kernel.Main.lean ====
/- The word-level program's frame: every execution terminates, nothing faults, the arguments end as launched; the
   regions' contents are the ones defined from their write-backs. -/
import proofs.«412788_j87737591923455_1_alg».proof.Proof.Kernel.Frame
import proofs.«412788_j87737591923455_1_alg».proof.Proof.Kernel.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of_outs m (outsC m) ρ (outsC_ok m)

end Cert.Kernel.Hand

end
-- ==== Proof.KernelIdeal.Reg0.lean ====
/- A projection region of the program. One grid point multiplies a block of
   5000 rows of the node features by the whole 128 x 384 weight matrix (the three projection matrices side by side)
   and stores the 5000 x 384 product as the output block. This module runs the body once, names what it leaves in the
   output block, and packages the pipeline's proof data and body obligation at an arbitrary entry valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight input (one block for the whole grid, fetched once) holds that block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S5000x128 := Rect.unit (s := S5000x128) ![0, 0] S5000x128.size inb_S5000x128_S5000x128_0_0
abbrev r0_w : Rect S128x384 := Rect.unit (s := S128x384) ![0, 0] S128x384.size inb_S128x384_S128x384_0_0
abbrev r0_out : Rect S5000x384 := Rect.unit (s := S5000x384) ![0, 0] S5000x384.size inb_S5000x384_S5000x384_0_0

/-- What the body leaves in the output block: the product of the row block and the weights, stored whole. -/
def out0_2 (x0 : Vec F S5000x128 .f32) (x1 : Vec F S128x384 .f32) : Vec F S5000x384 .f32 :=
  View.canon [⟨r0_out, k0_pay1 (View.ld x0 r0_x) (View.ld x1 r0_w)⟩]

/-- The single store covers the block. -/
theorem cover0_2 (p0 : Vec F S5000x384 .f32) (y : S5000x384.Idx) :
    ∃ pc ∈ ([⟨r0_out, p0⟩] : List (View.Piece (Elt F) S5000x384 .f32)), y ∈ pc.1.set :=
  View.cover_of_tiled [⟨r0_out, p0⟩] S5000x384.size (by rfl) y

set_option maxHeartbeats 1000000 in
/-- One run of the body: with the two inputs' buffers at `x0`, `x1` and the output's at anything, it ends with the
    inputs untouched and the output at `out0_2 x0 x1`. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: arrays as found; after the body each input's buffer at its block, the output's at
    the product of the two input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run above applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
/- A projection region of the program. One grid point multiplies a block of
   5000 rows of the node features by the whole 128 x 384 weight matrix (the three projection matrices side by side)
   and stores the 5000 x 384 product as the output block. This module runs the body once, names what it leaves in the
   output block, and packages the pipeline's proof data and body obligation at an arbitrary entry valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input holds its block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight input (one block for the whole grid, fetched once) holds that block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S5000x128 := Rect.unit (s := S5000x128) ![0, 0] S5000x128.size inb_S5000x128_S5000x128_0_0
abbrev r1_w : Rect S128x384 := Rect.unit (s := S128x384) ![0, 0] S128x384.size inb_S128x384_S128x384_0_0
abbrev r1_out : Rect S5000x384 := Rect.unit (s := S5000x384) ![0, 0] S5000x384.size inb_S5000x384_S5000x384_0_0

/-- What the body leaves in the output block: the product of the row block and the weights, stored whole. -/
def out1_2 (x0 : Vec F S5000x128 .f32) (x1 : Vec F S128x384 .f32) : Vec F S5000x384 .f32 :=
  View.canon [⟨r1_out, k1_pay1 (View.ld x0 r1_x) (View.ld x1 r1_w)⟩]

/-- The single store covers the block. -/
theorem cover1_2 (p0 : Vec F S5000x384 .f32) (y : S5000x384.Idx) :
    ∃ pc ∈ ([⟨r1_out, p0⟩] : List (View.Piece (Elt F) S5000x384 .f32)), y ∈ pc.1.set :=
  View.cover_of_tiled [⟨r1_out, p0⟩] S5000x384.size (by rfl) y

set_option maxHeartbeats 1000000 in
/-- One run of the body: with the two inputs' buffers at `x0`, `x1` and the output's at anything, it ends with the
    inputs untouched and the output at `out1_2 x0 x1`. -/
theorem sound_kernel1 (c : Dev nD) (E : Set ℕ) (i : grid1.Coords)
    (arg1 : Memref sig .tc .vmem S5000x128 .f32) (harg1 : arg1.IsWhole) (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: arrays as found; after the body each input's buffer at its block, the output's at
    the product of the two input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the run above applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
/- An edge-attention region of the program. One grid point takes a block of 4000 edges: three 4000 x 128 row blocks
   `a`, `b`, `v`, two 128 x 4 matrices and one 4 x 128 matrix. It forms the 4000 x 4 scores (the elementwise product of `a`
   and `b` times one 128 x 4 matrix, scaled by a constant, plus `a` times the other), turns each row of scores into weights by
   a softmax over its four entries, stores the row sums of the weights in the 4000 x 1 output block and, in the 4000 x 128
   output block, the weights times the 4 x 128 matrix multiplied elementwise by `v`. This module runs the body once, names what
   it leaves in the two output blocks, and packages the pipeline's proof data and body obligation at an arbitrary entry
   valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first row-block input holds its block at every point, for any proof data over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second row-block input holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The third row-block input holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first small matrix input (one block for the whole grid, fetched once) holds that block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second small matrix input (one block for the whole grid, fetched once) holds that block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The third small matrix input (one block for the whole grid, fetched once) holds that block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through: the 4000 x 128 row blocks, the 128 x 4 matrices, the
    4 x 128 matrix and the 4000 x 1 column. -/
abbrev r2_e : Rect S4000x128 := Rect.unit (s := S4000x128) ![0, 0] S4000x128.size inb_S4000x128_S4000x128_0_0
abbrev r2_h : Rect S128x4 := Rect.unit (s := S128x4) ![0, 0] S128x4.size inb_S128x4_S128x4_0_0
abbrev r2_x : Rect S4x128 := Rect.unit (s := S4x128) ![0, 0] S4x128.size inb_S4x128_S4x128_0_0
abbrev r2_s : Rect S4000x1 := Rect.unit (s := S4000x1) ![0, 0] S4000x1.size inb_S4000x1_S4000x1_0_0

/-- What the body leaves in the wide output block: the softmax weights times the 4 x 128 matrix, multiplied elementwise by the
    third row block, stored whole. -/
def out2_6 (x0 x1 x2 : Vec F S4000x128 .f32) (x3 x4 : Vec F S128x4 .f32) (x5 : Vec F S4x128 .f32) : Vec F S4000x128 .f32 :=
  View.canon [⟨r2_e, k2_pay3 (View.ld x0 r2_e) (View.ld x1 r2_e) (View.ld x2 r2_e) (View.ld x4 r2_h) (View.ld x3 r2_h) (View.ld x5 r2_x)⟩]

/-- What the body leaves in the column output block: the row sums of the softmax weights, stored whole. -/
def out2_7 (x0 x1 : Vec F S4000x128 .f32) (x3 x4 : Vec F S128x4 .f32) : Vec F S4000x1 .f32 :=
  View.canon [⟨r2_s, k2_pay2 (View.ld x0 r2_e) (View.ld x1 r2_e) (View.ld x4 r2_h) (View.ld x3 r2_h)⟩]

/-- Each single store covers its block. -/
theorem cover2_6 (p0 : Vec F S4000x128 .f32) (y : S4000x128.Idx) :
    ∃ pc ∈ ([⟨r2_e, p0⟩] : List (View.Piece (Elt F) S4000x128 .f32)), y ∈ pc.1.set :=
  View.cover_of_tiled [⟨r2_e, p0⟩] S4000x128.size (by rfl) y
theorem cover2_7 (p0 : Vec F S4000x1 .f32) (y : S4000x1.Idx) :
    ∃ pc ∈ ([⟨r2_s, p0⟩] : List (View.Piece (Elt F) S4000x1 .f32)), y ∈ pc.1.set :=
  View.cover_of_tiled [⟨r2_s, p0⟩] S4000x1.size (by rfl) y

set_option maxHeartbeats 2000000 in
/-- One run of the body: with the six inputs' buffers at `x0` … `x5` and the two outputs' at anything, it ends with the
    inputs untouched, the wide output at `out2_6 x0 x1 x2 x3 x4 x5` and the column output at `out2_7 x0 x1 x3 x4`. -/
theorem sound_kernel2 (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x4 .f32) (harg4 : arg4.IsWhole)
    (arg5 : Memref sig .tc .vmem S128x4 .f32) (harg5 : arg5.IsWhole) (arg6 : Memref sig .tc .vmem S4x128 .f32) (harg6 : arg6.IsWhole)
    (arg7 : Memref sig .tc .vmem S4000x128 .f32) (harg7 : arg7.IsWhole) (arg8 : Memref sig .tc .vmem S4000x1 .f32) (harg8 : arg8.IsWhole)
    (x0 x1 x2 : Vec F S4000x128 .f32) (x3 x4 : Vec F S128x4 .f32) (x5 : Vec F S4x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x3 x4)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8) K := by
  simp only [cc2__edge_kernel_eq_skeleton]; unfold cc2__edge_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-- The pipeline's proof data on core `c`: arrays as found; after the body each input's buffer at its block, the wide output's at
    the weighted product and the column output's at the weights' row sums of the input blocks; the class invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) :
    (dat2 V c).after 7 t = out2_7 (iblk2 V c 0 t) (iblk2 V c 1 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the run above applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Reg3.lean ====
/- An edge-attention region of the program. One grid point takes a block of 4000 edges: three 4000 x 128 row blocks
   `a`, `b`, `v`, two 128 x 4 matrices and one 4 x 128 matrix. It forms the 4000 x 4 scores (the elementwise product of `a`
   and `b` times one 128 x 4 matrix, scaled by a constant, plus `a` times the other), turns each row of scores into weights by
   a softmax over its four entries, stores the row sums of the weights in the 4000 x 1 output block and, in the 4000 x 128
   output block, the weights times the 4 x 128 matrix multiplied elementwise by `v`. This module runs the body once, names what
   it leaves in the two output blocks, and packages the pipeline's proof data and body obligation at an arbitrary entry
   valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first row-block input holds its block at every point, for any proof data over `V` whose body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second row-block input holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The third row-block input holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The first small matrix input (one block for the whole grid, fetched once) holds that block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The second small matrix input (one block for the whole grid, fetched once) holds that block at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The third small matrix input (one block for the whole grid, fetched once) holds that block at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through: the 4000 x 128 row blocks, the 128 x 4 matrices, the
    4 x 128 matrix and the 4000 x 1 column. -/
abbrev r3_e : Rect S4000x128 := Rect.unit (s := S4000x128) ![0, 0] S4000x128.size inb_S4000x128_S4000x128_0_0
abbrev r3_h : Rect S128x4 := Rect.unit (s := S128x4) ![0, 0] S128x4.size inb_S128x4_S128x4_0_0
abbrev r3_x : Rect S4x128 := Rect.unit (s := S4x128) ![0, 0] S4x128.size inb_S4x128_S4x128_0_0
abbrev r3_s : Rect S4000x1 := Rect.unit (s := S4000x1) ![0, 0] S4000x1.size inb_S4000x1_S4000x1_0_0

/-- What the body leaves in the wide output block: the softmax weights times the 4 x 128 matrix, multiplied elementwise by the
    third row block, stored whole. -/
def out3_6 (x0 x1 x2 : Vec F S4000x128 .f32) (x3 x4 : Vec F S128x4 .f32) (x5 : Vec F S4x128 .f32) : Vec F S4000x128 .f32 :=
  View.canon [⟨r3_e, k3_pay3 (View.ld x0 r3_e) (View.ld x1 r3_e) (View.ld x2 r3_e) (View.ld x4 r3_h) (View.ld x3 r3_h) (View.ld x5 r3_x)⟩]

/-- What the body leaves in the column output block: the row sums of the softmax weights, stored whole. -/
def out3_7 (x0 x1 : Vec F S4000x128 .f32) (x3 x4 : Vec F S128x4 .f32) : Vec F S4000x1 .f32 :=
  View.canon [⟨r3_s, k3_pay2 (View.ld x0 r3_e) (View.ld x1 r3_e) (View.ld x4 r3_h) (View.ld x3 r3_h)⟩]

/-- Each single store covers its block. -/
theorem cover3_6 (p0 : Vec F S4000x128 .f32) (y : S4000x128.Idx) :
    ∃ pc ∈ ([⟨r3_e, p0⟩] : List (View.Piece (Elt F) S4000x128 .f32)), y ∈ pc.1.set :=
  View.cover_of_tiled [⟨r3_e, p0⟩] S4000x128.size (by rfl) y
theorem cover3_7 (p0 : Vec F S4000x1 .f32) (y : S4000x1.Idx) :
    ∃ pc ∈ ([⟨r3_s, p0⟩] : List (View.Piece (Elt F) S4000x1 .f32)), y ∈ pc.1.set :=
  View.cover_of_tiled [⟨r3_s, p0⟩] S4000x1.size (by rfl) y

set_option maxHeartbeats 2000000 in
/-- One run of the body: with the six inputs' buffers at `x0` … `x5` and the two outputs' at anything, it ends with the
    inputs untouched, the wide output at `out3_6 x0 x1 x2 x3 x4 x5` and the column output at `out3_7 x0 x1 x3 x4`. -/
theorem sound_kernel3 (c : Dev nD) (E : Set ℕ) (i : grid3.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S128x4 .f32) (harg4 : arg4.IsWhole)
    (arg5 : Memref sig .tc .vmem S128x4 .f32) (harg5 : arg5.IsWhole) (arg6 : Memref sig .tc .vmem S4x128 .f32) (harg6 : arg6.IsWhole)
    (arg7 : Memref sig .tc .vmem S4000x128 .f32) (harg7 : arg7.IsWhole) (arg8 : Memref sig .tc .vmem S4000x1 .f32) (harg8 : arg8.IsWhole)
    (x0 x1 x2 : Vec F S4000x128 .f32) (x3 x4 : Vec F S128x4 .f32) (x5 : Vec F S4x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out3_6 x0 x1 x2 x3 x4 x5)
            ∗ owns (c : Thread nD τ) arg8 fullShare (out3_7 x0 x1 x3 x4)) -∗ K ⟨⟩))
      ⊢ wp frame (wpE (defs₀ (F := F)) Variants.none c none) E (cc3__edge_kernel i arg1 harg1 arg2 harg2 arg3 harg3 arg4 harg4 arg5 harg5 arg6 harg6 arg7 harg7 arg8 harg8) K := by
  simp only [cc3__edge_kernel_eq_skeleton]; unfold cc3__edge_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover3_6 _)
  iexists _; isplitr
  swap; · iexact H7
  ipureintro
  try dsimp only
  exact View.read_writes_eq_canon _ _ _ (cover3_7 _)

/-- The pipeline's proof data on core `c`: arrays as found; after the body each input's buffer at its block, the wide output's at
    the weighted product and the column output's at the weights' row sums of the input blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) :
    (dat3 V c).after 7 t = out3_7 (iblk3 V c 0 t) (iblk3 V c 1 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the run above applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Reg4.lean ====
/- A node-update region of the program. One grid point takes a block of 5000 rows: it forms the residual sum of the
   row block with its two weighted terms, takes each row's mean and variance over the 128 features, normalises the row,
   scales and shifts it by the two parameter rows, and stores the 5000 x 128 result as the output block. This module runs
   the body once, names what it leaves in the output block, and packages the pipeline's proof data and body obligation at
   an arbitrary entry valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node-feature row block holds its block at every point, for any proof data over `V` whose body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The per-row column input holds its block at every point, for any proof data over `V` whose body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The second row-block input (the residual's other summand) holds its block at every point, for any proof data over `V` whose body leaves it in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The first square weight input (one block for the whole grid, fetched once) holds its block at every point, for any proof data over `V` whose body leaves it in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first bias row (one block for the whole grid, fetched once) holds its block at every point, for any proof data over `V` whose body leaves it in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The second square weight input (one block for the whole grid, fetched once) holds its block at every point, for any proof data over `V` whose body leaves it in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The second bias row (one block for the whole grid, fetched once) holds its block at every point, for any proof data over `V` whose body leaves it in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- The scale row of the normalisation (one block for the whole grid, fetched once) holds its block at every point, for any proof data over `V` whose body leaves it in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- The shift row of the normalisation (one block for the whole grid, fetched once) holds its block at every point, for any proof data over `V` whose body leaves it in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through: the row block, the per-row column, the square weight,
    and the parameter row. -/
abbrev r4_x : Rect S5000x128 := Rect.unit (s := S5000x128) ![0, 0] S5000x128.size inb_S5000x128_S5000x128_0_0
abbrev r4_c : Rect S5000x1 := Rect.unit (s := S5000x1) ![0, 0] S5000x1.size inb_S5000x1_S5000x1_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

/-- What the body leaves in the output block: the residual sum of the loaded blocks, normalised by its row mean and row
    variance, scaled by the scale row and shifted by the shift row, stored whole. The residual sum, the variance and the
    mean broadcast are each a function of the same seven loads (the second row block is the last of them). -/
def out4_9 (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) : Vec F S5000x128 .f32 :=
  View.canon [⟨r4_x, k4_pay1 (k4_pay2 (View.ld x0 r4_x) (View.ld x1 r4_c) (View.ld x3 r4_w) (View.ld x4 r4_b) (View.ld x5 r4_w) (View.ld x6 r4_b) (View.ld x2 r4_x))
    (k4_pay4 (View.ld x0 r4_x) (View.ld x1 r4_c) (View.ld x3 r4_w) (View.ld x4 r4_b) (View.ld x5 r4_w) (View.ld x6 r4_b) (View.ld x2 r4_x))
    (k4_pay5 (View.ld x0 r4_x) (View.ld x1 r4_c) (View.ld x3 r4_w) (View.ld x4 r4_b) (View.ld x5 r4_w) (View.ld x6 r4_b) (View.ld x2 r4_x))
    (View.ld x7 r4_b) (View.ld x8 r4_b)⟩]

/-- The single store covers the block. -/
theorem cover4_9 (p0 : Vec F S5000x128 .f32) (y : S5000x128.Idx) :
    ∃ pc ∈ ([⟨r4_x, p0⟩] : List (View.Piece (Elt F) S5000x128 .f32)), y ∈ pc.1.set :=
  View.cover_of_tiled [⟨r4_x, p0⟩] S5000x128.size (by rfl) y

set_option maxHeartbeats 2000000 in
/-- One run of the body: with the nine inputs' buffers at `x0` … `x8` and the output's at anything, it ends with the
    inputs untouched and the output at `out4_9 x0 … x8`. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out4_9 x0 x1 x2 x3 x4 x5 x6 x7 x8)) -∗ K ⟨⟩))
      ⊢ wp frame (wpE (defs₀ (F := F)) Variants.none c none) E
          (cc4__update_kernel i arg1 harg1 arg2 harg2 arg3 harg3 arg4 harg4 arg5 harg5 arg6 harg6 arg7 harg7 arg8 harg8 arg9 harg9 arg10 harg10) K := by
  simp only [cc4__update_kernel_eq_skeleton]; unfold cc4__update_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-- The pipeline's proof data on core `c`: arrays as found; after the body each input's buffer at its block, the output's at
    the normalised residual of the nine input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) :
    (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' buffers hold their blocks, so the run above applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Reg5.lean ====
/- A node-update region of the program. One grid point takes a block of 5000 rows: it forms the residual sum of the
   row block with its two weighted terms, takes each row's mean and variance over the 128 features, normalises the row,
   scales and shifts it by the two parameter rows, and stores the 5000 x 128 result as the output block. This module runs
   the body once, names what it leaves in the output block, and packages the pipeline's proof data and body obligation at
   an arbitrary entry valuation `V`. -/
import proofs.«412788_j87737591923455_1_alg».proof.Proof.Gen.KernelIdeal.Launch
import proofs.«412788_j87737591923455_1_alg».proof.Proof.Gen.KernelIdeal.Skeleton
import proofs.«412788_j87737591923455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The node-feature row block holds its block at every point, for any proof data over `V` whose body leaves it in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The per-row column input holds its block at every point, for any proof data over `V` whose body leaves it in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The second row-block input (the residual's other summand) holds its block at every point, for any proof data over `V` whose body leaves it in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The first square weight input (one block for the whole grid, fetched once) holds its block at every point, for any proof data over `V` whose body leaves it in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The first bias row (one block for the whole grid, fetched once) holds its block at every point, for any proof data over `V` whose body leaves it in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The second square weight input (one block for the whole grid, fetched once) holds its block at every point, for any proof data over `V` whose body leaves it in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The second bias row (one block for the whole grid, fetched once) holds its block at every point, for any proof data over `V` whose body leaves it in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The scale row of the normalisation (one block for the whole grid, fetched once) holds its block at every point, for any proof data over `V` whose body leaves it in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The shift row of the normalisation (one block for the whole grid, fetched once) holds its block at every point, for any proof data over `V` whose body leaves it in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through: the row block, the per-row column, the square weight,
    and the parameter row. -/
abbrev r5_x : Rect S5000x128 := Rect.unit (s := S5000x128) ![0, 0] S5000x128.size inb_S5000x128_S5000x128_0_0
abbrev r5_c : Rect S5000x1 := Rect.unit (s := S5000x1) ![0, 0] S5000x1.size inb_S5000x1_S5000x1_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

/-- What the body leaves in the output block: the residual sum of the loaded blocks, normalised by its row mean and row
    variance, scaled by the scale row and shifted by the shift row, stored whole. The residual sum, the variance and the
    mean broadcast are each a function of the same seven loads (the second row block is the last of them). -/
def out5_9 (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) : Vec F S5000x128 .f32 :=
  View.canon [⟨r5_x, k5_pay1 (k5_pay2 (View.ld x0 r5_x) (View.ld x1 r5_c) (View.ld x3 r5_w) (View.ld x4 r5_b) (View.ld x5 r5_w) (View.ld x6 r5_b) (View.ld x2 r5_x))
    (k5_pay4 (View.ld x0 r5_x) (View.ld x1 r5_c) (View.ld x3 r5_w) (View.ld x4 r5_b) (View.ld x5 r5_w) (View.ld x6 r5_b) (View.ld x2 r5_x))
    (k5_pay5 (View.ld x0 r5_x) (View.ld x1 r5_c) (View.ld x3 r5_w) (View.ld x4 r5_b) (View.ld x5 r5_w) (View.ld x6 r5_b) (View.ld x2 r5_x))
    (View.ld x7 r5_b) (View.ld x8 r5_b)⟩]

/-- The single store covers the block. -/
theorem cover5_9 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 2000000 in
/-- One run of the body: with the nine inputs' buffers at `x0` … `x8` and the output's at anything, it ends with the
    inputs untouched and the output at `out5_9 x0 … x8`. -/
theorem sound_kernel5 (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S5000x128 .f32) (harg10 : arg10.IsWhole)
    (x0 : Vec F S5000x128 .f32) (x1 : Vec F S5000x1 .f32) (x2 : Vec F S5000x128 .f32) (x3 : Vec F S128x128 .f32) (x4 : Vec F S1x128 .f32)
    (x5 : Vec F S128x128 .f32) (x6 x7 x8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out5_9 x0 x1 x2 x3 x4 x5 x6 x7 x8)) -∗ K ⟨⟩))
      ⊢ wp frame (wpE (defs₀ (F := F)) Variants.none c none) E
          (cc5__update_kernel i arg1 harg1 arg2 harg2 arg3 harg3 arg4 harg4 arg5 harg5 arg6 harg6 arg7 harg7 arg8 harg8 arg9 harg9 arg10 harg10) K := by
  simp only [cc5__update_kernel_eq_skeleton]; unfold cc5__update_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-- The pipeline's proof data on core `c`: arrays as found; after the body each input's buffer at its block, the output's at
    the normalised residual of the nine input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' buffers hold their blocks, so the run above applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Base.lean ====
/- The program's main function is twenty items: stretches of host operations and six kernel regions. Between two items a
   core holds every unscoped buffer at a valuation: the launch memory, then each host stretch applied, then, after a
   region, the region's output arrays replaced by what its write-backs leave. This module names those valuations read at
   the core's references, states what the replaced contents must be (each output array after all the region's grid
   points), collects the six regions' proof data into one family, and fixes the state that rides beside the buffers
   through every item: the generator register at some state and nothing owed. -/
import proofs.«412788_j87737591923455_1_alg».proof.Proof.Gen.KernelIdeal.Regions
import proofs.«412788_j87737591923455_1_alg».proof.Proof.KernelIdeal.Reg0
import proofs.«412788_j87737591923455_1_alg».proof.Proof.KernelIdeal.Reg1
import proofs.«412788_j87737591923455_1_alg».proof.Proof.KernelIdeal.Reg2
import proofs.«412788_j87737591923455_1_alg».proof.Proof.KernelIdeal.Reg3
import proofs.«412788_j87737591923455_1_alg».proof.Proof.KernelIdeal.Reg4
import proofs.«412788_j87737591923455_1_alg».proof.Proof.KernelIdeal.Reg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-- A core's buffers, as a function of the core's own references, at the entry of each region and at its exit. -/
abbrev Vr1 : (c : Dev nD) → (b : Ref sig .tc) → Buf (Elt F) ((c : Thread nD τ).loc b) := fun c b => V1 m c b
abbrev Vr2 : (c : Dev nD) → (b : Ref sig .tc) → Buf (Elt F) ((c : Thread nD τ).loc b) := fun c b => V2 m outs c b
abbrev Vr3 : (c : Dev nD) → (b : Ref sig .tc) → Buf (Elt F) ((c : Thread nD τ).loc b) := fun c b => V3 m outs c b
abbrev Vr9 : (c : Dev nD) → (b : Ref sig .tc) → Buf (Elt F) ((c : Thread nD τ).loc b) := fun c b => V9 m outs c b
abbrev Vr10 : (c : Dev nD) → (b : Ref sig .tc) → Buf (Elt F) ((c : Thread nD τ).loc b) := fun c b => V10 m outs c b
abbrev Vr14 : (c : Dev nD) → (b : Ref sig .tc) → Buf (Elt F) ((c : Thread nD τ).loc b) := fun c b => V14 m outs c b
abbrev Vr15 : (c : Dev nD) → (b : Ref sig .tc) → Buf (Elt F) ((c : Thread nD τ).loc b) := fun c b => V15 m outs c b
abbrev Vr16 : (c : Dev nD) → (b : Ref sig .tc) → Buf (Elt F) ((c : Thread nD τ).loc b) := fun c b => V16 m outs c b
abbrev Vr17 : (c : Dev nD) → (b : Ref sig .tc) → Buf (Elt F) ((c : Thread nD τ).loc b) := fun c b => V17 m outs c b
abbrev Vr18 : (c : Dev nD) → (b : Ref sig .tc) → Buf (Elt F) ((c : Thread nD τ).loc b) := fun c b => V18 m outs c b
abbrev Vr19 : (c : Dev nD) → (b : Ref sig .tc) → Buf (Elt F) ((c : Thread nD τ).loc b) := fun c b => V19 m outs c b

/-- What the regions leave: each output array after every grid point's write-back, the region entered at the
    valuation before it. -/
structure OutsOk : Prop where
  h2 : ∀ c, outs 2 main_v2 c = (dat0 (Vr1 m) c).arrAt 2 cfg0.N
  h3 : ∀ c, outs 3 main_v3 c = (dat1 (Vr2 m outs) c).arrAt 2 cfg1.N
  h10a : ∀ c, outs 10 main_v27_0 c = (dat2 (Vr9 m outs) c).arrAt 6 cfg2.N
  h10b : ∀ c, outs 10 main_v27_1 c = (dat2 (Vr9 m outs) c).arrAt 7 cfg2.N
  h15a : ∀ c, outs 15 main_v43_0 c = (dat3 (Vr14 m outs) c).arrAt 6 cfg3.N
  h15b : ∀ c, outs 15 main_v43_1 c = (dat3 (Vr14 m outs) c).arrAt 7 cfg3.N
  h17 : ∀ c, outs 17 main_v56 c = (dat4 (Vr16 m outs) c).arrAt 9 cfg4.N
  h19 : ∀ c, outs 19 main_v61 c = (dat5 (Vr18 m outs) c).arrAt 9 cfg5.N

/-- Every pipeline's proof data, each at its region's entry valuation. -/
def pdats : (p : Fin 6) → (c : Dev nD) → Dat τ (Elt F) Unit ℕ (UR sig nD τ) ℕ (cfgs p) c
  | ⟨0, _⟩ => fun c => dat0 (Vr1 m) c
  | ⟨1, _⟩ => fun c => dat1 (Vr2 m outs) c
  | ⟨2, _⟩ => fun c => dat2 (Vr9 m outs) c
  | ⟨3, _⟩ => fun c => dat3 (Vr14 m outs) c
  | ⟨4, _⟩ => fun c => dat4 (Vr16 m outs) c
  | ⟨5, _⟩ => fun c => dat5 (Vr18 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item. -/
abbrev R (c : Dev nD) : sProp 𝕄 := iprop((∃ r, prngReg c r) ∗ ∃ W, owes (c : Thread nD τ) (0 : CellTallies nD τ sig Unit) W)
/-- The same at every boundary between items. -/
abbrev E : Fin 7 → Dev nD → sProp 𝕄 := fun _ c => R (F := F) c

end Cert.KernelIdeal.Hand

end
-- ==== Proof.KernelIdeal.Seg0.lean ====
/- A projection region as an item of the main function. It is entered with every unscoped buffer held at the valuation
   before it and left with them held at the valuation after it: at entry the region's three arrays are split out of the
   buffers, at exit they are put back, the inputs as found and the output at what the write-backs leave. The generator
   register passes into the pipeline's invariant and out again; nothing is owed; the kernel has no semaphore of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-- At exit each array holds what the pipeline leaves: an input what it held, the output its written-back blocks. -/
theorem hF0 (hO : OutsOk m outs) (c : Dev nD) :
    ∀ w : Fin cfg0.W, (pdats m outs (0 : Fin 6) c).arrAt w cfg0.N = Vr2 m outs c (Pipeline.arrRef spec0 w)
  | ⟨0, _⟩ => ((dat0 (Vr1 m) c).arrAt_in 0 rfl _).trans ((A_eq0 (Vr1 m) c 0).trans (V2_of m outs c main_arg0 (by decide)).symm)
  | ⟨1, _⟩ => ((dat0 (Vr1 m) c).arrAt_in 1 rfl _).trans ((A_eq0 (Vr1 m) c 1).trans (V2_of m outs c main_v0 (by decide)).symm)
  | ⟨2, _⟩ => (hO.h2 c).symm.trans (by
      show _ = Function.update (V1 m c) main_v2 (outs 2 main_v2 c) main_v2
      exact (Function.update_self (Proc.devRef .tc main_v2) _ (V1 m c)).symm)

/-- Every other buffer is as at entry. -/
theorem hrest0 (c : Dev nD) : ∀ b, b ∉ Finset.univ.image (Pipeline.arrRef spec0) → Vr2 m outs c b = Vr1 m c b :=
  fun b hb => V2_of m outs c b fun h => hb (Finset.mem_image.mpr ⟨2, Finset.mem_univ _, by rw [List.mem_singleton.mp h]⟩)

set_option backward.isDefEq.respectTransparency.types false in
/-- The region's record. -/
def reg0 (hO : OutsOk m outs) : Pipeline.RegionSeg (pcfgs (F := F)) adm (pdats m outs) () defs₀ 𝒱₀ L lv (0 : Fin 6) where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv (0 : Fin 6) fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := (0 : Fin 6)) (pcfgs (F := F)) adm (pdats m outs) launch0.win launch0.arr_whole c
      ((pdats m outs (0 : Fin 6) c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m outs) ((pdats m outs (0 : Fin 6) c).share_full fun _ => rfl)
      (Vr1 m c) (Vr2 m outs c) ((pdats m outs (0 : Fin 6) c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
/- A projection region as an item of the main function. It is entered with every unscoped buffer held at the valuation
   before it and left with them held at the valuation after it: at entry the region's three arrays are split out of the
   buffers, at exit they are put back, the inputs as found and the output at what the write-backs leave. The generator
   register passes into the pipeline's invariant and out again; nothing is owed; the kernel has no semaphore of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-- At exit each array holds what the pipeline leaves: an input what it held, the output its written-back blocks. -/
theorem hF1 (hO : OutsOk m outs) (c : Dev nD) :
    ∀ w : Fin cfg1.W, (pdats m outs (1 : Fin 6) c).arrAt w cfg1.N = Vr3 m outs c (Pipeline.arrRef spec1 w)
  | ⟨0, _⟩ => ((dat1 (Vr2 m outs) c).arrAt_in 0 rfl _).trans ((A_eq1 (Vr2 m outs) c 0).trans (V3_of m outs c main_arg1 (by decide)).symm)
  | ⟨1, _⟩ => ((dat1 (Vr2 m outs) c).arrAt_in 1 rfl _).trans ((A_eq1 (Vr2 m outs) c 1).trans (V3_of m outs c main_v1 (by decide)).symm)
  | ⟨2, _⟩ => (hO.h3 c).symm.trans (by
      show _ = Function.update (V2 m outs c) main_v3 (outs 3 main_v3 c) main_v3
      exact (Function.update_self (Proc.devRef .tc main_v3) _ (V2 m outs c)).symm)

/-- Every other buffer is as at entry. -/
theorem hrest1 (c : Dev nD) : ∀ b, b ∉ Finset.univ.image (Pipeline.arrRef spec1) → Vr3 m outs c b = Vr2 m outs c b :=
  fun b hb => V3_of m outs c b fun h => hb (Finset.mem_image.mpr ⟨2, Finset.mem_univ _, by rw [List.mem_singleton.mp h]⟩)

set_option backward.isDefEq.respectTransparency.types false in
/-- The region's record. -/
def reg1 (hO : OutsOk m outs) : Pipeline.RegionSeg (pcfgs (F := F)) adm (pdats m outs) () defs₀ 𝒱₀ L lv (1 : Fin 6) where
  win := launch1.win.to₀
  block_pos := launch1.block_pos
  stage_whole := launch1.stage_whole
  K := PEmpty
  osem k := k.elim
  ho := Pipeline.OwnSemFacts.none _
  hbody c := (body_obligation1 (Vr2 m outs) c).loose
  hwaits := Pipeline.hwaits_of_owed_zero _ _ _ _ L lv (1 : Fin 6) fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (Vr2 m outs c)
  hentry c := by
    rw [Pipeline.ownSems0_none]
    have hsplit := Pipeline.arrays_of_unscopedBufs (p := (1 : Fin 6)) (pcfgs (F := F)) adm (pdats m outs) launch1.win launch1.arr_whole c
      ((pdats m outs (1 : Fin 6) c).share_full fun _ => rfl) (Vr2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m outs) ((pdats m outs (1 : Fin 6) c).share_full fun _ => rfl)
      (Vr2 m outs c) (Vr3 m outs c) ((pdats m outs (1 : Fin 6) c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg2.lean ====
/- An edge-attention region as an item of the main function. It is entered with every unscoped buffer held at the valuation
   before it and left with them held at the valuation after it: at entry the region's eight arrays are split out of the
   buffers, at exit they are put back, the six inputs as found and the two outputs at what the write-backs leave. The
   generator register passes into the pipeline's invariant and out again; nothing is owed; the kernel has no semaphore
   of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, an output its written-back blocks. -/
theorem hF2 (hO : OutsOk m outs) (c : Dev nD) :
    ∀ w : Fin cfg2.W, (pdats m outs (2 : Fin 6) c).arrAt w cfg2.N = Vr10 m outs c (Pipeline.arrRef spec2 w)
  | ⟨0, _⟩ => ((dat2 (Vr9 m outs) c).arrAt_in 0 rfl _).trans ((A_eq2 (Vr9 m outs) c 0).trans (V10_of m outs c main_v24 (by decide)).symm)
  | ⟨1, _⟩ => ((dat2 (Vr9 m outs) c).arrAt_in 1 rfl _).trans ((A_eq2 (Vr9 m outs) c 1).trans (V10_of m outs c main_v25 (by decide)).symm)
  | ⟨2, _⟩ => ((dat2 (Vr9 m outs) c).arrAt_in 2 rfl _).trans ((A_eq2 (Vr9 m outs) c 2).trans (V10_of m outs c main_v26 (by decide)).symm)
  | ⟨3, _⟩ => ((dat2 (Vr9 m outs) c).arrAt_in 3 rfl _).trans ((A_eq2 (Vr9 m outs) c 3).trans (V10_of m outs c main_arg10 (by decide)).symm)
  | ⟨4, _⟩ => ((dat2 (Vr9 m outs) c).arrAt_in 4 rfl _).trans ((A_eq2 (Vr9 m outs) c 4).trans (V10_of m outs c main_v18 (by decide)).symm)
  | ⟨5, _⟩ => ((dat2 (Vr9 m outs) c).arrAt_in 5 rfl _).trans ((A_eq2 (Vr9 m outs) c 5).trans (V10_of m outs c main_v19 (by decide)).symm)
  | ⟨6, _⟩ => (hO.h10a c).symm.trans (by
      show _ = Function.update (Function.update (V9 m outs c) main_v27_0 (outs 10 main_v27_0 c)) main_v27_1 (outs 10 main_v27_1 c) main_v27_0
      rw [Function.update_of_ne (StableHlo.devRef_ne_of_ne (by decide))]
      exact (Function.update_self (Proc.devRef .tc main_v27_0) _ (V9 m outs c)).symm)
  | ⟨7, _⟩ => (hO.h10b c).symm.trans (by
      show _ = Function.update (Function.update (V9 m outs c) main_v27_0 (outs 10 main_v27_0 c)) main_v27_1 (outs 10 main_v27_1 c) main_v27_1
      exact (Function.update_self (Proc.devRef .tc main_v27_1) (outs 10 main_v27_1 c) (Function.update (V9 m outs c) main_v27_0 (outs 10 main_v27_0 c))).symm)

/-- Every other buffer is as at entry. -/
theorem hrest2 (c : Dev nD) : ∀ b, b ∉ Finset.univ.image (Pipeline.arrRef spec2) → Vr10 m outs c b = Vr9 m outs c b :=
  fun b hb => V10_of m outs c b fun h => by
    rcases List.mem_cons.mp h with h | h
    · exact hb (Finset.mem_image.mpr ⟨6, Finset.mem_univ _, by rw [h]⟩)
    · exact hb (Finset.mem_image.mpr ⟨7, Finset.mem_univ _, by rw [List.mem_singleton.mp h]⟩)

set_option backward.isDefEq.respectTransparency.types false in
/-- The region's record. -/
def reg2 (hO : OutsOk m outs) : Pipeline.RegionSeg (pcfgs (F := F)) adm (pdats m outs) () defs₀ 𝒱₀ L lv (2 : Fin 6) where
  win := launch2.win.to₀
  block_pos := launch2.block_pos
  stage_whole := launch2.stage_whole
  K := PEmpty
  osem k := k.elim
  ho := Pipeline.OwnSemFacts.none _
  hbody c := (body_obligation2 (Vr9 m outs) c).loose
  hwaits := Pipeline.hwaits_of_owed_zero _ _ _ _ L lv (2 : Fin 6) fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (Vr9 m outs c)
  hentry c := by
    rw [Pipeline.ownSems0_none]
    have hsplit := Pipeline.arrays_of_unscopedBufs (p := (2 : Fin 6)) (pcfgs (F := F)) adm (pdats m outs) launch2.win launch2.arr_whole c
      ((pdats m outs (2 : Fin 6) c).share_full fun _ => rfl) (Vr9 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m outs) ((pdats m outs (2 : Fin 6) c).share_full fun _ => rfl)
      (Vr9 m outs c) (Vr10 m outs c) ((pdats m outs (2 : Fin 6) c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg3.lean ====
/- An edge-attention region as an item of the main function. It is entered with every unscoped buffer held at the valuation
   before it and left with them held at the valuation after it: at entry the region's eight arrays are split out of the
   buffers, at exit they are put back, the six inputs as found and the two outputs at what the write-backs leave. The
   generator register passes into the pipeline's invariant and out again; nothing is owed; the kernel has no semaphore
   of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, an output its written-back blocks. -/
theorem hF3 (hO : OutsOk m outs) (c : Dev nD) :
    ∀ w : Fin cfg3.W, (pdats m outs (3 : Fin 6) c).arrAt w cfg3.N = Vr15 m outs c (Pipeline.arrRef spec3 w)
  | ⟨0, _⟩ => ((dat3 (Vr14 m outs) c).arrAt_in 0 rfl _).trans ((A_eq3 (Vr14 m outs) c 0).trans (V15_of m outs c main_v40 (by decide)).symm)
  | ⟨1, _⟩ => ((dat3 (Vr14 m outs) c).arrAt_in 1 rfl _).trans ((A_eq3 (Vr14 m outs) c 1).trans (V15_of m outs c main_v41 (by decide)).symm)
  | ⟨2, _⟩ => ((dat3 (Vr14 m outs) c).arrAt_in 2 rfl _).trans ((A_eq3 (Vr14 m outs) c 2).trans (V15_of m outs c main_v42 (by decide)).symm)
  | ⟨3, _⟩ => ((dat3 (Vr14 m outs) c).arrAt_in 3 rfl _).trans ((A_eq3 (Vr14 m outs) c 3).trans (V15_of m outs c main_arg11 (by decide)).symm)
  | ⟨4, _⟩ => ((dat3 (Vr14 m outs) c).arrAt_in 4 rfl _).trans ((A_eq3 (Vr14 m outs) c 4).trans (V15_of m outs c main_v18 (by decide)).symm)
  | ⟨5, _⟩ => ((dat3 (Vr14 m outs) c).arrAt_in 5 rfl _).trans ((A_eq3 (Vr14 m outs) c 5).trans (V15_of m outs c main_v19 (by decide)).symm)
  | ⟨6, _⟩ => (hO.h15a c).symm.trans (by
      show _ = Function.update (Function.update (V14 m outs c) main_v43_0 (outs 15 main_v43_0 c)) main_v43_1 (outs 15 main_v43_1 c) main_v43_0
      rw [Function.update_of_ne (StableHlo.devRef_ne_of_ne (by decide))]
      exact (Function.update_self (Proc.devRef .tc main_v43_0) _ (V14 m outs c)).symm)
  | ⟨7, _⟩ => (hO.h15b c).symm.trans (by
      show _ = Function.update (Function.update (V14 m outs c) main_v43_0 (outs 15 main_v43_0 c)) main_v43_1 (outs 15 main_v43_1 c) main_v43_1
      exact (Function.update_self (Proc.devRef .tc main_v43_1) (outs 15 main_v43_1 c) (Function.update (V14 m outs c) main_v43_0 (outs 15 main_v43_0 c))).symm)

/-- Every other buffer is as at entry. -/
theorem hrest3 (c : Dev nD) : ∀ b, b ∉ Finset.univ.image (Pipeline.arrRef spec3) → Vr15 m outs c b = Vr14 m outs c b :=
  fun b hb => V15_of m outs c b fun h => by
    rcases List.mem_cons.mp h with h | h
    · exact hb (Finset.mem_image.mpr ⟨6, Finset.mem_univ _, by rw [h]⟩)
    · exact hb (Finset.mem_image.mpr ⟨7, Finset.mem_univ _, by rw [List.mem_singleton.mp h]⟩)

set_option backward.isDefEq.respectTransparency.types false in
/-- The region's record. -/
def reg3 (hO : OutsOk m outs) : Pipeline.RegionSeg (pcfgs (F := F)) adm (pdats m outs) () defs₀ 𝒱₀ L lv (3 : Fin 6) where
  win := launch3.win.to₀
  block_pos := launch3.block_pos
  stage_whole := launch3.stage_whole
  K := PEmpty
  osem k := k.elim
  ho := Pipeline.OwnSemFacts.none _
  hbody c := (body_obligation3 (Vr14 m outs) c).loose
  hwaits := Pipeline.hwaits_of_owed_zero _ _ _ _ L lv (3 : Fin 6) fun _ _ => rfl
  pre c := iprop(StableHlo.held (c : Thread nD τ) (Pipeline.ucRefs τ sig) (V14 m outs c) ∗ R c)
  post c := iprop(StableHlo.held (c : Thread nD τ) (Pipeline.ucRefs τ sig) (V15 m outs c) ∗ R c)
  X c := iprop(∃ r, prngReg c r)
  Y c := iprop(∃ r, prngReg c r)
  Z c := Pipeline.unscopedRest (Ix := Unit) (Name := ℕ) (U := UR sig nD τ) (Lvl := ℕ) spec3 c (Vr14 m outs c)
  hentry c := by
    rw [Pipeline.ownSems0_none]
    have hsplit := Pipeline.arrays_of_unscopedBufs (p := (3 : Fin 6)) (pcfgs (F := F)) adm (pdats m outs) launch3.win launch3.arr_whole c
      ((pdats m outs (3 : Fin 6) c).share_full fun _ => rfl) (Vr14 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m outs) ((pdats m outs (3 : Fin 6) c).share_full fun _ => rfl)
      (Vr14 m outs c) (Vr15 m outs c) ((pdats m outs (3 : Fin 6) c).arrAt · cfg3.N) (hF3 m outs hO c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg4.lean ====
/- A node-update region as an item of the main function. It is entered with every unscoped buffer held at the valuation
   before it and left with them held at the valuation after it: at entry the region's ten arrays are split out of the
   buffers, at exit they are put back, the nine inputs as found and the output at what the write-backs leave. The
   generator register passes into the pipeline's invariant and out again; nothing is owed; the kernel has no semaphore
   of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, the output its written-back blocks. -/
theorem hF4 (hO : OutsOk m outs) (c : Dev nD) :
    ∀ w : Fin cfg4.W, (pdats m outs (4 : Fin 6) c).arrAt w cfg4.N = Vr17 m outs c (Pipeline.arrRef spec4 w)
  | ⟨0, _⟩ => ((dat4 (Vr16 m outs) c).arrAt_in 0 rfl _).trans ((A_eq4 (Vr16 m outs) c 0).trans (V17_of m outs c main_v30 (by decide)).symm)
  | ⟨1, _⟩ => ((dat4 (Vr16 m outs) c).arrAt_in 1 rfl _).trans ((A_eq4 (Vr16 m outs) c 1).trans (V17_of m outs c main_v35 (by decide)).symm)
  | ⟨2, _⟩ => ((dat4 (Vr16 m outs) c).arrAt_in 2 rfl _).trans ((A_eq4 (Vr16 m outs) c 2).trans (V17_of m outs c main_arg1 (by decide)).symm)
  | ⟨3, _⟩ => ((dat4 (Vr16 m outs) c).arrAt_in 3 rfl _).trans ((A_eq4 (Vr16 m outs) c 3).trans (V17_of m outs c main_arg14 (by decide)).symm)
  | ⟨4, _⟩ => ((dat4 (Vr16 m outs) c).arrAt_in 4 rfl _).trans ((A_eq4 (Vr16 m outs) c 4).trans (V17_of m outs c main_v52 (by decide)).symm)
  | ⟨5, _⟩ => ((dat4 (Vr16 m outs) c).arrAt_in 5 rfl _).trans ((A_eq4 (Vr16 m outs) c 5).trans (V17_of m outs c main_arg18 (by decide)).symm)
  | ⟨6, _⟩ => ((dat4 (Vr16 m outs) c).arrAt_in 6 rfl _).trans ((A_eq4 (Vr16 m outs) c 6).trans (V17_of m outs c main_v53 (by decide)).symm)
  | ⟨7, _⟩ => ((dat4 (Vr16 m outs) c).arrAt_in 7 rfl _).trans ((A_eq4 (Vr16 m outs) c 7).trans (V17_of m outs c main_v54 (by decide)).symm)
  | ⟨8, _⟩ => ((dat4 (Vr16 m outs) c).arrAt_in 8 rfl _).trans ((A_eq4 (Vr16 m outs) c 8).trans (V17_of m outs c main_v55 (by decide)).symm)
  | ⟨9, _⟩ => (hO.h17 c).symm.trans (by
      show _ = Function.update (V16 m outs c) main_v56 (outs 17 main_v56 c) main_v56
      exact (Function.update_self (Proc.devRef .tc main_v56) _ (V16 m outs c)).symm)

/-- Every other buffer is as at entry. -/
theorem hrest4 (c : Dev nD) : ∀ b, b ∉ Finset.univ.image (Pipeline.arrRef spec4) → Vr17 m outs c b = Vr16 m outs c b :=
  fun b hb => V17_of m outs c b fun h => hb (Finset.mem_image.mpr ⟨9, Finset.mem_univ _, by rw [List.mem_singleton.mp h]⟩)

set_option backward.isDefEq.respectTransparency.types false in
/-- The region's record. -/
def reg4 (hO : OutsOk m outs) : Pipeline.RegionSeg (pcfgs (F := F)) adm (pdats m outs) () defs₀ 𝒱₀ L lv (4 : Fin 6) where
  win := launch4.win.to₀
  block_pos := launch4.block_pos
  stage_whole := launch4.stage_whole
  K := PEmpty
  osem k := k.elim
  ho := Pipeline.OwnSemFacts.none _
  hbody c := (body_obligation4 (Vr16 m outs) c).loose
  hwaits := Pipeline.hwaits_of_owed_zero _ _ _ _ L lv (4 : Fin 6) fun _ _ => rfl
  pre c := iprop(StableHlo.held (c : Thread nD τ) (Pipeline.ucRefs τ sig) (V16 m outs c) ∗ R c)
  post c := iprop(StableHlo.held (c : Thread nD τ) (Pipeline.ucRefs τ sig) (V17 m outs c) ∗ R c)
  X c := iprop(∃ r, prngReg c r)
  Y c := iprop(∃ r, prngReg c r)
  Z c := Pipeline.unscopedRest (Ix := Unit) (Name := ℕ) (U := UR sig nD τ) (Lvl := ℕ) spec4 c (Vr16 m outs c)
  hentry c := by
    rw [Pipeline.ownSems0_none]
    have hsplit := Pipeline.arrays_of_unscopedBufs (p := (4 : Fin 6)) (pcfgs (F := F)) adm (pdats m outs) launch4.win launch4.arr_whole c
      ((pdats m outs (4 : Fin 6) c).share_full fun _ => rfl) (Vr16 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m outs) ((pdats m outs (4 : Fin 6) c).share_full fun _ => rfl)
      (Vr16 m outs c) (Vr17 m outs c) ((pdats m outs (4 : Fin 6) c).arrAt · cfg4.N) (hF4 m outs hO c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg5.lean ====
/- A node-update region as an item of the main function. It is entered with every unscoped buffer held at the valuation
   before it and left with them held at the valuation after it: at entry the region's ten arrays are split out of the
   buffers, at exit they are put back, the nine inputs as found and the output at what the write-backs leave. The
   generator register passes into the pipeline's invariant and out again; nothing is owed; the kernel has no semaphore
   of its own. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

set_option maxHeartbeats 4000000 in
/-- At exit each array holds what the pipeline leaves: an input what it held, the output its written-back blocks. -/
theorem hF5 (hO : OutsOk m outs) (c : Dev nD) :
    ∀ w : Fin cfg5.W, (pdats m outs (5 : Fin 6) c).arrAt w cfg5.N = Vr19 m outs c (Pipeline.arrRef spec5 w)
  | ⟨0, _⟩ => ((dat5 (Vr18 m outs) c).arrAt_in 0 rfl _).trans ((A_eq5 (Vr18 m outs) c 0).trans (V19_of m outs c main_v46 (by decide)).symm)
  | ⟨1, _⟩ => ((dat5 (Vr18 m outs) c).arrAt_in 1 rfl _).trans ((A_eq5 (Vr18 m outs) c 1).trans (V19_of m outs c main_v51 (by decide)).symm)
  | ⟨2, _⟩ => ((dat5 (Vr18 m outs) c).arrAt_in 2 rfl _).trans ((A_eq5 (Vr18 m outs) c 2).trans (V19_of m outs c main_arg0 (by decide)).symm)
  | ⟨3, _⟩ => ((dat5 (Vr18 m outs) c).arrAt_in 3 rfl _).trans ((A_eq5 (Vr18 m outs) c 3).trans (V19_of m outs c main_arg12 (by decide)).symm)
  | ⟨4, _⟩ => ((dat5 (Vr18 m outs) c).arrAt_in 4 rfl _).trans ((A_eq5 (Vr18 m outs) c 4).trans (V19_of m outs c main_v57 (by decide)).symm)
  | ⟨5, _⟩ => ((dat5 (Vr18 m outs) c).arrAt_in 5 rfl _).trans ((A_eq5 (Vr18 m outs) c 5).trans (V19_of m outs c main_arg16 (by decide)).symm)
  | ⟨6, _⟩ => ((dat5 (Vr18 m outs) c).arrAt_in 6 rfl _).trans ((A_eq5 (Vr18 m outs) c 6).trans (V19_of m outs c main_v58 (by decide)).symm)
  | ⟨7, _⟩ => ((dat5 (Vr18 m outs) c).arrAt_in 7 rfl _).trans ((A_eq5 (Vr18 m outs) c 7).trans (V19_of m outs c main_v59 (by decide)).symm)
  | ⟨8, _⟩ => ((dat5 (Vr18 m outs) c).arrAt_in 8 rfl _).trans ((A_eq5 (Vr18 m outs) c 8).trans (V19_of m outs c main_v60 (by decide)).symm)
  | ⟨9, _⟩ => (hO.h19 c).symm.trans (by
      show _ = Function.update (V18 m outs c) main_v61 (outs 19 main_v61 c) main_v61
      exact (Function.update_self (Proc.devRef .tc main_v61) _ (V18 m outs c)).symm)

/-- Every other buffer is as at entry. -/
theorem hrest5 (c : Dev nD) : ∀ b, b ∉ Finset.univ.image (Pipeline.arrRef spec5) → Vr19 m outs c b = Vr18 m outs c b :=
  fun b hb => V19_of m outs c b fun h => hb (Finset.mem_image.mpr ⟨9, Finset.mem_univ _, by rw [List.mem_singleton.mp h]⟩)

set_option backward.isDefEq.respectTransparency.types false in
/-- The region's record. -/
def reg5 (hO : OutsOk m outs) : Pipeline.RegionSeg (pcfgs (F := F)) adm (pdats m outs) () defs₀ 𝒱₀ L lv (5 : Fin 6) where
  win := launch5.win.to₀
  block_pos := launch5.block_pos
  stage_whole := launch5.stage_whole
  K := PEmpty
  osem k := k.elim
  ho := Pipeline.OwnSemFacts.none _
  hbody c := (body_obligation5 (Vr18 m outs) c).loose
  hwaits := Pipeline.hwaits_of_owed_zero _ _ _ _ L lv (5 : Fin 6) fun _ _ => rfl
  pre c := iprop(StableHlo.held (c : Thread nD τ) (Pipeline.ucRefs τ sig) (V18 m outs c) ∗ R c)
  post c := iprop(StableHlo.held (c : Thread nD τ) (Pipeline.ucRefs τ sig) (V19 m outs c) ∗ R c)
  X c := iprop(∃ r, prngReg c r)
  Y c := iprop(∃ r, prngReg c r)
  Z c := Pipeline.unscopedRest (Ix := Unit) (Name := ℕ) (U := UR sig nD τ) (Lvl := ℕ) spec5 c (Vr18 m outs c)
  hentry c := by
    rw [Pipeline.ownSems0_none]
    have hsplit := Pipeline.arrays_of_unscopedBufs (p := (5 : Fin 6)) (pcfgs (F := F)) adm (pdats m outs) launch5.win launch5.arr_whole c
      ((pdats m outs (5 : Fin 6) c).share_full fun _ => rfl) (Vr18 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m outs) ((pdats m outs (5 : Fin 6) c).share_full fun _ => rfl)
      (Vr18 m outs c) (Vr19 m outs c) ((pdats m outs (5 : Fin 6) c).arrAt · cfg5.N) (hF5 m outs hO c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Frame.lean ====
/- The frame of the program: every weakly fair execution of the main function terminates without a fault and leaves every
   argument array as launched. The host side of this (the main function as twenty items, each host stretch, the chaining,
   the arguments read back through the valuations) is the generated conditional frame; supplied here are the six regions'
   records, the state that rides beside the buffers, the launch element and what each core makes of what the launch deals
   it. It holds for any contents the regions leave, provided they are what the regions' write-backs produce. -/
import proofs.«412788_j87737591923455_1_alg».proof.Proof.KernelIdeal.Seg0
import proofs.«412788_j87737591923455_1_alg».proof.Proof.KernelIdeal.Seg1
import proofs.«412788_j87737591923455_1_alg».proof.Proof.KernelIdeal.Seg2
import proofs.«412788_j87737591923455_1_alg».proof.Proof.KernelIdeal.Seg3
import proofs.«412788_j87737591923455_1_alg».proof.Proof.KernelIdeal.Seg4
import proofs.«412788_j87737591923455_1_alg».proof.Proof.KernelIdeal.Seg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

variable (ρ : Dev nD → PrngReg)

/-- The launch element yields the pipeline library's element at every pipeline's staging cells; no core takes a ghost resource. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the riding state from what the launch deals it: its generator register and its empty dues. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the riding state holds the core owing nothing. -/
theorem hE6 (c : Dev nD) : E (F := F) 6 c ⊢ (iprop(∃ W, owes (c : Thread nD τ) (0 : CellTallies nD τ sig Unit) W) : sProp 𝕄) := by
  iintro ⟨-, HO⟩
  iexact HO

set_option backward.isDefEq.respectTransparency.types false in
set_option maxHeartbeats 4000000 in
/-- The frame claim at any float instance. -/
theorem frame_of_outs (hO : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond (F := F) (Ix := Unit) (U := UR sig nD τ) (Lvl := ℕ) m emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := hu0 (F := F))
    (E := E (F := F))
    (hE0 := hE0 (F := F) ρ)
    (hE6 := hE6 (F := F))
    (R0 := reg0 m outs hO) (hpre0 := fun _ => .rfl) (hpost0 := fun _ => .rfl)
    (R1 := reg1 m outs hO) (hpre1 := fun _ => .rfl) (hpost1 := fun _ => .rfl)
    (R2 := reg2 m outs hO) (hpre2 := fun _ => .rfl) (hpost2 := fun _ => .rfl)
    (R3 := reg3 m outs hO) (hpre3 := fun _ => .rfl) (hpost3 := fun _ => .rfl)
    (R4 := reg4 m outs hO) (hpre4 := fun _ => .rfl) (hpost4 := fun _ => .rfl)
    (R5 := reg5 m outs hO) (hpre5 := fun _ => .rfl) (hpost5 := fun _ => .rfl)

end Cert.KernelIdeal.Hand

end
-- ==== Proof.KernelIdeal.RunAll.lean ====
/- The run of the program with every buffer named at the end: every weakly fair execution of the main function terminates
   without a fault, and every unscoped buffer of every core ends at the last valuation - the launch memory carried
   through the twenty items: each host stretch applied, each region's output arrays replaced by what its write-backs
   leave. The main function is the list of its twenty segments; each core starts from its buffers held at the launch
   valuation beside its generator register and empty dues, the segments chain from one valuation to the next, and the
   last state is read against the final memory buffer by buffer. -/
import proofs.«412788_j87737591923455_1_alg».proof.Proof.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

open Idealize.ShloMosaic.Pipeline (Seg HostSeg RegionSeg)

variable (ρ : Dev nD → PrngReg)

set_option backward.isDefEq.respectTransparency.types false in
set_option maxHeartbeats 4000000 in
/-- Every buffer at the end. -/
theorem run_of_outs (hO : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V20 m outs c b) := by
  refine Pipeline.θ_run_regions_kit_dev (pcfgs (F := F)) adm (pdats m outs) () cellOf_inj emb₁ defs₀ 𝒱₀ L lv m ρ main
    (segs m outs 𝒱₀ L lv (E (F := F)) () (pdats m outs) (reg0 m outs hO) (reg1 m outs hO) (reg2 m outs hO) (reg3 m outs hO) (reg4 m outs hO) (reg5 m outs hO))
    (fun c Q => by
      rewrite [main_chain c, Seg.run_eq_chain,
        show (segs m outs 𝒱₀ L lv (E (F := F)) () (pdats m outs) (reg0 m outs hO) (reg1 m outs hO) (reg2 m outs hO) (reg3 m outs hO) (reg4 m outs hO) (reg5 m outs hO) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          Prog.lift (.customCall (Pipeline.entry 2) ()),
          StableHlo.seq hostOps3,
          StableHlo.seq hostOps3_1,
          StableHlo.seq hostOps3_2,
          StableHlo.seq hostOps3_3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (hu0 (F := F))
    (T₀ := fun c => iprop(StableHlo.held (c : Thread nD τ) (Pipeline.ucRefs τ sig) (V0 m c) ∗ E (F := F) 0 c))
    (Tₙ := fun c => StableHlo.held (c : Thread nD τ) (Pipeline.ucRefs τ sig) (V20 m outs c))
    (hch := fun c => ⟨.rfl, .rfl, .rfl, .rfl, .rfl, .rfl, .rfl, .rfl, .rfl, .rfl, .rfl, .rfl, .rfl, .rfl, .rfl, .rfl, .rfl, .rfl, .rfl, .rfl, sep_mono .rfl (hE6 (F := F) c)⟩)
    (hinit := ?_) (QY := fun c s => ∀ b ∈ Pipeline.ucRefs τ sig, s.mem (((c : Thread nD τ)).1, b) = V20 m outs c b)
    (hfin := fun c s' => ?_) (hQ := fun _ h => h)
  · -- the launch: each core holds its unscoped buffers at the launch valuation and makes the riding state
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact h
    · iexact HSI

end Cert.KernelIdeal.Hand

end
-- ==== Proof.KernelIdeal.Outs.lean ====
/- The contents the six regions leave, defined outright. Going through the main function's items in order: after the first
   host stretch the first projection region replaces its output array by its written-back blocks; the second likewise; six
   host stretches later the first edge region replaces its two output arrays; and so on to the last update region. Each
   replaced array is the region's output after all its grid points, the region entered at the valuation built so far.
   These valuations are the generated ones at exactly these contents, so the contents satisfy what the frame asks. -/
import proofs.«412788_j87737591923455_1_alg».proof.Proof.KernelIdeal.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The valuations built item by item, each region's outputs put in place. -/
def U1 (c : Dev nD) : Valuation τ sig (Elt F) := V1 m c
abbrev Ur1 : (c : Dev nD) → (b : Ref sig .tc) → Buf (Elt F) ((c : Thread nD τ).loc b) := fun c b => U1 m c b
def U2 (c : Dev nD) : Valuation τ sig (Elt F) :=
  Function.update (U1 m c) main_v2 ((dat0 (Ur1 m) c).arrAt 2 cfg0.N : Buf (Elt F) ((c : Thread nD τ).loc main_v2))
abbrev Ur2 : (c : Dev nD) → (b : Ref sig .tc) → Buf (Elt F) ((c : Thread nD τ).loc b) := fun c b => U2 m c b
def U3 (c : Dev nD) : Valuation τ sig (Elt F) :=
  Function.update (U2 m c) main_v3 ((dat1 (Ur2 m) c).arrAt 2 cfg1.N : Buf (Elt F) ((c : Thread nD τ).loc main_v3))
def U9 (c : Dev nD) : Valuation τ sig (Elt F) :=
  StableHlo.after hostOps2_5 (StableHlo.after hostOps2_4 (StableHlo.after hostOps2_3 (StableHlo.after hostOps2_2
    (StableHlo.after hostOps2_1 (StableHlo.after hostOps2 (U3 m c))))))
abbrev Ur9 : (c : Dev nD) → (b : Ref sig .tc) → Buf (Elt F) ((c : Thread nD τ).loc b) := fun c b => U9 m c b
def U10 (c : Dev nD) : Valuation τ sig (Elt F) :=
  Function.update (Function.update (U9 m c) main_v27_0 ((dat2 (Ur9 m) c).arrAt 6 cfg2.N : Buf (Elt F) ((c : Thread nD τ).loc main_v27_0)))
    main_v27_1 ((dat2 (Ur9 m) c).arrAt 7 cfg2.N : Buf (Elt F) ((c : Thread nD τ).loc main_v27_1))
def U14 (c : Dev nD) : Valuation τ sig (Elt F) :=
  StableHlo.after hostOps3_3 (StableHlo.after hostOps3_2 (StableHlo.after hostOps3_1 (StableHlo.after hostOps3 (U10 m c))))
abbrev Ur14 : (c : Dev nD) → (b : Ref sig .tc) → Buf (Elt F) ((c : Thread nD τ).loc b) := fun c b => U14 m c b
def U15 (c : Dev nD) : Valuation τ sig (Elt F) :=
  Function.update (Function.update (U14 m c) main_v43_0 ((dat3 (Ur14 m) c).arrAt 6 cfg3.N : Buf (Elt F) ((c : Thread nD τ).loc main_v43_0)))
    main_v43_1 ((dat3 (Ur14 m) c).arrAt 7 cfg3.N : Buf (Elt F) ((c : Thread nD τ).loc main_v43_1))
def U16 (c : Dev nD) : Valuation τ sig (Elt F) := StableHlo.after hostOps4 (U15 m c)
abbrev Ur16 : (c : Dev nD) → (b : Ref sig .tc) → Buf (Elt F) ((c : Thread nD τ).loc b) := fun c b => U16 m c b
def U17 (c : Dev nD) : Valuation τ sig (Elt F) :=
  Function.update (U16 m c) main_v56 ((dat4 (Ur16 m) c).arrAt 9 cfg4.N : Buf (Elt F) ((c : Thread nD τ).loc main_v56))
def U18 (c : Dev nD) : Valuation τ sig (Elt F) := StableHlo.after hostOps5 (U17 m c)
abbrev Ur18 : (c : Dev nD) → (b : Ref sig .tc) → Buf (Elt F) ((c : Thread nD τ).loc b) := fun c b => U18 m c b
def U19 (c : Dev nD) : Valuation τ sig (Elt F) :=
  Function.update (U18 m c) main_v61 ((dat5 (Ur18 m) c).arrAt 9 cfg5.N : Buf (Elt F) ((c : Thread nD τ).loc main_v61))

/-- The contents the regions leave, read off those valuations. -/
def outsC : Outs (F := F) := fun J r c =>
  match J with
  | 2 => U2 m c r
  | 3 => U3 m c r
  | 10 => U10 m c r
  | 15 => U15 m c r
  | 17 => U17 m c r
  | 19 => U19 m c r
  | _ => V0 m c r

/-! ## The generated valuations at these contents are the ones built above -/

theorem V2_eq (c : Dev nD) : V2 m (outsC m) c = U2 m c :=
  congrArg (Function.update (V1 m c) (Proc.devRef .tc main_v2)) (Function.update_self (Proc.devRef .tc main_v2) _ (U1 m c))

theorem V3_eq (c : Dev nD) : V3 m (outsC m) c = U3 m c := by
  show Function.update (V2 m (outsC m) c) main_v3 (U3 m c main_v3) = U3 m c
  rw [V2_eq]
  exact congrArg (Function.update (U2 m c) (Proc.devRef .tc main_v3)) (Function.update_self (Proc.devRef .tc main_v3) _ (U2 m c))

theorem V9_eq (c : Dev nD) : V9 m (outsC m) c = U9 m c := by
  show StableHlo.after hostOps2_5 (StableHlo.after hostOps2_4 (StableHlo.after hostOps2_3 (StableHlo.after hostOps2_2
    (StableHlo.after hostOps2_1 (StableHlo.after hostOps2 (V3 m (outsC m) c)))))) = U9 m c
  rw [V3_eq]; rfl

theorem U10_a (c : Dev nD) : U10 m c main_v27_0 = (dat2 (Ur9 m) c).arrAt 6 cfg2.N := by
  unfold U10
  rw [Function.update_of_ne (StableHlo.devRef_ne_of_ne (by decide))]
  exact Function.update_self (Proc.devRef .tc main_v27_0) _ (U9 m c)
theorem U10_b (c : Dev nD) : U10 m c main_v27_1 = (dat2 (Ur9 m) c).arrAt 7 cfg2.N := by
  unfold U10
  exact Function.update_self (Proc.devRef .tc main_v27_1) _ _

theorem V10_eq (c : Dev nD) : V10 m (outsC m) c = U10 m c := by
  show Function.update (Function.update (V9 m (outsC m) c) main_v27_0 (U10 m c main_v27_0)) main_v27_1 (U10 m c main_v27_1) = U10 m c
  rw [V9_eq, U10_a, U10_b]; rfl

theorem V14_eq (c : Dev nD) : V14 m (outsC m) c = U14 m c := by
  show StableHlo.after hostOps3_3 (StableHlo.after hostOps3_2 (StableHlo.after hostOps3_1 (StableHlo.after hostOps3 (V10 m (outsC m) c)))) = U14 m c
  rw [V10_eq]; rfl

theorem U15_a (c : Dev nD) : U15 m c main_v43_0 = (dat3 (Ur14 m) c).arrAt 6 cfg3.N := by
  unfold U15
  rw [Function.update_of_ne (StableHlo.devRef_ne_of_ne (by decide))]
  exact Function.update_self (Proc.devRef .tc main_v43_0) _ (U14 m c)
theorem U15_b (c : Dev nD) : U15 m c main_v43_1 = (dat3 (Ur14 m) c).arrAt 7 cfg3.N := by
  unfold U15
  exact Function.update_self (Proc.devRef .tc main_v43_1) _ _

theorem V15_eq (c : Dev nD) : V15 m (outsC m) c = U15 m c := by
  show Function.update (Function.update (V14 m (outsC m) c) main_v43_0 (U15 m c main_v43_0)) main_v43_1 (U15 m c main_v43_1) = U15 m c
  rw [V14_eq, U15_a, U15_b]; rfl

theorem V16_eq (c : Dev nD) : V16 m (outsC m) c = U16 m c := by
  show StableHlo.after hostOps4 (V15 m (outsC m) c) = U16 m c
  rw [V15_eq]; rfl

theorem V17_eq (c : Dev nD) : V17 m (outsC m) c = U17 m c := by
  show Function.update (V16 m (outsC m) c) main_v56 (U17 m c main_v56) = U17 m c
  rw [V16_eq]
  exact congrArg (Function.update (U16 m c) (Proc.devRef .tc main_v56)) (Function.update_self (Proc.devRef .tc main_v56) _ (U16 m c))

theorem V18_eq (c : Dev nD) : V18 m (outsC m) c = U18 m c := by
  show StableHlo.after hostOps5 (V17 m (outsC m) c) = U18 m c
  rw [V17_eq]; rfl

/-- A region's entry valuation, as a function of the core's references, at these contents. -/
theorem Vr2_eq : Vr2 m (outsC m) = Ur2 m := funext fun c => funext fun b => congrFun (V2_eq m c) _
theorem Vr9_eq : Vr9 m (outsC m) = Ur9 m := funext fun c => funext fun b => congrFun (V9_eq m c) _
theorem Vr14_eq : Vr14 m (outsC m) = Ur14 m := funext fun c => funext fun b => congrFun (V14_eq m c) _
theorem Vr16_eq : Vr16 m (outsC m) = Ur16 m := funext fun c => funext fun b => congrFun (V16_eq m c) _
theorem Vr18_eq : Vr18 m (outsC m) = Ur18 m := funext fun c => funext fun b => congrFun (V18_eq m c) _

set_option maxHeartbeats 4000000 in
/-- The contents are what the regions' write-backs produce. -/
theorem outsC_ok : OutsOk m (outsC m) where
  h2 c := Function.update_self (Proc.devRef .tc main_v2) _ (U1 m c)
  h3 c := by
    rw [Vr2_eq]
    exact Function.update_self (Proc.devRef .tc main_v3) _ (U2 m c)
  h10a c := by rw [Vr9_eq]; exact U10_a m c
  h10b c := by rw [Vr9_eq]; exact U10_b m c
  h15a c := by rw [Vr14_eq]; exact U15_a m c
  h15b c := by rw [Vr14_eq]; exact U15_b m c
  h17 c := by
    rw [Vr16_eq]
    exact Function.update_self (Proc.devRef .tc main_v56) _ (U16 m c)
  h19 c := by
    rw [Vr18_eq]
    exact Function.update_self (Proc.devRef .tc main_v61) _ (U18 m c)

end Cert.KernelIdeal.Hand

end
-- ==== Proof.KernelIdeal.Main.lean ====
/- The idealized program's two facts the certificate cites: its frame (every execution terminates, nothing faults, the
   arguments end as launched), and its run with the result named: the result array ends at the last valuation read at the
   result's reference, the regions' contents being the ones defined from their write-backs. -/
import proofs.«412788_j87737591923455_1_alg».proof.Proof.KernelIdeal.RunAll
import proofs.«412788_j87737591923455_1_alg».proof.Proof.KernelIdeal.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of_outs m (outsC m) ρ (outsC_ok m)

/-- An unscoped reference of the core is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in
/-- The run with the result named. -/
theorem run_main : θ_run defs (onTc (τ := τ) (main (F := F))) ⟨m, fun _ => 0, ρ⟩ (fun r => ∀ c : Dev nD,
      r.2.mem ((c.tc : Thread nD τ).loc main_v64) = V20 m (outsC m) c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨h c _ (mem_uc main_v64 (by decide)),
      (h c _ (mem_uc main_arg0 (by decide))).trans (V20_main_arg0 m (outsC m) c),
      (h c _ (mem_uc main_arg1 (by decide))).trans (V20_main_arg1 m (outsC m) c),
      (h c _ (mem_uc main_arg2 (by decide))).trans (V20_main_arg2 m (outsC m) c),
      (h c _ (mem_uc main_arg3 (by decide))).trans (V20_main_arg3 m (outsC m) c),
      (h c _ (mem_uc main_arg4 (by decide))).trans (V20_main_arg4 m (outsC m) c),
      (h c _ (mem_uc main_arg5 (by decide))).trans (V20_main_arg5 m (outsC m) c),
      (h c _ (mem_uc main_arg6 (by decide))).trans (V20_main_arg6 m (outsC m) c),
      (h c _ (mem_uc main_arg7 (by decide))).trans (V20_main_arg7 m (outsC m) c),
      (h c _ (mem_uc main_arg8 (by decide))).trans (V20_main_arg8 m (outsC m) c),
      (h c _ (mem_uc main_arg9 (by decide))).trans (V20_main_arg9 m (outsC m) c),
      (h c _ (mem_uc main_arg10 (by decide))).trans (V20_main_arg10 m (outsC m) c),
      (h c _ (mem_uc main_arg11 (by decide))).trans (V20_main_arg11 m (outsC m) c),
      (h c _ (mem_uc main_arg12 (by decide))).trans (V20_main_arg12 m (outsC m) c),
      (h c _ (mem_uc main_arg13 (by decide))).trans (V20_main_arg13 m (outsC m) c),
      (h c _ (mem_uc main_arg14 (by decide))).trans (V20_main_arg14 m (outsC m) c),
      (h c _ (mem_uc main_arg15 (by decide))).trans (V20_main_arg15 m (outsC m) c),
      (h c _ (mem_uc main_arg16 (by decide))).trans (V20_main_arg16 m (outsC m) c),
      (h c _ (mem_uc main_arg17 (by decide))).trans (V20_main_arg17 m (outsC m) c),
      (h c _ (mem_uc main_arg18 (by decide))).trans (V20_main_arg18 m (outsC m) c),
      (h c _ (mem_uc main_arg19 (by decide))).trans (V20_main_arg19 m (outsC m) c),
      (h c _ (mem_uc main_arg20 (by decide))).trans (V20_main_arg20 m (outsC m) c),
      (h c _ (mem_uc main_arg21 (by decide))).trans (V20_main_arg21 m (outsC m) c),
      (h c _ (mem_uc main_arg22 (by decide))).trans (V20_main_arg22 m (outsC m) c),
      (h c _ (mem_uc main_arg23 (by decide))).trans (V20_main_arg23 m (outsC m) c)⟩)
    (run_of_outs m (outsC m) ρ (outsC_ok m))

end Cert.KernelIdeal.Hand

end
-- ==== Proof.Val.HostDefs.lean ====
/- The host operations of the program between its kernel regions, composed and named: the weight matrices side by side,
   the column slices of a projected table, the rows of the edge list, the rows of a table taken at edge indices (with
   the index normalisation and the range test), the head mask, the sums by destination index, and the layout changes. -/
import proofs.«412788_j87737591923455_1_alg».proof.Proof.Gen.KernelIdeal

noncomputable section

namespace Cert.KernelIdeal.HostVal

open Cert.KernelIdeal Cert.KernelIdeal.Gen Idealize.ShloMosaic

variable {F : FTy → Type} [FloatOps F] [Named F]

/-! ## The host operations' compositions, named -/

/-- Three 128 x 128 matrices side by side: the columns of the first, then of the second, then of the third. -/
def wcat (a b d : Vec F S128x128 .f32) : Vec F S128x384 .f32 :=
  concatenate S128x384 1 [⟨S128x128, a⟩, ⟨S128x128, b⟩, ⟨S128x128, d⟩] concatenates_S128x128_S128x128_S128x128_S128x384_d1

/-- Columns 0 … 127, 128 … 255 and 256 … 383 of a 50000 x 384 table. -/
def sl0 (y : Vec F S50000x384 .f32) : Vec F S50000x128 .f32 := extractStridedSlice S50000x128 ![0, 0] y slices_S50000x384_S50000x128_0_0
def sl1 (y : Vec F S50000x384 .f32) : Vec F S50000x128 .f32 := extractStridedSlice S50000x128 ![0, 128] y slices_S50000x384_S50000x128_0_128
def sl2 (y : Vec F S50000x384 .f32) : Vec F S50000x128 .f32 := extractStridedSlice S50000x128 ![0, 256] y slices_S50000x384_S50000x128_0_256

/-- Row 0 (the edges' sources) and row 1 (their destinations) of a 2 x 400000 edge list, as vectors. -/
def row0 (e : IVec S2x400000 32) : IVec S400000 32 :=
  shapeCast S400000 (extractStridedSlice S1x400000 ![0, 0] e slices_S2x400000_S1x400000_0_0) shapeCasts_S1x400000_S400000
def row1 (e : IVec S2x400000 32) : IVec S400000 32 :=
  shapeCast S400000 (extractStridedSlice S1x400000 ![1, 0] e slices_S2x400000_S1x400000_1_0) shapeCasts_S1x400000_S400000

/-- A negative index counted from the end: i + 50000 where i < 0, else i. -/
def normIdx (i : IVec S400000 32) : IVec S400000 32 :=
  select (cmpi .slt i (broadcastInDim S400000 ![] bcast_S_S400000 (constantI S_ 32 0#32)))
    (addi i (broadcastInDim S400000 ![] bcast_S_S400000 (constantI S_ 32 50000#32))) i

/-- An index vector as a column. -/
def idxCol (j : IVec S400000 32) : IVec S400000x1 32 := broadcastInDim S400000x1 ![0] bcast_S400000_S400000x1_0 j

/-- Whether each index lies in 0 … 49999: the conjunction, over the one-entry index column, of 0 ≤ j and j ≤ 49999. -/
def inb (j : IVec S400000 32) : IVec S400000 1 :=
  Host.reduce IntOp.andi
    (andi (cmpi .sge (idxCol j) (broadcastInDim S400000x1 ![] bcast_S_S400000x1 (constantI S_ 32 0#32)))
      (cmpi .sle (idxCol j) (broadcastInDim S400000x1 ![0, 1] bcast_S1x1_S400000x1_0_1 (broadcastInDim S1x1 ![1] bcast_S1_S1x1_1 (constantI S1 32 49999#32)))))
    (constantI S_ 1 1#1) reducesTo_S400000x1_S400000_d1 h_S_

/-- The rows of a 50000 x 128 table at 400000 indices: the gathered row where the normalised index is in range, the
    quiet-NaN word elsewhere. -/
def takeRows (x : Vec F S50000x128 .f32) (i : IVec S400000 32) : Vec F S400000x128 .f32 :=
  select (broadcastInDim S400000x128 ![0] bcast_S400000_S400000x128_0 (inb (normIdx i)))
    (Host.gather gather_S50000x128_S400000x1_S400000x128_1_0_n_n_0_1_1128 x (idxCol (normIdx i)))
    (broadcastInDim S400000x128 ![] bcast_S_S400000x128 (constant (F := F) S_ .f32 0x7FC00000#32))

/-- The floor of x / d, entry by entry: the truncated quotient, less one where the signs differ and the remainder is not zero. -/
def floorDiv (x : IVec S128x1 32) (d : IVec S_ 32) : IVec S128x1 32 :=
  select (andi (cmpi .ne (signi x) (broadcastInDim S128x1 ![] bcast_S_S128x1 (signi d)))
      (cmpi .ne (Host.remsi x (broadcastInDim S128x1 ![] bcast_S_S128x1 d)) (broadcastInDim S128x1 ![] bcast_S_S128x1 (constantI S_ 32 0#32))))
    (subi (Host.divsi x (broadcastInDim S128x1 ![] bcast_S_S128x1 d)) (broadcastInDim S128x1 ![] bcast_S_S128x1 (constantI S_ 32 1#32)))
    (Host.divsi x (broadcastInDim S128x1 ![] bcast_S_S128x1 d))

/-- The column numbers 0 … 127 as a column, and the head numbers 0 … 3 as a row. -/
def colIota : IVec S128x1 32 := broadcastInDim S128x1 ![0] bcast_S128_S128x1_0 (iotaInDim S128 32 0)
def headIota : IVec S1x4 32 := broadcastInDim S1x4 ![1] bcast_S4_S1x4_1 (iotaInDim S4 32 0)

/-- The head mask from a column of head numbers and a row of heads: 1.0 where they agree, else 0.0. -/
def maskOf (hd : IVec S128x1 32) (hs : IVec S1x4 32) : Vec F S128x4 .f32 :=
  uitofp .f32 (cmpi .eq (broadcastInDim S128x4 ![0, 1] bcast_S128x1_S128x4_0_1 hd) (broadcastInDim S128x4 ![0, 1] bcast_S1x4_S128x4_0_1 hs))

/-- The 128 x 4 head mask (column d belongs to head floor(d / 32)) and its transpose. -/
def maskH : Vec F S128x4 .f32 := maskOf (floorDiv colIota (constantI S_ 32 32#32)) headIota
def maskB : Vec F S4x128 .f32 := transpose S4x128 [1, 0] (maskH (F := F)) transposes_S128x4_S4x128_1_0

/-- The sums of 400000 rows (of 400000 numbers) into 50000 rows (numbers) by destination index, from zero. -/
def segSum2 (dst : IVec S400000 32) (u : Vec F S400000x128 .f32) : Vec F S50000x128 .f32 :=
  Host.scatterAdd scatter_S50000x128_S400000x1_S400000x128_1_0_0_1
    (broadcastInDim S50000x128 ![] bcast_S_S50000x128 (constant (F := F) S_ .f32 0x00000000#32)) (idxCol dst) u
def segSum1 (dst : IVec S400000 32) (u : Vec F S400000 .f32) : Vec F S50000 .f32 :=
  Host.scatterAdd scatter_S50000_S400000x1_S400000_n_0_0_1
    (broadcastInDim S50000 ![] bcast_S_S50000 (constant (F := F) S_ .f32 0x00000000#32)) (idxCol dst) u

/-- A 400000 x 1 column as a vector; a vector of 50000 as a column; a vector of 128 as a row. -/
def flat (u : Vec F S400000x1 .f32) : Vec F S400000 .f32 := shapeCast S400000 u shapeCasts_S400000x1_S400000
def col (v : Vec F S50000 .f32) : Vec F S50000x1 .f32 := broadcastInDim S50000x1 ![0] bcast_S50000_S50000x1_0 v
def rowv (b : Vec F S128 .f32) : Vec F S1x128 .f32 := shapeCast S1x128 b shapeCasts_S128_S1x128

/-- Two 50000 x 128 tables stacked along a new leading axis. -/
def stack2 (a b : Vec F S50000x128 .f32) : Vec F S2x50000x128 .f32 :=
  concatenate S2x50000x128 0 [⟨S1x50000x128, broadcastInDim S1x50000x128 ![1, 2] bcast_S50000x128_S1x50000x128_1_2 a⟩,
    ⟨S1x50000x128, broadcastInDim S1x50000x128 ![1, 2] bcast_S50000x128_S1x50000x128_1_2 b⟩] concatenates_S1x50000x128_S1x50000x128_S2x50000x128_d0

end Cert.KernelIdeal.HostVal

end
-- ==== Proof.LibNary3.lean ====
/- The result of a StableHLO operation over a literal family of THREE operand references (a `stablehlo.concatenate` of
   three operands), stated with each operand's contents at its own reference. -/
import Idealize.ShloMosaic.Lib.StableHlo.Run

noncomputable section

namespace Idealize.ShloMosaic.StableHlo

variable {nD : Nat} {τ : Topo} {sig : RefSig} {Val : EltTy → Type}
variable {x a b y : Ref sig .tc}

/-- `nary` over a LITERAL family of three references (printed `nary ![x, a, b] …`): the result with each operand's contents
    AT ITS OWN REFERENCE — `Fin.cons (F ↑x) …` in place of `fun k => F ↑(![x, a, b] k)` —, so that rewriting can go on into
    the operands' contents: under the binder the reference `![x, a, b] k` is no literal and no result lemma applies to
    it. The operation's function applied to the three contents is then the goal's by `rfl` (β, then `Fin.cons` at the
    literals `0`, `1`, `2`). The three-operand form of `nary4_result`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one `simp only` pass (as `nary4_result'`). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Val.HostK1.lean ====
/- What each host stretch of the program leaves in the references the kernel regions read, as a function of the
   contents it starts from: one statement per stretch and reference, over an arbitrary valuation. Each operation's result
   at its own reference is its function of its operands' contents, and every other reference keeps what it held. -/
import proofs.«412788_j87737591923455_1_alg».proof.Proof.Gen.KernelIdeal.Regions
import proofs.«412788_j87737591923455_1_alg».proof.Proof.Val.HostDefs
import proofs.«412788_j87737591923455_1_alg».proof.Proof.LibNary3
import Idealize.ShloMosaic.Lib.StableHlo.Run

set_option maxRecDepth 8192

noncomputable section

namespace Cert.KernelIdeal.HostVal

open Cert.KernelIdeal Cert.KernelIdeal.Gen Idealize.ShloMosaic Idealize.ShloMosaic.TcCoe Idealize.ShloMosaic.StableHlo

variable {F : FTy → Type} [FloatOps F] [Named F]

variable (W : Valuation τ sig (Elt F))

/-! ## The two weight concatenations -/

theorem ops0_v0 : StableHlo.after hostOps0 W (Proc.devRef .tc main_v0) = wcat (W main_arg4) (W main_arg5) (W main_arg6) := by
  simp only [after_cons, after_nil]
  rw [nary_result_ne]; rotate_left; decide
  rw [nary3_result]
  rfl

theorem ops0_v1 : StableHlo.after hostOps0 W (Proc.devRef .tc main_v1) = wcat (W main_arg7) (W main_arg8) (W main_arg9) := by
  simp only [after_cons, after_nil]
  rw [nary3_result]
  rfl

/-! ## The column slices of the two projected tables, and the mask's ingredients -/

theorem ops2_v4 : StableHlo.after hostOps2 W (Proc.devRef .tc main_v4) = sl0 (W main_v2) := by
  after_results_simp <;> rfl
theorem ops2_v5 : StableHlo.after hostOps2 W (Proc.devRef .tc main_v5) = sl1 (W main_v2) := by
  after_results_simp <;> rfl
theorem ops2_v6 : StableHlo.after hostOps2 W (Proc.devRef .tc main_v6) = sl2 (W main_v2) := by
  after_results_simp <;> rfl
theorem ops2_v7 : StableHlo.after hostOps2 W (Proc.devRef .tc main_v7) = sl0 (W main_v3) := by
  after_results_simp <;> rfl
theorem ops2_v8 : StableHlo.after hostOps2 W (Proc.devRef .tc main_v8) = sl1 (W main_v3) := by
  after_results_simp <;> rfl
theorem ops2_v9 : StableHlo.after hostOps2 W (Proc.devRef .tc main_v9) = sl2 (W main_v3) := by
  after_results_simp <;> rfl
theorem ops2_v11 : StableHlo.after hostOps2 W (Proc.devRef .tc main_v11) = colIota := by
  after_results_simp <;> rfl
theorem ops2_v13 : StableHlo.after hostOps2 W (Proc.devRef .tc main_v13) = headIota := by
  after_results_simp <;> rfl
theorem ops2_c : StableHlo.after hostOps2 W (Proc.devRef .tc main_c) = constantI S_ 32 32#32 := by
  after_results_simp <;> rfl

/-! ## The floor division, the mask and its transpose, the edge list's rows -/

theorem ops2_1_v14 : StableHlo.after hostOps2_1 W (Proc.devRef .tc main_v14) = floorDiv (W main_v11) (W main_c) := by
  after_results_simp <;> (try simp only [TRef.ofBuf, TRef.toBuf, cast_eq]) <;> rfl
theorem ops2_2_v18 : StableHlo.after hostOps2_2 W (Proc.devRef .tc main_v18) = maskOf (W main_v14) (W main_v13) := by
  after_results_simp <;> rfl
theorem ops2_2_v19 : StableHlo.after hostOps2_2 W (Proc.devRef .tc main_v19) = transpose S4x128 [1, 0] (maskOf (F := F) (W main_v14) (W main_v13)) transposes_S128x4_S4x128_1_0 := by
  after_results_simp <;> rfl
theorem ops2_2_v21 : StableHlo.after hostOps2_2 W (Proc.devRef .tc main_v21) = row0 (W main_arg2) := by
  after_results_simp <;> rfl
theorem ops2_2_v23 : StableHlo.after hostOps2_2 W (Proc.devRef .tc main_v23) = row1 (W main_arg2) := by
  after_results_simp <;> rfl

/-! ## The first layer's sums by destination, and the second edge list's rows -/

theorem ops3_v30 : StableHlo.after hostOps3 W (Proc.devRef .tc main_v30) = segSum2 (W main_v23) (W main_v27_0) := by
  after_results_simp <;> rfl
theorem ops3_v35 : StableHlo.after hostOps3 W (Proc.devRef .tc main_v35) = col (segSum1 (W main_v23) (flat (W main_v27_1))) := by
  after_results_simp <;> rfl
theorem ops3_v37 : StableHlo.after hostOps3 W (Proc.devRef .tc main_v37) = row0 (W main_arg3) := by
  after_results_simp <;> rfl
theorem ops3_v39 : StableHlo.after hostOps3 W (Proc.devRef .tc main_v39) = row1 (W main_arg3) := by
  after_results_simp <;> rfl

/-! ## The second layer's sums by destination, and the bias and scale rows -/

theorem ops4_v46 : StableHlo.after hostOps4 W (Proc.devRef .tc main_v46) = segSum2 (W main_v39) (W main_v43_0) := by
  after_results_simp <;> rfl
theorem ops4_v51 : StableHlo.after hostOps4 W (Proc.devRef .tc main_v51) = col (segSum1 (W main_v39) (flat (W main_v43_1))) := by
  after_results_simp <;> rfl
theorem ops4_v52 : StableHlo.after hostOps4 W (Proc.devRef .tc main_v52) = rowv (W main_arg15) := by
  after_results_simp <;> rfl
theorem ops4_v53 : StableHlo.after hostOps4 W (Proc.devRef .tc main_v53) = rowv (W main_arg19) := by
  after_results_simp <;> rfl
theorem ops4_v54 : StableHlo.after hostOps4 W (Proc.devRef .tc main_v54) = rowv (W main_arg22) := by
  after_results_simp <;> rfl
theorem ops4_v55 : StableHlo.after hostOps4 W (Proc.devRef .tc main_v55) = rowv (W main_arg23) := by
  after_results_simp <;> rfl
theorem ops5_v57 : StableHlo.after hostOps5 W (Proc.devRef .tc main_v57) = rowv (W main_arg13) := by
  after_results_simp <;> rfl
theorem ops5_v58 : StableHlo.after hostOps5 W (Proc.devRef .tc main_v58) = rowv (W main_arg17) := by
  after_results_simp <;> rfl
theorem ops5_v59 : StableHlo.after hostOps5 W (Proc.devRef .tc main_v59) = rowv (W main_arg20) := by
  after_results_simp <;> rfl
theorem ops5_v60 : StableHlo.after hostOps5 W (Proc.devRef .tc main_v60) = rowv (W main_arg21) := by
  after_results_simp <;> rfl

/-! ## The result: the two updated tables stacked -/

theorem ops6_v64 : StableHlo.after hostOps6 W (Proc.devRef .tc main_v64) = stack2 (W main_v61) (W main_v56) := by
  after_results_simp <;> rfl

end Cert.KernelIdeal.HostVal

end
-- ==== Proof.Val.HostK2.lean ====
/- The six takes of table rows at edge indices: each of these stretches leaves, in its result reference, the rows of its
   table at its index vector, as a function of the contents it starts from. -/
import proofs.«412788_j87737591923455_1_alg».proof.Proof.Gen.KernelIdeal.Regions
import proofs.«412788_j87737591923455_1_alg».proof.Proof.Val.HostDefs
import Idealize.ShloMosaic.Lib.StableHlo.Run

set_option maxRecDepth 8192

noncomputable section

namespace Cert.KernelIdeal.HostVal

open Cert.KernelIdeal Cert.KernelIdeal.Gen Idealize.ShloMosaic Idealize.ShloMosaic.TcCoe Idealize.ShloMosaic.StableHlo

variable {F : FTy → Type} [FloatOps F] [Named F]

variable (W : Valuation τ sig (Elt F))

theorem ops2_3_v24 : StableHlo.after hostOps2_3 W (Proc.devRef .tc main_v24) = takeRows (W main_v4) (W main_v21) := by
  after_results_simp <;> (try simp only [TRef.ofBuf, TRef.toBuf, cast_eq]) <;> rfl
theorem ops2_4_v25 : StableHlo.after hostOps2_4 W (Proc.devRef .tc main_v25) = takeRows (W main_v8) (W main_v23) := by
  after_results_simp <;> (try simp only [TRef.ofBuf, TRef.toBuf, cast_eq]) <;> rfl
theorem ops2_5_v26 : StableHlo.after hostOps2_5 W (Proc.devRef .tc main_v26) = takeRows (W main_v6) (W main_v21) := by
  after_results_simp <;> (try simp only [TRef.ofBuf, TRef.toBuf, cast_eq]) <;> rfl
theorem ops3_1_v40 : StableHlo.after hostOps3_1 W (Proc.devRef .tc main_v40) = takeRows (W main_v7) (W main_v37) := by
  after_results_simp <;> (try simp only [TRef.ofBuf, TRef.toBuf, cast_eq]) <;> rfl
theorem ops3_2_v41 : StableHlo.after hostOps3_2 W (Proc.devRef .tc main_v41) = takeRows (W main_v5) (W main_v39) := by
  after_results_simp <;> (try simp only [TRef.ofBuf, TRef.toBuf, cast_eq]) <;> rfl
theorem ops3_3_v42 : StableHlo.after hostOps3_3 W (Proc.devRef .tc main_v42) = takeRows (W main_v9) (W main_v37) := by
  after_results_simp <;> (try simp only [TRef.ofBuf, TRef.toBuf, cast_eq]) <;> rfl

end Cert.KernelIdeal.HostVal

end
-- ==== Proof.Val.HostK.lean ====
/- What the host stretches of the program compute, read off its valuations between the kernel regions: for every array
   a kernel region reads, its contents at the region's entry as a function of the launch contents of the program's
   arguments and of what the earlier regions left; and the program's result the same way. No host stretch writes an
   argument; each intermediate array is written by one stretch and kept by the later ones. -/
import proofs.«412788_j87737591923455_1_alg».proof.Proof.Val.HostK1
import proofs.«412788_j87737591923455_1_alg».proof.Proof.Val.HostK2

set_option maxRecDepth 8192

noncomputable section

namespace Cert.KernelIdeal.HostVal

open Cert.KernelIdeal Cert.KernelIdeal.Gen Idealize.ShloMosaic Idealize.ShloMosaic.TcCoe Idealize.ShloMosaic.StableHlo

variable {F : FTy → Type} [FloatOps F] [Named F]

variable (m : (ℓ : Loc nD τ sig) → Buf (Elt F) ℓ) (outs : Outs (F := F))

/-! ## What the kernel regions left, where the next stretch finds it -/

theorem v2At3 (c : Dev nD) : V3 m outs c main_v2 = outs 2 main_v2 c :=
  (V3_of m outs c main_v2 (by decide)).trans (Function.update_self _ _ _)
theorem v3At3 (c : Dev nD) : V3 m outs c main_v3 = outs 3 main_v3 c := Function.update_self _ _ _
theorem v27_0At10 (c : Dev nD) : V10 m outs c main_v27_0 = outs 10 main_v27_0 c :=
  (Function.update_of_ne (StableHlo.devRef_ne_of_ne (by decide) : (Proc.devRef .tc main_v27_0 : DevRef τ sig) ≠ Proc.devRef .tc main_v27_1) _ _).trans (Function.update_self _ _ _)
theorem v27_1At10 (c : Dev nD) : V10 m outs c main_v27_1 = outs 10 main_v27_1 c := Function.update_self _ _ _
theorem v43_0At15 (c : Dev nD) : V15 m outs c main_v43_0 = outs 15 main_v43_0 c :=
  (Function.update_of_ne (StableHlo.devRef_ne_of_ne (by decide) : (Proc.devRef .tc main_v43_0 : DevRef τ sig) ≠ Proc.devRef .tc main_v43_1) _ _).trans (Function.update_self _ _ _)
theorem v43_1At15 (c : Dev nD) : V15 m outs c main_v43_1 = outs 15 main_v43_1 c := Function.update_self _ _ _
theorem v56At17 (c : Dev nD) : V17 m outs c main_v56 = outs 17 main_v56 c := Function.update_self _ _ _
theorem v61At19 (c : Dev nD) : V19 m outs c main_v61 = outs 19 main_v61 c := Function.update_self _ _ _

/-! ## The arguments the host stretches read, where they read them -/

theorem arg2At5 (c : Dev nD) : V5 m outs c main_arg2 = m ((c : Thread nD τ).loc main_arg2) :=
  (V5_of m outs c main_arg2 (by decide)).trans <| (V4_of m outs c main_arg2 (by decide)).trans <| (V3_of m outs c main_arg2 (by decide)).trans <| (V2_of m outs c main_arg2 (by decide)).trans <| (V1_of m c main_arg2 (by decide)).trans <| rfl
theorem arg3At10 (c : Dev nD) : V10 m outs c main_arg3 = m ((c : Thread nD τ).loc main_arg3) :=
  (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans <| rfl
theorem arg15At15 (c : Dev nD) : V15 m outs c main_arg15 = m ((c : Thread nD τ).loc main_arg15) :=
  (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans <| rfl
theorem arg19At15 (c : Dev nD) : V15 m outs c main_arg19 = m ((c : Thread nD τ).loc main_arg19) :=
  (V15_of m outs c main_arg19 (by decide)).trans <| (V14_of m outs c main_arg19 (by decide)).trans <| (V13_of m outs c main_arg19 (by decide)).trans <| (V12_of m outs c main_arg19 (by decide)).trans <| (V11_of m outs c main_arg19 (by decide)).trans <| (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans <| rfl
theorem arg22At15 (c : Dev nD) : V15 m outs c main_arg22 = m ((c : Thread nD τ).loc main_arg22) :=
  (V15_of m outs c main_arg22 (by decide)).trans <| (V14_of m outs c main_arg22 (by decide)).trans <| (V13_of m outs c main_arg22 (by decide)).trans <| (V12_of m outs c main_arg22 (by decide)).trans <| (V11_of m outs c main_arg22 (by decide)).trans <| (V10_of m outs c main_arg22 (by decide)).trans <| (V9_of m outs c main_arg22 (by decide)).trans <| (V8_of m outs c main_arg22 (by decide)).trans <| (V7_of m outs c main_arg22 (by decide)).trans <| (V6_of m outs c main_arg22 (by decide)).trans <| (V5_of m outs c main_arg22 (by decide)).trans <| (V4_of m outs c main_arg22 (by decide)).trans <| (V3_of m outs c main_arg22 (by decide)).trans <| (V2_of m outs c main_arg22 (by decide)).trans <| (V1_of m c main_arg22 (by decide)).trans <| rfl
theorem arg23At15 (c : Dev nD) : V15 m outs c main_arg23 = m ((c : Thread nD τ).loc main_arg23) :=
  (V15_of m outs c main_arg23 (by decide)).trans <| (V14_of m outs c main_arg23 (by decide)).trans <| (V13_of m outs c main_arg23 (by decide)).trans <| (V12_of m outs c main_arg23 (by decide)).trans <| (V11_of m outs c main_arg23 (by decide)).trans <| (V10_of m outs c main_arg23 (by decide)).trans <| (V9_of m outs c main_arg23 (by decide)).trans <| (V8_of m outs c main_arg23 (by decide)).trans <| (V7_of m outs c main_arg23 (by decide)).trans <| (V6_of m outs c main_arg23 (by decide)).trans <| (V5_of m outs c main_arg23 (by decide)).trans <| (V4_of m outs c main_arg23 (by decide)).trans <| (V3_of m outs c main_arg23 (by decide)).trans <| (V2_of m outs c main_arg23 (by decide)).trans <| (V1_of m c main_arg23 (by decide)).trans <| rfl
theorem arg13At17 (c : Dev nD) : V17 m outs c main_arg13 = m ((c : Thread nD τ).loc main_arg13) :=
  (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans <| rfl
theorem arg17At17 (c : Dev nD) : V17 m outs c main_arg17 = m ((c : Thread nD τ).loc main_arg17) :=
  (V17_of m outs c main_arg17 (by decide)).trans <| (V16_of m outs c main_arg17 (by decide)).trans <| (V15_of m outs c main_arg17 (by decide)).trans <| (V14_of m outs c main_arg17 (by decide)).trans <| (V13_of m outs c main_arg17 (by decide)).trans <| (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans <| rfl
theorem arg20At17 (c : Dev nD) : V17 m outs c main_arg20 = m ((c : Thread nD τ).loc main_arg20) :=
  (V17_of m outs c main_arg20 (by decide)).trans <| (V16_of m outs c main_arg20 (by decide)).trans <| (V15_of m outs c main_arg20 (by decide)).trans <| (V14_of m outs c main_arg20 (by decide)).trans <| (V13_of m outs c main_arg20 (by decide)).trans <| (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m outs c main_arg20 (by decide)).trans <| (V4_of m outs c main_arg20 (by decide)).trans <| (V3_of m outs c main_arg20 (by decide)).trans <| (V2_of m outs c main_arg20 (by decide)).trans <| (V1_of m c main_arg20 (by decide)).trans <| rfl
theorem arg21At17 (c : Dev nD) : V17 m outs c main_arg21 = m ((c : Thread nD τ).loc main_arg21) :=
  (V17_of m outs c main_arg21 (by decide)).trans <| (V16_of m outs c main_arg21 (by decide)).trans <| (V15_of m outs c main_arg21 (by decide)).trans <| (V14_of m outs c main_arg21 (by decide)).trans <| (V13_of m outs c main_arg21 (by decide)).trans <| (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m outs c main_arg21 (by decide)).trans <| (V5_of m outs c main_arg21 (by decide)).trans <| (V4_of m outs c main_arg21 (by decide)).trans <| (V3_of m outs c main_arg21 (by decide)).trans <| (V2_of m outs c main_arg21 (by decide)).trans <| (V1_of m c main_arg21 (by decide)).trans <| rfl

/-! ## The slices, the rows and the mask, where they are written -/

theorem v4At4 (c : Dev nD) : V4 m outs c main_v4 = sl0 (outs 2 main_v2 c) := (ops2_v4 (V3 m outs c)).trans (congrArg sl0 (v2At3 m outs c))
theorem v5At4 (c : Dev nD) : V4 m outs c main_v5 = sl1 (outs 2 main_v2 c) := (ops2_v5 (V3 m outs c)).trans (congrArg sl1 (v2At3 m outs c))
theorem v6At4 (c : Dev nD) : V4 m outs c main_v6 = sl2 (outs 2 main_v2 c) := (ops2_v6 (V3 m outs c)).trans (congrArg sl2 (v2At3 m outs c))
theorem v7At4 (c : Dev nD) : V4 m outs c main_v7 = sl0 (outs 3 main_v3 c) := (ops2_v7 (V3 m outs c)).trans (congrArg sl0 (v3At3 m outs c))
theorem v8At4 (c : Dev nD) : V4 m outs c main_v8 = sl1 (outs 3 main_v3 c) := (ops2_v8 (V3 m outs c)).trans (congrArg sl1 (v3At3 m outs c))
theorem v9At4 (c : Dev nD) : V4 m outs c main_v9 = sl2 (outs 3 main_v3 c) := (ops2_v9 (V3 m outs c)).trans (congrArg sl2 (v3At3 m outs c))
theorem v21At6 (c : Dev nD) : V6 m outs c main_v21 = row0 (m ((c : Thread nD τ).loc main_arg2)) := (ops2_2_v21 (V5 m outs c)).trans (congrArg row0 (arg2At5 m outs c))
theorem v23At6 (c : Dev nD) : V6 m outs c main_v23 = row1 (m ((c : Thread nD τ).loc main_arg2)) := (ops2_2_v23 (V5 m outs c)).trans (congrArg row1 (arg2At5 m outs c))
theorem v37At11 (c : Dev nD) : V11 m outs c main_v37 = row0 (m ((c : Thread nD τ).loc main_arg3)) := (ops3_v37 (V10 m outs c)).trans (congrArg row0 (arg3At10 m outs c))
theorem v39At11 (c : Dev nD) : V11 m outs c main_v39 = row1 (m ((c : Thread nD τ).loc main_arg3)) := (ops3_v39 (V10 m outs c)).trans (congrArg row1 (arg3At10 m outs c))

theorem v14At5 (c : Dev nD) : V5 m outs c main_v14 = floorDiv colIota (constantI S_ 32 32#32) :=
  (ops2_1_v14 (V4 m outs c)).trans (congrArg₂ floorDiv (ops2_v11 (V3 m outs c)) (ops2_c (V3 m outs c)))
theorem v13At5 (c : Dev nD) : V5 m outs c main_v13 = headIota :=
  (V5_of m outs c main_v13 (by decide)).trans <| ops2_v13 (V3 m outs c)
theorem v18At6 (c : Dev nD) : V6 m outs c main_v18 = maskH :=
  (ops2_2_v18 (V5 m outs c)).trans (congrArg₂ maskOf (v14At5 m outs c) (v13At5 m outs c))
theorem v19At6 (c : Dev nD) : V6 m outs c main_v19 = maskB :=
  (ops2_2_v19 (V5 m outs c)).trans (congrArg (fun M => transpose S4x128 [1, 0] M transposes_S128x4_S4x128_1_0) (congrArg₂ (maskOf (F := F)) (v14At5 m outs c) (v13At5 m outs c)))

/-! ## Region 0 and region 1: a block of node features and the three weight matrices side by side -/

theorem in0_0 (c : Dev nD) : V1 m c main_arg0 = m ((c : Thread nD τ).loc main_arg0) :=
  (V1_of m c main_arg0 (by decide)).trans <| rfl
theorem in0_1 (c : Dev nD) : V1 m c main_v0 = wcat (m ((c : Thread nD τ).loc main_arg4)) (m ((c : Thread nD τ).loc main_arg5)) (m ((c : Thread nD τ).loc main_arg6)) := ops0_v0 (V0 m c)
theorem in1_0 (c : Dev nD) : V2 m outs c main_arg1 = m ((c : Thread nD τ).loc main_arg1) :=
  (V2_of m outs c main_arg1 (by decide)).trans <| (V1_of m c main_arg1 (by decide)).trans <| rfl
theorem in1_1 (c : Dev nD) : V2 m outs c main_v1 = wcat (m ((c : Thread nD τ).loc main_arg7)) (m ((c : Thread nD τ).loc main_arg8)) (m ((c : Thread nD τ).loc main_arg9)) :=
  (V2_of m outs c main_v1 (by decide)).trans <| ops0_v1 (V0 m c)

/-! ## Region 2: keys of the first table at the sources, queries of the second at the destinations, values of the first at the sources -/

/-- Columns 0 … 127 of what region 0 left, at the first edge list's sources. -/
theorem in2_0 (c : Dev nD) : V9 m outs c main_v24 = takeRows (sl0 (outs 2 main_v2 c)) (row0 (m ((c : Thread nD τ).loc main_arg2))) :=
  (V9_of m outs c main_v24 (by decide)).trans <| (V8_of m outs c main_v24 (by decide)).trans <| (ops2_3_v24 (V6 m outs c)).trans <| congrArg₂ takeRows ((V6_of m outs c main_v4 (by decide)).trans <| (V5_of m outs c main_v4 (by decide)).trans <| v4At4 m outs c) (v21At6 m outs c)
/-- Columns 128 … 255 of what region 1 left, at the first edge list's destinations. -/
theorem in2_1 (c : Dev nD) : V9 m outs c main_v25 = takeRows (sl1 (outs 3 main_v3 c)) (row1 (m ((c : Thread nD τ).loc main_arg2))) :=
  (V9_of m outs c main_v25 (by decide)).trans <| (ops2_4_v25 (V7 m outs c)).trans <| congrArg₂ takeRows ((V7_of m outs c main_v8 (by decide)).trans <| (V6_of m outs c main_v8 (by decide)).trans <| (V5_of m outs c main_v8 (by decide)).trans <| v8At4 m outs c) ((V7_of m outs c main_v23 (by decide)).trans <| v23At6 m outs c)
/-- Columns 256 … 383 of what region 0 left, at the first edge list's sources. -/
theorem in2_2 (c : Dev nD) : V9 m outs c main_v26 = takeRows (sl2 (outs 2 main_v2 c)) (row0 (m ((c : Thread nD τ).loc main_arg2))) :=
  (ops2_5_v26 (V8 m outs c)).trans <| congrArg₂ takeRows ((V8_of m outs c main_v6 (by decide)).trans <| (V7_of m outs c main_v6 (by decide)).trans <| (V6_of m outs c main_v6 (by decide)).trans <| (V5_of m outs c main_v6 (by decide)).trans <| v6At4 m outs c) ((V8_of m outs c main_v21 (by decide)).trans <| (V7_of m outs c main_v21 (by decide)).trans <| v21At6 m outs c)
theorem in2_3 (c : Dev nD) : V9 m outs c main_arg10 = m ((c : Thread nD τ).loc main_arg10) :=
  (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans <| rfl
theorem in2_4 (c : Dev nD) : V9 m outs c main_v18 = maskH :=
  (V9_of m outs c main_v18 (by decide)).trans <| (V8_of m outs c main_v18 (by decide)).trans <| (V7_of m outs c main_v18 (by decide)).trans <| v18At6 m outs c
theorem in2_5 (c : Dev nD) : V9 m outs c main_v19 = maskB :=
  (V9_of m outs c main_v19 (by decide)).trans <| (V8_of m outs c main_v19 (by decide)).trans <| (V7_of m outs c main_v19 (by decide)).trans <| v19At6 m outs c

/-! ## Region 3: the other way round, over the second edge list -/

/-- Columns 0 … 127 of what region 1 left, at the second edge list's sources. -/
theorem in3_0 (c : Dev nD) : V14 m outs c main_v40 = takeRows (sl0 (outs 3 main_v3 c)) (row0 (m ((c : Thread nD τ).loc main_arg3))) :=
  (V14_of m outs c main_v40 (by decide)).trans <| (V13_of m outs c main_v40 (by decide)).trans <| (ops3_1_v40 (V11 m outs c)).trans <| congrArg₂ takeRows ((V11_of m outs c main_v7 (by decide)).trans <| (V10_of m outs c main_v7 (by decide)).trans <| (V9_of m outs c main_v7 (by decide)).trans <| (V8_of m outs c main_v7 (by decide)).trans <| (V7_of m outs c main_v7 (by decide)).trans <| (V6_of m outs c main_v7 (by decide)).trans <| (V5_of m outs c main_v7 (by decide)).trans <| v7At4 m outs c) (v37At11 m outs c)
/-- Columns 128 … 255 of what region 0 left, at the second edge list's destinations. -/
theorem in3_1 (c : Dev nD) : V14 m outs c main_v41 = takeRows (sl1 (outs 2 main_v2 c)) (row1 (m ((c : Thread nD τ).loc main_arg3))) :=
  (V14_of m outs c main_v41 (by decide)).trans <| (ops3_2_v41 (V12 m outs c)).trans <| congrArg₂ takeRows ((V12_of m outs c main_v5 (by decide)).trans <| (V11_of m outs c main_v5 (by decide)).trans <| (V10_of m outs c main_v5 (by decide)).trans <| (V9_of m outs c main_v5 (by decide)).trans <| (V8_of m outs c main_v5 (by decide)).trans <| (V7_of m outs c main_v5 (by decide)).trans <| (V6_of m outs c main_v5 (by decide)).trans <| (V5_of m outs c main_v5 (by decide)).trans <| v5At4 m outs c) ((V12_of m outs c main_v39 (by decide)).trans <| v39At11 m outs c)
/-- Columns 256 … 383 of what region 1 left, at the second edge list's sources. -/
theorem in3_2 (c : Dev nD) : V14 m outs c main_v42 = takeRows (sl2 (outs 3 main_v3 c)) (row0 (m ((c : Thread nD τ).loc main_arg3))) :=
  (ops3_3_v42 (V13 m outs c)).trans <| congrArg₂ takeRows ((V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (V5_of m outs c main_v9 (by decide)).trans <| v9At4 m outs c) ((V13_of m outs c main_v37 (by decide)).trans <| (V12_of m outs c main_v37 (by decide)).trans <| v37At11 m outs c)
theorem in3_3 (c : Dev nD) : V14 m outs c main_arg11 = m ((c : Thread nD τ).loc main_arg11) :=
  (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans <| rfl
theorem in3_4 (c : Dev nD) : V14 m outs c main_v18 = maskH :=
  (V14_of m outs c main_v18 (by decide)).trans <| (V13_of m outs c main_v18 (by decide)).trans <| (V12_of m outs c main_v18 (by decide)).trans <| (V11_of m outs c main_v18 (by decide)).trans <| (V10_of m outs c main_v18 (by decide)).trans <| (V9_of m outs c main_v18 (by decide)).trans <| (V8_of m outs c main_v18 (by decide)).trans <| (V7_of m outs c main_v18 (by decide)).trans <| v18At6 m outs c
theorem in3_5 (c : Dev nD) : V14 m outs c main_v19 = maskB :=
  (V14_of m outs c main_v19 (by decide)).trans <| (V13_of m outs c main_v19 (by decide)).trans <| (V12_of m outs c main_v19 (by decide)).trans <| (V11_of m outs c main_v19 (by decide)).trans <| (V10_of m outs c main_v19 (by decide)).trans <| (V9_of m outs c main_v19 (by decide)).trans <| (V8_of m outs c main_v19 (by decide)).trans <| (V7_of m outs c main_v19 (by decide)).trans <| v19At6 m outs c

/-! ## Region 4: the first layer's messages summed by destination, their weight sums as a column, and the node update's parameters -/

theorem in4_0 (c : Dev nD) : V16 m outs c main_v30 = segSum2 (row1 (m ((c : Thread nD τ).loc main_arg2))) (outs 10 main_v27_0 c) :=
  (V16_of m outs c main_v30 (by decide)).trans <| (V15_of m outs c main_v30 (by decide)).trans <| (V14_of m outs c main_v30 (by decide)).trans <| (V13_of m outs c main_v30 (by decide)).trans <| (V12_of m outs c main_v30 (by decide)).trans <| (ops3_v30 (V10 m outs c)).trans <| congrArg₂ segSum2 ((V10_of m outs c main_v23 (by decide)).trans <| (V9_of m outs c main_v23 (by decide)).trans <| (V8_of m outs c main_v23 (by decide)).trans <| (V7_of m outs c main_v23 (by decide)).trans <| v23At6 m outs c) (v27_0At10 m outs c)
theorem in4_1 (c : Dev nD) : V16 m outs c main_v35 = col (segSum1 (row1 (m ((c : Thread nD τ).loc main_arg2))) (flat (outs 10 main_v27_1 c))) :=
  (V16_of m outs c main_v35 (by decide)).trans <| (V15_of m outs c main_v35 (by decide)).trans <| (V14_of m outs c main_v35 (by decide)).trans <| (V13_of m outs c main_v35 (by decide)).trans <| (V12_of m outs c main_v35 (by decide)).trans <| (ops3_v35 (V10 m outs c)).trans <| congrArg col (congrArg₂ segSum1 ((V10_of m outs c main_v23 (by decide)).trans <| (V9_of m outs c main_v23 (by decide)).trans <| (V8_of m outs c main_v23 (by decide)).trans <| (V7_of m outs c main_v23 (by decide)).trans <| v23At6 m outs c) (congrArg flat (v27_1At10 m outs c)))
theorem in4_2 (c : Dev nD) : V16 m outs c main_arg1 = m ((c : Thread nD τ).loc main_arg1) :=
  (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans <| rfl
theorem in4_3 (c : Dev nD) : V16 m outs c main_arg14 = m ((c : Thread nD τ).loc main_arg14) :=
  (V16_of m outs c main_arg14 (by decide)).trans <| (V15_of m outs c main_arg14 (by decide)).trans <| (V14_of m outs c main_arg14 (by decide)).trans <| (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans <| rfl
theorem in4_4 (c : Dev nD) : V16 m outs c main_v52 = rowv (m ((c : Thread nD τ).loc main_arg15)) := (ops4_v52 (V15 m outs c)).trans (congrArg rowv (arg15At15 m outs c))
theorem in4_5 (c : Dev nD) : V16 m outs c main_arg18 = m ((c : Thread nD τ).loc main_arg18) :=
  (V16_of m outs c main_arg18 (by decide)).trans <| (V15_of m outs c main_arg18 (by decide)).trans <| (V14_of m outs c main_arg18 (by decide)).trans <| (V13_of m outs c main_arg18 (by decide)).trans <| (V12_of m outs c main_arg18 (by decide)).trans <| (V11_of m outs c main_arg18 (by decide)).trans <| (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m outs c main_arg18 (by decide)).trans <| (V2_of m outs c main_arg18 (by decide)).trans <| (V1_of m c main_arg18 (by decide)).trans <| rfl
theorem in4_6 (c : Dev nD) : V16 m outs c main_v53 = rowv (m ((c : Thread nD τ).loc main_arg19)) := (ops4_v53 (V15 m outs c)).trans (congrArg rowv (arg19At15 m outs c))
theorem in4_7 (c : Dev nD) : V16 m outs c main_v54 = rowv (m ((c : Thread nD τ).loc main_arg22)) := (ops4_v54 (V15 m outs c)).trans (congrArg rowv (arg22At15 m outs c))
theorem in4_8 (c : Dev nD) : V16 m outs c main_v55 = rowv (m ((c : Thread nD τ).loc main_arg23)) := (ops4_v55 (V15 m outs c)).trans (congrArg rowv (arg23At15 m outs c))

/-! ## Region 5: the same for the second layer -/

theorem in5_0 (c : Dev nD) : V18 m outs c main_v46 = segSum2 (row1 (m ((c : Thread nD τ).loc main_arg3))) (outs 15 main_v43_0 c) :=
  (V18_of m outs c main_v46 (by decide)).trans <| (V17_of m outs c main_v46 (by decide)).trans <| (ops4_v46 (V15 m outs c)).trans <| congrArg₂ segSum2 ((V15_of m outs c main_v39 (by decide)).trans <| (V14_of m outs c main_v39 (by decide)).trans <| (V13_of m outs c main_v39 (by decide)).trans <| (V12_of m outs c main_v39 (by decide)).trans <| v39At11 m outs c) (v43_0At15 m outs c)
theorem in5_1 (c : Dev nD) : V18 m outs c main_v51 = col (segSum1 (row1 (m ((c : Thread nD τ).loc main_arg3))) (flat (outs 15 main_v43_1 c))) :=
  (V18_of m outs c main_v51 (by decide)).trans <| (V17_of m outs c main_v51 (by decide)).trans <| (ops4_v51 (V15 m outs c)).trans <| congrArg col (congrArg₂ segSum1 ((V15_of m outs c main_v39 (by decide)).trans <| (V14_of m outs c main_v39 (by decide)).trans <| (V13_of m outs c main_v39 (by decide)).trans <| (V12_of m outs c main_v39 (by decide)).trans <| v39At11 m outs c) (congrArg flat (v43_1At15 m outs c)))
theorem in5_2 (c : Dev nD) : V18 m outs c main_arg0 = m ((c : Thread nD τ).loc main_arg0) :=
  (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans <| rfl
theorem in5_3 (c : Dev nD) : V18 m outs c main_arg12 = m ((c : Thread nD τ).loc main_arg12) :=
  (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans <| rfl
theorem in5_4 (c : Dev nD) : V18 m outs c main_v57 = rowv (m ((c : Thread nD τ).loc main_arg13)) := (ops5_v57 (V17 m outs c)).trans (congrArg rowv (arg13At17 m outs c))
theorem in5_5 (c : Dev nD) : V18 m outs c main_arg16 = m ((c : Thread nD τ).loc main_arg16) :=
  (V18_of m outs c main_arg16 (by decide)).trans <| (V17_of m outs c main_arg16 (by decide)).trans <| (V16_of m outs c main_arg16 (by decide)).trans <| (V15_of m outs c main_arg16 (by decide)).trans <| (V14_of m outs c main_arg16 (by decide)).trans <| (V13_of m outs c main_arg16 (by decide)).trans <| (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans <| rfl
theorem in5_6 (c : Dev nD) : V18 m outs c main_v58 = rowv (m ((c : Thread nD τ).loc main_arg17)) := (ops5_v58 (V17 m outs c)).trans (congrArg rowv (arg17At17 m outs c))
theorem in5_7 (c : Dev nD) : V18 m outs c main_v59 = rowv (m ((c : Thread nD τ).loc main_arg20)) := (ops5_v59 (V17 m outs c)).trans (congrArg rowv (arg20At17 m outs c))
theorem in5_8 (c : Dev nD) : V18 m outs c main_v60 = rowv (m ((c : Thread nD τ).loc main_arg21)) := (ops5_v60 (V17 m outs c)).trans (congrArg rowv (arg21At17 m outs c))

/-! ## The result -/

/-- The program's result: what region 5 left stacked on what region 4 left. -/
theorem res_v64 (c : Dev nD) : V20 m outs c main_v64 = stack2 (outs 19 main_v61 c) (outs 17 main_v56 c) :=
  (ops6_v64 (V19 m outs c)).trans <| congrArg₂ stack2 (v61At19 m outs c) ((V19_of m outs c main_v56 (by decide)).trans <| (V18_of m outs c main_v56 (by decide)).trans <| v56At17 m outs c)

end Cert.KernelIdeal.HostVal

end
-- ==== Proof.Spec.lean ====
/- The layer's arithmetic written once, entry by entry, over the extended reals: a matrix product's entry, an edge's
   attention scores over the four heads (the head-wise dot product of key and query scaled by the reciprocal of the
   reference's divisor, plus the key's projection on the head's bias column), their softmax over the heads, the attended
   value row, and a node's update (the aggregated message divided by the clamped weight sum, two affine maps, the
   residual, and the layer normalisation of the row). Both programs' results are proved equal to these functions. -/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (n0 n1 : Nat) : Type := (⟨2, ![n0, n1]⟩ : Shape).Idx → EReal

/-- Entry (r, c) of the matrix product of `x` and `w`. -/
def mm {R K C : Nat} (x : Arr2 R K) (w : Arr2 K C) (r : Fin R) (c : Fin C) : EReal :=
  ∑ k : Fin K, x (ix2 r k) * w (ix2 k c)

/-- Column `j` of head `h`: the 128 feature columns are four consecutive heads of 32. -/
def feat (h : Fin 4) (j : Fin 32) : Fin 128 := ⟨32 * h.val + j.val, by omega⟩
/-- The head a feature column belongs to. -/
def headOf (d : Fin 128) : Fin 4 := ⟨d.val / 32, by omega⟩

/-- The reciprocal of the reference's divisor, the binary32 number nearest the square root of 32 (11863283 / 2^21). -/
def cinv : EReal := ((2097152 / 11863283 : ℝ) : EReal)
/-- The clamp under the weight sum, the layer norm's epsilon and the row length, as the binary32 words both programs carry. -/
def eps8 : EReal := Ideal.ofBits .f32 0x322BCC77#32
def eps5 : EReal := Ideal.ofBits .f32 0x3727C5AC#32
def c128 : EReal := Ideal.ofBits .f32 0x43000000#32

/-- The head indicator: 1 where column `d` belongs to head `h`, else 0. -/
def ind (d : Fin 128) (h : Fin 4) : EReal := if headOf d = h then 1 else 0

/-! ## One edge -/

/-- The score of edge `e` at head `h`. -/
def score {E : Nat} (ek eq : Arr2 E 128) (wa : Arr2 128 4) (e : Fin E) (h : Fin 4) : EReal :=
  (∑ j : Fin 32, ek (ix2 e (feat h j)) * eq (ix2 e (feat h j))) * cinv + ∑ d : Fin 128, ek (ix2 e d) * wa (ix2 d h)

/-- The largest of four extended reals, folded from the bottom element. -/
def smax (s : Fin 4 → EReal) : EReal := (Finset.univ : Finset (Fin 4)).fold max ⊥ s

/-- The exponential of a score less the edge's largest score. -/
def expo {E : Nat} (ek eq : Arr2 E 128) (wa : Arr2 128 4) (e : Fin E) (h : Fin 4) : EReal :=
  Ideal.exp (score ek eq wa e h - smax (score ek eq wa e))

/-- The softmax over the heads. -/
def attn {E : Nat} (ek eq : Arr2 E 128) (wa : Arr2 128 4) (e : Fin E) (h : Fin 4) : EReal :=
  Ideal.div (expo ek eq wa e h) (∑ h' : Fin 4, expo ek eq wa e h')

/-- The sum of an edge's attention weights. -/
def wsum {E : Nat} (ek eq : Arr2 E 128) (wa : Arr2 128 4) (e : Fin E) : EReal := ∑ h : Fin 4, attn ek eq wa e h

/-- The attended value: each column of the value row scaled by its head's weight. -/
def attended {E : Nat} (ek eq ev : Arr2 E 128) (wa : Arr2 128 4) (e : Fin E) (d : Fin 128) : EReal :=
  attn ek eq wa e (headOf d) * ev (ix2 e d)

/-! ## One node -/

/-- The aggregated message over the clamped weight sum. -/
def agg {N : Nat} (msg : Arr2 N 128) (ws : Fin N → EReal) (r : Fin N) (k : Fin 128) : EReal :=
  Ideal.div (msg (ix2 r k)) (max (ws r) eps8)

/-- The first affine map. -/
def lin1 {N : Nat} (msg : Arr2 N 128) (ws : Fin N → EReal) (wm : Arr2 128 128) (bm : Fin 128 → EReal) (r : Fin N) (q : Fin 128) : EReal :=
  (∑ k : Fin 128, agg msg ws r k * wm (ix2 k q)) + bm q

/-- The second affine map and the residual. -/
def resid {N : Nat} (msg : Arr2 N 128) (ws : Fin N → EReal) (x : Arr2 N 128) (wm : Arr2 128 128) (bm : Fin 128 → EReal)
    (wg : Arr2 128 128) (bg : Fin 128 → EReal) (r : Fin N) (q : Fin 128) : EReal :=
  ((∑ k : Fin 128, lin1 msg ws wm bm r k * wg (ix2 k q)) + bg q) + x (ix2 r q)

/-- The layer normalisation of a row `y` of 128 extended reals with gain `g` and shift `b`. -/
def rowMean (y : Fin 128 → EReal) : EReal := Ideal.div (∑ q : Fin 128, y q) c128
def rowVar (y : Fin 128 → EReal) : EReal := Ideal.div (∑ q : Fin 128, (y q - rowMean y) * (y q - rowMean y)) c128
def lnorm (y g b : Fin 128 → EReal) (q : Fin 128) : EReal :=
  (y q - rowMean y) * Ideal.rsqrt (rowVar y + eps5) * g q + b q

/-- A node's updated row. -/
def upd {N : Nat} (msg : Arr2 N 128) (ws : Fin N → EReal) (x : Arr2 N 128) (wm : Arr2 128 128) (bm : Fin 128 → EReal)
    (wg : Arr2 128 128) (bg g b : Fin 128 → EReal) (r : Fin N) (q : Fin 128) : EReal :=
  lnorm (resid msg ws x wm bm wg bg r) g b q

end Cert.Spec

end
-- ==== Proof.Val.Mask.lean ====
/- The two head-indicator matrices the host forms are the specification's indicator. Entry (d, h) of the 128 x 4 mask
   compares the floor of d / 32 with h on 32-bit words and converts the one-bit result to a number; for d below 128 and
   the divisor 32 both signs are positive, so the floor division is the truncated quotient, the word of d / 32 (decided
   over the 128 columns), and two head numbers' words agree exactly when the heads do (decided over the 16 pairs). The
   4 x 128 mask is the transpose. -/
import proofs.«412788_j87737591923455_1_alg».proof.Proof.Spec
import proofs.«412788_j87737591923455_1_alg».proof.Proof.Val.HostDefs
import Idealize.ShloMosaic.Lib.ValueIdx
import Idealize.ShloMosaic.Lib.Pipeline.Value
import Idealize.ShloMosaic.Lib.ValueLayout

noncomputable section

namespace Cert.KernelIdeal.HostVal

open Cert.KernelIdeal Cert.KernelIdeal.Gen Idealize.ShloMosaic Idealize.ShloMosaic.ValueIdx

/-! ## The layout operations of the mask read at an index -/

/-- A scalar broadcast to any shape reads the scalar everywhere. -/
theorem bcastScalar_apply {α : Type} {t : Shape} (h : S_.BroadcastsInDim t ![]) (v : S_.Idx → α) (j : t.Idx) :
    broadcastInDim t ![] h v j = v ix0 :=
  broadcastInDim_apply ![] h v j ix0 (fun a => a.elim0)

/-- The column of column numbers reads, at row `d`, the word `d`. -/
theorem colIota_apply (d : Fin 128) (u : Fin 1) : colIota (ix2 d u) = BitVec.ofNat 32 d.val := by
  unfold colIota
  refine (broadcastInDim_apply ![0] bcast_S128_S128x1_0 _ (ix2 d u) (ix1 d) fun a => ?_).trans rfl
  match a with
  | ⟨0, _⟩ => rfl

/-- The row of head numbers reads, at column `h`, the word `h`. -/
theorem headIota_apply (u : Fin 1) (h : Fin 4) : headIota (ix2 u h) = BitVec.ofNat 32 h.val := by
  unfold headIota
  refine (broadcastInDim_apply ![1] bcast_S4_S1x4_1 _ (ix2 u h) (ix1 h) fun a => ?_).trans rfl
  match a with
  | ⟨0, _⟩ => rfl

/-- A 128 x 1 column laid along the rows of a 128 x 4 block reads, at `(d, h)`, the column at `d`. -/
theorem bcastCol_apply {α : Type} (v : S128x1.Idx → α) (d : Fin 128) (h : Fin 4) :
    broadcastInDim S128x4 ![0, 1] bcast_S128x1_S128x4_0_1 v (ix2 d h) = v (ix2 d (0 : Fin 1)) := by
  refine broadcastInDim_apply ![0, 1] bcast_S128x1_S128x4_0_1 v (ix2 d h) (ix2 d (0 : Fin 1)) fun a => ?_
  match a with
  | ⟨0, _⟩ => rfl
  | ⟨1, _⟩ => rfl

/-- A 1 x 4 row laid down the columns of a 128 x 4 block reads, at `(d, h)`, the row at `h`. -/
theorem bcastRow_apply {α : Type} (v : S1x4.Idx → α) (d : Fin 128) (h : Fin 4) :
    broadcastInDim S128x4 ![0, 1] bcast_S1x4_S128x4_0_1 v (ix2 d h) = v (ix2 (0 : Fin 1) h) := by
  refine broadcastInDim_apply ![0, 1] bcast_S1x4_S128x4_0_1 v (ix2 d h) (ix2 (0 : Fin 1) h) fun a => ?_
  match a with
  | ⟨0, _⟩ => rfl
  | ⟨1, _⟩ => rfl

/-! ## The floor division on words -/

/-- The sign word of a 32-bit word. -/
def sgnWord (x : BitVec 32) : BitVec 32 := if x = 0 then 0 else if x.msb then -1 else 1

/-- The floor of `x / c` on 32-bit words: the truncated quotient, less one where the signs differ and the remainder is
    not zero. -/
def fdWord (x c : BitVec 32) : BitVec 32 :=
  Scalar.select (IntOp.andi (IntOp.cmpi .ne (sgnWord x) (sgnWord c)) (IntOp.cmpi .ne (IntOp.remsi .host x c) 0#32))
    (IntOp.subi (IntOp.divsi .host x c) 1#32) (IntOp.divsi .host x c)

/-- The floor division of a column by a scalar reads, entry by entry, the word floor division. -/
theorem floorDiv_apply (x : IVec S128x1 32) (c : IVec S_ 32) (j : S128x1.Idx) :
    floorDiv x c j = fdWord (x j) (c ix0) := by
  unfold floorDiv fdWord
  show Scalar.select (IntOp.andi (IntOp.cmpi .ne (sgnWord (x j)) (broadcastInDim S128x1 ![] bcast_S_S128x1 (signi c) j))
      (IntOp.cmpi .ne (IntOp.remsi .host (x j) (broadcastInDim S128x1 ![] bcast_S_S128x1 c j))
        (broadcastInDim S128x1 ![] bcast_S_S128x1 (constantI S_ 32 0#32) j)))
    (IntOp.subi (IntOp.divsi .host (x j) (broadcastInDim S128x1 ![] bcast_S_S128x1 c j))
      (broadcastInDim S128x1 ![] bcast_S_S128x1 (constantI S_ 32 1#32) j))
    (IntOp.divsi .host (x j) (broadcastInDim S128x1 ![] bcast_S_S128x1 c j)) = _
  rw [bcastScalar_apply bcast_S_S128x1 (signi c) j, bcastScalar_apply bcast_S_S128x1 c j,
    bcastScalar_apply bcast_S_S128x1 (constantI S_ 32 0#32) j, bcastScalar_apply bcast_S_S128x1 (constantI S_ 32 1#32) j]
  rfl

/-- For a column number below 128 the word floor division by 32 is the word of the quotient: decided over the columns. -/
theorem fdWord_col : ∀ d : Fin 128, fdWord (BitVec.ofNat 32 d.val) 32#32 = BitVec.ofNat 32 (d.val / 32) := by
  decide +kernel

/-- Two head numbers' words are equal exactly when the heads are: decided over the pairs. -/
theorem cmpi_head : ∀ a b : Fin 4, IntOp.cmpi .eq (BitVec.ofNat 32 a.val) (BitVec.ofNat 32 b.val) = if a = b then 1#1 else 0#1 := by
  decide +kernel

/-! ## The two head-indicator matrices -/

/-- The 128 x 4 mask is the head indicator. -/
theorem maskH_apply (d : Fin 128) (h : Fin 4) : (maskH (F := Ideal)) (ix2 d h) = Cert.Spec.ind d h := by
  unfold maskH maskOf
  show FloatOps.uitofp (F := Ideal) .f32 (IntOp.cmpi .eq
    (broadcastInDim S128x4 ![0, 1] bcast_S128x1_S128x4_0_1 (floorDiv colIota (constantI S_ 32 32#32)) (ix2 d h))
    (broadcastInDim S128x4 ![0, 1] bcast_S1x4_S128x4_0_1 headIota (ix2 d h))) = _
  rw [bcastCol_apply, bcastRow_apply, floorDiv_apply, colIota_apply, headIota_apply]
  show FloatOps.uitofp (F := Ideal) .f32 (IntOp.cmpi .eq (fdWord (BitVec.ofNat 32 d.val) 32#32) (BitVec.ofNat 32 h.val)) = _
  rw [fdWord_col d]
  have hc := cmpi_head (Cert.Spec.headOf d) h
  rw [show (Cert.Spec.headOf d).val = d.val / 32 from rfl] at hc
  rw [hc]
  unfold Cert.Spec.ind
  by_cases hh : Cert.Spec.headOf d = h
  · rw [if_pos hh, if_pos hh]
    show (((1#1 : BitVec 1).toNat : ℝ) : EReal) = 1
    simp
  · rw [if_neg hh, if_neg hh]
    show (((0#1 : BitVec 1).toNat : ℝ) : EReal) = 0
    simp

/-- The 4 x 128 mask is its transpose. -/
theorem maskB_apply (h : Fin 4) (d : Fin 128) : (maskB (F := Ideal)) (ix2 h d) = Cert.Spec.ind d h := by
  unfold maskB
  exact (transpose_ix2_apply _ transposes_S128x4_S4x128_1_0 h d).trans (maskH_apply d h)

end Cert.KernelIdeal.HostVal

end
-- ==== Proof.Val.ProjPay.lean ====
/- The projection body read at one entry: a block of rows times the weights is, entry by entry, the matrix product's
   sum over the 128 shared columns. The two narrowings of the operands and the cast to the same shape are the identity
   on extended reals, and the accumulator is the zero splat. -/
import proofs.«412788_j87737591923455_1_alg».proof.Proof.Spec
import proofs.«412788_j87737591923455_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjVal

open Cert.KernelIdeal Cert.KernelIdeal.Gen Idealize.ShloMosaic Idealize.ShloMosaic.ValueIdx

/-! ## The operand indices of the product's dimension numbers

The left operand is read at (row of the result, contraction coordinate), the right one at (contraction coordinate,
column of the result): one statement per operand and axis. -/

theorem lhsProj_row (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhsProj_contr (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhsProj_contr (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhsProj_col (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The product of a 5000 x 128 block and the 128 x 384 weights, accumulated into the zero splat and read at (p, q):
    the sum over the shared coordinate of the operands' products. -/
theorem mmProj_apply (a : FVec Ideal S5000x128 .bf16) (b : FVec Ideal S128x384 .bf16) (p : Fin 5000) (q : Fin 384) :
    matmul dot_S5000x128_S128x384_S5000x384_1_0_0_1_n_n none a b (constant (F := Ideal) S5000x384 .f32 0x00000000#32) (ix2 p q)
      = ∑ k : Fin 128, a (ix2 p k) * b (ix2 k q) := by
  simp only [matmul]
  rw [Ideal.matmul_constant_zero_apply, ← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  have el : dot_S5000x128_S128x384_S5000x384_1_0_0_1_n_n.lhsIdx (ix2 p q) ((contrEquiv1 dot_S5000x128_S128x384_S5000x384_1_0_0_1_n_n 128 rfl rfl).symm k) = ix2 p k := funext fun a => Fin.ext (by
    match a with
    | ⟨0, _⟩ => exact lhsProj_row _ _
    | ⟨1, _⟩ => exact (lhsProj_contr _ _).trans hk)
  have er : dot_S5000x128_S128x384_S5000x384_1_0_0_1_n_n.rhsIdx (ix2 p q) ((contrEquiv1 dot_S5000x128_S128x384_S5000x384_1_0_0_1_n_n 128 rfl rfl).symm k) = ix2 k q := funext fun a => Fin.ext (by
    match a with
    | ⟨0, _⟩ => exact (rhsProj_contr _ _).trans hk
    | ⟨1, _⟩ => exact rhsProj_col _ _)
  rw [el, er]

/-! ## The body's result at an entry -/

/-- The stored block at (p, q) is entry (p, q) of the product of the loaded rows and the loaded weights. -/
theorem payAt0_mm (x : Vec Ideal S5000x128 .f32) (w : Vec Ideal S128x384 .f32) (p : Fin 5000) (q : Fin 384) :
    k0_pay1 (F := Ideal) x w (ix2 p q) = Cert.Spec.mm x w p q := by
  unfold k0_pay1
  refine (mmProj_apply _ _ p q).trans ?_
  unfold Cert.Spec.mm
  refine Finset.sum_congr rfl fun k _ => ?_
  rw [truncf_apply, truncf_apply, shapeCast_self]

end Cert.KernelIdeal.ProjVal

end
-- ==== Proof.Val.ProjArr.lean ====
/- From blocks to the array, for the projection region. Each of the ten grid points writes back one block of 5000 rows
   of the output; that block is the same block of the matrix product of the node table and the weights, because the
   point's input block is the same rows of the node table and the weights are read whole. The blocks tile the output
   (row r lies in the block of point r / 5000), so the output array ends as the matrix product, entry by entry. -/
import proofs.«412788_j87737591923455_1_alg».proof.Proof.Spec
import proofs.«412788_j87737591923455_1_alg».proof.Proof.KernelIdeal.Reg0
import proofs.«412788_j87737591923455_1_alg».proof.Proof.Val.ProjPay
import Idealize.ShloMosaic.Lib.Pipeline.Value
import Idealize.ShloMosaic.Lib.ValueIdx

noncomputable section

open scoped BigOperators

namespace Cert.KernelIdeal.ProjVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at the block's origin. -/
theorem blk0_origin : (![0, 0] : Fin 2 → Nat) = fun _ => 0 := funext fun a => by fin_cases a <;> rfl

/-- What the output array ends holding: entry (r, s) of the product of the node table and the weights. -/
abbrev final0_G (c : Dev nD) : S50000x384.Idx → EReal :=
  fun i => Cert.Spec.mm (V c main_arg0 : Cert.Spec.Arr2 50000 128) (V c main_v0 : Cert.Spec.Arr2 128 384) (i 0) (i 1)

/-- The three windows' block indices at every grid point: the node table's and the output's row blocks move together
    with the point, the weights' block stays at the origin, and no window moves along the columns. -/
theorem blk0_idx : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product: the body's block at (p, q) is the sum over the shared coordinate
    of the input blocks' products, and an input block's entry sits in its array at block index times block size plus the
    coordinate inside the block. -/
theorem flushed0_2 (c : Dev nD) (t : Fin cfg0.N) :
    (dat0 (F := Ideal) V c).flushed 2 t = ((cfg0.win 2).blk t).view.read (Elt Ideal) (final0_G V c) := by
  show (cfg0.win 2).cut (grid0.coords t) ((dat0 V c).after 2 t) = _
  rw [after0_2]
  unfold out0_2
  rw [View.canon_unit_zero blk0_origin]
  simp only [View.ld_unit_zero (S := S5000x128) blk0_origin, View.ld_unit_zero (S := S128x384) blk0_origin]
  obtain ⟨e0, e1, e2, e3, e4, e5⟩ := blk0_idx t
  funext y
  obtain ⟨p, q, rfl⟩ : ∃ (p : Fin 5000) (q : Fin 384), y = ix2 p q := ⟨y 0, y 1, eq_ix2 y⟩
  show k0_pay1 (F := Ideal) (iblk0 V c 0 t) (iblk0 V c 1 t) (ix2 p q) = final0_G V c (((cfg0.win 2).blk t).view.emb (ix2 p q))
  rw [payAt0_mm]
  unfold Cert.Spec.mm
  refine Finset.sum_congr rfl fun k _ => ?_
  refine congrArg₂ (· * ·) ?_ ?_
  · show V c main_arg0 (((cfg0.win 0).blk t).view.emb (ix2 p k)) = V c main_arg0 _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · show V c main_v0 (((cfg0.win 1).blk t).view.emb (ix2 k q)) = V c main_v0 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 384 + 1 * q.val = win0_2.index t (1 : Fin 2) * 384 + 1 * q.val
      omega

/-- An index of the output array is in point t's block iff each coordinate is in the block's range on its axis. -/
theorem blk0_mem (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v2).slice (win0_2.rect t)).set ↔ _
  rw [View.set_slice_whole, Rect.mem_set_unit]
  exact Iff.rfl

/-- Row r of the output lies in the block of point r / 5000; every point writes its block back. -/
theorem cov0_2 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : cfg0.N = 10 := N_0
  have ht : (i 0).val / 5000 < cfg0.N := by rw [hN]; omega
  obtain ⟨e0, e1, e2, e3, e4, e5⟩ := blk0_idx ⟨(i 0).val / 5000, ht⟩
  refine ⟨⟨(i 0).val / 5000, ht⟩, flush0_2 _, ?_⟩
  rw [blk0_mem]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 384 ≤ (i 1).val ∧ (i 1).val < win0_2.index ⟨(i 0).val / 5000, ht⟩ (1 : Fin 2) * 384 + 384
    rw [e5]
    omega

/-- The output array after the region's run: the product of the node table and the weights, entry by entry. -/
theorem final0_2 (c : Dev nD) :
    (Cert.KernelIdeal.Hand.dat0 (F := Ideal) V c).arrAt 2 cfg0.N = fun i => Cert.Spec.mm (V c main_arg0 : Cert.Spec.Arr2 50000 128) (V c main_v0 : Cert.Spec.Arr2 128 384) (i 0) (i 1) :=
  (dat0 (F := Ideal) V c).arrAt_eq_of_cover 2 (final0_G V c) (fun t _ => flushed0_2 V c t) cov0_2

end Cert.KernelIdeal.ProjVal

end
-- ==== Proof.Val.ProjPay1.lean ====
/- The projection body read at one entry: a block of rows times the weights is, entry by entry, the matrix product's
   sum over the 128 shared columns. The two narrowings of the operands and the cast to the same shape are the identity
   on extended reals, and the accumulator is the zero splat. -/
import proofs.«412788_j87737591923455_1_alg».proof.Proof.Spec
import proofs.«412788_j87737591923455_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjVal1

open Cert.KernelIdeal Cert.KernelIdeal.Gen Idealize.ShloMosaic Idealize.ShloMosaic.ValueIdx

/-! ## The operand indices of the product's dimension numbers

The left operand is read at (row of the result, contraction coordinate), the right one at (contraction coordinate,
column of the result): one statement per operand and axis. -/

theorem lhsProj_row (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhsProj_contr (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhsProj_contr (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhsProj_col (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The product of a 5000 x 128 block and the 128 x 384 weights, accumulated into the zero splat and read at (p, q):
    the sum over the shared coordinate of the operands' products. -/
theorem mmProj_apply (a : FVec Ideal S5000x128 .bf16) (b : FVec Ideal S128x384 .bf16) (p : Fin 5000) (q : Fin 384) :
    matmul dot_S5000x128_S128x384_S5000x384_1_0_0_1_n_n none a b (constant (F := Ideal) S5000x384 .f32 0x00000000#32) (ix2 p q)
      = ∑ k : Fin 128, a (ix2 p k) * b (ix2 k q) := by
  simp only [matmul]
  rw [Ideal.matmul_constant_zero_apply, ← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  have el : dot_S5000x128_S128x384_S5000x384_1_0_0_1_n_n.lhsIdx (ix2 p q) ((contrEquiv1 dot_S5000x128_S128x384_S5000x384_1_0_0_1_n_n 128 rfl rfl).symm k) = ix2 p k := funext fun a => Fin.ext (by
    match a with
    | ⟨0, _⟩ => exact lhsProj_row _ _
    | ⟨1, _⟩ => exact (lhsProj_contr _ _).trans hk)
  have er : dot_S5000x128_S128x384_S5000x384_1_0_0_1_n_n.rhsIdx (ix2 p q) ((contrEquiv1 dot_S5000x128_S128x384_S5000x384_1_0_0_1_n_n 128 rfl rfl).symm k) = ix2 k q := funext fun a => Fin.ext (by
    match a with
    | ⟨0, _⟩ => exact (rhsProj_contr _ _).trans hk
    | ⟨1, _⟩ => exact rhsProj_col _ _)
  rw [el, er]

/-! ## The body's result at an entry -/

/-- The stored block at (p, q) is entry (p, q) of the product of the loaded rows and the loaded weights. -/
theorem payAt1_mm (x : Vec Ideal S5000x128 .f32) (w : Vec Ideal S128x384 .f32) (p : Fin 5000) (q : Fin 384) :
    k1_pay1 (F := Ideal) x w (ix2 p q) = Cert.Spec.mm x w p q := by
  unfold k1_pay1
  refine (mmProj_apply _ _ p q).trans ?_
  unfold Cert.Spec.mm
  refine Finset.sum_congr rfl fun k _ => ?_
  rw [truncf_apply, truncf_apply, shapeCast_self]

end Cert.KernelIdeal.ProjVal1

end
-- ==== Proof.Val.ProjArr1.lean ====
/- From blocks to the array, for the projection region. Each of the ten grid points writes back one block of 5000 rows
   of the output; that block is the same block of the matrix product of the node table and the weights, because the
   point's input block is the same rows of the node table and the weights are read whole. The blocks tile the output
   (row r lies in the block of point r / 5000), so the output array ends as the matrix product, entry by entry. -/
import proofs.«412788_j87737591923455_1_alg».proof.Proof.Spec
import proofs.«412788_j87737591923455_1_alg».proof.Proof.KernelIdeal.Reg1
import proofs.«412788_j87737591923455_1_alg».proof.Proof.Val.ProjPay1
import Idealize.ShloMosaic.Lib.Pipeline.Value
import Idealize.ShloMosaic.Lib.ValueIdx

noncomputable section

open scoped BigOperators

namespace Cert.KernelIdeal.ProjVal1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at the block's origin. -/
theorem blk1_origin : (![0, 0] : Fin 2 → Nat) = fun _ => 0 := funext fun a => by fin_cases a <;> rfl

/-- What the output array ends holding: entry (r, s) of the product of the node table and the weights. -/
abbrev final1_G (c : Dev nD) : S50000x384.Idx → EReal :=
  fun i => Cert.Spec.mm (V c main_arg1 : Cert.Spec.Arr2 50000 128) (V c main_v1 : Cert.Spec.Arr2 128 384) (i 0) (i 1)

/-- The three windows' block indices at every grid point: the node table's and the output's row blocks move together
    with the point, the weights' block stays at the origin, and no window moves along the columns. -/
theorem blk1_idx : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product: the body's block at (p, q) is the sum over the shared coordinate
    of the input blocks' products, and an input block's entry sits in its array at block index times block size plus the
    coordinate inside the block. -/
theorem flushed1_2 (c : Dev nD) (t : Fin cfg1.N) :
    (dat1 (F := Ideal) V c).flushed 2 t = ((cfg1.win 2).blk t).view.read (Elt Ideal) (final1_G V c) := by
  show (cfg1.win 2).cut (grid1.coords t) ((dat1 V c).after 2 t) = _
  rw [after1_2]
  unfold out1_2
  rw [View.canon_unit_zero blk1_origin]
  simp only [View.ld_unit_zero (S := S5000x128) blk1_origin, View.ld_unit_zero (S := S128x384) blk1_origin]
  obtain ⟨e0, e1, e2, e3, e4, e5⟩ := blk1_idx t
  funext y
  obtain ⟨p, q, rfl⟩ : ∃ (p : Fin 5000) (q : Fin 384), y = ix2 p q := ⟨y 0, y 1, eq_ix2 y⟩
  show k1_pay1 (F := Ideal) (iblk1 V c 0 t) (iblk1 V c 1 t) (ix2 p q) = final1_G V c (((cfg1.win 2).blk t).view.emb (ix2 p q))
  rw [payAt1_mm]
  unfold Cert.Spec.mm
  refine Finset.sum_congr rfl fun k _ => ?_
  refine congrArg₂ (· * ·) ?_ ?_
  · show V c main_arg1 (((cfg1.win 0).blk t).view.emb (ix2 p k)) = V c main_arg1 _
    refine congrArg _ (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * k.val = k.val
      omega
  · show V c main_v1 (((cfg1.win 1).blk t).view.emb (ix2 k q)) = V c main_v1 _
    refine congrArg _ (funext fun a => Fin.ext ?_)
    match a with
    | ⟨0, _⟩ =>
      show win1_1.index t (0 : Fin 2) * 128 + 1 * k.val = k.val
      omega
    | ⟨1, _⟩ =>
      show win1_1.index t (1 : Fin 2) * 384 + 1 * q.val = win1_2.index t (1 : Fin 2) * 384 + 1 * q.val
      omega

/-- An index of the output array is in point t's block iff each coordinate is in the block's range on its axis. -/
theorem blk1_mem (t : Fin cfg1.N) (i : S50000x384.Idx) :
    i ∈ ((cfg1.win 2).blk t).view.set ↔ ∀ a : Fin 2, win1_2.index t a * S5000x384.size a ≤ (i a).val ∧ (i a).val < win1_2.index t a * S5000x384.size a + S5000x384.size a := by
  show i ∈ ((View.whole main_v3).slice (win1_2.rect t)).set ↔ _
  rw [View.set_slice_whole, Rect.mem_set_unit]
  exact Iff.rfl

/-- Row r of the output lies in the block of point r / 5000; every point writes its block back. -/
theorem cov1_2 (i : S50000x384.Idx) :
    ∃ t : Fin cfg1.N, (cfg1.win 2).flush t = true ∧ i ∈ ((cfg1.win 2).blk t).view.set := by
  have hi0 : (i 0).val < 50000 := (i 0).isLt
  have hi1 : (i 1).val < 384 := (i 1).isLt
  have hN : cfg1.N = 10 := N_1
  have ht : (i 0).val / 5000 < cfg1.N := by rw [hN]; omega
  obtain ⟨e0, e1, e2, e3, e4, e5⟩ := blk1_idx ⟨(i 0).val / 5000, ht⟩
  refine ⟨⟨(i 0).val / 5000, ht⟩, flush1_2 _, ?_⟩
  rw [blk1_mem]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 384 ≤ (i 1).val ∧ (i 1).val < win1_2.index ⟨(i 0).val / 5000, ht⟩ (1 : Fin 2) * 384 + 384
    rw [e5]
    omega

/-- The output array after the region's run: the product of the node table and the weights, entry by entry. -/
theorem final1_2 (c : Dev nD) :
    (Cert.KernelIdeal.Hand.dat1 (F := Ideal) V c).arrAt 2 cfg1.N = fun i => Cert.Spec.mm (V c main_arg1 : Cert.Spec.Arr2 50000 128) (V c main_v1 : Cert.Spec.Arr2 128 384) (i 0) (i 1) :=
  (dat1 (F := Ideal) V c).arrAt_eq_of_cover 2 (final1_G V c) (fun t _ => flushed1_2 V c t) cov1_2

end Cert.KernelIdeal.ProjVal1

end
-- ==== Proof.Val.EdgeLib.lean ====
/- The arithmetic shared by the edge-attention kernels, over the extended reals: a column cast and a column broadcast
   read at an index, a row maximum and a row sum as a fold and a sum over the row, the two matrix products (4000 x 128 by
   128 x 4, and 4000 x 4 by 4 x 128) as sums over the contracted position, the head indicator's two sum laws (a sum over
   the 128 columns against a head's indicator is the sum over that head's 32 columns; a sum over the 4 heads against a
   column's indicator is the term at the column's head), the named scale constant, and the row-wise softmax of a 4000 x 4
   block read at an index. -/
import proofs.«412788_j87737591923455_1_alg».proof.Proof.Spec
import proofs.«412788_j87737591923455_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.EdgeVal

open Cert.KernelIdeal Cert.KernelIdeal.Gen Idealize.ShloMosaic Idealize.ShloMosaic.ValueIdx

/-! ## Shared: layouts, lane reductions and matrix products read at an index -/

/-- A length-`a` vector cast to a column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `e`, column `k`. -/
theorem lift_row {a b : ℕ} (h : (⟨2, ![a, b]⟩ : Shape).Reduces [1] ⟨1, ![a]⟩) (e : Fin a) (k : Fin b) :
    h.lift (ix1 e) k = ix2 e k := by
  funext c
  match c with
  | ⟨0, _⟩ => exact Fin.ext rfl
  | ⟨1, _⟩ => exact Fin.ext rfl

/-- A row statistic kept as a column and broadcast back along the rows reads, at `(e, c)`, the statistic of row `e`. -/
theorem keepdims_apply {α : Type} {a b : ℕ} (r : (⟨1, ![a]⟩ : Shape).Idx → α)
    (hc : (⟨1, ![a]⟩ : Shape).ShapeCasts ⟨2, ![a, 1]⟩) (hb : (⟨2, ![a, 1]⟩ : Shape).Broadcasts ⟨2, ![a, b]⟩) (e : Fin a) (c : Fin b) :
    broadcastTo ⟨2, ![a, b]⟩ (shapeCast ⟨2, ![a, 1]⟩ r hc) hb (ix2 e c) = r (ix1 e) :=
  (broadcastTo_col_apply _ hb e c).trans (shapeCast_col_apply r hc e 0)

/-- The word of minus infinity denotes the bottom element. -/
theorem ofBits_neg_inf : Ideal.ofBits .f32 0xFF800000#32 = ⊥ := by simp [Ideal.ofBits, Ideal.ieee]

/-- A maximum along the rows of a matrix, read at row `e`: the fold of `max` from the bottom element over the row. -/
theorem rowMax_apply {a b : ℕ} (s : FVec Ideal ⟨2, ![a, b]⟩ .f32) (hr : (⟨2, ![a, b]⟩ : Shape).Reduces [1] ⟨1, ![a]⟩)
    (hφ : FKind.Formats .f32) (hacc : (0xFF800000#32 : BitVec FTy.f32.bits) = FKind.maximumf.neutral .f32 hφ) (e : Fin a) :
    multiReduction .maximumf [1] ⟨1, ![a]⟩ s 0xFF800000#32 hr hφ hacc (ix1 e)
      = (Finset.univ : Finset (Fin b)).fold max ⊥ (fun k => s (ix2 e k)) := by
  refine (Ideal.multiReduction_maximumf_single s _ hr hφ hacc (ix1 e)).trans ?_
  show (Finset.univ : Finset (Fin b)).fold max (Ideal.ofBits .f32 0xFF800000#32) (s ∘ hr.lift (ix1 e)) = _
  rw [ofBits_neg_inf]
  rw [show (s ∘ hr.lift (ix1 e)) = fun k => s (ix2 e k) from funext fun k => congrArg s (lift_row hr e k)]
  rfl

/-- A sum along the rows of a matrix, read at row `e`: the sum over the row. -/
theorem rowSum_apply {a b : ℕ} (s : FVec Ideal ⟨2, ![a, b]⟩ .f32) (hr : (⟨2, ![a, b]⟩ : Shape).Reduces [1] ⟨1, ![a]⟩)
    (hφ : FKind.Formats .f32) (hacc : (0x00000000#32 : BitVec FTy.f32.bits) = FKind.add.neutral .f32 hφ) (e : Fin a) :
    multiReduction .add [1] ⟨1, ![a]⟩ s 0x00000000#32 hr hφ hacc (ix1 e) = ∑ k : Fin b, s (ix2 e k) := by
  refine (Ideal.multiReduction_add_single s _ hr hφ hacc (ix1 e)).trans ?_
  show ∑ k : Fin b, s (hr.lift (ix1 e) k) = _
  exact Finset.sum_congr rfl fun k _ => congrArg s (lift_row hr e k)

/-- The product of a 4000 x 128 block with a 128 x 4 matrix: the operands' indices at result index `i` and contraction position `q`, axis by axis. -/
theorem lhs_scoreDot_0 (i : S4000x4.Idx) (q : dot_S4000x128_S128x4_S4000x4_1_0_0_1_n_n.contr.Idx) :
    (dot_S4000x128_S128x4_S4000x4_1_0_0_1_n_n.lhsIdx i q 0).val = (i 0).val := by
  unfold DotDims.lhsIdx
  rw [dif_neg (show ¬(0 : Fin S4000x128.rank) ∈ dot_S4000x128_S128x4_S4000x4_1_0_0_1_n_n.lhsBatch by decide), dif_pos (show (0 : Fin S4000x128.rank) ∈ dot_S4000x128_S128x4_S4000x4_1_0_0_1_n_n.lhsNonContracting by decide)]
  rfl
theorem lhs_scoreDot_1 (i : S4000x4.Idx) (q : dot_S4000x128_S128x4_S4000x4_1_0_0_1_n_n.contr.Idx) :
    (dot_S4000x128_S128x4_S4000x4_1_0_0_1_n_n.lhsIdx i q 1).val = (q ⟨0, by decide⟩).val :=
  dot_S4000x128_S128x4_S4000x4_1_0_0_1_n_n.lhsIdx_val_of_single rfl i q
theorem rhs_scoreDot_0 (i : S4000x4.Idx) (q : dot_S4000x128_S128x4_S4000x4_1_0_0_1_n_n.contr.Idx) :
    (dot_S4000x128_S128x4_S4000x4_1_0_0_1_n_n.rhsIdx i q 0).val = (q ⟨0, by decide⟩).val :=
  dot_S4000x128_S128x4_S4000x4_1_0_0_1_n_n.rhsIdx_val_of_single rfl i q
theorem rhs_scoreDot_1 (i : S4000x4.Idx) (q : dot_S4000x128_S128x4_S4000x4_1_0_0_1_n_n.contr.Idx) :
    (dot_S4000x128_S128x4_S4000x4_1_0_0_1_n_n.rhsIdx i q 1).val = (i 1).val := by
  unfold DotDims.rhsIdx
  rw [dif_neg (show ¬(1 : Fin S128x4.rank) ∈ dot_S4000x128_S128x4_S4000x4_1_0_0_1_n_n.rhsBatch by decide), dif_pos (show (1 : Fin S128x4.rank) ∈ dot_S4000x128_S128x4_S4000x4_1_0_0_1_n_n.rhsNonContracting by decide)]
  rfl

/-- The product of a 4000 x 128 block with a 128 x 4 matrix into the zero splat, read at `(e, c)`: the sum over the 128 contracted positions of the products. -/
theorem scoreDot_apply {φ₁ φ₂ : FTy} (l : FVec Ideal S4000x128 φ₁) (r : FVec Ideal S128x4 φ₂) (e : Fin 4000) (c : Fin 4) :
    matmul dot_S4000x128_S128x4_S4000x4_1_0_0_1_n_n none l r (constant S4000x4 .f32 0x00000000#32) (ix2 e c)
      = ∑ k : Fin 128, l (ix2 e k) * r (ix2 k c) := by
  refine (Ideal.matmul_constant_zero_apply dot_S4000x128_S128x4_S4000x4_1_0_0_1_n_n none l r (ix2 e c)).trans ?_
  rw [← Equiv.sum_comp (contrEquiv1 dot_S4000x128_S128x4_S4000x4_1_0_0_1_n_n 128 rfl rfl).symm]
  refine Finset.sum_congr rfl fun k _ => ?_
  have hk := contrEquiv1_symm_val dot_S4000x128_S128x4_S4000x4_1_0_0_1_n_n 128 rfl rfl k
  have el : dot_S4000x128_S128x4_S4000x4_1_0_0_1_n_n.lhsIdx (ix2 e c) ((contrEquiv1 dot_S4000x128_S128x4_S4000x4_1_0_0_1_n_n 128 rfl rfl).symm k) = ix2 e k := funext fun a => Fin.ext (by
    match a with
    | ⟨0, _⟩ => exact lhs_scoreDot_0 _ _
    | ⟨1, _⟩ => exact (lhs_scoreDot_1 _ _).trans hk)
  have er : dot_S4000x128_S128x4_S4000x4_1_0_0_1_n_n.rhsIdx (ix2 e c) ((contrEquiv1 dot_S4000x128_S128x4_S4000x4_1_0_0_1_n_n 128 rfl rfl).symm k) = ix2 k c := funext fun a => Fin.ext (by
    match a with
    | ⟨0, _⟩ => exact (rhs_scoreDot_0 _ _).trans hk
    | ⟨1, _⟩ => exact rhs_scoreDot_1 _ _)
  rw [el, er]

/-- The product of a 4000 x 4 block with a 4 x 128 matrix: the operands' indices at result index `i` and contraction position `q`, axis by axis. -/
theorem lhs_spreadDot_0 (i : S4000x128.Idx) (q : dot_S4000x4_S4x128_S4000x128_1_0_0_1_n_n.contr.Idx) :
    (dot_S4000x4_S4x128_S4000x128_1_0_0_1_n_n.lhsIdx i q 0).val = (i 0).val := by
  unfold DotDims.lhsIdx
  rw [dif_neg (show ¬(0 : Fin S4000x4.rank) ∈ dot_S4000x4_S4x128_S4000x128_1_0_0_1_n_n.lhsBatch by decide), dif_pos (show (0 : Fin S4000x4.rank) ∈ dot_S4000x4_S4x128_S4000x128_1_0_0_1_n_n.lhsNonContracting by decide)]
  rfl
theorem lhs_spreadDot_1 (i : S4000x128.Idx) (q : dot_S4000x4_S4x128_S4000x128_1_0_0_1_n_n.contr.Idx) :
    (dot_S4000x4_S4x128_S4000x128_1_0_0_1_n_n.lhsIdx i q 1).val = (q ⟨0, by decide⟩).val :=
  dot_S4000x4_S4x128_S4000x128_1_0_0_1_n_n.lhsIdx_val_of_single rfl i q
theorem rhs_spreadDot_0 (i : S4000x128.Idx) (q : dot_S4000x4_S4x128_S4000x128_1_0_0_1_n_n.contr.Idx) :
    (dot_S4000x4_S4x128_S4000x128_1_0_0_1_n_n.rhsIdx i q 0).val = (q ⟨0, by decide⟩).val :=
  dot_S4000x4_S4x128_S4000x128_1_0_0_1_n_n.rhsIdx_val_of_single rfl i q
theorem rhs_spreadDot_1 (i : S4000x128.Idx) (q : dot_S4000x4_S4x128_S4000x128_1_0_0_1_n_n.contr.Idx) :
    (dot_S4000x4_S4x128_S4000x128_1_0_0_1_n_n.rhsIdx i q 1).val = (i 1).val := by
  unfold DotDims.rhsIdx
  rw [dif_neg (show ¬(1 : Fin S4x128.rank) ∈ dot_S4000x4_S4x128_S4000x128_1_0_0_1_n_n.rhsBatch by decide), dif_pos (show (1 : Fin S4x128.rank) ∈ dot_S4000x4_S4x128_S4000x128_1_0_0_1_n_n.rhsNonContracting by decide)]
  rfl

/-- The product of a 4000 x 4 block with a 4 x 128 matrix into the zero splat, read at `(e, c)`: the sum over the 4 contracted positions of the products. -/
theorem spreadDot_apply {φ₁ φ₂ : FTy} (l : FVec Ideal S4000x4 φ₁) (r : FVec Ideal S4x128 φ₂) (e : Fin 4000) (c : Fin 128) :
    matmul dot_S4000x4_S4x128_S4000x128_1_0_0_1_n_n none l r (constant S4000x128 .f32 0x00000000#32) (ix2 e c)
      = ∑ k : Fin 4, l (ix2 e k) * r (ix2 k c) := by
  refine (Ideal.matmul_constant_zero_apply dot_S4000x4_S4x128_S4000x128_1_0_0_1_n_n none l r (ix2 e c)).trans ?_
  rw [← Equiv.sum_comp (contrEquiv1 dot_S4000x4_S4x128_S4000x128_1_0_0_1_n_n 4 rfl rfl).symm]
  refine Finset.sum_congr rfl fun k _ => ?_
  have hk := contrEquiv1_symm_val dot_S4000x4_S4x128_S4000x128_1_0_0_1_n_n 4 rfl rfl k
  have el : dot_S4000x4_S4x128_S4000x128_1_0_0_1_n_n.lhsIdx (ix2 e c) ((contrEquiv1 dot_S4000x4_S4x128_S4000x128_1_0_0_1_n_n 4 rfl rfl).symm k) = ix2 e k := funext fun a => Fin.ext (by
    match a with
    | ⟨0, _⟩ => exact lhs_spreadDot_0 _ _
    | ⟨1, _⟩ => exact (lhs_spreadDot_1 _ _).trans hk)
  have er : dot_S4000x4_S4x128_S4000x128_1_0_0_1_n_n.rhsIdx (ix2 e c) ((contrEquiv1 dot_S4000x4_S4x128_S4000x128_1_0_0_1_n_n 4 rfl rfl).symm k) = ix2 k c := funext fun a => Fin.ext (by
    match a with
    | ⟨0, _⟩ => exact (rhs_spreadDot_0 _ _).trans hk
    | ⟨1, _⟩ => exact rhs_spreadDot_1 _ _)
  rw [el, er]

/-! ## Shared: the head indicator -/

/-- The 128 feature columns are the four heads' 32 columns, head after head. -/
def featEquiv : Fin 4 × Fin 32 ≃ Fin 128 where
  toFun p := Cert.Spec.feat p.1 p.2
  invFun d := (Cert.Spec.headOf d, ⟨d.val % 32, Nat.mod_lt _ (by decide)⟩)
  left_inv p := by
    obtain ⟨h, j⟩ := p
    refine Prod.ext (Fin.ext ?_) (Fin.ext ?_)
    · show (32 * h.val + j.val) / 32 = h.val
      omega
    · show (32 * h.val + j.val) % 32 = j.val
      omega
  right_inv d := Fin.ext (by show 32 * (d.val / 32) + d.val % 32 = d.val; omega)

/-- A head's column belongs to that head. -/
theorem headOf_feat (h : Fin 4) (j : Fin 32) : Cert.Spec.headOf (Cert.Spec.feat h j) = h :=
  Fin.ext (by show (32 * h.val + j.val) / 32 = h.val; omega)

/-- A sum over the feature columns against a head's indicator is the sum over that head's columns. -/
theorem sum_mul_ind (f : Fin 128 → EReal) (h : Fin 4) :
    ∑ d : Fin 128, f d * Cert.Spec.ind d h = ∑ j : Fin 32, f (Cert.Spec.feat h j) := by
  rw [← Equiv.sum_comp featEquiv (fun d => f d * Cert.Spec.ind d h), Fintype.sum_prod_type]
  have step : ∀ h' : Fin 4, (∑ j : Fin 32, f (featEquiv (h', j)) * Cert.Spec.ind (featEquiv (h', j)) h)
      = if h' = h then ∑ j : Fin 32, f (Cert.Spec.feat h' j) else 0 := by
    intro h'
    by_cases hh : h' = h
    · rw [if_pos hh]
      refine Finset.sum_congr rfl fun j _ => ?_
      show f (Cert.Spec.feat h' j) * (if Cert.Spec.headOf (Cert.Spec.feat h' j) = h then 1 else 0) = _
      rw [headOf_feat, if_pos hh, mul_one]
    · rw [if_neg hh]
      refine Finset.sum_eq_zero fun j _ => ?_
      show f (Cert.Spec.feat h' j) * (if Cert.Spec.headOf (Cert.Spec.feat h' j) = h then 1 else 0) = _
      rw [headOf_feat, if_neg hh, mul_zero]
  rw [Finset.sum_congr rfl fun h' _ => step h', Finset.sum_ite_eq' Finset.univ h, if_pos (Finset.mem_univ h)]

/-- A sum over the heads against a column's indicator is the term of the column's head. -/
theorem sum_mul_ind_head (w : Fin 4 → EReal) (d : Fin 128) :
    ∑ h : Fin 4, w h * Cert.Spec.ind d h = w (Cert.Spec.headOf d) := by
  have step : ∀ h : Fin 4, w h * Cert.Spec.ind d h = if Cert.Spec.headOf d = h then w h else 0 := by
    intro h
    unfold Cert.Spec.ind
    by_cases hh : Cert.Spec.headOf d = h
    · rw [if_pos hh, if_pos hh, mul_one]
    · rw [if_neg hh, if_neg hh, mul_zero]
  rw [Finset.sum_congr rfl fun h _ => step h, Finset.sum_ite_eq Finset.univ (Cert.Spec.headOf d), if_pos (Finset.mem_univ _)]

/-- The named scale constant is the reciprocal the specification names. -/
theorem named_cinv : Named.named (F := Ideal) Cert.KernelIdeal.κ "inv_sqrt_dk" (φ := .f32) 0x3E3504F3#32 = Cert.Spec.cinv := by
  unfold Cert.Spec.cinv
  exact IdealRules.named_const.ideal_named_scalar _ _ _ _ rfl

/-! ## Shared: a row-wise softmax read at an index -/

/-- The exponentials of a score block, each row less its largest score, read at `(e, c)`. -/
theorem expShift_apply (s : FVec Ideal S4000x4 .f32) (hr : S4000x4.Reduces [1] S4000) (hφ : FKind.Formats .f32)
    (hacc : (0xFF800000#32 : BitVec FTy.f32.bits) = FKind.maximumf.neutral .f32 hφ) (hc : S4000.ShapeCasts S4000x1)
    (hb : S4000x1.Broadcasts S4000x4) (e : Fin 4000) (c : Fin 4) :
    exp (subf s (broadcastTo S4000x4 (shapeCast S4000x1 (multiReduction .maximumf [1] S4000 s 0xFF800000#32 hr hφ hacc) hc) hb)) (ix2 e c)
      = Ideal.exp (s (ix2 e c) - Cert.Spec.smax fun k => s (ix2 e k)) := by
  show Ideal.exp (s (ix2 e c)
    - broadcastTo S4000x4 (shapeCast S4000x1 (multiReduction .maximumf [1] S4000 s 0xFF800000#32 hr hφ hacc) hc) hb (ix2 e c)) = _
  exact congrArg (fun m => Ideal.exp (s (ix2 e c) - m)) ((keepdims_apply _ hc hb e c).trans (rowMax_apply s hr hφ hacc e))

/-- A block divided by its row sums, read at `(e, c)`. -/
theorem weights_apply (x : FVec Ideal S4000x4 .f32) (hr : S4000x4.Reduces [1] S4000) (hφ : FKind.Formats .f32)
    (hacc : (0x00000000#32 : BitVec FTy.f32.bits) = FKind.add.neutral .f32 hφ) (hc : S4000.ShapeCasts S4000x1)
    (hb : S4000x1.Broadcasts S4000x4) (e : Fin 4000) (c : Fin 4) :
    divf x (broadcastTo S4000x4 (shapeCast S4000x1 (multiReduction .add [1] S4000 x 0x00000000#32 hr hφ hacc) hc) hb) (ix2 e c)
      = Ideal.div (x (ix2 e c)) (∑ k : Fin 4, x (ix2 e k)) := by
  show Ideal.div (x (ix2 e c))
    (broadcastTo S4000x4 (shapeCast S4000x1 (multiReduction .add [1] S4000 x 0x00000000#32 hr hφ hacc) hc) hb (ix2 e c)) = _
  exact congrArg (Ideal.div (x (ix2 e c))) ((keepdims_apply _ hc hb e c).trans (rowSum_apply x hr hφ hacc e))

/-- A block's row sums kept as a column, read at row `e`. -/
theorem rowSumCol_apply (x : FVec Ideal S4000x4 .f32) (hr : S4000x4.Reduces [1] S4000) (hφ : FKind.Formats .f32)
    (hacc : (0x00000000#32 : BitVec FTy.f32.bits) = FKind.add.neutral .f32 hφ) (hc : S4000.ShapeCasts S4000x1)
    (e : Fin 4000) (u : Fin 1) :
    shapeCast S4000x1 (multiReduction .add [1] S4000 x 0x00000000#32 hr hφ hacc) hc (ix2 e u) = ∑ k : Fin 4, x (ix2 e k) :=
  (shapeCast_col_apply _ hc e u).trans (rowSum_apply x hr hφ hacc e)

/-- The row-wise softmax of a score block as the vector operations form it: each row's exponentials, less the row's
    largest score, divided by their sum. -/
def softmaxVec (s : FVec Ideal S4000x4 .f32) : FVec Ideal S4000x4 .f32 :=
  have x : FVec Ideal S4000x4 .f32 := exp (subf s (broadcastTo S4000x4 (shapeCast S4000x1
    (multiReduction (F := Ideal) .maximumf [1] S4000 s 0xFF800000#32 reduces_S4000x4_S4000 (.inl rfl) rfl) shapeCasts_S4000_S4000x1)
    broadcasts_S4000x1_S4000x4))
  divf x (broadcastTo S4000x4 (shapeCast S4000x1
    (multiReduction (F := Ideal) .add [1] S4000 x 0x00000000#32 reduces_S4000x4_S4000 (.inl rfl) rfl) shapeCasts_S4000_S4000x1)
    broadcasts_S4000x1_S4000x4)

/-- It reads, at `(e, c)`, the softmax of row `e` at `c`. -/
theorem softmaxVec_apply (s : FVec Ideal S4000x4 .f32) (e : Fin 4000) (c : Fin 4) :
    softmaxVec s (ix2 e c) = Ideal.div (Ideal.exp (s (ix2 e c) - Cert.Spec.smax fun k => s (ix2 e k)))
      (∑ k : Fin 4, Ideal.exp (s (ix2 e k) - Cert.Spec.smax fun j => s (ix2 e j))) := by
  unfold softmaxVec
  refine (weights_apply _ _ _ _ _ _ e c).trans ?_
  exact congr (congrArg Ideal.div (expShift_apply s _ _ _ _ _ e c)) (Finset.sum_congr rfl fun k _ => expShift_apply s _ _ _ _ _ e k)

end Cert.KernelIdeal.EdgeVal

end
-- ==== Proof.Val.EdgePay.lean ====
/- An edge-attention kernel's three pure terms read at one entry, over the extended reals: the weights are the softmax
   of the specification's scores, the column of weight sums is their sum over the heads, and the attended value is the
   value entry times the weight of its column's head. -/
import proofs.«412788_j87737591923455_1_alg».proof.Proof.Spec
import proofs.«412788_j87737591923455_1_alg».proof.Proof.Gen.KernelIdeal.Skeleton
import proofs.«412788_j87737591923455_1_alg».proof.Proof.Val.EdgeLib
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.EdgeVal

open Cert.KernelIdeal Cert.KernelIdeal.Gen Idealize.ShloMosaic Idealize.ShloMosaic.ValueIdx

/-! ## The edge kernel's payloads read at an index -/

/-- The payload's score block: the elementwise product of the two row blocks times the head indicator, scaled by the
    named constant, plus the first row block times the bias matrix. -/
def val2_scores (ek eq : Vec Ideal S4000x128 .f32) (mh wa : Vec Ideal S128x4 .f32) : FVec Ideal S4000x4 .f32 :=
  have k : FVec Ideal S4000x128 .f32 := shapeCast S4000x128 ek shapeCasts_S4000x128_S4000x128
  have q : FVec Ideal S4000x128 .f32 := shapeCast S4000x128 eq shapeCasts_S4000x128_S4000x128
  have kq : FVec Ideal S4000x128 .bf16 := truncf .bf16 (mulf k q) bitsLt_bf16_f32
  have m : FVec Ideal S128x4 .f32 := shapeCast S128x4 mh shapeCasts_S128x4_S128x4
  have mb : FVec Ideal S128x4 .bf16 := truncf .bf16 m bitsLt_bf16_f32
  have dots : FVec Ideal S4000x4 .f32 := matmul dot_S4000x128_S128x4_S4000x4_1_0_0_1_n_n none kq mb (constant S4000x4 .f32 0x00000000#32)
  have c : Ideal .f32 := Named.named κ "inv_sqrt_dk" 0x3E3504F3#32
  have scaled : FVec Ideal S4000x4 .f32 := mulf dots (broadcast S4000x4 c)
  have wb : FVec Ideal S128x4 .bf16 := truncf .bf16 wa bitsLt_bf16_f32
  have kb : FVec Ideal S4000x128 .bf16 := truncf .bf16 k bitsLt_bf16_f32
  have bias : FVec Ideal S4000x4 .f32 := matmul dot_S4000x128_S128x4_S4000x4_1_0_0_1_n_n none kb wb (constant S4000x4 .f32 0x00000000#32)
  addf scaled bias

/-- Read at `(e, h)` it is the specification's score, when the head matrix is the indicator. -/
theorem val2_scores_apply (ek eq : Vec Ideal S4000x128 .f32) (mh wa : Vec Ideal S128x4 .f32)
    (hmh : ∀ (d : Fin 128) (h : Fin 4), mh (ix2 d h) = Cert.Spec.ind d h) (e : Fin 4000) (h : Fin 4) :
    val2_scores ek eq mh wa (ix2 e h) = Cert.Spec.score ek eq wa e h := by
  unfold val2_scores Cert.Spec.score
  simp only [addf_apply, mulf_apply, broadcast_apply, scoreDot_apply, truncf_apply, shapeCast_self, named_cinv, hmh]
  rw [sum_mul_ind (fun d => ek (ix2 e d) * eq (ix2 e d)) h]

/-- The first payload is the softmax of the score block. -/
theorem val2_attn_eq (ek eq : Vec Ideal S4000x128 .f32) (mh wa : Vec Ideal S128x4 .f32) :
    k2_pay1 (F := Ideal) ek eq mh wa = softmaxVec (val2_scores ek eq mh wa) := rfl

/-- The attention weights: the first payload at `(e, h)` is the softmax of the edge's scores at head `h`. -/
theorem payAt2_attn (ek eq : Vec Ideal S4000x128 .f32) (mh wa : Vec Ideal S128x4 .f32)
    (hmh : ∀ (d : Fin 128) (h : Fin 4), mh (ix2 d h) = Cert.Spec.ind d h) (e : Fin 4000) (h : Fin 4) :
    k2_pay1 (F := Ideal) ek eq mh wa (ix2 e h) = Cert.Spec.attn ek eq wa e h := by
  rw [val2_attn_eq, softmaxVec_apply]
  have hs : (fun k => val2_scores ek eq mh wa (ix2 e k)) = Cert.Spec.score ek eq wa e :=
    funext fun k => val2_scores_apply ek eq mh wa hmh e k
  unfold Cert.Spec.attn Cert.Spec.expo
  simp only [hs, val2_scores_apply ek eq mh wa hmh]

/-- The weight sums: the second payload at row `e` is the sum of the edge's attention weights. -/
theorem payAt2_ws (ek eq : Vec Ideal S4000x128 .f32) (mh wa : Vec Ideal S128x4 .f32)
    (hmh : ∀ (d : Fin 128) (h : Fin 4), mh (ix2 d h) = Cert.Spec.ind d h) (e : Fin 4000) :
    k2_pay2 (F := Ideal) ek eq mh wa (ix2 e 0) = Cert.Spec.wsum ek eq wa e := by
  unfold k2_pay2
  refine (rowSumCol_apply _ _ _ _ _ e 0).trans ?_
  unfold Cert.Spec.wsum
  exact Finset.sum_congr rfl fun h _ => payAt2_attn ek eq mh wa hmh e h

/-- The attended values: the third payload at `(e, d)` is the value entry scaled by the weight of the column's head. -/
theorem payAt2_att (ek eq ev : Vec Ideal S4000x128 .f32) (mh wa : Vec Ideal S128x4 .f32) (mb : Vec Ideal S4x128 .f32)
    (hmh : ∀ (d : Fin 128) (h : Fin 4), mh (ix2 d h) = Cert.Spec.ind d h)
    (hmb : ∀ (h : Fin 4) (d : Fin 128), mb (ix2 h d) = Cert.Spec.ind d h) (e : Fin 4000) (d : Fin 128) :
    k2_pay3 (F := Ideal) ek eq ev mh wa mb (ix2 e d) = Cert.Spec.attended ek eq ev wa e d := by
  unfold k2_pay3 Cert.Spec.attended
  simp only [mulf_apply, spreadDot_apply, truncf_apply, shapeCast_self, hmb, payAt2_attn ek eq mh wa hmh]
  rw [sum_mul_ind_head]

end Cert.KernelIdeal.EdgeVal

end
-- ==== Proof.Val.EdgeArr.lean ====
/- From blocks to the arrays, for an edge-attention region at the extended reals. At point `t` the five row-block windows
   are on rows 4000 t … 4000 t + 3999 of their arrays and the three small matrices on their whole arrays; the
   specification's attention weights of an edge read only that edge's rows of the key and query arrays. So what a point
   writes back is its block of ONE function of the whole arrays — the attended values for the wide output, the weight sums
   for the column output — and since row r lies in the block of point r / 4000, each output array ends holding that
   function, entry by entry, for any entry valuation whose two indicator arrays are the head indicator. -/
import proofs.«412788_j87737591923455_1_alg».proof.Proof.KernelIdeal.Reg2
import proofs.«412788_j87737591923455_1_alg».proof.Proof.Val.EdgePay
import Idealize.ShloMosaic.Lib.Pipeline.Value

set_option maxRecDepth 16384

noncomputable section

open scoped BigOperators

namespace Cert.KernelIdeal.EdgeVal

open Cert.KernelIdeal Cert.KernelIdeal.Gen Idealize.ShloMosaic Idealize.ShloMosaic.ValueIdx Idealize.ShloMosaic.TcCoe
open Idealize.SL.Sem
open Idealize.ShloMosaic.Pipeline (Dat Cfg Window)

/-! ## Zero offsets, and the index maps over the grid -/

/-- The body's rectangles start at the block's origin. -/
theorem blk2_hz : (![0, 0] : Fin 2 → Nat) = fun _ => 0 := funext fun a => by fin_cases a <;> rfl

/-- The printed index maps, decided over the grid: the five row-block windows are on block row `t` at point `t`, the three
    small matrices on their one block. -/
theorem blk2_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-! ## The specification reads one row of the edge arrays -/

/-- An edge's scores depend on the key and query arrays through that edge's rows only. -/
theorem blk2_score_congr {E E' : Nat} (ek eq : Cert.Spec.Arr2 E 128) (ek' eq' : Cert.Spec.Arr2 E' 128) (wa : Cert.Spec.Arr2 128 4)
    (e : Fin E) (e' : Fin E') (hk : ∀ d, ek (ix2 e d) = ek' (ix2 e' d)) (hq : ∀ d, eq (ix2 e d) = eq' (ix2 e' d)) :
    Cert.Spec.score ek eq wa e = Cert.Spec.score ek' eq' wa e' := by
  funext h
  unfold Cert.Spec.score
  simp only [hk, hq]

/-- So do its attention weights. -/
theorem blk2_attn_congr {E E' : Nat} (ek eq : Cert.Spec.Arr2 E 128) (ek' eq' : Cert.Spec.Arr2 E' 128) (wa : Cert.Spec.Arr2 128 4)
    (e : Fin E) (e' : Fin E') (hk : ∀ d, ek (ix2 e d) = ek' (ix2 e' d)) (hq : ∀ d, eq (ix2 e d) = eq' (ix2 e' d)) :
    Cert.Spec.attn ek eq wa e = Cert.Spec.attn ek' eq' wa e' := by
  funext h
  unfold Cert.Spec.attn Cert.Spec.expo
  rw [blk2_score_congr ek eq ek' eq' wa e e' hk hq]

/-! ## The input blocks are the arrays read where the point's rectangle says -/

variable (V : (c : Dev nD) → (b : Ref sig .tc) → Buf (Elt Ideal) ((c : Thread nD τ).loc b))

/-- A row-block input's block at point `t`, read at `(e, d)`, is row `4000 t + e` of its array. -/
theorem blk2_rows_0 (c : Dev nD) (t : Fin cfg2.N) (e : Fin 4000) (d : Fin 128) (r : Fin 400000) (hr : r.val = 4000 * t.val + e.val) :
    (Hand.iblk2 (F := Ideal) V c 0 t : Vec Ideal S4000x128 .f32) (ix2 e d) = (V c main_v24 : Cert.Spec.Arr2 400000 128) (ix2 r d) := by
  obtain ⟨h0, h1⟩ := (blk2_idx t).1
  unfold Hand.iblk2
  rw [View.read_apply]
  show V c main_v24 _ = V c main_v24 _
  congr 1
  funext a
  apply Fin.ext
  match a with
  | ⟨0, _⟩ => show win2_0.index t 0 * 4000 + 1 * e.val = r.val; rw [h0, hr]; omega
  | ⟨1, _⟩ => show win2_0.index t 1 * 128 + 1 * d.val = d.val; rw [h1]; omega

theorem blk2_rows_1 (c : Dev nD) (t : Fin cfg2.N) (e : Fin 4000) (d : Fin 128) (r : Fin 400000) (hr : r.val = 4000 * t.val + e.val) :
    (Hand.iblk2 (F := Ideal) V c 1 t : Vec Ideal S4000x128 .f32) (ix2 e d) = (V c main_v25 : Cert.Spec.Arr2 400000 128) (ix2 r d) := by
  obtain ⟨h0, h1⟩ := (blk2_idx t).2.1
  unfold Hand.iblk2
  rw [View.read_apply]
  show V c main_v25 _ = V c main_v25 _
  congr 1
  funext a
  apply Fin.ext
  match a with
  | ⟨0, _⟩ => show win2_1.index t 0 * 4000 + 1 * e.val = r.val; rw [h0, hr]; omega
  | ⟨1, _⟩ => show win2_1.index t 1 * 128 + 1 * d.val = d.val; rw [h1]; omega

theorem blk2_rows_2 (c : Dev nD) (t : Fin cfg2.N) (e : Fin 4000) (d : Fin 128) (r : Fin 400000) (hr : r.val = 4000 * t.val + e.val) :
    (Hand.iblk2 (F := Ideal) V c 2 t : Vec Ideal S4000x128 .f32) (ix2 e d) = (V c main_v26 : Cert.Spec.Arr2 400000 128) (ix2 r d) := by
  obtain ⟨h0, h1⟩ := (blk2_idx t).2.2.1
  unfold Hand.iblk2
  rw [View.read_apply]
  show V c main_v26 _ = V c main_v26 _
  congr 1
  funext a
  apply Fin.ext
  match a with
  | ⟨0, _⟩ => show win2_2.index t 0 * 4000 + 1 * e.val = r.val; rw [h0, hr]; omega
  | ⟨1, _⟩ => show win2_2.index t 1 * 128 + 1 * d.val = d.val; rw [h1]; omega

/-- A small matrix's block at every point is its array. -/
theorem blk2_whole_3 (c : Dev nD) (t : Fin cfg2.N) (p : Fin 128) (q : Fin 4) :
    (Hand.iblk2 (F := Ideal) V c 3 t : Vec Ideal S128x4 .f32) (ix2 p q) = (V c main_arg10 : Cert.Spec.Arr2 128 4) (ix2 p q) := by
  obtain ⟨h0, h1⟩ := (blk2_idx t).2.2.2.1
  unfold Hand.iblk2
  rw [View.read_apply]
  show V c main_arg10 _ = V c main_arg10 _
  congr 1
  funext a
  apply Fin.ext
  match a with
  | ⟨0, _⟩ => show win2_3.index t 0 * 128 + 1 * p.val = p.val; rw [h0]; omega
  | ⟨1, _⟩ => show win2_3.index t 1 * 4 + 1 * q.val = q.val; rw [h1]; omega

theorem blk2_whole_4 (c : Dev nD) (t : Fin cfg2.N) (p : Fin 128) (q : Fin 4) :
    (Hand.iblk2 (F := Ideal) V c 4 t : Vec Ideal S128x4 .f32) (ix2 p q) = (V c main_v18 : Cert.Spec.Arr2 128 4) (ix2 p q) := by
  obtain ⟨h0, h1⟩ := (blk2_idx t).2.2.2.2.1
  unfold Hand.iblk2
  rw [View.read_apply]
  show V c main_v18 _ = V c main_v18 _
  congr 1
  funext a
  apply Fin.ext
  match a with
  | ⟨0, _⟩ => show win2_4.index t 0 * 128 + 1 * p.val = p.val; rw [h0]; omega
  | ⟨1, _⟩ => show win2_4.index t 1 * 4 + 1 * q.val = q.val; rw [h1]; omega

theorem blk2_whole_5 (c : Dev nD) (t : Fin cfg2.N) (p : Fin 4) (q : Fin 128) :
    (Hand.iblk2 (F := Ideal) V c 5 t : Vec Ideal S4x128 .f32) (ix2 p q) = (V c main_v19 : Cert.Spec.Arr2 4 128) (ix2 p q) := by
  obtain ⟨h0, h1⟩ := (blk2_idx t).2.2.2.2.2.1
  unfold Hand.iblk2
  rw [View.read_apply]
  show V c main_v19 _ = V c main_v19 _
  congr 1
  funext a
  apply Fin.ext
  match a with
  | ⟨0, _⟩ => show win2_5.index t 0 * 4 + 1 * p.val = p.val; rw [h0]; omega
  | ⟨1, _⟩ => show win2_5.index t 1 * 128 + 1 * q.val = q.val; rw [h1]; omega

/-! ## One point's write-back -/

/-- The attended-value term over blocks that are rows of the arrays is the specification at that row. -/
theorem blk2_att_point (ek eq ev : Vec Ideal S4000x128 .f32) (mh wa : Vec Ideal S128x4 .f32) (mb : Vec Ideal S4x128 .f32)
    (K Q W : Cert.Spec.Arr2 400000 128) (WA : Cert.Spec.Arr2 128 4)
    (hmh : ∀ (d : Fin 128) (h : Fin 4), mh (ix2 d h) = Cert.Spec.ind d h)
    (hmb : ∀ (h : Fin 4) (d : Fin 128), mb (ix2 h d) = Cert.Spec.ind d h)
    (hwa : ∀ (d : Fin 128) (h : Fin 4), wa (ix2 d h) = WA (ix2 d h))
    (e : Fin 4000) (d : Fin 128) (r : Fin 400000)
    (hk : ∀ d', ek (ix2 e d') = K (ix2 r d')) (hq : ∀ d', eq (ix2 e d') = Q (ix2 r d')) (hv : ∀ d', ev (ix2 e d') = W (ix2 r d')) :
    k2_pay3 (F := Ideal) ek eq ev mh wa mb (ix2 e d) = Cert.Spec.attended K Q W WA r d := by
  have hW : (wa : Cert.Spec.Arr2 128 4) = WA := funext fun j => by rw [eq_ix2 j]; exact hwa _ _
  rw [payAt2_att ek eq ev mh wa mb hmh hmb e d]
  unfold Cert.Spec.attended
  rw [hv d, blk2_attn_congr ek eq K Q wa e r hk hq, hW]

/-- The weight-sum term likewise. -/
theorem blk2_ws_point (ek eq : Vec Ideal S4000x128 .f32) (mh wa : Vec Ideal S128x4 .f32)
    (K Q : Cert.Spec.Arr2 400000 128) (WA : Cert.Spec.Arr2 128 4)
    (hmh : ∀ (d : Fin 128) (h : Fin 4), mh (ix2 d h) = Cert.Spec.ind d h)
    (hwa : ∀ (d : Fin 128) (h : Fin 4), wa (ix2 d h) = WA (ix2 d h))
    (e : Fin 4000) (r : Fin 400000)
    (hk : ∀ d', ek (ix2 e d') = K (ix2 r d')) (hq : ∀ d', eq (ix2 e d') = Q (ix2 r d')) :
    k2_pay2 (F := Ideal) ek eq mh wa (ix2 e 0) = Cert.Spec.wsum K Q WA r := by
  have hW : (wa : Cert.Spec.Arr2 128 4) = WA := funext fun j => by rw [eq_ix2 j]; exact hwa _ _
  rw [payAt2_ws ek eq mh wa hmh e]
  unfold Cert.Spec.wsum
  rw [blk2_attn_congr ek eq K Q wa e r hk hq, hW]

/-- What point `t` writes back to the wide output is block `t` of the attended values of the whole arrays. -/
theorem flushed2_6_eq (c : Dev nD)
    (hmh : ∀ (d : Fin 128) (h : Fin 4), V c main_v18 (ix2 d h) = Cert.Spec.ind d h)
    (hmb : ∀ (h : Fin 4) (d : Fin 128), V c main_v19 (ix2 h d) = Cert.Spec.ind d h) (t : Fin cfg2.N) :
    (Hand.dat2 (F := Ideal) V c).flushed 6 t = ((cfg2.win 6).blk t).view.read (Elt Ideal)
      (fun i => Cert.Spec.attended (E := 400000) (V c main_v24) (V c main_v25) (V c main_v26) (V c main_arg10) (i 0) (i 1)) := by
  show (cfg2.win 6).cut (grid2.coords t) ((Hand.dat2 V c).after 6 t) = _
  rw [Hand.after2_6]
  unfold Hand.out2_6
  rw [View.canon_unit_zero blk2_hz]
  simp only [View.ld_unit_zero (S := S4000x128) blk2_hz, View.ld_unit_zero (S := S128x4) blk2_hz, View.ld_unit_zero (S := S4x128) blk2_hz]
  funext y
  obtain ⟨e, d, rfl⟩ : ∃ (e : Fin 4000) (d : Fin 128), y = ix2 e d := ⟨y 0, y 1, eq_ix2 y⟩
  obtain ⟨h60, h61⟩ := (blk2_idx t).2.2.2.2.2.2.1
  have hd : (((cfg2.win 6).blk t).view.emb (ix2 e d) : S400000x128.Idx) 1 = d :=
    Fin.ext (by show win2_6.index t 1 * 128 + 1 * d.val = d.val; rw [h61]; omega)
  have hr : ((((cfg2.win 6).blk t).view.emb (ix2 e d) : S400000x128.Idx) 0).val = 4000 * t.val + e.val := by
    show win2_6.index t 0 * 4000 + 1 * e.val = _; rw [h60]; omega
  show k2_pay3 (F := Ideal) (Hand.iblk2 V c 0 t) (Hand.iblk2 V c 1 t) (Hand.iblk2 V c 2 t) (Hand.iblk2 V c 4 t) (Hand.iblk2 V c 3 t)
      (Hand.iblk2 V c 5 t) (ix2 e d)
    = Cert.Spec.attended (E := 400000) (V c main_v24) (V c main_v25) (V c main_v26) (V c main_arg10)
      ((((cfg2.win 6).blk t).view.emb (ix2 e d) : S400000x128.Idx) 0) ((((cfg2.win 6).blk t).view.emb (ix2 e d) : S400000x128.Idx) 1)
  rw [hd]
  exact blk2_att_point _ _ _ _ _ _ _ _ _ _
    (fun d h => (blk2_whole_4 V c t d h).trans (hmh d h)) (fun h d => (blk2_whole_5 V c t h d).trans (hmb h d))
    (fun d h => blk2_whole_3 V c t d h) e d _
    (fun d' => blk2_rows_0 V c t e d' _ hr) (fun d' => blk2_rows_1 V c t e d' _ hr) (fun d' => blk2_rows_2 V c t e d' _ hr)

/-- What point `t` writes back to the column output is block `t` of the weight sums of the whole arrays. -/
theorem flushed2_7_eq (c : Dev nD)
    (hmh : ∀ (d : Fin 128) (h : Fin 4), V c main_v18 (ix2 d h) = Cert.Spec.ind d h) (t : Fin cfg2.N) :
    (Hand.dat2 (F := Ideal) V c).flushed 7 t = ((cfg2.win 7).blk t).view.read (Elt Ideal)
      (fun i => Cert.Spec.wsum (E := 400000) (V c main_v24) (V c main_v25) (V c main_arg10) (i 0)) := by
  show (cfg2.win 7).cut (grid2.coords t) ((Hand.dat2 V c).after 7 t) = _
  rw [Hand.after2_7]
  unfold Hand.out2_7
  rw [View.canon_unit_zero blk2_hz]
  simp only [View.ld_unit_zero (S := S4000x128) blk2_hz, View.ld_unit_zero (S := S128x4) blk2_hz]
  funext y
  obtain ⟨e, u, rfl⟩ : ∃ (e : Fin 4000) (u : Fin 1), y = ix2 e u := ⟨y 0, y 1, eq_ix2 y⟩
  obtain rfl : u = 0 := Subsingleton.elim _ _
  obtain ⟨h70, h71⟩ := (blk2_idx t).2.2.2.2.2.2.2
  have hr : ((((cfg2.win 7).blk t).view.emb (ix2 e (0 : Fin 1)) : S400000x1.Idx) 0).val = 4000 * t.val + e.val := by
    show win2_7.index t 0 * 4000 + 1 * e.val = _; rw [h70]; omega
  show k2_pay2 (F := Ideal) (Hand.iblk2 V c 0 t) (Hand.iblk2 V c 1 t) (Hand.iblk2 V c 4 t) (Hand.iblk2 V c 3 t) (ix2 e 0)
    = Cert.Spec.wsum (E := 400000) (V c main_v24) (V c main_v25) (V c main_arg10)
      ((((cfg2.win 7).blk t).view.emb (ix2 e (0 : Fin 1)) : S400000x1.Idx) 0)
  exact blk2_ws_point _ _ _ _ _ _ _
    (fun d h => (blk2_whole_4 V c t d h).trans (hmh d h)) (fun d h => blk2_whole_3 V c t d h) e _
    (fun d' => blk2_rows_0 V c t e d' _ hr) (fun d' => blk2_rows_1 V c t e d' _ hr)

/-! ## The blocks cover the arrays -/

/-- An index of the wide output is in point `t`'s block iff each coordinate is in the block's range on its axis. -/
theorem cov2_mem_6 (t : Fin cfg2.N) (i : S400000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v27_0).slice (win2_6.rect t)).set ↔ _
  rw [View.set_slice_whole, Rect.mem_set_unit]
  exact Iff.rfl

/-- The same for the column output. -/
theorem cov2_mem_7 (t : Fin cfg2.N) (i : S400000x1.Idx) :
    i ∈ ((cfg2.win 7).blk t).view.set ↔ ∀ a : Fin 2, win2_7.index t a * S4000x1.size a ≤ (i a).val
      ∧ (i a).val < win2_7.index t a * S4000x1.size a + S4000x1.size a := by
  show i ∈ ((View.whole main_v27_1).slice (win2_7.rect t)).set ↔ _
  rw [View.set_slice_whole, Rect.mem_set_unit]
  exact Iff.rfl

/-- Row `r` of the wide output is in the block of point `r / 4000`, which writes back. -/
theorem cov2_6 (i : S400000x128.Idx) : ∃ t : Fin cfg2.N, (cfg2.win 6).flush t = true ∧ i ∈ ((cfg2.win 6).blk t).view.set := by
  have hi0 : (i 0).val < 400000 := (i 0).isLt
  have hi1 : (i 1).val < 128 := (i 1).isLt
  have hlt : (i 0).val / 4000 < cfg2.N := by show _ < grid2.N; rw [N_2]; omega
  refine ⟨⟨(i 0).val / 4000, hlt⟩, flush2_6 _, ?_⟩
  rw [cov2_mem_6]
  obtain ⟨h60, h61⟩ := (blk2_idx ⟨(i 0).val / 4000, hlt⟩).2.2.2.2.2.2.1
  intro a
  match a with
  | ⟨0, _⟩ =>
    show win2_6.index ⟨(i 0).val / 4000, hlt⟩ 0 * 4000 ≤ (i 0).val ∧ (i 0).val < win2_6.index ⟨(i 0).val / 4000, hlt⟩ 0 * 4000 + 4000
    rw [h60]; show (i 0).val / 4000 * 4000 ≤ (i 0).val ∧ (i 0).val < (i 0).val / 4000 * 4000 + 4000; omega
  | ⟨1, _⟩ =>
    show win2_6.index ⟨(i 0).val / 4000, hlt⟩ 1 * 128 ≤ (i 1).val ∧ (i 1).val < win2_6.index ⟨(i 0).val / 4000, hlt⟩ 1 * 128 + 128
    rw [h61]; omega

/-- The same for the column output. -/
theorem cov2_7 (i : S400000x1.Idx) : ∃ t : Fin cfg2.N, (cfg2.win 7).flush t = true ∧ i ∈ ((cfg2.win 7).blk t).view.set := by
  have hi0 : (i 0).val < 400000 := (i 0).isLt
  have hi1 : (i 1).val < 1 := (i 1).isLt
  have hlt : (i 0).val / 4000 < cfg2.N := by show _ < grid2.N; rw [N_2]; omega
  refine ⟨⟨(i 0).val / 4000, hlt⟩, flush2_7 _, ?_⟩
  rw [cov2_mem_7]
  obtain ⟨h70, h71⟩ := (blk2_idx ⟨(i 0).val / 4000, hlt⟩).2.2.2.2.2.2.2
  intro a
  match a with
  | ⟨0, _⟩ =>
    show win2_7.index ⟨(i 0).val / 4000, hlt⟩ 0 * 4000 ≤ (i 0).val ∧ (i 0).val < win2_7.index ⟨(i 0).val / 4000, hlt⟩ 0 * 4000 + 4000
    rw [h70]; show (i 0).val / 4000 * 4000 ≤ (i 0).val ∧ (i 0).val < (i 0).val / 4000 * 4000 + 4000; omega
  | ⟨1, _⟩ =>
    show win2_7.index ⟨(i 0).val / 4000, hlt⟩ 1 * 1 ≤ (i 1).val ∧ (i 1).val < win2_7.index ⟨(i 0).val / 4000, hlt⟩ 1 * 1 + 1
    rw [h71]; omega

/-! ## The arrays after the region -/

/-- The wide output ends holding the attended values of the edge arrays, entry by entry. -/
theorem final2_6 (c : Dev nD)
    (hmh : ∀ (d : Fin 128) (h : Fin 4), V c main_v18 (ix2 d h) = Cert.Spec.ind d h)
    (hmb : ∀ (h : Fin 4) (d : Fin 128), V c main_v19 (ix2 h d) = Cert.Spec.ind d h) :
    (Hand.dat2 (F := Ideal) V c).arrAt 6 cfg2.N
      = fun i => Cert.Spec.attended (E := 400000) (V c main_v24) (V c main_v25) (V c main_v26) (V c main_arg10) (i 0) (i 1) :=
  (Hand.dat2 (F := Ideal) V c).arrAt_eq_of_cover 6 _ (fun t _ => flushed2_6_eq V c hmh hmb t) cov2_6

/-- The column output ends holding the edges' weight sums. -/
theorem final2_7 (c : Dev nD)
    (hmh : ∀ (d : Fin 128) (h : Fin 4), V c main_v18 (ix2 d h) = Cert.Spec.ind d h) :
    (Hand.dat2 (F := Ideal) V c).arrAt 7 cfg2.N
      = fun i => Cert.Spec.wsum (E := 400000) (V c main_v24) (V c main_v25) (V c main_arg10) (i 0) :=
  (Hand.dat2 (F := Ideal) V c).arrAt_eq_of_cover 7 _ (fun t _ => flushed2_7_eq V c hmh t) cov2_7

end Cert.KernelIdeal.EdgeVal

end
-- ==== Proof.Val.EdgePay3.lean ====
/- An edge-attention kernel's three pure terms read at one entry, over the extended reals: the weights are the softmax
   of the specification's scores, the column of weight sums is their sum over the heads, and the attended value is the
   value entry times the weight of its column's head. -/
import proofs.«412788_j87737591923455_1_alg».proof.Proof.Spec
import proofs.«412788_j87737591923455_1_alg».proof.Proof.Gen.KernelIdeal.Skeleton
import proofs.«412788_j87737591923455_1_alg».proof.Proof.Val.EdgeLib
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.EdgeVal

open Cert.KernelIdeal Cert.KernelIdeal.Gen Idealize.ShloMosaic Idealize.ShloMosaic.ValueIdx

/-! ## The edge kernel's payloads read at an index -/

/-- The payload's score block: the elementwise product of the two row blocks times the head indicator, scaled by the
    named constant, plus the first row block times the bias matrix. -/
def val3_scores (ek eq : Vec Ideal S4000x128 .f32) (mh wa : Vec Ideal S128x4 .f32) : FVec Ideal S4000x4 .f32 :=
  have k : FVec Ideal S4000x128 .f32 := shapeCast S4000x128 ek shapeCasts_S4000x128_S4000x128
  have q : FVec Ideal S4000x128 .f32 := shapeCast S4000x128 eq shapeCasts_S4000x128_S4000x128
  have kq : FVec Ideal S4000x128 .bf16 := truncf .bf16 (mulf k q) bitsLt_bf16_f32
  have m : FVec Ideal S128x4 .f32 := shapeCast S128x4 mh shapeCasts_S128x4_S128x4
  have mb : FVec Ideal S128x4 .bf16 := truncf .bf16 m bitsLt_bf16_f32
  have dots : FVec Ideal S4000x4 .f32 := matmul dot_S4000x128_S128x4_S4000x4_1_0_0_1_n_n none kq mb (constant S4000x4 .f32 0x00000000#32)
  have c : Ideal .f32 := Named.named κ "inv_sqrt_dk" 0x3E3504F3#32
  have scaled : FVec Ideal S4000x4 .f32 := mulf dots (broadcast S4000x4 c)
  have wb : FVec Ideal S128x4 .bf16 := truncf .bf16 wa bitsLt_bf16_f32
  have kb : FVec Ideal S4000x128 .bf16 := truncf .bf16 k bitsLt_bf16_f32
  have bias : FVec Ideal S4000x4 .f32 := matmul dot_S4000x128_S128x4_S4000x4_1_0_0_1_n_n none kb wb (constant S4000x4 .f32 0x00000000#32)
  addf scaled bias

/-- Read at `(e, h)` it is the specification's score, when the head matrix is the indicator. -/
theorem val3_scores_apply (ek eq : Vec Ideal S4000x128 .f32) (mh wa : Vec Ideal S128x4 .f32)
    (hmh : ∀ (d : Fin 128) (h : Fin 4), mh (ix2 d h) = Cert.Spec.ind d h) (e : Fin 4000) (h : Fin 4) :
    val3_scores ek eq mh wa (ix2 e h) = Cert.Spec.score ek eq wa e h := by
  unfold val3_scores Cert.Spec.score
  simp only [addf_apply, mulf_apply, broadcast_apply, scoreDot_apply, truncf_apply, shapeCast_self, named_cinv, hmh]
  rw [sum_mul_ind (fun d => ek (ix2 e d) * eq (ix2 e d)) h]

/-- The first payload is the softmax of the score block. -/
theorem val3_attn_eq (ek eq : Vec Ideal S4000x128 .f32) (mh wa : Vec Ideal S128x4 .f32) :
    k3_pay1 (F := Ideal) ek eq mh wa = softmaxVec (val3_scores ek eq mh wa) := rfl

/-- The attention weights: the first payload at `(e, h)` is the softmax of the edge's scores at head `h`. -/
theorem payAt3_attn (ek eq : Vec Ideal S4000x128 .f32) (mh wa : Vec Ideal S128x4 .f32)
    (hmh : ∀ (d : Fin 128) (h : Fin 4), mh (ix2 d h) = Cert.Spec.ind d h) (e : Fin 4000) (h : Fin 4) :
    k3_pay1 (F := Ideal) ek eq mh wa (ix2 e h) = Cert.Spec.attn ek eq wa e h := by
  rw [val3_attn_eq, softmaxVec_apply]
  have hs : (fun k => val3_scores ek eq mh wa (ix2 e k)) = Cert.Spec.score ek eq wa e :=
    funext fun k => val3_scores_apply ek eq mh wa hmh e k
  unfold Cert.Spec.attn Cert.Spec.expo
  simp only [hs, val3_scores_apply ek eq mh wa hmh]

/-- The weight sums: the second payload at row `e` is the sum of the edge's attention weights. -/
theorem payAt3_ws (ek eq : Vec Ideal S4000x128 .f32) (mh wa : Vec Ideal S128x4 .f32)
    (hmh : ∀ (d : Fin 128) (h : Fin 4), mh (ix2 d h) = Cert.Spec.ind d h) (e : Fin 4000) :
    k3_pay2 (F := Ideal) ek eq mh wa (ix2 e 0) = Cert.Spec.wsum ek eq wa e := by
  unfold k3_pay2
  refine (rowSumCol_apply _ _ _ _ _ e 0).trans ?_
  unfold Cert.Spec.wsum
  exact Finset.sum_congr rfl fun h _ => payAt3_attn ek eq mh wa hmh e h

/-- The attended values: the third payload at `(e, d)` is the value entry scaled by the weight of the column's head. -/
theorem payAt3_att (ek eq ev : Vec Ideal S4000x128 .f32) (mh wa : Vec Ideal S128x4 .f32) (mb : Vec Ideal S4x128 .f32)
    (hmh : ∀ (d : Fin 128) (h : Fin 4), mh (ix2 d h) = Cert.Spec.ind d h)
    (hmb : ∀ (h : Fin 4) (d : Fin 128), mb (ix2 h d) = Cert.Spec.ind d h) (e : Fin 4000) (d : Fin 128) :
    k3_pay3 (F := Ideal) ek eq ev mh wa mb (ix2 e d) = Cert.Spec.attended ek eq ev wa e d := by
  unfold k3_pay3 Cert.Spec.attended
  simp only [mulf_apply, spreadDot_apply, truncf_apply, shapeCast_self, hmb, payAt3_attn ek eq mh wa hmh]
  rw [sum_mul_ind_head]

end Cert.KernelIdeal.EdgeVal

end
-- ==== Proof.Val.EdgeArr3.lean ====
/- From blocks to the arrays, for an edge-attention region at the extended reals. At point `t` the five row-block windows
   are on rows 4000 t … 4000 t + 3999 of their arrays and the three small matrices on their whole arrays; the
   specification's attention weights of an edge read only that edge's rows of the key and query arrays. So what a point
   writes back is its block of ONE function of the whole arrays — the attended values for the wide output, the weight sums
   for the column output — and since row r lies in the block of point r / 4000, each output array ends holding that
   function, entry by entry, for any entry valuation whose two indicator arrays are the head indicator. -/
import proofs.«412788_j87737591923455_1_alg».proof.Proof.KernelIdeal.Reg3
import proofs.«412788_j87737591923455_1_alg».proof.Proof.Val.EdgePay3
import Idealize.ShloMosaic.Lib.Pipeline.Value

set_option maxRecDepth 16384

noncomputable section

open scoped BigOperators

namespace Cert.KernelIdeal.EdgeVal

open Cert.KernelIdeal Cert.KernelIdeal.Gen Idealize.ShloMosaic Idealize.ShloMosaic.ValueIdx Idealize.ShloMosaic.TcCoe
open Idealize.SL.Sem
open Idealize.ShloMosaic.Pipeline (Dat Cfg Window)

/-! ## Zero offsets, and the index maps over the grid -/

/-- The body's rectangles start at the block's origin. -/
theorem blk3_hz : (![0, 0] : Fin 2 → Nat) = fun _ => 0 := funext fun a => by fin_cases a <;> rfl

/-- The printed index maps, decided over the grid: the five row-block windows are on block row `t` at point `t`, the three
    small matrices on their one block. -/
theorem blk3_idx : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

/-! ## The specification reads one row of the edge arrays -/

/-- An edge's scores depend on the key and query arrays through that edge's rows only. -/
theorem blk3_score_congr {E E' : Nat} (ek eq : Cert.Spec.Arr2 E 128) (ek' eq' : Cert.Spec.Arr2 E' 128) (wa : Cert.Spec.Arr2 128 4)
    (e : Fin E) (e' : Fin E') (hk : ∀ d, ek (ix2 e d) = ek' (ix2 e' d)) (hq : ∀ d, eq (ix2 e d) = eq' (ix2 e' d)) :
    Cert.Spec.score ek eq wa e = Cert.Spec.score ek' eq' wa e' := by
  funext h
  unfold Cert.Spec.score
  simp only [hk, hq]

/-- So do its attention weights. -/
theorem blk3_attn_congr {E E' : Nat} (ek eq : Cert.Spec.Arr2 E 128) (ek' eq' : Cert.Spec.Arr2 E' 128) (wa : Cert.Spec.Arr2 128 4)
    (e : Fin E) (e' : Fin E') (hk : ∀ d, ek (ix2 e d) = ek' (ix2 e' d)) (hq : ∀ d, eq (ix2 e d) = eq' (ix2 e' d)) :
    Cert.Spec.attn ek eq wa e = Cert.Spec.attn ek' eq' wa e' := by
  funext h
  unfold Cert.Spec.attn Cert.Spec.expo
  rw [blk3_score_congr ek eq ek' eq' wa e e' hk hq]

/-! ## The input blocks are the arrays read where the point's rectangle says -/

variable (V : (c : Dev nD) → (b : Ref sig .tc) → Buf (Elt Ideal) ((c : Thread nD τ).loc b))

/-- A row-block input's block at point `t`, read at `(e, d)`, is row `4000 t + e` of its array. -/
theorem blk3_rows_0 (c : Dev nD) (t : Fin cfg3.N) (e : Fin 4000) (d : Fin 128) (r : Fin 400000) (hr : r.val = 4000 * t.val + e.val) :
    (Hand.iblk3 (F := Ideal) V c 0 t : Vec Ideal S4000x128 .f32) (ix2 e d) = (V c main_v40 : Cert.Spec.Arr2 400000 128) (ix2 r d) := by
  obtain ⟨h0, h1⟩ := (blk3_idx t).1
  unfold Hand.iblk3
  rw [View.read_apply]
  show V c main_v40 _ = V c main_v40 _
  congr 1
  funext a
  apply Fin.ext
  match a with
  | ⟨0, _⟩ => show win3_0.index t 0 * 4000 + 1 * e.val = r.val; rw [h0, hr]; omega
  | ⟨1, _⟩ => show win3_0.index t 1 * 128 + 1 * d.val = d.val; rw [h1]; omega

theorem blk3_rows_1 (c : Dev nD) (t : Fin cfg3.N) (e : Fin 4000) (d : Fin 128) (r : Fin 400000) (hr : r.val = 4000 * t.val + e.val) :
    (Hand.iblk3 (F := Ideal) V c 1 t : Vec Ideal S4000x128 .f32) (ix2 e d) = (V c main_v41 : Cert.Spec.Arr2 400000 128) (ix2 r d) := by
  obtain ⟨h0, h1⟩ := (blk3_idx t).2.1
  unfold Hand.iblk3
  rw [View.read_apply]
  show V c main_v41 _ = V c main_v41 _
  congr 1
  funext a
  apply Fin.ext
  match a with
  | ⟨0, _⟩ => show win3_1.index t 0 * 4000 + 1 * e.val = r.val; rw [h0, hr]; omega
  | ⟨1, _⟩ => show win3_1.index t 1 * 128 + 1 * d.val = d.val; rw [h1]; omega

theorem blk3_rows_2 (c : Dev nD) (t : Fin cfg3.N) (e : Fin 4000) (d : Fin 128) (r : Fin 400000) (hr : r.val = 4000 * t.val + e.val) :
    (Hand.iblk3 (F := Ideal) V c 2 t : Vec Ideal S4000x128 .f32) (ix2 e d) = (V c main_v42 : Cert.Spec.Arr2 400000 128) (ix2 r d) := by
  obtain ⟨h0, h1⟩ := (blk3_idx t).2.2.1
  unfold Hand.iblk3
  rw [View.read_apply]
  show V c main_v42 _ = V c main_v42 _
  congr 1
  funext a
  apply Fin.ext
  match a with
  | ⟨0, _⟩ => show win3_2.index t 0 * 4000 + 1 * e.val = r.val; rw [h0, hr]; omega
  | ⟨1, _⟩ => show win3_2.index t 1 * 128 + 1 * d.val = d.val; rw [h1]; omega

/-- A small matrix's block at every point is its array. -/
theorem blk3_whole_3 (c : Dev nD) (t : Fin cfg3.N) (p : Fin 128) (q : Fin 4) :
    (Hand.iblk3 (F := Ideal) V c 3 t : Vec Ideal S128x4 .f32) (ix2 p q) = (V c main_arg11 : Cert.Spec.Arr2 128 4) (ix2 p q) := by
  obtain ⟨h0, h1⟩ := (blk3_idx t).2.2.2.1
  unfold Hand.iblk3
  rw [View.read_apply]
  show V c main_arg11 _ = V c main_arg11 _
  congr 1
  funext a
  apply Fin.ext
  match a with
  | ⟨0, _⟩ => show win3_3.index t 0 * 128 + 1 * p.val = p.val; rw [h0]; omega
  | ⟨1, _⟩ => show win3_3.index t 1 * 4 + 1 * q.val = q.val; rw [h1]; omega

theorem blk3_whole_4 (c : Dev nD) (t : Fin cfg3.N) (p : Fin 128) (q : Fin 4) :
    (Hand.iblk3 (F := Ideal) V c 4 t : Vec Ideal S128x4 .f32) (ix2 p q) = (V c main_v18 : Cert.Spec.Arr2 128 4) (ix2 p q) := by
  obtain ⟨h0, h1⟩ := (blk3_idx t).2.2.2.2.1
  unfold Hand.iblk3
  rw [View.read_apply]
  show V c main_v18 _ = V c main_v18 _
  congr 1
  funext a
  apply Fin.ext
  match a with
  | ⟨0, _⟩ => show win3_4.index t 0 * 128 + 1 * p.val = p.val; rw [h0]; omega
  | ⟨1, _⟩ => show win3_4.index t 1 * 4 + 1 * q.val = q.val; rw [h1]; omega

theorem blk3_whole_5 (c : Dev nD) (t : Fin cfg3.N) (p : Fin 4) (q : Fin 128) :
    (Hand.iblk3 (F := Ideal) V c 5 t : Vec Ideal S4x128 .f32) (ix2 p q) = (V c main_v19 : Cert.Spec.Arr2 4 128) (ix2 p q) := by
  obtain ⟨h0, h1⟩ := (blk3_idx t).2.2.2.2.2.1
  unfold Hand.iblk3
  rw [View.read_apply]
  show V c main_v19 _ = V c main_v19 _
  congr 1
  funext a
  apply Fin.ext
  match a with
  | ⟨0, _⟩ => show win3_5.index t 0 * 4 + 1 * p.val = p.val; rw [h0]; omega
  | ⟨1, _⟩ => show win3_5.index t 1 * 128 + 1 * q.val = q.val; rw [h1]; omega

/-! ## One point's write-back -/

/-- The attended-value term over blocks that are rows of the arrays is the specification at that row. -/
theorem blk3_att_point (ek eq ev : Vec Ideal S4000x128 .f32) (mh wa : Vec Ideal S128x4 .f32) (mb : Vec Ideal S4x128 .f32)
    (K Q W : Cert.Spec.Arr2 400000 128) (WA : Cert.Spec.Arr2 128 4)
    (hmh : ∀ (d : Fin 128) (h : Fin 4), mh (ix2 d h) = Cert.Spec.ind d h)
    (hmb : ∀ (h : Fin 4) (d : Fin 128), mb (ix2 h d) = Cert.Spec.ind d h)
    (hwa : ∀ (d : Fin 128) (h : Fin 4), wa (ix2 d h) = WA (ix2 d h))
    (e : Fin 4000) (d : Fin 128) (r : Fin 400000)
    (hk : ∀ d', ek (ix2 e d') = K (ix2 r d')) (hq : ∀ d', eq (ix2 e d') = Q (ix2 r d')) (hv : ∀ d', ev (ix2 e d') = W (ix2 r d')) :
    k3_pay3 (F := Ideal) ek eq ev mh wa mb (ix2 e d) = Cert.Spec.attended K Q W WA r d := by
  have hW : (wa : Cert.Spec.Arr2 128 4) = WA := funext fun j => by rw [eq_ix2 j]; exact hwa _ _
  rw [payAt3_att ek eq ev mh wa mb hmh hmb e d]
  unfold Cert.Spec.attended
  rw [hv d, blk3_attn_congr ek eq K Q wa e r hk hq, hW]

/-- The weight-sum term likewise. -/
theorem blk3_ws_point (ek eq : Vec Ideal S4000x128 .f32) (mh wa : Vec Ideal S128x4 .f32)
    (K Q : Cert.Spec.Arr2 400000 128) (WA : Cert.Spec.Arr2 128 4)
    (hmh : ∀ (d : Fin 128) (h : Fin 4), mh (ix2 d h) = Cert.Spec.ind d h)
    (hwa : ∀ (d : Fin 128) (h : Fin 4), wa (ix2 d h) = WA (ix2 d h))
    (e : Fin 4000) (r : Fin 400000)
    (hk : ∀ d', ek (ix2 e d') = K (ix2 r d')) (hq : ∀ d', eq (ix2 e d') = Q (ix2 r d')) :
    k3_pay2 (F := Ideal) ek eq mh wa (ix2 e 0) = Cert.Spec.wsum K Q WA r := by
  have hW : (wa : Cert.Spec.Arr2 128 4) = WA := funext fun j => by rw [eq_ix2 j]; exact hwa _ _
  rw [payAt3_ws ek eq mh wa hmh e]
  unfold Cert.Spec.wsum
  rw [blk3_attn_congr ek eq K Q wa e r hk hq, hW]

/-- What point `t` writes back to the wide output is block `t` of the attended values of the whole arrays. -/
theorem flushed3_6_eq (c : Dev nD)
    (hmh : ∀ (d : Fin 128) (h : Fin 4), V c main_v18 (ix2 d h) = Cert.Spec.ind d h)
    (hmb : ∀ (h : Fin 4) (d : Fin 128), V c main_v19 (ix2 h d) = Cert.Spec.ind d h) (t : Fin cfg3.N) :
    (Hand.dat3 (F := Ideal) V c).flushed 6 t = ((cfg3.win 6).blk t).view.read (Elt Ideal)
      (fun i => Cert.Spec.attended (E := 400000) (V c main_v40) (V c main_v41) (V c main_v42) (V c main_arg11) (i 0) (i 1)) := by
  show (cfg3.win 6).cut (grid3.coords t) ((Hand.dat3 V c).after 6 t) = _
  rw [Hand.after3_6]
  unfold Hand.out3_6
  rw [View.canon_unit_zero blk3_hz]
  simp only [View.ld_unit_zero (S := S4000x128) blk3_hz, View.ld_unit_zero (S := S128x4) blk3_hz, View.ld_unit_zero (S := S4x128) blk3_hz]
  funext y
  obtain ⟨e, d, rfl⟩ : ∃ (e : Fin 4000) (d : Fin 128), y = ix2 e d := ⟨y 0, y 1, eq_ix2 y⟩
  obtain ⟨h60, h61⟩ := (blk3_idx t).2.2.2.2.2.2.1
  have hd : (((cfg3.win 6).blk t).view.emb (ix2 e d) : S400000x128.Idx) 1 = d :=
    Fin.ext (by show win3_6.index t 1 * 128 + 1 * d.val = d.val; rw [h61]; omega)
  have hr : ((((cfg3.win 6).blk t).view.emb (ix2 e d) : S400000x128.Idx) 0).val = 4000 * t.val + e.val := by
    show win3_6.index t 0 * 4000 + 1 * e.val = _; rw [h60]; omega
  show k3_pay3 (F := Ideal) (Hand.iblk3 V c 0 t) (Hand.iblk3 V c 1 t) (Hand.iblk3 V c 2 t) (Hand.iblk3 V c 4 t) (Hand.iblk3 V c 3 t)
      (Hand.iblk3 V c 5 t) (ix2 e d)
    = Cert.Spec.attended (E := 400000) (V c main_v40) (V c main_v41) (V c main_v42) (V c main_arg11)
      ((((cfg3.win 6).blk t).view.emb (ix2 e d) : S400000x128.Idx) 0) ((((cfg3.win 6).blk t).view.emb (ix2 e d) : S400000x128.Idx) 1)
  rw [hd]
  exact blk3_att_point _ _ _ _ _ _ _ _ _ _
    (fun d h => (blk3_whole_4 V c t d h).trans (hmh d h)) (fun h d => (blk3_whole_5 V c t h d).trans (hmb h d))
    (fun d h => blk3_whole_3 V c t d h) e d _
    (fun d' => blk3_rows_0 V c t e d' _ hr) (fun d' => blk3_rows_1 V c t e d' _ hr) (fun d' => blk3_rows_2 V c t e d' _ hr)

/-- What point `t` writes back to the column output is block `t` of the weight sums of the whole arrays. -/
theorem flushed3_7_eq (c : Dev nD)
    (hmh : ∀ (d : Fin 128) (h : Fin 4), V c main_v18 (ix2 d h) = Cert.Spec.ind d h) (t : Fin cfg3.N) :
    (Hand.dat3 (F := Ideal) V c).flushed 7 t = ((cfg3.win 7).blk t).view.read (Elt Ideal)
      (fun i => Cert.Spec.wsum (E := 400000) (V c main_v40) (V c main_v41) (V c main_arg11) (i 0)) := by
  show (cfg3.win 7).cut (grid3.coords t) ((Hand.dat3 V c).after 7 t) = _
  rw [Hand.after3_7]
  unfold Hand.out3_7
  rw [View.canon_unit_zero blk3_hz]
  simp only [View.ld_unit_zero (S := S4000x128) blk3_hz, View.ld_unit_zero (S := S128x4) blk3_hz]
  funext y
  obtain ⟨e, u, rfl⟩ : ∃ (e : Fin 4000) (u : Fin 1), y = ix2 e u := ⟨y 0, y 1, eq_ix2 y⟩
  obtain rfl : u = 0 := Subsingleton.elim _ _
  obtain ⟨h70, h71⟩ := (blk3_idx t).2.2.2.2.2.2.2
  have hr : ((((cfg3.win 7).blk t).view.emb (ix2 e (0 : Fin 1)) : S400000x1.Idx) 0).val = 4000 * t.val + e.val := by
    show win3_7.index t 0 * 4000 + 1 * e.val = _; rw [h70]; omega
  show k3_pay2 (F := Ideal) (Hand.iblk3 V c 0 t) (Hand.iblk3 V c 1 t) (Hand.iblk3 V c 4 t) (Hand.iblk3 V c 3 t) (ix2 e 0)
    = Cert.Spec.wsum (E := 400000) (V c main_v40) (V c main_v41) (V c main_arg11)
      ((((cfg3.win 7).blk t).view.emb (ix2 e (0 : Fin 1)) : S400000x1.Idx) 0)
  exact blk3_ws_point _ _ _ _ _ _ _
    (fun d h => (blk3_whole_4 V c t d h).trans (hmh d h)) (fun d h => blk3_whole_3 V c t d h) e _
    (fun d' => blk3_rows_0 V c t e d' _ hr) (fun d' => blk3_rows_1 V c t e d' _ hr)

/-! ## The blocks cover the arrays -/

/-- An index of the wide output is in point `t`'s block iff each coordinate is in the block's range on its axis. -/
theorem cov3_mem_6 (t : Fin cfg3.N) (i : S400000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v43_0).slice (win3_6.rect t)).set ↔ _
  rw [View.set_slice_whole, Rect.mem_set_unit]
  exact Iff.rfl

/-- The same for the column output. -/
theorem cov3_mem_7 (t : Fin cfg3.N) (i : S400000x1.Idx) :
    i ∈ ((cfg3.win 7).blk t).view.set ↔ ∀ a : Fin 2, win3_7.index t a * S4000x1.size a ≤ (i a).val
      ∧ (i a).val < win3_7.index t a * S4000x1.size a + S4000x1.size a := by
  show i ∈ ((View.whole main_v43_1).slice (win3_7.rect t)).set ↔ _
  rw [View.set_slice_whole, Rect.mem_set_unit]
  exact Iff.rfl

/-- Row `r` of the wide output is in the block of point `r / 4000`, which writes back. -/
theorem cov3_6 (i : S400000x128.Idx) : ∃ t : Fin cfg3.N, (cfg3.win 6).flush t = true ∧ i ∈ ((cfg3.win 6).blk t).view.set := by
  have hi0 : (i 0).val < 400000 := (i 0).isLt
  have hi1 : (i 1).val < 128 := (i 1).isLt
  have hlt : (i 0).val / 4000 < cfg3.N := by show _ < grid3.N; rw [N_3]; omega
  refine ⟨⟨(i 0).val / 4000, hlt⟩, flush3_6 _, ?_⟩
  rw [cov3_mem_6]
  obtain ⟨h60, h61⟩ := (blk3_idx ⟨(i 0).val / 4000, hlt⟩).2.2.2.2.2.2.1
  intro a
  match a with
  | ⟨0, _⟩ =>
    show win3_6.index ⟨(i 0).val / 4000, hlt⟩ 0 * 4000 ≤ (i 0).val ∧ (i 0).val < win3_6.index ⟨(i 0).val / 4000, hlt⟩ 0 * 4000 + 4000
    rw [h60]; show (i 0).val / 4000 * 4000 ≤ (i 0).val ∧ (i 0).val < (i 0).val / 4000 * 4000 + 4000; omega
  | ⟨1, _⟩ =>
    show win3_6.index ⟨(i 0).val / 4000, hlt⟩ 1 * 128 ≤ (i 1).val ∧ (i 1).val < win3_6.index ⟨(i 0).val / 4000, hlt⟩ 1 * 128 + 128
    rw [h61]; omega

/-- The same for the column output. -/
theorem cov3_7 (i : S400000x1.Idx) : ∃ t : Fin cfg3.N, (cfg3.win 7).flush t = true ∧ i ∈ ((cfg3.win 7).blk t).view.set := by
  have hi0 : (i 0).val < 400000 := (i 0).isLt
  have hi1 : (i 1).val < 1 := (i 1).isLt
  have hlt : (i 0).val / 4000 < cfg3.N := by show _ < grid3.N; rw [N_3]; omega
  refine ⟨⟨(i 0).val / 4000, hlt⟩, flush3_7 _, ?_⟩
  rw [cov3_mem_7]
  obtain ⟨h70, h71⟩ := (blk3_idx ⟨(i 0).val / 4000, hlt⟩).2.2.2.2.2.2.2
  intro a
  match a with
  | ⟨0, _⟩ =>
    show win3_7.index ⟨(i 0).val / 4000, hlt⟩ 0 * 4000 ≤ (i 0).val ∧ (i 0).val < win3_7.index ⟨(i 0).val / 4000, hlt⟩ 0 * 4000 + 4000
    rw [h70]; show (i 0).val / 4000 * 4000 ≤ (i 0).val ∧ (i 0).val < (i 0).val / 4000 * 4000 + 4000; omega
  | ⟨1, _⟩ =>
    show win3_7.index ⟨(i 0).val / 4000, hlt⟩ 1 * 1 ≤ (i 1).val ∧ (i 1).val < win3_7.index ⟨(i 0).val / 4000, hlt⟩ 1 * 1 + 1
    rw [h71]; omega

/-! ## The arrays after the region -/

/-- The wide output ends holding the attended values of the edge arrays, entry by entry. -/
theorem final3_6 (c : Dev nD)
    (hmh : ∀ (d : Fin 128) (h : Fin 4), V c main_v18 (ix2 d h) = Cert.Spec.ind d h)
    (hmb : ∀ (h : Fin 4) (d : Fin 128), V c main_v19 (ix2 h d) = Cert.Spec.ind d h) :
    (Hand.dat3 (F := Ideal) V c).arrAt 6 cfg3.N
      = fun i => Cert.Spec.attended (E := 400000) (V c main_v40) (V c main_v41) (V c main_v42) (V c main_arg11) (i 0) (i 1) :=
  (Hand.dat3 (F := Ideal) V c).arrAt_eq_of_cover 6 _ (fun t _ => flushed3_6_eq V c hmh hmb t) cov3_6

/-- The column output ends holding the edges' weight sums. -/
theorem final3_7 (c : Dev nD)
    (hmh : ∀ (d : Fin 128) (h : Fin 4), V c main_v18 (ix2 d h) = Cert.Spec.ind d h) :
    (Hand.dat3 (F := Ideal) V c).arrAt 7 cfg3.N
      = fun i => Cert.Spec.wsum (E := 400000) (V c main_v40) (V c main_v41) (V c main_arg11) (i 0) :=
  (Hand.dat3 (F := Ideal) V c).arrAt_eq_of_cover 7 _ (fun t _ => flushed3_7_eq V c hmh t) cov3_7

end Cert.KernelIdeal.EdgeVal

end
-- ==== Proof.Val.UpdLib.lean ====
/- Operations of the node-update kernels read at one index, at the ideal floats: a reciprocal square root, the keepdims
   column cast and column broadcast, the sum over the 128 lanes of a row block, the matrix product of a row block and a
   square matrix into the zero splat, and the three shapes built from them that the payloads use (a parameter row
   broadcast over the rows, an affine map, the clamped quotient, a row mean kept as a column). -/
import proofs.«412788_j87737591923455_1_alg».proof.Proof.Spec
import proofs.«412788_j87737591923455_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.UpdVal

open Cert.KernelIdeal Cert.KernelIdeal.Gen Idealize.ShloMosaic Idealize.ShloMosaic.ValueIdx

/-! ## Operations read at an index -/

/-- A reciprocal square root at an index is the ideal one of the element. -/
theorem rsqrt_apply {s : Shape} {φ : FTy} (a : FVec Ideal s φ) (i : s.Idx) : rsqrt a i = Ideal.rsqrt (a i) := rfl

/-- A vector `[a]` cast to the column `[a, 1]` reads, at `(i, u)`, the operand at `i`, whatever the unit coordinate. -/
theorem shapeCast_a_a1_apply {α : Type} {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a row block, at row `r`, is the sum of the row's entries. -/
theorem laneSum_apply (src : FVec Ideal S5000x128 .f32) (r : Fin 5000) :
    multiReduction (F := Ideal) .add [1] S5000 src 0x00000000#32 reduces_S5000x128_S5000 (.inl rfl) rfl (ix1 r)
      = ∑ k : Fin 128, src (ix2 r k) := by
  refine (Ideal.multiReduction_add_single src 0x00000000#32 reduces_S5000x128_S5000 (.inl rfl) rfl (ix1 r)).trans ?_
  refine Finset.sum_congr rfl fun k _ => congrArg src ?_
  funext a
  match a with
  | ⟨0, _⟩ => rfl
  | ⟨1, _⟩ => rfl

/-- The matrix product's operand indices, axis by axis: the row from the output index, the column from the output
    index, and the contracted coordinate on the other two. -/
theorem lhs_dot_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_dot_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_dot_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a row block and a square matrix into the zero splat, at `(r, q)`: the sum over the 128
    contracted coordinates of the row's entries times the column's. -/
theorem matmul_zero_apply {φ₁ φ₂ : FTy} (L : FVec Ideal S5000x128 φ₁) (R : FVec Ideal S128x128 φ₂) (r : Fin 5000) (q : Fin 128) :
    matmul dot_S5000x128_S128x128_S5000x128_1_0_0_1_n_n none L R (constant (F := Ideal) S5000x128 .f32 0x00000000#32) (ix2 r q)
      = ∑ k : Fin 128, L (ix2 r k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A parameter row, cast to its own shape and broadcast over the rows, reads its entry of the column. -/
theorem rowParam_apply (v : Vec Ideal S1x128 .f32) (r : Fin 5000) (q : Fin 128) :
    broadcastTo S5000x128 (shapeCast S1x128 v shapeCasts_S1x128_S1x128) broadcasts_S1x128_S5000x128 (ix2 r q) = v (ix2 0 q) := by
  refine (broadcastTo_1b_ab_apply _ _ r q).trans ?_
  rw [shapeCast_self]

/-- An affine map of a row block: the product with a square matrix (operands narrowed, which the ideal floats do not
    see) plus the bias row, at `(r, q)`. -/
theorem affine_apply (A : FVec Ideal S5000x128 .f32) (w : Vec Ideal S128x128 .f32) (bv : Vec Ideal S1x128 .f32) (r : Fin 5000) (q : Fin 128) :
    addf (matmul dot_S5000x128_S128x128_S5000x128_1_0_0_1_n_n none (truncf .bf16 A bitsLt_bf16_f32) (truncf .bf16 w bitsLt_bf16_f32) (constant (F := Ideal) S5000x128 .f32 0x00000000#32))
        (broadcastTo S5000x128 (shapeCast S1x128 bv shapeCasts_S1x128_S1x128) broadcasts_S1x128_S5000x128) (ix2 r q)
      = (∑ k : Fin 128, A (ix2 r k) * w (ix2 k q)) + bv (ix2 0 q) := by
  refine (addf_apply _ _ _).trans ?_
  refine congrArg₂ (· + ·) ?_ (rowParam_apply bv r q)
  exact matmul_zero_apply _ _ r q

/-- The message block over the clamped weight-sum column, at `(r, k)`. -/
theorem agg_apply (msg : Vec Ideal S5000x128 .f32) (ws : Vec Ideal S5000x1 .f32) (r : Fin 5000) (k : Fin 128) :
    divf (shapeCast S5000x128 msg shapeCasts_S5000x128_S5000x128)
        (broadcastTo S5000x128 (maximumf (shapeCast S5000x1 ws shapeCasts_S5000x1_S5000x1)
          (broadcast S5000x1 (Scalar.ofBits (F := Ideal) .f32 0x322BCC77#32))) broadcasts_S5000x1_S5000x128) (ix2 r k)
      = Cert.Spec.agg (N := 5000) msg (fun r => ws (ix2 r 0)) r k := by
  refine (divf_apply _ _ _).trans ?_
  rw [shapeCast_self, broadcastTo_a1_ab_apply, shapeCast_self]
  rfl

/-- A row block's lane sum kept as a column and divided by the row length, at row `r`. -/
theorem rowMean_apply (y : FVec Ideal S5000x128 .f32) (r : Fin 5000) (u : Fin 1) :
    divf (shapeCast S5000x1 (multiReduction (F := Ideal) .add [1] S5000 y 0x00000000#32 reduces_S5000x128_S5000 (.inl rfl) rfl) shapeCasts_S5000_S5000x1)
        (broadcast S5000x1 (Scalar.ofBits (F := Ideal) .f32 0x43000000#32)) (ix2 r u)
      = Cert.Spec.rowMean (fun q => y (ix2 r q)) := by
  refine (divf_apply _ _ _).trans ?_
  rw [shapeCast_a_a1_apply, laneSum_apply]
  rfl

end Cert.KernelIdeal.UpdVal

end
-- ==== Proof.Val.UpdPay.lean ====
/- The node-update kernel's stored value at the ideal floats, read at one index: the residual sum, its row mean and row
   variance, and the normalised, scaled and shifted result are the specification's functions of the loaded blocks. -/
import proofs.«412788_j87737591923455_1_alg».proof.Proof.Spec
import proofs.«412788_j87737591923455_1_alg».proof.Proof.Gen.KernelIdeal.Skeleton
import proofs.«412788_j87737591923455_1_alg».proof.Proof.Val.UpdLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.UpdVal

open Cert.KernelIdeal Cert.KernelIdeal.Gen Idealize.ShloMosaic Idealize.ShloMosaic.ValueIdx

/-! ## The payloads at an index -/

/-- The residual sum at `(r, q)`. -/
theorem payAt4_resid (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    k4_pay2 (F := Ideal) msg ws wm bm wg bg x (ix2 r q) = Cert.Spec.resid (N := 5000) msg (fun r => ws (ix2 r 0)) x wm (fun q => bm (ix2 0 q)) wg (fun q => bg (ix2 0 q)) r q := by
  unfold k4_pay2 Cert.Spec.resid
  refine (addf_apply _ _ _).trans ?_
  refine congrArg (· + x (ix2 r q)) ?_
  refine (affine_apply _ wg bg r q).trans ?_
  refine congrArg (· + bg (ix2 0 q)) ?_
  refine Finset.sum_congr rfl fun k _ => congrArg (· * wg (ix2 k q)) ?_
  unfold Cert.Spec.lin1
  refine (affine_apply _ wm bm r k).trans ?_
  refine congrArg (· + bm (ix2 0 k)) ?_
  refine Finset.sum_congr rfl fun k' _ => congrArg (· * wm (ix2 k' k)) ?_
  exact agg_apply msg ws r k'

/-- The row mean, kept as a column, at row `r`. -/
theorem payAt4_mean (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (u : Fin 1) :
    k4_pay3 (F := Ideal) msg ws wm bm wg bg x (ix2 r u) = Cert.Spec.rowMean (Cert.Spec.resid (N := 5000) msg (fun r => ws (ix2 r 0)) x wm (fun q => bm (ix2 0 q)) wg (fun q => bg (ix2 0 q)) r) := by
  unfold k4_pay3
  refine (rowMean_apply _ r u).trans ?_
  exact congrArg Cert.Spec.rowMean (funext fun q => payAt4_resid msg ws wm bm wg bg x r q)

/-- The mean broadcast over the row, at `(r, q)`. -/
theorem payAt4_bmean (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    k4_pay5 (F := Ideal) msg ws wm bm wg bg x (ix2 r q) = Cert.Spec.rowMean (Cert.Spec.resid (N := 5000) msg (fun r => ws (ix2 r 0)) x wm (fun q => bm (ix2 0 q)) wg (fun q => bg (ix2 0 q)) r) := by
  unfold k4_pay5
  refine (broadcastTo_a1_ab_apply _ _ r q).trans ?_
  exact payAt4_mean msg ws wm bm wg bg x r 0

/-- The centred square at `(r, q)`. -/
theorem val4_sq (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    mulf (subf (k4_pay2 (F := Ideal) msg ws wm bm wg bg x) (broadcastTo S5000x128 (k4_pay3 (F := Ideal) msg ws wm bm wg bg x) broadcasts_S5000x1_S5000x128))
        (subf (k4_pay2 (F := Ideal) msg ws wm bm wg bg x) (broadcastTo S5000x128 (k4_pay3 (F := Ideal) msg ws wm bm wg bg x) broadcasts_S5000x1_S5000x128)) (ix2 r q)
      = (Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r)) * (Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r)) := by
  refine (mulf_apply _ _ _).trans ?_
  have e : subf (k4_pay2 (F := Ideal) msg ws wm bm wg bg x) (broadcastTo S5000x128 (k4_pay3 (F := Ideal) msg ws wm bm wg bg x) broadcasts_S5000x1_S5000x128) (ix2 r q)
      = Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r) := by
    refine (subf_apply _ _ _).trans ?_
    refine congrArg₂ (· - ·) (payAt4_resid msg ws wm bm wg bg x r q) ?_
    refine (broadcastTo_a1_ab_apply _ _ r q).trans ?_
    exact payAt4_mean msg ws wm bm wg bg x r 0
  rw [e]

/-- The row variance, kept as a column, at row `r`. -/
theorem payAt4_var (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (u : Fin 1) :
    k4_pay4 (F := Ideal) msg ws wm bm wg bg x (ix2 r u) = Cert.Spec.rowVar (Cert.Spec.resid (N := 5000) msg (fun r => ws (ix2 r 0)) x wm (fun q => bm (ix2 0 q)) wg (fun q => bg (ix2 0 q)) r) := by
  unfold k4_pay4
  refine (rowMean_apply _ r u).trans ?_
  unfold Cert.Spec.rowVar Cert.Spec.rowMean
  refine congrArg (fun s => Ideal.div s Cert.Spec.c128) ?_
  exact Finset.sum_congr rfl fun q _ => val4_sq msg ws wm bm wg bg x r q

/-- The stored value as a function of the three carried blocks and the two late parameter rows, at `(r, q)`. -/
theorem val4_out (v25 : FVec Ideal S5000x128 .f32) (v36 : FVec Ideal S5000x1 .f32) (v37 : FVec Ideal S5000x128 .f32)
    (g b : Vec Ideal S1x128 .f32) (r : Fin 5000) (q : Fin 128) :
    k4_pay1 (F := Ideal) v25 v36 v37 g b (ix2 r q)
      = (v25 (ix2 r q) - v37 (ix2 r q)) * Ideal.rsqrt (v36 (ix2 r 0) + Cert.Spec.eps5) * g (ix2 0 q) + b (ix2 0 q) := by
  unfold k4_pay1
  refine (addf_apply _ _ _).trans ?_
  refine congrArg₂ (· + ·) ?_ (rowParam_apply b r q)
  refine (mulf_apply _ _ _).trans ?_
  refine congrArg₂ (· * ·) ?_ (rowParam_apply g r q)
  refine (mulf_apply _ _ _).trans ?_
  refine congrArg₂ (· * ·) (subf_apply _ _ _) ?_
  refine (broadcastTo_a1_ab_apply _ _ r q).trans ?_
  rfl

/-- THE STORED VALUE at `(r, q)` is the specification's updated row. -/
theorem payAt4_out (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (g b : Vec Ideal S1x128 .f32) (r : Fin 5000) (q : Fin 128) :
    k4_pay1 (F := Ideal) (k4_pay2 msg ws wm bm wg bg x) (k4_pay4 msg ws wm bm wg bg x) (k4_pay5 msg ws wm bm wg bg x) g b (ix2 r q)
      = Cert.Spec.upd (N := 5000) msg (fun r => ws (ix2 r 0)) x wm (fun q => bm (ix2 0 q)) wg (fun q => bg (ix2 0 q))
          (fun q => g (ix2 0 q)) (fun q => b (ix2 0 q)) r q := by
  refine (val4_out _ _ _ g b r q).trans ?_
  rw [payAt4_resid, payAt4_bmean, payAt4_var]
  rfl

end Cert.KernelIdeal.UpdVal

end
-- ==== Proof.Val.UpdArr.lean ====
/- From blocks to the array for a node-update region, at the ideal floats: what each grid point writes back is the point's
   block of ONE function of the arrays the region finds (the specification's updated row, read off the whole arrays),
   the points' blocks tile the output array, and so the array ends holding that function. -/
import proofs.«412788_j87737591923455_1_alg».proof.Proof.KernelIdeal.Reg4
import proofs.«412788_j87737591923455_1_alg».proof.Proof.Val.UpdPay
import Idealize.ShloMosaic.Lib.Pipeline.Value

set_option maxRecDepth 16384

noncomputable section

open scoped BigOperators

namespace Cert.KernelIdeal.UpdVal

open Cert.KernelIdeal Cert.KernelIdeal.Gen Cert.KernelIdeal.Hand Idealize.ShloMosaic Idealize.ShloMosaic.TcCoe Idealize.ShloMosaic.ValueIdx
open Idealize.ShloMosaic.Pipeline (Dat)

/-! ## The updated row reads one row of the row-indexed arrays -/

/-- The residual sum at row `p` of one family of arrays is that at row `R` of another whenever the two rows agree entry
    by entry and the parameter arrays are the same. -/
theorem resid_row_congr {N M : Nat} (msg : Cert.Spec.Arr2 N 128) (MSG : Cert.Spec.Arr2 M 128) (ws : Fin N → EReal) (WS : Fin M → EReal)
    (x : Cert.Spec.Arr2 N 128) (X : Cert.Spec.Arr2 M 128) (wm : Cert.Spec.Arr2 128 128) (bm : Fin 128 → EReal)
    (wg : Cert.Spec.Arr2 128 128) (bg : Fin 128 → EReal) (p : Fin N) (R : Fin M)
    (hm : ∀ k, msg (ix2 p k) = MSG (ix2 R k)) (hw : ws p = WS R) (hx : ∀ k, x (ix2 p k) = X (ix2 R k)) :
    Cert.Spec.resid msg ws x wm bm wg bg p = Cert.Spec.resid MSG WS X wm bm wg bg R := by
  funext q
  unfold Cert.Spec.resid Cert.Spec.lin1 Cert.Spec.agg
  simp only [hm, hw, hx]

/-- So the updated row is, too; the parameter arrays may be given as equal ones. -/
theorem upd_row_congr {N M : Nat} (msg : Cert.Spec.Arr2 N 128) (MSG : Cert.Spec.Arr2 M 128) (ws : Fin N → EReal) (WS : Fin M → EReal)
    (x : Cert.Spec.Arr2 N 128) (X : Cert.Spec.Arr2 M 128) (wm WM : Cert.Spec.Arr2 128 128) (bm BM : Fin 128 → EReal)
    (wg WG : Cert.Spec.Arr2 128 128) (bg BG g Gn b B : Fin 128 → EReal) (p : Fin N) (R : Fin M) (q : Fin 128)
    (hm : ∀ k, msg (ix2 p k) = MSG (ix2 R k)) (hw : ws p = WS R) (hx : ∀ k, x (ix2 p k) = X (ix2 R k))
    (hwm : wm = WM) (hbm : bm = BM) (hwg : wg = WG) (hbg : bg = BG) (hg : g = Gn) (hb : b = B) :
    Cert.Spec.upd msg ws x wm bm wg bg g b p q = Cert.Spec.upd MSG WS X WM BM WG BG Gn B R q := by
  subst hwm hbm hwg hbg hg hb
  unfold Cert.Spec.upd
  rw [resid_row_congr msg MSG ws WS x X wm bm wg bg p R hm hw hx]

/-! ## The region's output array -/

variable (V : (c : Dev nD) → (b : Ref sig .tc) → Buf (Elt Ideal) ((c : Thread nD τ).loc b))

theorem final4_hz : (![0, 0] : Fin 2 → Nat) = fun _ => 0 := funext fun a => by fin_cases a <;> rfl

/-- What the output array ends holding: the specification's updated row of the arrays the region finds. -/
abbrev final4_fn (c : Dev nD) : Cert.Spec.Arr2 50000 128 := fun i =>
  Cert.Spec.upd (N := 50000) (V c main_v30) (fun r => V c main_v35 (ix2 r 0)) (V c main_arg1) (V c main_arg14) (fun q => V c main_v52 (ix2 0 q)) (V c main_arg18) (fun q => V c main_v53 (ix2 0 q)) (fun q => V c main_v54 (ix2 0 q)) (fun q => V c main_v55 (ix2 0 q)) (i 0) (i 1)

/-- The printed index maps, decided over the grid: the row-blocked windows are at block `t` of the rows at point `t`, the
    others at their one block. -/
theorem blk4_idx : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = t.val
    ∧ win4_9.index t (1 : Fin 2) = 0 :=
  (by decide +kernel : ∀ t : Fin grid4.N, _)

/-- The array row of row `p` of point `t`'s block. -/
def blk4_row (t : Fin cfg4.N) (p : Fin 5000) : Fin 50000 :=
  ⟨5000 * t.val + p.val, by have hN : cfg4.N = 10 := N_4; have h := t.isLt; have := p.isLt; omega⟩

/-- Row `p` of point `t`'s block of window 0 is row `5000 t + p` of its array. -/
theorem blk4_0 (c : Dev nD) (t : Fin cfg4.N) (p : Fin 5000) (k : Fin 128) :
    (iblk4 V c 0 t : Vec Ideal S5000x128 .f32) (ix2 p k) = (V c main_v30 : Cert.Spec.Arr2 50000 128) (ix2 (blk4_row t p) k) := by
  obtain ⟨e00, e01, e10, e11, e20, e21, e30, e31, e40, e41, e50, e51, e60, e61, e70, e71, e80, e81, e90, e91⟩ := blk4_idx t
  show V c main_v30 (((cfg4.win 0).blk t).view.emb (ix2 p k)) = V c main_v30 (ix2 (blk4_row t p) k)
  refine congrArg (V c main_v30) (funext fun a => Fin.ext ?_)
  match a with
  | ⟨0, _⟩ => show win4_0.index t (0 : Fin 2) * 5000 + 1 * p.val = 5000 * t.val + p.val; rw [e00]; omega
  | ⟨1, _⟩ => show win4_0.index t (1 : Fin 2) * 128 + 1 * k.val = k.val; rw [e01]; omega

/-- Row `p` of point `t`'s block of window 1 is row `5000 t + p` of its array. -/
theorem blk4_1 (c : Dev nD) (t : Fin cfg4.N) (p : Fin 5000) (k : Fin 1) :
    (iblk4 V c 1 t : Vec Ideal S5000x1 .f32) (ix2 p k) = (V c main_v35 : Cert.Spec.Arr2 50000 1) (ix2 (blk4_row t p) k) := by
  obtain ⟨e00, e01, e10, e11, e20, e21, e30, e31, e40, e41, e50, e51, e60, e61, e70, e71, e80, e81, e90, e91⟩ := blk4_idx t
  show V c main_v35 (((cfg4.win 1).blk t).view.emb (ix2 p k)) = V c main_v35 (ix2 (blk4_row t p) k)
  refine congrArg (V c main_v35) (funext fun a => Fin.ext ?_)
  match a with
  | ⟨0, _⟩ => show win4_1.index t (0 : Fin 2) * 5000 + 1 * p.val = 5000 * t.val + p.val; rw [e10]; omega
  | ⟨1, _⟩ => show win4_1.index t (1 : Fin 2) * 1 + 1 * k.val = k.val; rw [e11]; omega

/-- Row `p` of point `t`'s block of window 2 is row `5000 t + p` of its array. -/
theorem blk4_2 (c : Dev nD) (t : Fin cfg4.N) (p : Fin 5000) (k : Fin 128) :
    (iblk4 V c 2 t : Vec Ideal S5000x128 .f32) (ix2 p k) = (V c main_arg1 : Cert.Spec.Arr2 50000 128) (ix2 (blk4_row t p) k) := by
  obtain ⟨e00, e01, e10, e11, e20, e21, e30, e31, e40, e41, e50, e51, e60, e61, e70, e71, e80, e81, e90, e91⟩ := blk4_idx t
  show V c main_arg1 (((cfg4.win 2).blk t).view.emb (ix2 p k)) = V c main_arg1 (ix2 (blk4_row t p) k)
  refine congrArg (V c main_arg1) (funext fun a => Fin.ext ?_)
  match a with
  | ⟨0, _⟩ => show win4_2.index t (0 : Fin 2) * 5000 + 1 * p.val = 5000 * t.val + p.val; rw [e20]; omega
  | ⟨1, _⟩ => show win4_2.index t (1 : Fin 2) * 128 + 1 * k.val = k.val; rw [e21]; omega

/-- Window 3's block is its whole array at every point. -/
theorem blk4_3 (c : Dev nD) (t : Fin cfg4.N) :
    (iblk4 V c 3 t : Vec Ideal S128x128 .f32) = (V c main_arg14 : Cert.Spec.Arr2 128 128) := by
  obtain ⟨e00, e01, e10, e11, e20, e21, e30, e31, e40, e41, e50, e51, e60, e61, e70, e71, e80, e81, e90, e91⟩ := blk4_idx t
  funext j
  show V c main_arg14 (((cfg4.win 3).blk t).view.emb j) = V c main_arg14 j
  refine congrArg (V c main_arg14) (funext fun a => Fin.ext ?_)
  match a with
  | ⟨0, _⟩ => show win4_3.index t (0 : Fin 2) * 128 + 1 * (j 0).val = (j 0).val; rw [e30]; omega
  | ⟨1, _⟩ => show win4_3.index t (1 : Fin 2) * 128 + 1 * (j 1).val = (j 1).val; rw [e31]; omega

/-- Window 4's block is its whole array at every point. -/
theorem blk4_4 (c : Dev nD) (t : Fin cfg4.N) :
    (iblk4 V c 4 t : Vec Ideal S1x128 .f32) = (V c main_v52 : Cert.Spec.Arr2 1 128) := by
  obtain ⟨e00, e01, e10, e11, e20, e21, e30, e31, e40, e41, e50, e51, e60, e61, e70, e71, e80, e81, e90, e91⟩ := blk4_idx t
  funext j
  show V c main_v52 (((cfg4.win 4).blk t).view.emb j) = V c main_v52 j
  refine congrArg (V c main_v52) (funext fun a => Fin.ext ?_)
  match a with
  | ⟨0, _⟩ => show win4_4.index t (0 : Fin 2) * 1 + 1 * (j 0).val = (j 0).val; rw [e40]; omega
  | ⟨1, _⟩ => show win4_4.index t (1 : Fin 2) * 128 + 1 * (j 1).val = (j 1).val; rw [e41]; omega

/-- Window 5's block is its whole array at every point. -/
theorem blk4_5 (c : Dev nD) (t : Fin cfg4.N) :
    (iblk4 V c 5 t : Vec Ideal S128x128 .f32) = (V c main_arg18 : Cert.Spec.Arr2 128 128) := by
  obtain ⟨e00, e01, e10, e11, e20, e21, e30, e31, e40, e41, e50, e51, e60, e61, e70, e71, e80, e81, e90, e91⟩ := blk4_idx t
  funext j
  show V c main_arg18 (((cfg4.win 5).blk t).view.emb j) = V c main_arg18 j
  refine congrArg (V c main_arg18) (funext fun a => Fin.ext ?_)
  match a with
  | ⟨0, _⟩ => show win4_5.index t (0 : Fin 2) * 128 + 1 * (j 0).val = (j 0).val; rw [e50]; omega
  | ⟨1, _⟩ => show win4_5.index t (1 : Fin 2) * 128 + 1 * (j 1).val = (j 1).val; rw [e51]; omega

/-- Window 6's block is its whole array at every point. -/
theorem blk4_6 (c : Dev nD) (t : Fin cfg4.N) :
    (iblk4 V c 6 t : Vec Ideal S1x128 .f32) = (V c main_v53 : Cert.Spec.Arr2 1 128) := by
  obtain ⟨e00, e01, e10, e11, e20, e21, e30, e31, e40, e41, e50, e51, e60, e61, e70, e71, e80, e81, e90, e91⟩ := blk4_idx t
  funext j
  show V c main_v53 (((cfg4.win 6).blk t).view.emb j) = V c main_v53 j
  refine congrArg (V c main_v53) (funext fun a => Fin.ext ?_)
  match a with
  | ⟨0, _⟩ => show win4_6.index t (0 : Fin 2) * 1 + 1 * (j 0).val = (j 0).val; rw [e60]; omega
  | ⟨1, _⟩ => show win4_6.index t (1 : Fin 2) * 128 + 1 * (j 1).val = (j 1).val; rw [e61]; omega

/-- Window 7's block is its whole array at every point. -/
theorem blk4_7 (c : Dev nD) (t : Fin cfg4.N) :
    (iblk4 V c 7 t : Vec Ideal S1x128 .f32) = (V c main_v54 : Cert.Spec.Arr2 1 128) := by
  obtain ⟨e00, e01, e10, e11, e20, e21, e30, e31, e40, e41, e50, e51, e60, e61, e70, e71, e80, e81, e90, e91⟩ := blk4_idx t
  funext j
  show V c main_v54 (((cfg4.win 7).blk t).view.emb j) = V c main_v54 j
  refine congrArg (V c main_v54) (funext fun a => Fin.ext ?_)
  match a with
  | ⟨0, _⟩ => show win4_7.index t (0 : Fin 2) * 1 + 1 * (j 0).val = (j 0).val; rw [e70]; omega
  | ⟨1, _⟩ => show win4_7.index t (1 : Fin 2) * 128 + 1 * (j 1).val = (j 1).val; rw [e71]; omega

/-- Window 8's block is its whole array at every point. -/
theorem blk4_8 (c : Dev nD) (t : Fin cfg4.N) :
    (iblk4 V c 8 t : Vec Ideal S1x128 .f32) = (V c main_v55 : Cert.Spec.Arr2 1 128) := by
  obtain ⟨e00, e01, e10, e11, e20, e21, e30, e31, e40, e41, e50, e51, e60, e61, e70, e71, e80, e81, e90, e91⟩ := blk4_idx t
  funext j
  show V c main_v55 (((cfg4.win 8).blk t).view.emb j) = V c main_v55 j
  refine congrArg (V c main_v55) (funext fun a => Fin.ext ?_)
  match a with
  | ⟨0, _⟩ => show win4_8.index t (0 : Fin 2) * 1 + 1 * (j 0).val = (j 0).val; rw [e80]; omega
  | ⟨1, _⟩ => show win4_8.index t (1 : Fin 2) * 128 + 1 * (j 1).val = (j 1).val; rw [e81]; omega

/-- WHAT POINT `t` WRITES BACK is block `t` of the updated rows of the arrays as the region finds them. -/
theorem flushed4_9 (c : Dev nD) (t : Fin cfg4.N) :
    (dat4 (F := Ideal) V c).flushed 9 t = ((cfg4.win 9).blk t).view.read (Elt Ideal) (final4_fn V c) := by
  show (cfg4.win 9).cut (grid4.coords t) ((dat4 (F := Ideal) V c).after 9 t) = _
  rw [after4_9]
  unfold out4_9
  rw [View.canon_unit_zero final4_hz]
  simp only [View.ld_unit_zero (S := S5000x128) final4_hz, View.ld_unit_zero (S := S5000x1) final4_hz,
    View.ld_unit_zero (S := S128x128) final4_hz, View.ld_unit_zero (S := S1x128) final4_hz]
  funext y
  obtain ⟨p, q, rfl⟩ : ∃ (p : Fin 5000) (q : Fin 128), y = ix2 p q := ⟨y 0, y 1, eq_ix2 y⟩
  refine (payAt4_out (iblk4 V c 0 t) (iblk4 V c 1 t) (iblk4 V c 3 t) (iblk4 V c 4 t) (iblk4 V c 5 t) (iblk4 V c 6 t) (iblk4 V c 2 t)
    (iblk4 V c 7 t) (iblk4 V c 8 t) p q).trans ?_
  obtain ⟨e00, e01, e10, e11, e20, e21, e30, e31, e40, e41, e50, e51, e60, e61, e70, e71, e80, e81, e90, e91⟩ := blk4_idx t
  have he : ((cfg4.win 9).blk t).view.emb (ix2 p q) = (ix2 (blk4_row t p) q : S50000x128.Idx) := by
    refine funext fun a => Fin.ext ?_
    match a with
    | ⟨0, _⟩ => show win4_9.index t (0 : Fin 2) * 5000 + 1 * p.val = 5000 * t.val + p.val; rw [e90]; omega
    | ⟨1, _⟩ => show win4_9.index t (1 : Fin 2) * 128 + 1 * q.val = q.val; rw [e91]; omega
  show Cert.Spec.upd (N := 5000) (iblk4 V c 0 t) (fun r => iblk4 V c 1 t (ix2 r 0)) (iblk4 V c 2 t) (iblk4 V c 3 t) (fun q => iblk4 V c 4 t (ix2 0 q)) (iblk4 V c 5 t) (fun q => iblk4 V c 6 t (ix2 0 q)) (fun q => iblk4 V c 7 t (ix2 0 q)) (fun q => iblk4 V c 8 t (ix2 0 q)) p q
    = final4_fn V c (((cfg4.win 9).blk t).view.emb (ix2 p q))
  rw [he]
  exact upd_row_congr _ _ _ _ _ _ _ _ _ _ _ _ _ _ _ _ _ _ p (blk4_row t p) q
    (fun k => blk4_0 V c t p k) (blk4_1 V c t p 0) (fun k => blk4_2 V c t p k)
    (blk4_3 V c t) (funext fun q => congrFun (blk4_4 V c t) (ix2 0 q)) (blk4_5 V c t)
    (funext fun q => congrFun (blk4_6 V c t) (ix2 0 q)) (funext fun q => congrFun (blk4_7 V c t) (ix2 0 q))
    (funext fun q => congrFun (blk4_8 V c t) (ix2 0 q))

/-- An index of the array is in point `t`'s block iff each coordinate is in the block's range on its axis. -/
theorem cov4_mem (t : Fin cfg4.N) (i : S50000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v56).slice (win4_9.rect t)).set ↔ _
  rw [View.set_slice_whole, Rect.mem_set_unit]
  exact Iff.rfl

/-- Every index of the array is in the block of the point its row falls in. -/
theorem cov4_9 (i : S50000x128.Idx) : ∃ t : Fin cfg4.N, (cfg4.win 9).flush t = true ∧ i ∈ ((cfg4.win 9).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have ht : t.val = (i 0).val / 5000 := rfl
  obtain ⟨e00, e01, e10, e11, e20, e21, e30, e31, e40, e41, e50, e51, e60, e61, e70, e71, e80, e81, e90, e91⟩ := blk4_idx t
  refine ⟨t, flush4_9 t, ?_⟩
  rw [cov4_mem]
  intro a
  match a with
  | ⟨0, _⟩ => show win4_9.index t (0 : Fin 2) * 5000 ≤ (i 0).val ∧ (i 0).val < win4_9.index t (0 : Fin 2) * 5000 + 5000; rw [e90]; omega
  | ⟨1, _⟩ => show win4_9.index t (1 : Fin 2) * 128 ≤ (i 1).val ∧ (i 1).val < win4_9.index t (1 : Fin 2) * 128 + 128; rw [e91]; omega

/-- THE ARRAY after the region's run: the updated rows of the arrays the region finds. -/
theorem final4_9 (c : Dev nD) :
    (dat4 (F := Ideal) V c).arrAt 9 cfg4.N
      = fun i => Cert.Spec.upd (N := 50000) (V c main_v30) (fun r => V c main_v35 (ix2 r 0)) (V c main_arg1) (V c main_arg14) (fun q => V c main_v52 (ix2 0 q)) (V c main_arg18) (fun q => V c main_v53 (ix2 0 q)) (fun q => V c main_v54 (ix2 0 q)) (fun q => V c main_v55 (ix2 0 q)) (i 0) (i 1) :=
  (dat4 (F := Ideal) V c).arrAt_eq_of_cover 9 (final4_fn V c) (fun t _ => flushed4_9 V c t) (cov4_9)

end Cert.KernelIdeal.UpdVal

end
-- ==== Proof.Val.UpdPay5.lean ====
/- The node-update kernel's stored value at the ideal floats, read at one index: the residual sum, its row mean and row
   variance, and the normalised, scaled and shifted result are the specification's functions of the loaded blocks. -/
import proofs.«412788_j87737591923455_1_alg».proof.Proof.Spec
import proofs.«412788_j87737591923455_1_alg».proof.Proof.Gen.KernelIdeal.Skeleton
import proofs.«412788_j87737591923455_1_alg».proof.Proof.Val.UpdLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.UpdVal

open Cert.KernelIdeal Cert.KernelIdeal.Gen Idealize.ShloMosaic Idealize.ShloMosaic.ValueIdx

/-! ## The payloads at an index -/

/-- The residual sum at `(r, q)`. -/
theorem payAt5_resid (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    k5_pay2 (F := Ideal) msg ws wm bm wg bg x (ix2 r q) = Cert.Spec.resid (N := 5000) msg (fun r => ws (ix2 r 0)) x wm (fun q => bm (ix2 0 q)) wg (fun q => bg (ix2 0 q)) r q := by
  unfold k5_pay2 Cert.Spec.resid
  refine (addf_apply _ _ _).trans ?_
  refine congrArg (· + x (ix2 r q)) ?_
  refine (affine_apply _ wg bg r q).trans ?_
  refine congrArg (· + bg (ix2 0 q)) ?_
  refine Finset.sum_congr rfl fun k _ => congrArg (· * wg (ix2 k q)) ?_
  unfold Cert.Spec.lin1
  refine (affine_apply _ wm bm r k).trans ?_
  refine congrArg (· + bm (ix2 0 k)) ?_
  refine Finset.sum_congr rfl fun k' _ => congrArg (· * wm (ix2 k' k)) ?_
  exact agg_apply msg ws r k'

/-- The row mean, kept as a column, at row `r`. -/
theorem payAt5_mean (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (u : Fin 1) :
    k5_pay3 (F := Ideal) msg ws wm bm wg bg x (ix2 r u) = Cert.Spec.rowMean (Cert.Spec.resid (N := 5000) msg (fun r => ws (ix2 r 0)) x wm (fun q => bm (ix2 0 q)) wg (fun q => bg (ix2 0 q)) r) := by
  unfold k5_pay3
  refine (rowMean_apply _ r u).trans ?_
  exact congrArg Cert.Spec.rowMean (funext fun q => payAt5_resid msg ws wm bm wg bg x r q)

/-- The mean broadcast over the row, at `(r, q)`. -/
theorem payAt5_bmean (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    k5_pay5 (F := Ideal) msg ws wm bm wg bg x (ix2 r q) = Cert.Spec.rowMean (Cert.Spec.resid (N := 5000) msg (fun r => ws (ix2 r 0)) x wm (fun q => bm (ix2 0 q)) wg (fun q => bg (ix2 0 q)) r) := by
  unfold k5_pay5
  refine (broadcastTo_a1_ab_apply _ _ r q).trans ?_
  exact payAt5_mean msg ws wm bm wg bg x r 0

/-- The centred square at `(r, q)`. -/
theorem val5_sq (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (q : Fin 128) :
    mulf (subf (k5_pay2 (F := Ideal) msg ws wm bm wg bg x) (broadcastTo S5000x128 (k5_pay3 (F := Ideal) msg ws wm bm wg bg x) broadcasts_S5000x1_S5000x128))
        (subf (k5_pay2 (F := Ideal) msg ws wm bm wg bg x) (broadcastTo S5000x128 (k5_pay3 (F := Ideal) msg ws wm bm wg bg x) broadcasts_S5000x1_S5000x128)) (ix2 r q)
      = (Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r)) * (Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r)) := by
  refine (mulf_apply _ _ _).trans ?_
  have e : subf (k5_pay2 (F := Ideal) msg ws wm bm wg bg x) (broadcastTo S5000x128 (k5_pay3 (F := Ideal) msg ws wm bm wg bg x) broadcasts_S5000x1_S5000x128) (ix2 r q)
      = Cert.Spec.resid (N := 5000) msg (fun r => ws (ix2 r 0)) x wm (fun q => bm (ix2 0 q)) wg (fun q => bg (ix2 0 q)) r q - Cert.Spec.rowMean (Cert.Spec.resid (N := 5000) msg (fun r => ws (ix2 r 0)) x wm (fun q => bm (ix2 0 q)) wg (fun q => bg (ix2 0 q)) r) := by
    refine (subf_apply _ _ _).trans ?_
    refine congrArg₂ (· - ·) (payAt5_resid msg ws wm bm wg bg x r q) ?_
    refine (broadcastTo_a1_ab_apply _ _ r q).trans ?_
    exact payAt5_mean msg ws wm bm wg bg x r 0
  rw [e]

/-- The row variance, kept as a column, at row `r`. -/
theorem payAt5_var (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (r : Fin 5000) (u : Fin 1) :
    k5_pay4 (F := Ideal) msg ws wm bm wg bg x (ix2 r u) = Cert.Spec.rowVar (Cert.Spec.resid (N := 5000) msg (fun r => ws (ix2 r 0)) x wm (fun q => bm (ix2 0 q)) wg (fun q => bg (ix2 0 q)) r) := by
  unfold k5_pay4
  refine (rowMean_apply _ r u).trans ?_
  unfold Cert.Spec.rowVar Cert.Spec.rowMean
  refine congrArg (fun s => Ideal.div s Cert.Spec.c128) ?_
  exact Finset.sum_congr rfl fun q _ => val5_sq msg ws wm bm wg bg x r q

/-- The stored value as a function of the three carried blocks and the two late parameter rows, at `(r, q)`. -/
theorem val5_out (v25 : FVec Ideal S5000x128 .f32) (v36 : FVec Ideal S5000x1 .f32) (v37 : FVec Ideal S5000x128 .f32)
    (g b : Vec Ideal S1x128 .f32) (r : Fin 5000) (q : Fin 128) :
    k5_pay1 (F := Ideal) v25 v36 v37 g b (ix2 r q)
      = (v25 (ix2 r q) - v37 (ix2 r q)) * Ideal.rsqrt (v36 (ix2 r 0) + Cert.Spec.eps5) * g (ix2 0 q) + b (ix2 0 q) := by
  unfold k5_pay1
  refine (addf_apply _ _ _).trans ?_
  refine congrArg₂ (· + ·) ?_ (rowParam_apply b r q)
  refine (mulf_apply _ _ _).trans ?_
  refine congrArg₂ (· * ·) ?_ (rowParam_apply g r q)
  refine (mulf_apply _ _ _).trans ?_
  refine congrArg₂ (· * ·) (subf_apply _ _ _) ?_
  refine (broadcastTo_a1_ab_apply _ _ r q).trans ?_
  rfl

/-- THE STORED VALUE at `(r, q)` is the specification's updated row. -/
theorem payAt5_out (msg : Vec Ideal S5000x128 .f32) (ws : Vec Ideal S5000x1 .f32) (wm : Vec Ideal S128x128 .f32) (bm : Vec Ideal S1x128 .f32)
    (wg : Vec Ideal S128x128 .f32) (bg : Vec Ideal S1x128 .f32) (x : Vec Ideal S5000x128 .f32) (g b : Vec Ideal S1x128 .f32) (r : Fin 5000) (q : Fin 128) :
    k5_pay1 (F := Ideal) (k5_pay2 msg ws wm bm wg bg x) (k5_pay4 msg ws wm bm wg bg x) (k5_pay5 msg ws wm bm wg bg x) g b (ix2 r q)
      = Cert.Spec.upd (N := 5000) msg (fun r => ws (ix2 r 0)) x wm (fun q => bm (ix2 0 q)) wg (fun q => bg (ix2 0 q))
          (fun q => g (ix2 0 q)) (fun q => b (ix2 0 q)) r q := by
  refine (val5_out _ _ _ g b r q).trans ?_
  rw [payAt5_resid, payAt5_bmean, payAt5_var]
  rfl

end Cert.KernelIdeal.UpdVal

end
-- ==== Proof.Val.UpdArr5.lean ====
/- From blocks to the array for a node-update region, at the ideal floats: what each grid point writes back is the point's
   block of ONE function of the arrays the region finds (the specification's updated row, read off the whole arrays),
   the points' blocks tile the output array, and so the array ends holding that function. -/
import proofs.«412788_j87737591923455_1_alg».proof.Proof.KernelIdeal.Reg5
import proofs.«412788_j87737591923455_1_alg».proof.Proof.Val.UpdPay5
import Idealize.ShloMosaic.Lib.Pipeline.Value

set_option maxRecDepth 16384

noncomputable section

open scoped BigOperators

namespace Cert.KernelIdeal.UpdVal5

open Cert.KernelIdeal Cert.KernelIdeal.Gen Cert.KernelIdeal.Hand Cert.KernelIdeal.UpdVal Idealize.ShloMosaic Idealize.ShloMosaic.TcCoe Idealize.ShloMosaic.ValueIdx
open Idealize.ShloMosaic.Pipeline (Dat)

/-! ## The updated row reads one row of the row-indexed arrays -/

/-- The residual sum at row `p` of one family of arrays is that at row `R` of another whenever the two rows agree entry
    by entry and the parameter arrays are the same. -/
theorem resid_row_congr {N M : Nat} (msg : Cert.Spec.Arr2 N 128) (MSG : Cert.Spec.Arr2 M 128) (ws : Fin N → EReal) (WS : Fin M → EReal)
    (x : Cert.Spec.Arr2 N 128) (X : Cert.Spec.Arr2 M 128) (wm : Cert.Spec.Arr2 128 128) (bm : Fin 128 → EReal)
    (wg : Cert.Spec.Arr2 128 128) (bg : Fin 128 → EReal) (p : Fin N) (R : Fin M)
    (hm : ∀ k, msg (ix2 p k) = MSG (ix2 R k)) (hw : ws p = WS R) (hx : ∀ k, x (ix2 p k) = X (ix2 R k)) :
    Cert.Spec.resid msg ws x wm bm wg bg p = Cert.Spec.resid MSG WS X wm bm wg bg R := by
  funext q
  unfold Cert.Spec.resid Cert.Spec.lin1 Cert.Spec.agg
  simp only [hm, hw, hx]

/-- So the updated row is, too; the parameter arrays may be given as equal ones. -/
theorem upd_row_congr {N M : Nat} (msg : Cert.Spec.Arr2 N 128) (MSG : Cert.Spec.Arr2 M 128) (ws : Fin N → EReal) (WS : Fin M → EReal)
    (x : Cert.Spec.Arr2 N 128) (X : Cert.Spec.Arr2 M 128) (wm WM : Cert.Spec.Arr2 128 128) (bm BM : Fin 128 → EReal)
    (wg WG : Cert.Spec.Arr2 128 128) (bg BG g Gn b B : Fin 128 → EReal) (p : Fin N) (R : Fin M) (q : Fin 128)
    (hm : ∀ k, msg (ix2 p k) = MSG (ix2 R k)) (hw : ws p = WS R) (hx : ∀ k, x (ix2 p k) = X (ix2 R k))
    (hwm : wm = WM) (hbm : bm = BM) (hwg : wg = WG) (hbg : bg = BG) (hg : g = Gn) (hb : b = B) :
    Cert.Spec.upd msg ws x wm bm wg bg g b p q = Cert.Spec.upd MSG WS X WM BM WG BG Gn B R q := by
  subst hwm hbm hwg hbg hg hb
  unfold Cert.Spec.upd
  rw [resid_row_congr msg MSG ws WS x X wm bm wg bg p R hm hw hx]

/-! ## The region's output array -/

variable (V : (c : Dev nD) → (b : Ref sig .tc) → Buf (Elt Ideal) ((c : Thread nD τ).loc b))

theorem final5_hz : (![0, 0] : Fin 2 → Nat) = fun _ => 0 := funext fun a => by fin_cases a <;> rfl

/-- What the output array ends holding: the specification's updated row of the arrays the region finds. -/
abbrev final5_fn (c : Dev nD) : Cert.Spec.Arr2 50000 128 := fun i =>
  Cert.Spec.upd (N := 50000) (V c main_v46) (fun r => V c main_v51 (ix2 r 0)) (V c main_arg0) (V c main_arg12) (fun q => V c main_v57 (ix2 0 q)) (V c main_arg16) (fun q => V c main_v58 (ix2 0 q)) (fun q => V c main_v59 (ix2 0 q)) (fun q => V c main_v60 (ix2 0 q)) (i 0) (i 1)

/-- The printed index maps, decided over the grid: the row-blocked windows are at block `t` of the rows at point `t`, the
    others at their one block. -/
theorem blk5_idx : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = t.val
    ∧ win5_9.index t (1 : Fin 2) = 0 :=
  (by decide +kernel : ∀ t : Fin grid5.N, _)

/-- The array row of row `p` of point `t`'s block. -/
def blk5_row (t : Fin cfg5.N) (p : Fin 5000) : Fin 50000 :=
  ⟨5000 * t.val + p.val, by have hN : cfg5.N = 10 := N_5; have h := t.isLt; have := p.isLt; omega⟩

/-- Row `p` of point `t`'s block of window 0 is row `5000 t + p` of its array. -/
theorem blk5_0 (c : Dev nD) (t : Fin cfg5.N) (p : Fin 5000) (k : Fin 128) :
    (iblk5 V c 0 t : Vec Ideal S5000x128 .f32) (ix2 p k) = (V c main_v46 : Cert.Spec.Arr2 50000 128) (ix2 (blk5_row t p) k) := by
  obtain ⟨e00, e01, e10, e11, e20, e21, e30, e31, e40, e41, e50, e51, e60, e61, e70, e71, e80, e81, e90, e91⟩ := blk5_idx t
  show V c main_v46 (((cfg5.win 0).blk t).view.emb (ix2 p k)) = V c main_v46 (ix2 (blk5_row t p) k)
  refine congrArg (V c main_v46) (funext fun a => Fin.ext ?_)
  match a with
  | ⟨0, _⟩ => show win5_0.index t (0 : Fin 2) * 5000 + 1 * p.val = 5000 * t.val + p.val; rw [e00]; omega
  | ⟨1, _⟩ => show win5_0.index t (1 : Fin 2) * 128 + 1 * k.val = k.val; rw [e01]; omega

/-- Row `p` of point `t`'s block of window 1 is row `5000 t + p` of its array. -/
theorem blk5_1 (c : Dev nD) (t : Fin cfg5.N) (p : Fin 5000) (k : Fin 1) :
    (iblk5 V c 1 t : Vec Ideal S5000x1 .f32) (ix2 p k) = (V c main_v51 : Cert.Spec.Arr2 50000 1) (ix2 (blk5_row t p) k) := by
  obtain ⟨e00, e01, e10, e11, e20, e21, e30, e31, e40, e41, e50, e51, e60, e61, e70, e71, e80, e81, e90, e91⟩ := blk5_idx t
  show V c main_v51 (((cfg5.win 1).blk t).view.emb (ix2 p k)) = V c main_v51 (ix2 (blk5_row t p) k)
  refine congrArg (V c main_v51) (funext fun a => Fin.ext ?_)
  match a with
  | ⟨0, _⟩ => show win5_1.index t (0 : Fin 2) * 5000 + 1 * p.val = 5000 * t.val + p.val; rw [e10]; omega
  | ⟨1, _⟩ => show win5_1.index t (1 : Fin 2) * 1 + 1 * k.val = k.val; rw [e11]; omega

/-- Row `p` of point `t`'s block of window 2 is row `5000 t + p` of its array. -/
theorem blk5_2 (c : Dev nD) (t : Fin cfg5.N) (p : Fin 5000) (k : Fin 128) :
    (iblk5 V c 2 t : Vec Ideal S5000x128 .f32) (ix2 p k) = (V c main_arg0 : Cert.Spec.Arr2 50000 128) (ix2 (blk5_row t p) k) := by
  obtain ⟨e00, e01, e10, e11, e20, e21, e30, e31, e40, e41, e50, e51, e60, e61, e70, e71, e80, e81, e90, e91⟩ := blk5_idx t
  show V c main_arg0 (((cfg5.win 2).blk t).view.emb (ix2 p k)) = V c main_arg0 (ix2 (blk5_row t p) k)
  refine congrArg (V c main_arg0) (funext fun a => Fin.ext ?_)
  match a with
  | ⟨0, _⟩ => show win5_2.index t (0 : Fin 2) * 5000 + 1 * p.val = 5000 * t.val + p.val; rw [e20]; omega
  | ⟨1, _⟩ => show win5_2.index t (1 : Fin 2) * 128 + 1 * k.val = k.val; rw [e21]; omega

/-- Window 3's block is its whole array at every point. -/
theorem blk5_3 (c : Dev nD) (t : Fin cfg5.N) :
    (iblk5 V c 3 t : Vec Ideal S128x128 .f32) = (V c main_arg12 : Cert.Spec.Arr2 128 128) := by
  obtain ⟨e00, e01, e10, e11, e20, e21, e30, e31, e40, e41, e50, e51, e60, e61, e70, e71, e80, e81, e90, e91⟩ := blk5_idx t
  funext j
  show V c main_arg12 (((cfg5.win 3).blk t).view.emb j) = V c main_arg12 j
  refine congrArg (V c main_arg12) (funext fun a => Fin.ext ?_)
  match a with
  | ⟨0, _⟩ => show win5_3.index t (0 : Fin 2) * 128 + 1 * (j 0).val = (j 0).val; rw [e30]; omega
  | ⟨1, _⟩ => show win5_3.index t (1 : Fin 2) * 128 + 1 * (j 1).val = (j 1).val; rw [e31]; omega

/-- Window 4's block is its whole array at every point. -/
theorem blk5_4 (c : Dev nD) (t : Fin cfg5.N) :
    (iblk5 V c 4 t : Vec Ideal S1x128 .f32) = (V c main_v57 : Cert.Spec.Arr2 1 128) := by
  obtain ⟨e00, e01, e10, e11, e20, e21, e30, e31, e40, e41, e50, e51, e60, e61, e70, e71, e80, e81, e90, e91⟩ := blk5_idx t
  funext j
  show V c main_v57 (((cfg5.win 4).blk t).view.emb j) = V c main_v57 j
  refine congrArg (V c main_v57) (funext fun a => Fin.ext ?_)
  match a with
  | ⟨0, _⟩ => show win5_4.index t (0 : Fin 2) * 1 + 1 * (j 0).val = (j 0).val; rw [e40]; omega
  | ⟨1, _⟩ => show win5_4.index t (1 : Fin 2) * 128 + 1 * (j 1).val = (j 1).val; rw [e41]; omega

/-- Window 5's block is its whole array at every point. -/
theorem blk5_5 (c : Dev nD) (t : Fin cfg5.N) :
    (iblk5 V c 5 t : Vec Ideal S128x128 .f32) = (V c main_arg16 : Cert.Spec.Arr2 128 128) := by
  obtain ⟨e00, e01, e10, e11, e20, e21, e30, e31, e40, e41, e50, e51, e60, e61, e70, e71, e80, e81, e90, e91⟩ := blk5_idx t
  funext j
  show V c main_arg16 (((cfg5.win 5).blk t).view.emb j) = V c main_arg16 j
  refine congrArg (V c main_arg16) (funext fun a => Fin.ext ?_)
  match a with
  | ⟨0, _⟩ => show win5_5.index t (0 : Fin 2) * 128 + 1 * (j 0).val = (j 0).val; rw [e50]; omega
  | ⟨1, _⟩ => show win5_5.index t (1 : Fin 2) * 128 + 1 * (j 1).val = (j 1).val; rw [e51]; omega

/-- Window 6's block is its whole array at every point. -/
theorem blk5_6 (c : Dev nD) (t : Fin cfg5.N) :
    (iblk5 V c 6 t : Vec Ideal S1x128 .f32) = (V c main_v58 : Cert.Spec.Arr2 1 128) := by
  obtain ⟨e00, e01, e10, e11, e20, e21, e30, e31, e40, e41, e50, e51, e60, e61, e70, e71, e80, e81, e90, e91⟩ := blk5_idx t
  funext j
  show V c main_v58 (((cfg5.win 6).blk t).view.emb j) = V c main_v58 j
  refine congrArg (V c main_v58) (funext fun a => Fin.ext ?_)
  match a with
  | ⟨0, _⟩ => show win5_6.index t (0 : Fin 2) * 1 + 1 * (j 0).val = (j 0).val; rw [e60]; omega
  | ⟨1, _⟩ => show win5_6.index t (1 : Fin 2) * 128 + 1 * (j 1).val = (j 1).val; rw [e61]; omega

/-- Window 7's block is its whole array at every point. -/
theorem blk5_7 (c : Dev nD) (t : Fin cfg5.N) :
    (iblk5 V c 7 t : Vec Ideal S1x128 .f32) = (V c main_v59 : Cert.Spec.Arr2 1 128) := by
  obtain ⟨e00, e01, e10, e11, e20, e21, e30, e31, e40, e41, e50, e51, e60, e61, e70, e71, e80, e81, e90, e91⟩ := blk5_idx t
  funext j
  show V c main_v59 (((cfg5.win 7).blk t).view.emb j) = V c main_v59 j
  refine congrArg (V c main_v59) (funext fun a => Fin.ext ?_)
  match a with
  | ⟨0, _⟩ => show win5_7.index t (0 : Fin 2) * 1 + 1 * (j 0).val = (j 0).val; rw [e70]; omega
  | ⟨1, _⟩ => show win5_7.index t (1 : Fin 2) * 128 + 1 * (j 1).val = (j 1).val; rw [e71]; omega

/-- Window 8's block is its whole array at every point. -/
theorem blk5_8 (c : Dev nD) (t : Fin cfg5.N) :
    (iblk5 V c 8 t : Vec Ideal S1x128 .f32) = (V c main_v60 : Cert.Spec.Arr2 1 128) := by
  obtain ⟨e00, e01, e10, e11, e20, e21, e30, e31, e40, e41, e50, e51, e60, e61, e70, e71, e80, e81, e90, e91⟩ := blk5_idx t
  funext j
  show V c main_v60 (((cfg5.win 8).blk t).view.emb j) = V c main_v60 j
  refine congrArg (V c main_v60) (funext fun a => Fin.ext ?_)
  match a with
  | ⟨0, _⟩ => show win5_8.index t (0 : Fin 2) * 1 + 1 * (j 0).val = (j 0).val; rw [e80]; omega
  | ⟨1, _⟩ => show win5_8.index t (1 : Fin 2) * 128 + 1 * (j 1).val = (j 1).val; rw [e81]; omega

/-- WHAT POINT `t` WRITES BACK is block `t` of the updated rows of the arrays as the region finds them. -/
theorem flushed5_9 (c : Dev nD) (t : Fin cfg5.N) :
    (dat5 (F := Ideal) V c).flushed 9 t = ((cfg5.win 9).blk t).view.read (Elt Ideal) (final5_fn V c) := by
  show (cfg5.win 9).cut (grid5.coords t) ((dat5 (F := Ideal) V c).after 9 t) = _
  rw [after5_9]
  unfold out5_9
  rw [View.canon_unit_zero final5_hz]
  simp only [View.ld_unit_zero (S := S5000x128) final5_hz, View.ld_unit_zero (S := S5000x1) final5_hz,
    View.ld_unit_zero (S := S128x128) final5_hz, View.ld_unit_zero (S := S1x128) final5_hz]
  funext y
  obtain ⟨p, q, rfl⟩ : ∃ (p : Fin 5000) (q : Fin 128), y = ix2 p q := ⟨y 0, y 1, eq_ix2 y⟩
  refine (payAt5_out (iblk5 V c 0 t) (iblk5 V c 1 t) (iblk5 V c 3 t) (iblk5 V c 4 t) (iblk5 V c 5 t) (iblk5 V c 6 t) (iblk5 V c 2 t)
    (iblk5 V c 7 t) (iblk5 V c 8 t) p q).trans ?_
  obtain ⟨e00, e01, e10, e11, e20, e21, e30, e31, e40, e41, e50, e51, e60, e61, e70, e71, e80, e81, e90, e91⟩ := blk5_idx t
  have he : ((cfg5.win 9).blk t).view.emb (ix2 p q) = (ix2 (blk5_row t p) q : S50000x128.Idx) := by
    refine funext fun a => Fin.ext ?_
    match a with
    | ⟨0, _⟩ => show win5_9.index t (0 : Fin 2) * 5000 + 1 * p.val = 5000 * t.val + p.val; rw [e90]; omega
    | ⟨1, _⟩ => show win5_9.index t (1 : Fin 2) * 128 + 1 * q.val = q.val; rw [e91]; omega
  show Cert.Spec.upd (N := 5000) (iblk5 V c 0 t) (fun r => iblk5 V c 1 t (ix2 r 0)) (iblk5 V c 2 t) (iblk5 V c 3 t) (fun q => iblk5 V c 4 t (ix2 0 q)) (iblk5 V c 5 t) (fun q => iblk5 V c 6 t (ix2 0 q)) (fun q => iblk5 V c 7 t (ix2 0 q)) (fun q => iblk5 V c 8 t (ix2 0 q)) p q
    = final5_fn V c (((cfg5.win 9).blk t).view.emb (ix2 p q))
  rw [he]
  exact upd_row_congr _ _ _ _ _ _ _ _ _ _ _ _ _ _ _ _ _ _ p (blk5_row t p) q
    (fun k => blk5_0 V c t p k) (blk5_1 V c t p 0) (fun k => blk5_2 V c t p k)
    (blk5_3 V c t) (funext fun q => congrFun (blk5_4 V c t) (ix2 0 q)) (blk5_5 V c t)
    (funext fun q => congrFun (blk5_6 V c t) (ix2 0 q)) (funext fun q => congrFun (blk5_7 V c t) (ix2 0 q))
    (funext fun q => congrFun (blk5_8 V c t) (ix2 0 q))

/-- An index of the array is in point `t`'s block iff each coordinate is in the block's range on its axis. -/
theorem cov5_mem (t : Fin cfg5.N) (i : S50000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v61).slice (win5_9.rect t)).set ↔ _
  rw [View.set_slice_whole, Rect.mem_set_unit]
  exact Iff.rfl

/-- Every index of the array is in the block of the point its row falls in. -/
theorem cov5_9 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  have ht : t.val = (i 0).val / 5000 := rfl
  obtain ⟨e00, e01, e10, e11, e20, e21, e30, e31, e40, e41, e50, e51, e60, e61, e70, e71, e80, e81, e90, e91⟩ := blk5_idx t
  refine ⟨t, flush5_9 t, ?_⟩
  rw [cov5_mem]
  intro a
  match a with
  | ⟨0, _⟩ => show win5_9.index t (0 : Fin 2) * 5000 ≤ (i 0).val ∧ (i 0).val < win5_9.index t (0 : Fin 2) * 5000 + 5000; rw [e90]; omega
  | ⟨1, _⟩ => show win5_9.index t (1 : Fin 2) * 128 ≤ (i 1).val ∧ (i 1).val < win5_9.index t (1 : Fin 2) * 128 + 128; rw [e91]; omega

/-- THE ARRAY after the region's run: the updated rows of the arrays the region finds. -/
theorem final5_9 (c : Dev nD) :
    (dat5 (F := Ideal) V c).arrAt 9 cfg5.N
      = fun i => Cert.Spec.upd (N := 50000) (V c main_v46) (fun r => V c main_v51 (ix2 r 0)) (V c main_arg0) (V c main_arg12) (fun q => V c main_v57 (ix2 0 q)) (V c main_arg16) (fun q => V c main_v58 (ix2 0 q)) (fun q => V c main_v59 (ix2 0 q)) (fun q => V c main_v60 (ix2 0 q)) (i 0) (i 1) :=
  (dat5 (F := Ideal) V c).arrAt_eq_of_cover 9 (final5_fn V c) (fun t _ => flushed5_9 V c t) (cov5_9)

end Cert.KernelIdeal.UpdVal5

end
-- ==== Proof.Val.KernelValue.lean ====
/- The idealized kernel program's result as mathematics. With the regions' contents being what their write-backs
   produce, each region's output array is the layer's function of the region's input arrays (the projection's product;
   the edge's attended values and weight sums; the node's update), and each input array is what the host stretches
   before it computed from the launch memory and the earlier regions' outputs. Composed, the result is the stack of the
   two node tables' updates, written over the two projections, the four row gathers per edge type, and the two
   scatter-sums per edge type. -/
import proofs.«412788_j87737591923455_1_alg».proof.Proof.KernelIdeal.Base
import proofs.«412788_j87737591923455_1_alg».proof.Proof.Val.HostK
import proofs.«412788_j87737591923455_1_alg».proof.Proof.Val.Mask
import proofs.«412788_j87737591923455_1_alg».proof.Proof.Val.ProjArr
import proofs.«412788_j87737591923455_1_alg».proof.Proof.Val.ProjArr1
import proofs.«412788_j87737591923455_1_alg».proof.Proof.Val.EdgeArr
import proofs.«412788_j87737591923455_1_alg».proof.Proof.Val.EdgeArr3
import proofs.«412788_j87737591923455_1_alg».proof.Proof.Val.UpdArr
import proofs.«412788_j87737591923455_1_alg».proof.Proof.Val.UpdArr5

set_option maxRecDepth 16384

noncomputable section

namespace Cert.KernelIdeal.KVal

open Cert.KernelIdeal Cert.KernelIdeal.Gen Cert.KernelIdeal.Hand Cert.KernelIdeal.HostVal
open Idealize.ShloMosaic Idealize.ShloMosaic.TcCoe Idealize.ShloMosaic.ValueIdx Idealize.SL.Sem

variable (m : (ℓ : Loc nD τ sig) → Buf (Elt Ideal) ℓ) (outs : Outs (F := Ideal))

/-- The two projections: a node table times its three weight matrices side by side. -/
def projU (c : Dev nD) : Vec Ideal S50000x384 .f32 := fun i => Cert.Spec.mm (R := 50000) (K := 128) (C := 384) (m ((c : Thread nD τ).loc main_arg0)) (wcat (m ((c : Thread nD τ).loc main_arg4)) (m ((c : Thread nD τ).loc main_arg5)) (m ((c : Thread nD τ).loc main_arg6))) (i 0) (i 1)
def projI (c : Dev nD) : Vec Ideal S50000x384 .f32 := fun i => Cert.Spec.mm (R := 50000) (K := 128) (C := 384) (m ((c : Thread nD τ).loc main_arg1)) (wcat (m ((c : Thread nD τ).loc main_arg7)) (m ((c : Thread nD τ).loc main_arg8)) (m ((c : Thread nD τ).loc main_arg9))) (i 0) (i 1)

theorem outs2 (hO : OutsOk m outs) (c : Dev nD) : outs 2 main_v2 c = projU m c := by
  rw [hO.h2 c, Cert.KernelIdeal.ProjVal.final0_2 (Vr1 m) c]
  unfold projU
  simp only [Vr1, in0_0 m c, in0_1 m c]
  rfl

theorem outs3 (hO : OutsOk m outs) (c : Dev nD) : outs 3 main_v3 c = projI m c := by
  rw [hO.h3 c, Cert.KernelIdeal.ProjVal1.final1_2 (Vr2 m outs) c]
  unfold projI
  simp only [Vr2, in1_0 m outs c, in1_1 m outs c]
  rfl

/-- The head indicators at an edge region's entry. -/
theorem mh9 (c : Dev nD) : ∀ (d : Fin 128) (h : Fin 4), Vr9 m outs c main_v18 (ix2 d h) = Cert.Spec.ind d h := fun d h => by
  show V9 m outs c main_v18 (ix2 d h) = _
  rw [in2_4 m outs c]; exact maskH_apply d h
theorem mb9 (c : Dev nD) : ∀ (h : Fin 4) (d : Fin 128), Vr9 m outs c main_v19 (ix2 h d) = Cert.Spec.ind d h := fun h d => by
  show V9 m outs c main_v19 (ix2 h d) = _
  rw [in2_5 m outs c]; exact maskB_apply h d
theorem mh14 (c : Dev nD) : ∀ (d : Fin 128) (h : Fin 4), Vr14 m outs c main_v18 (ix2 d h) = Cert.Spec.ind d h := fun d h => by
  show V14 m outs c main_v18 (ix2 d h) = _
  rw [in3_4 m outs c]; exact maskH_apply d h
theorem mb14 (c : Dev nD) : ∀ (h : Fin 4) (d : Fin 128), Vr14 m outs c main_v19 (ix2 h d) = Cert.Spec.ind d h := fun h d => by
  show V14 m outs c main_v19 (ix2 h d) = _
  rw [in3_5 m outs c]; exact maskB_apply h d

/-- The gathered keys, queries and values of the edges from the first table to the second, and of those back. -/
def ek2 (c : Dev nD) : Vec Ideal S400000x128 .f32 := takeRows (sl0 (projU m c)) (row0 (m ((c : Thread nD τ).loc main_arg2)))
def eq2 (c : Dev nD) : Vec Ideal S400000x128 .f32 := takeRows (sl1 (projI m c)) (row1 (m ((c : Thread nD τ).loc main_arg2)))
def ev2 (c : Dev nD) : Vec Ideal S400000x128 .f32 := takeRows (sl2 (projU m c)) (row0 (m ((c : Thread nD τ).loc main_arg2)))
def ek3 (c : Dev nD) : Vec Ideal S400000x128 .f32 := takeRows (sl0 (projI m c)) (row0 (m ((c : Thread nD τ).loc main_arg3)))
def eq3 (c : Dev nD) : Vec Ideal S400000x128 .f32 := takeRows (sl1 (projU m c)) (row1 (m ((c : Thread nD τ).loc main_arg3)))
def ev3 (c : Dev nD) : Vec Ideal S400000x128 .f32 := takeRows (sl2 (projI m c)) (row0 (m ((c : Thread nD τ).loc main_arg3)))

/-- The attended values and the weight sums of the two edge types. -/
def att2 (c : Dev nD) : Vec Ideal S400000x128 .f32 := fun i => Cert.Spec.attended (E := 400000) (ek2 m c) (eq2 m c) (ev2 m c) (m ((c : Thread nD τ).loc main_arg10)) (i 0) (i 1)
def ws2 (c : Dev nD) : Vec Ideal S400000x1 .f32 := fun i => Cert.Spec.wsum (E := 400000) (ek2 m c) (eq2 m c) (m ((c : Thread nD τ).loc main_arg10)) (i 0)
def att3 (c : Dev nD) : Vec Ideal S400000x128 .f32 := fun i => Cert.Spec.attended (E := 400000) (ek3 m c) (eq3 m c) (ev3 m c) (m ((c : Thread nD τ).loc main_arg11)) (i 0) (i 1)
def ws3 (c : Dev nD) : Vec Ideal S400000x1 .f32 := fun i => Cert.Spec.wsum (E := 400000) (ek3 m c) (eq3 m c) (m ((c : Thread nD τ).loc main_arg11)) (i 0)

theorem outs10a (hO : OutsOk m outs) (c : Dev nD) : outs 10 main_v27_0 c = att2 m c := by
  rw [hO.h10a c, Cert.KernelIdeal.EdgeVal.final2_6 (Vr9 m outs) c (mh9 m outs c) (mb9 m outs c)]
  unfold att2 ek2 eq2 ev2
  simp only [Vr9, in2_0 m outs c, in2_1 m outs c, in2_2 m outs c, in2_3 m outs c, outs2 m outs hO c, outs3 m outs hO c]
  rfl
theorem outs10b (hO : OutsOk m outs) (c : Dev nD) : outs 10 main_v27_1 c = ws2 m c := by
  rw [hO.h10b c, Cert.KernelIdeal.EdgeVal.final2_7 (Vr9 m outs) c (mh9 m outs c)]
  unfold ws2 ek2 eq2
  simp only [Vr9, in2_0 m outs c, in2_1 m outs c, in2_3 m outs c, outs2 m outs hO c, outs3 m outs hO c]
  rfl
theorem outs15a (hO : OutsOk m outs) (c : Dev nD) : outs 15 main_v43_0 c = att3 m c := by
  rw [hO.h15a c, Cert.KernelIdeal.EdgeVal.final3_6 (Vr14 m outs) c (mh14 m outs c) (mb14 m outs c)]
  unfold att3 ek3 eq3 ev3
  simp only [Vr14, in3_0 m outs c, in3_1 m outs c, in3_2 m outs c, in3_3 m outs c, outs2 m outs hO c, outs3 m outs hO c]
  rfl
theorem outs15b (hO : OutsOk m outs) (c : Dev nD) : outs 15 main_v43_1 c = ws3 m c := by
  rw [hO.h15b c, Cert.KernelIdeal.EdgeVal.final3_7 (Vr14 m outs) c (mh14 m outs c)]
  unfold ws3 ek3 eq3
  simp only [Vr14, in3_0 m outs c, in3_1 m outs c, in3_3 m outs c, outs2 m outs hO c, outs3 m outs hO c]
  rfl

/-- The two node tables' updates. -/
def updI (c : Dev nD) : Vec Ideal S50000x128 .f32 := fun i =>
  Cert.Spec.upd (N := 50000) (segSum2 (row1 (m ((c : Thread nD τ).loc main_arg2))) (att2 m c)) (fun r => col (segSum1 (row1 (m ((c : Thread nD τ).loc main_arg2))) (flat (ws2 m c))) (ix2 r 0))
    (m ((c : Thread nD τ).loc main_arg1)) (m ((c : Thread nD τ).loc main_arg14)) (fun q => rowv (m ((c : Thread nD τ).loc main_arg15)) (ix2 0 q)) (m ((c : Thread nD τ).loc main_arg18)) (fun q => rowv (m ((c : Thread nD τ).loc main_arg19)) (ix2 0 q))
    (fun q => rowv (m ((c : Thread nD τ).loc main_arg22)) (ix2 0 q)) (fun q => rowv (m ((c : Thread nD τ).loc main_arg23)) (ix2 0 q)) (i 0) (i 1)
def updU (c : Dev nD) : Vec Ideal S50000x128 .f32 := fun i =>
  Cert.Spec.upd (N := 50000) (segSum2 (row1 (m ((c : Thread nD τ).loc main_arg3))) (att3 m c)) (fun r => col (segSum1 (row1 (m ((c : Thread nD τ).loc main_arg3))) (flat (ws3 m c))) (ix2 r 0))
    (m ((c : Thread nD τ).loc main_arg0)) (m ((c : Thread nD τ).loc main_arg12)) (fun q => rowv (m ((c : Thread nD τ).loc main_arg13)) (ix2 0 q)) (m ((c : Thread nD τ).loc main_arg16)) (fun q => rowv (m ((c : Thread nD τ).loc main_arg17)) (ix2 0 q))
    (fun q => rowv (m ((c : Thread nD τ).loc main_arg20)) (ix2 0 q)) (fun q => rowv (m ((c : Thread nD τ).loc main_arg21)) (ix2 0 q)) (i 0) (i 1)

theorem outs17 (hO : OutsOk m outs) (c : Dev nD) : outs 17 main_v56 c = updI m c := by
  rw [hO.h17 c, Cert.KernelIdeal.UpdVal.final4_9 (Vr16 m outs) c]
  unfold updI
  simp only [Vr16, in4_0 m outs c, in4_1 m outs c, in4_2 m outs c, in4_3 m outs c, in4_4 m outs c, in4_5 m outs c, in4_6 m outs c,
    in4_7 m outs c, in4_8 m outs c, outs10a m outs hO c, outs10b m outs hO c]
  rfl
theorem outs19 (hO : OutsOk m outs) (c : Dev nD) : outs 19 main_v61 c = updU m c := by
  rw [hO.h19 c, Cert.KernelIdeal.UpdVal5.final5_9 (Vr18 m outs) c]
  unfold updU
  simp only [Vr18, in5_0 m outs c, in5_1 m outs c, in5_2 m outs c, in5_3 m outs c, in5_4 m outs c, in5_5 m outs c, in5_6 m outs c,
    in5_7 m outs c, in5_8 m outs c, outs15a m outs hO c, outs15b m outs hO c]
  rfl

/-- The program's result. -/
theorem result_eq (hO : OutsOk m outs) (c : Dev nD) : V20 m outs c main_v64 = stack2 (updU m c) (updI m c) := by
  rw [res_v64 m outs c, outs19 m outs hO c, outs17 m outs hO c]

end Cert.KernelIdeal.KVal

end
-- ==== Proof.Val.PreIdx.lean ====
/- Reading the index ranges out of the precondition. The printed precondition is one conjunction, over its whole chain, of
   "every element passes" tests; its last four say that every entry of the two edge-index arrays, read signed, is at least
   0 and below 50000. From the conjunction being 1 this module reads those four facts, and proves the three facts about
   one in-range word that turn a wrapped, clamped index back into the word itself. -/
import proofs.«412788_j87737591923455_1_alg».proof.Pre_finite_inputs
import Idealize.ShloMosaic.Lib.StableHlo.Predicate
import Idealize.ShloMosaic.Lib.ReduceAll
import Idealize.ShloMosaic.Lib.ValueIdx

noncomputable section

namespace Cert.PreIdx

open Idealize.ShloMosaic Idealize.ShloMosaic.ValueIdx
open Cert.Pre_finite_inputs Cert.Pre_finite_inputs.Facts

instance : Subsingleton S_.Idx := ⟨fun a b => funext fun d => d.elim0⟩

/-! ## One in-range word -/

theorem toInt_zero : (0#32 : BitVec 32).toInt = 0 := by decide
theorem toInt_bound : (50000#32 : BitVec 32).toInt = 50000 := by decide
theorem toInt_max : (49999#32 : BitVec 32).toInt = 49999 := by decide

/-- A word in range is not negative, so the wrap of a negative index leaves it as it is. -/
theorem word_norm (w : BitVec 32) (h0 : (0 : Int) ≤ w.toInt) (h1 : w.toInt < 50000) :
    Scalar.select (IntOp.cmpi .slt w 0#32) (IntOp.addi w 50000#32) w = w := by
  unfold Scalar.select
  refine if_neg fun hc => ?_
  have := IntOp.cmpi_slt.1 hc
  rw [toInt_zero] at this
  omega

/-- A word in range passes the lower clamp test. -/
theorem word_sge0 (w : BitVec 32) (h0 : (0 : Int) ≤ w.toInt) (h1 : w.toInt < 50000) : IntOp.cmpi .sge w 0#32 = 1#1 :=
  IntOp.cmpi_sge.2 (by rw [toInt_zero]; exact h0)

/-- A word in range passes the upper clamp test. -/
theorem word_sle_max (w : BitVec 32) (h0 : (0 : Int) ≤ w.toInt) (h1 : w.toInt < 50000) : IntOp.cmpi .sle w 49999#32 = 1#1 :=
  IntOp.cmpi_sle.2 (by rw [toInt_max]; omega)

/-! ## The last four tests of the precondition -/

variable [Facts]

/-- The chain's last part: from its result being 1, the accumulated bit was 1, the test it was handed passed everywhere,
    and every entry of the second index array is below the bound. -/
theorem part7_read {F : FTy → Type} [FloatOps F] (a3 : IVec S2x400000 32) (v116 : IVec S_ 1) (v118 : IVec S2x400000 1)
    (h : fn_part7 (F := F) a3 v116 v118 ix0 = 1#1) :
    v116 ix0 = 1#1 ∧ (∀ i, v118 i = 1#1) ∧ (∀ i, (a3 i).toInt < 50000) := by
  have h' : IntOp.andi (IntOp.andi (v116 ix0) (Host.reduce IntOp.andi v118 (constantI S_ 1 1#1) reducesTo_S2x400000_S_d0_1 h_S_ ix0))
      (Host.reduce IntOp.andi (cmpi .slt a3 (broadcastInDim S2x400000 ![] bcast_S_S2x400000 (constantI S_ 32 50000#32))) (constantI S_ 1 1#1) reducesTo_S2x400000_S_d0_1 h_S_ ix0) = 1#1 := h
  obtain ⟨h1, h2⟩ := IntOp.andi_eq_one.1 h'
  obtain ⟨h3, h4⟩ := IntOp.andi_eq_one.1 h1
  refine ⟨h3, fun i => Host.reduce_andi_all _ _ _ _ _ h4 i, fun i => ?_⟩
  have hc : IntOp.cmpi .slt (a3 i) 50000#32 = 1#1 := Host.reduce_andi_all _ _ _ _ _ h2 i
  have := IntOp.cmpi_slt.1 hc
  rw [toInt_bound] at this
  exact this

/-- The part before it: from its result being 1, both index arrays have every entry in range. -/
theorem part6_read {F : FTy → Type} [FloatOps F] (a2 a3 : IVec S2x400000 32) (a23 : FVec F S128 .f32) (v98 : IVec S_ 1)
    (v101 : IVec S128 1) (c39 : IVec S_ 1) (h : fn_part6 (F := F) a2 a3 a23 v98 v101 c39 ix0 = 1#1) :
    (∀ i : S2x400000.Idx, (0 : Int) ≤ (a2 i).toInt ∧ (a2 i).toInt < 50000)
      ∧ (∀ i : S2x400000.Idx, (0 : Int) ≤ (a3 i).toInt ∧ (a3 i).toInt < 50000) := by
  unfold fn_part6 at h
  obtain ⟨h116, h118, h3lt⟩ := part7_read (F := F) a3 _ _ h
  obtain ⟨h112, h115⟩ := IntOp.andi_eq_one.1 h116
  obtain ⟨-, h111⟩ := IntOp.andi_eq_one.1 h112
  have g2 : ∀ i, IntOp.cmpi .sge (a2 i) 0#32 = 1#1 := fun i => Host.reduce_andi_all _ _ _ _ _ h111 i
  have l2 : ∀ i, IntOp.cmpi .slt (a2 i) 50000#32 = 1#1 := fun i => Host.reduce_andi_all _ _ _ _ _ h115 i
  have g3 : ∀ i, IntOp.cmpi .sge (a3 i) 0#32 = 1#1 := fun i => h118 i
  refine ⟨fun i => ⟨?_, ?_⟩, fun i => ⟨?_, h3lt i⟩⟩
  · have := IntOp.cmpi_sge.1 (g2 i); rw [toInt_zero] at this; exact this
  · have := IntOp.cmpi_slt.1 (l2 i); rw [toInt_bound] at this; exact this
  · have := IntOp.cmpi_sge.1 (g3 i); rw [toInt_zero] at this; exact this

/-- THE INDEX RANGES: under the precondition every entry of the two edge-index arrays, read signed, is in [0, 50000). -/
theorem idx_range_of_pre (a0 : FVec Ideal S50000x128 .f32) (a1 : FVec Ideal S50000x128 .f32) (a2 : IVec S2x400000 32) (a3 : IVec S2x400000 32)
    (a4 : FVec Ideal S128x128 .f32) (a5 : FVec Ideal S128x128 .f32) (a6 : FVec Ideal S128x128 .f32) (a7 : FVec Ideal S128x128 .f32) (a8 : FVec Ideal S128x128 .f32) (a9 : FVec Ideal S128x128 .f32)
    (a10 : FVec Ideal S128x4 .f32) (a11 : FVec Ideal S128x4 .f32) (a12 : FVec Ideal S128x128 .f32) (a13 : FVec Ideal S128 .f32) (a14 : FVec Ideal S128x128 .f32) (a15 : FVec Ideal S128 .f32)
    (a16 : FVec Ideal S128x128 .f32) (a17 : FVec Ideal S128 .f32) (a18 : FVec Ideal S128x128 .f32) (a19 : FVec Ideal S128 .f32) (a20 : FVec Ideal S128 .f32) (a21 : FVec Ideal S128 .f32) (a22 : FVec Ideal S128 .f32) (a23 : FVec Ideal S128 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i : S2x400000.Idx, (0 : Int) ≤ (a2 i).toInt ∧ (a2 i).toInt < 50000)
      ∧ (∀ i : S2x400000.Idx, (0 : Int) ≤ (a3 i).toInt ∧ (a3 i).toInt < 50000) := by
  have h0 := congrFun h ix0
  unfold fn fn_part1 fn_part2 fn_part3 fn_part4 fn_part5 at h0
  exact part6_read (F := Ideal) a2 a3 a23 _ _ _ h0

end Cert.PreIdx

end
-- ==== Proof.Val.Take.lean ====
/- The kernel program's row gather on in-range indices. A row of the edge list is entries of the edge list, so it inherits
   their range; on a vector of indices that all lie in [0, 50000) the wrap of negative indices changes nothing, the range
   test passes at every index, and so the guarded gather is the plain gather of the normalised index column. -/
import proofs.«412788_j87737591923455_1_alg».proof.Proof.Val.HostDefs
import proofs.«412788_j87737591923455_1_alg».proof.Proof.Val.PreIdx
import Idealize.ShloMosaic.Lib.ValueIdx
import Idealize.ShloMosaic.PureOps.Reduce

noncomputable section

namespace Cert.KernelIdeal.HostVal

open Cert.KernelIdeal Cert.KernelIdeal.Gen Idealize.ShloMosaic Idealize.ShloMosaic.ValueIdx

variable {F : FTy → Type} [FloatOps F] [Named F]

/-! ## A conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- So an and-reduce from 1 of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The rows of the edge list -/

/-- Row 0 of an edge list whose entries are all in range has its entries in range: each is an entry of the list. -/
theorem row0_range (e : IVec S2x400000 32) (he : ∀ i : S2x400000.Idx, (0 : Int) ≤ (e i).toInt ∧ (e i).toInt < 50000) :
    ∀ j : S400000.Idx, (0 : Int) ≤ (row0 e j).toInt ∧ (row0 e j).toInt < 50000 :=
  fun j => he _

/-- Row 1 likewise. -/
theorem row1_range (e : IVec S2x400000 32) (he : ∀ i : S2x400000.Idx, (0 : Int) ≤ (e i).toInt ∧ (e i).toInt < 50000) :
    ∀ j : S400000.Idx, (0 : Int) ≤ (row1 e j).toInt ∧ (row1 e j).toInt < 50000 :=
  fun j => he _

/-! ## In-range indices -/

/-- On in-range indices the wrap of negative indices is the identity. -/
theorem normIdx_eq (i : IVec S400000 32) (hi : ∀ j, (0 : Int) ≤ (i j).toInt ∧ (i j).toInt < 50000) : normIdx i = i := by
  funext j
  show Scalar.select (IntOp.cmpi .slt (i j) 0#32) (IntOp.addi (i j) 50000#32) (i j) = i j
  exact Cert.PreIdx.word_norm (i j) (hi j).1 (hi j).2

/-- On in-range indices the range test passes everywhere. -/
theorem inb_eq (i : IVec S400000 32) (hi : ∀ j, (0 : Int) ≤ (i j).toInt ∧ (i j).toInt < 50000) : inb i = fun _ => 1#1 := by
  funext j
  show Host.reduce IntOp.andi _ (constantI S_ 1 1#1) reducesTo_S400000x1_S400000_d1 h_S_ j = 1#1
  refine reduce_andi_ones _ _ _ _ (fun k => ?_) (fun _ => rfl) j
  show IntOp.andi (IntOp.cmpi .sge (i _) 0#32) (IntOp.cmpi .sle (i _) 49999#32) = 1#1
  exact IntOp.andi_eq_one.2 ⟨Cert.PreIdx.word_sge0 _ (hi _).1 (hi _).2, Cert.PreIdx.word_sle_max _ (hi _).1 (hi _).2⟩

/-- On in-range indices the guarded gather is the gather of the normalised index column. -/
theorem takeRows_eq (x : Vec F S50000x128 .f32) (i : IVec S400000 32)
    (hi : ∀ j, (0 : Int) ≤ (i j).toInt ∧ (i j).toInt < 50000) :
    takeRows x i = Host.gather gather_S50000x128_S400000x1_S400000x128_1_0_n_n_0_1_1128 x (idxCol (normIdx i)) := by
  have hm : inb (normIdx i) = fun _ => 1#1 := by rw [normIdx_eq i hi]; exact inb_eq i hi
  funext y
  unfold takeRows
  refine (select_apply _ _ _ y).trans ?_
  have hy : (broadcastInDim S400000x128 ![0] bcast_S400000_S400000x128_0 (inb (normIdx i))) y = 1#1 := by
    rw [hm]; rfl
  rw [hy]
  exact select_one _ _

end Cert.KernelIdeal.HostVal

end
-- ==== Proof.Val.HostApply.lean ====
/- The program's host layout operations read at an index: a vector as a column, a column as a vector, a vector as a row,
   the three weight matrices side by side, and the three column slices of a table; and from them, that each column slice
   of the product with the three matrices side by side is the product with the one matrix. -/
import proofs.«412788_j87737591923455_1_alg».proof.Proof.Val.HostDefs
import proofs.«412788_j87737591923455_1_alg».proof.Proof.Spec
import Idealize.ShloMosaic.Lib.ValueIdx
import Idealize.ShloMosaic.Lib.Pipeline.Value
import Idealize.ShloMosaic.Lib.ValueLayout

noncomputable section

open scoped BigOperators

namespace Cert.KernelIdeal.HostVal

open Cert.KernelIdeal Cert.KernelIdeal.Gen Idealize.ShloMosaic Idealize.ShloMosaic.ValueIdx

variable {F : FTy → Type} [FloatOps F] [Named F]

/-! ## Layout operations at an index -/

/-- A vector laid out as a column reads, at row `r`, the vector at `r`. -/
theorem col_apply (v : Vec F S50000 .f32) (r : Fin 50000) : col v (ix2 r 0) = v (ix1 r) := by
  unfold col
  refine broadcastInDim_apply _ _ v (ix2 r 0) (ix1 r) fun a => ?_
  match a with
  | ⟨0, _⟩ => rfl

/-- A one-column table flattened reads, at `e`, the table at `(e, 0)`. -/
theorem flat_apply (u : Vec F S400000x1 .f32) (e : Fin 400000) : flat u (ix1 e) = u (ix2 e 0) := by
  unfold flat
  refine shapeCast_apply u _ (ix1 e) (ix2 e 0) ?_
  rw [Shape.rowMajor_val_two, Shape.rowMajor_val_one]
  show e.val * 1 + 0 = e.val
  omega

/-- A vector laid out as a one-row table reads, at column `q`, the vector at `q`. -/
theorem rowv_apply (b : Vec F S128 .f32) (q : Fin 128) : rowv b (ix2 0 q) = b (ix1 q) := by
  unfold rowv
  exact shapeCast_a_1a_apply b _ 0 q

/-- Columns 0 … 127 of the three matrices side by side are the first matrix. -/
theorem wcat_apply0 (a b d : Vec F S128x128 .f32) (k : Fin 128) (c : Fin 384) (c' : Fin 128) (hc : c.val = 0 + c'.val) :
    wcat a b d (ix2 k c) = a (ix2 k c') := by
  unfold wcat
  refine concatenate_apply_piece (1 : Fin S128x384.rank) _ _ (ix2 k c) 0 (by show (0 : Nat) < 3; omega) S128x128 a rfl rfl 0 rfl
    (ix2 k c') (fun bx hb => ?_) ?_
  · match bx with
    | ⟨0, _⟩ => rfl
    | ⟨1, _⟩ => exact absurd rfl hb
  · show 0 + c'.val = c.val
    omega

/-- Columns 128 … 255 of the three matrices side by side are the second matrix. -/
theorem wcat_apply1 (a b d : Vec F S128x128 .f32) (k : Fin 128) (c : Fin 384) (c' : Fin 128) (hc : c.val = 128 + c'.val) :
    wcat a b d (ix2 k c) = b (ix2 k c') := by
  unfold wcat
  refine concatenate_apply_piece (1 : Fin S128x384.rank) _ _ (ix2 k c) 1 (by show (1 : Nat) < 3; omega) S128x128 b rfl rfl 128 rfl
    (ix2 k c') (fun bx hb => ?_) ?_
  · match bx with
    | ⟨0, _⟩ => rfl
    | ⟨1, _⟩ => exact absurd rfl hb
  · show 128 + c'.val = c.val
    omega

/-- Columns 256 … 383 of the three matrices side by side are the third matrix. -/
theorem wcat_apply2 (a b d : Vec F S128x128 .f32) (k : Fin 128) (c : Fin 384) (c' : Fin 128) (hc : c.val = 256 + c'.val) :
    wcat a b d (ix2 k c) = d (ix2 k c') := by
  unfold wcat
  refine concatenate_apply_piece (1 : Fin S128x384.rank) _ _ (ix2 k c) 2 (by show (2 : Nat) < 3; omega) S128x128 d rfl rfl 256 rfl
    (ix2 k c') (fun bx hb => ?_) ?_
  · match bx with
    | ⟨0, _⟩ => rfl
    | ⟨1, _⟩ => exact absurd rfl hb
  · show 256 + c'.val = c.val
    omega

/-! ## The projection's three column slices -/

/-- Columns 0 … 127 of the product with the three matrices side by side are the product with the first. -/
theorem projSlice0 (x : Vec Ideal S50000x128 .f32) (w0 w1 w2 : Vec Ideal S128x128 .f32) (r : Fin 50000) (q : Fin 128) :
    sl0 (F := Ideal) (fun i => Cert.Spec.mm (x : Cert.Spec.Arr2 50000 128) (wcat w0 w1 w2 : Cert.Spec.Arr2 128 384) (i 0) (i 1)) (ix2 r q)
      = Cert.Spec.mm x w0 r q := by
  unfold sl0
  refine (slice2_axis1_eq 0 _ _ r q).trans ?_
  show Cert.Spec.mm (x : Cert.Spec.Arr2 50000 128) (wcat w0 w1 w2 : Cert.Spec.Arr2 128 384) r (⟨0 + q.val, by have := q.isLt; omega⟩ : Fin 384) = _
  unfold Cert.Spec.mm
  exact Finset.sum_congr rfl fun k _ => congrArg (x (ix2 r k) * ·) (wcat_apply0 w0 w1 w2 k _ q rfl)

/-- Columns 128 … 255 of the product with the three matrices side by side are the product with the second. -/
theorem projSlice1 (x : Vec Ideal S50000x128 .f32) (w0 w1 w2 : Vec Ideal S128x128 .f32) (r : Fin 50000) (q : Fin 128) :
    sl1 (F := Ideal) (fun i => Cert.Spec.mm (x : Cert.Spec.Arr2 50000 128) (wcat w0 w1 w2 : Cert.Spec.Arr2 128 384) (i 0) (i 1)) (ix2 r q)
      = Cert.Spec.mm x w1 r q := by
  unfold sl1
  refine (slice2_axis1_eq 128 _ _ r q).trans ?_
  show Cert.Spec.mm (x : Cert.Spec.Arr2 50000 128) (wcat w0 w1 w2 : Cert.Spec.Arr2 128 384) r (⟨128 + q.val, by have := q.isLt; omega⟩ : Fin 384) = _
  unfold Cert.Spec.mm
  exact Finset.sum_congr rfl fun k _ => congrArg (x (ix2 r k) * ·) (wcat_apply1 w0 w1 w2 k _ q rfl)

/-- Columns 256 … 383 of the product with the three matrices side by side are the product with the third. -/
theorem projSlice2 (x : Vec Ideal S50000x128 .f32) (w0 w1 w2 : Vec Ideal S128x128 .f32) (r : Fin 50000) (q : Fin 128) :
    sl2 (F := Ideal) (fun i => Cert.Spec.mm (x : Cert.Spec.Arr2 50000 128) (wcat w0 w1 w2 : Cert.Spec.Arr2 128 384) (i 0) (i 1)) (ix2 r q)
      = Cert.Spec.mm x w2 r q := by
  unfold sl2
  refine (slice2_axis1_eq 256 _ _ r q).trans ?_
  show Cert.Spec.mm (x : Cert.Spec.Arr2 50000 128) (wcat w0 w1 w2 : Cert.Spec.Arr2 128 384) r (⟨256 + q.val, by have := q.isLt; omega⟩ : Fin 384) = _
  unfold Cert.Spec.mm
  exact Finset.sum_congr rfl fun k _ => congrArg (x (ix2 r k) * ·) (wcat_apply2 w0 w1 w2 k _ q rfl)

end Cert.KernelIdeal.HostVal

end
-- ==== Proof.Ref.RefDefs.lean ====
/- The reference program's host operations, composed and named in the order the program applies them: the projections,
   the two rows of an edge list, the index normalisation and the rows taken at edge indices, an edge's scores over the
   four heads and their softmax, the attended values and the weight sums, the sums by destination, a node table's update
   (the clamped division, two affine maps, the residual and the layer normalisation), the stacking of the two updated
   tables, and the whole layer. -/
import proofs.«412788_j87737591923455_1_alg».proof.ReferenceIdeal

noncomputable section

namespace Cert.ReferenceIdeal.RefVal

open Cert.ReferenceIdeal Idealize.ShloMosaic
open Cert.ReferenceIdeal.Facts₀

variable {F : FTy → Type} [FloatOps F] [Facts₀]

/-! ## Projections, edge rows, rows taken at indices -/

/-- A node table times a 128 x 128 weight matrix. -/
def rproj (x : Vec F S50000x128 .f32) (w : Vec F S128x128 .f32) : Vec F S50000x128 .f32 :=
  Host.dotGeneral dot_S50000x128_S128x128_S50000x128_1_0_0_1_n_n none x w

/-- Row 0 and row 1 of a 2 x 400000 edge list, as vectors. -/
def rrow0 (e : IVec S2x400000 32) : IVec S400000 32 :=
  shapeCast S400000 (extractStridedSlice S1x400000 ![0, 0] e slices_S2x400000_S1x400000_0_0) shapeCasts_S1x400000_S400000
def rrow1 (e : IVec S2x400000 32) : IVec S400000 32 :=
  shapeCast S400000 (extractStridedSlice S1x400000 ![1, 0] e slices_S2x400000_S1x400000_1_0) shapeCasts_S1x400000_S400000

/-- A negative index counted from the end: i + 50000 where i < 0, else i. -/
def rnorm (i : IVec S400000 32) : IVec S400000 32 :=
  select (cmpi .slt i (broadcastInDim S400000 ![] bcast_S_S400000 (constantI S_ 32 0#32)))
    (addi i (broadcastInDim S400000 ![] bcast_S_S400000 (constantI S_ 32 50000#32))) i

/-- An index vector as a column. -/
def rcol (i : IVec S400000 32) : IVec S400000x1 32 := broadcastInDim S400000x1 ![0] bcast_S400000_S400000x1_0 i

/-- The rows of a node table at the normalised indices. -/
def rgather (x : Vec F S50000x128 .f32) (i : IVec S400000 32) : Vec F S400000x128 .f32 :=
  Host.gather gather_S50000x128_S400000x1_S400000x128_1_0_n_n_0_1_1128 x (rcol (rnorm i))

/-! ## One edge block: scores, softmax, attended values, weight sums -/

/-- The scores: the head-wise dot product of key and query rows (each row as 4 heads of 32), divided by a constant, plus
    the key rows times the bias matrix. -/
def rscores (ek eq : Vec F S400000x128 .f32) (wa : Vec F S128x4 .f32) : Vec F S400000x4 .f32 :=
  addf (Host.divf (Host.reduceAdd (mulf (shapeCast S400000x4x32 ek shapeCasts_S400000x128_S400000x4x32)
        (shapeCast S400000x4x32 eq shapeCasts_S400000x128_S400000x4x32)) (constant (F := F) S_ .f32 0x00000000#32)
        reducesTo_S400000x4x32_S400000x4_d2 h_S_)
      (broadcastInDim S400000x4 ![] bcast_S_S400000x4 (constant (F := F) S_ .f32 0x40B504F3#32)))
    (Host.dotGeneral dot_S400000x128_S128x4_S400000x4_1_0_0_1_n_n none ek wa)

/-- Each row's largest score (from minus infinity, then joined with minus infinity again), laid back along the row. -/
def rmaxb (s : Vec F S400000x4 .f32) : Vec F S400000x4 .f32 :=
  broadcastInDim S400000x4 ![0, 1] bcast_S400000x1_S400000x4_0_1 (broadcastInDim S400000x1 ![0] bcast_S400000_S400000x1_0
    (maximumf (broadcastInDim S400000 ![] bcast_S_S400000 (constant (F := F) S_ .f32 0xFF800000#32))
      (Host.reduce FloatOps.maximumf s (constant (F := F) S_ .f32 0xFF800000#32) reducesTo_S400000x4_S400000_d1 h_S_)))

/-- The exponentials of the scores less their row's largest. -/
def rexp (s : Vec F S400000x4 .f32) : Vec F S400000x4 .f32 := Host.exp (subf s (rmaxb s))

/-- The softmax along each row: the exponentials over their row sum. -/
def rsoftmax (s : Vec F S400000x4 .f32) : Vec F S400000x4 .f32 :=
  Host.divf (rexp s) (broadcastInDim S400000x4 ![0, 1] bcast_S400000x1_S400000x4_0_1 (broadcastInDim S400000x1 ![0] bcast_S400000_S400000x1_0
    (Host.reduceAdd (rexp s) (constant (F := F) S_ .f32 0x00000000#32) reducesTo_S400000x4_S400000_d1 h_S_)))

/-- The attended values: each value row, as 4 heads of 32, scaled head by head by the weights. -/
def ratt (a : Vec F S400000x4 .f32) (ev : Vec F S400000x128 .f32) : Vec F S400000x128 .f32 :=
  shapeCast S400000x128 (mulf (broadcastInDim S400000x4x32 ![0, 1, 2] bcast_S400000x4x1_S400000x4x32_0_1_2
      (broadcastInDim S400000x4x1 ![0, 1] bcast_S400000x4_S400000x4x1_0_1 a))
    (shapeCast S400000x4x32 ev shapeCasts_S400000x128_S400000x4x32)) shapeCasts_S400000x4x32_S400000x128

/-- The sum of each edge's weights. -/
def rws (a : Vec F S400000x4 .f32) : Vec F S400000 .f32 :=
  Host.reduceAdd a (constant (F := F) S_ .f32 0x00000000#32) reducesTo_S400000x4_S400000_d1 h_S_

/-! ## Sums by destination -/

/-- The sums of 400000 rows (of 400000 numbers) into 50000 rows (numbers) by destination index, from zero. -/
def rseg2 (dst : IVec S400000 32) (u : Vec F S400000x128 .f32) : Vec F S50000x128 .f32 :=
  Host.scatterAdd scatter_S50000x128_S400000x1_S400000x128_1_0_0_1
    (broadcastInDim S50000x128 ![] bcast_S_S50000x128 (constant (F := F) S_ .f32 0x00000000#32)) (broadcastInDim S400000x1 ![0] bcast_S400000_S400000x1_0 dst) u
def rseg1 (dst : IVec S400000 32) (u : Vec F S400000 .f32) : Vec F S50000 .f32 :=
  Host.scatterAdd scatter_S50000_S400000x1_S400000_n_0_0_1
    (broadcastInDim S50000 ![] bcast_S_S50000 (constant (F := F) S_ .f32 0x00000000#32)) (broadcastInDim S400000x1 ![0] bcast_S400000_S400000x1_0 dst) u

/-! ## A node table's update -/

/-- The weight sums clamped from below by a small constant. -/
def rclip (ws : Vec F S50000 .f32) : Vec F S50000 .f32 :=
  maximumf (broadcastInDim S50000 ![] bcast_S_S50000 (id (constant (F := F) S_ .f32 0x322BCC77#32))) ws

/-- A vector of 50000 as a column; a column laid along the 128 columns; a vector of 128 laid down the 50000 rows. -/
def rcol1 (v : Vec F S50000 .f32) : Vec F S50000x1 .f32 := broadcastInDim S50000x1 ![0] bcast_S50000_S50000x1_0 v
def rspread (c : Vec F S50000x1 .f32) : Vec F S50000x128 .f32 := broadcastInDim S50000x128 ![0, 1] bcast_S50000x1_S50000x128_0_1 c
def rrowb (b : Vec F S128 .f32) : Vec F S50000x128 .f32 :=
  broadcastInDim S50000x128 ![0, 1] bcast_S1x128_S50000x128_0_1 (broadcastInDim S1x128 ![1] bcast_S128_S1x128_1 b)

/-- The aggregated message over the clamped weight sum. -/
def ragg (msg : Vec F S50000x128 .f32) (ws : Vec F S50000 .f32) : Vec F S50000x128 .f32 :=
  Host.divf msg (rspread (rcol1 (rclip ws)))

/-- An affine map: the table times a weight matrix, plus a bias row. -/
def rlin (y : Vec F S50000x128 .f32) (w : Vec F S128x128 .f32) (b : Vec F S128 .f32) : Vec F S50000x128 .f32 :=
  addf (Host.dotGeneral dot_S50000x128_S128x128_S50000x128_1_0_0_1_n_n none y w) (rrowb b)

/-- Two affine maps of the aggregate, plus the table itself. -/
def rresid (msg : Vec F S50000x128 .f32) (ws : Vec F S50000 .f32) (x : Vec F S50000x128 .f32) (wm : Vec F S128x128 .f32)
    (bm : Vec F S128 .f32) (wg : Vec F S128x128 .f32) (bg : Vec F S128 .f32) : Vec F S50000x128 .f32 :=
  addf (rlin (rlin (ragg msg ws) wm bm) wg bg) x

/-- Each row's mean as a column: the row sum over 128. -/
def rmeanc (y : Vec F S50000x128 .f32) : Vec F S50000x1 .f32 :=
  Host.divf (rcol1 (Host.reduceAdd y (constant (F := F) S_ .f32 0x00000000#32) reducesTo_S50000x128_S50000_d1 h_S_))
    (broadcastInDim S50000x1 ![] bcast_S_S50000x1 (constant (F := F) S_ .f32 0x43000000#32))

/-- A table less its rows' means; the rows' variances as a column. -/
def rcent (y : Vec F S50000x128 .f32) : Vec F S50000x128 .f32 := subf y (rspread (rmeanc y))
def rvarc (y : Vec F S50000x128 .f32) : Vec F S50000x1 .f32 := rmeanc (mulf (rcent y) (rcent y))

/-- The layer normalisation of each row, with gain `g` and shift `b`. -/
def rlnorm (y : Vec F S50000x128 .f32) (g b : Vec F S128 .f32) : Vec F S50000x128 .f32 :=
  addf (mulf (mulf (rcent y) (rspread (Host.rsqrt (addf (rvarc y)
    (broadcastInDim S50000x1 ![] bcast_S_S50000x1 (constant (F := F) S_ .f32 0x3727C5AC#32)))))) (rrowb g)) (rrowb b)

/-- A node table's update. -/
def rupd (msg : Vec F S50000x128 .f32) (ws : Vec F S50000 .f32) (x : Vec F S50000x128 .f32) (wm : Vec F S128x128 .f32)
    (bm : Vec F S128 .f32) (wg : Vec F S128x128 .f32) (bg g b : Vec F S128 .f32) : Vec F S50000x128 .f32 :=
  rlnorm (rresid msg ws x wm bm wg bg) g b

/-! ## The layer -/

/-- Two 50000 x 128 tables stacked along a new leading axis. -/
def rstack (a b : Vec F S50000x128 .f32) : Vec F S2x50000x128 .f32 :=
  concatenate S2x50000x128 0 [⟨S1x50000x128, broadcastInDim S1x50000x128 ![1, 2] bcast_S50000x128_S1x50000x128_1_2 a⟩,
    ⟨S1x50000x128, broadcastInDim S1x50000x128 ![1, 2] bcast_S50000x128_S1x50000x128_1_2 b⟩] concatenates_S1x50000x128_S1x50000x128_S2x50000x128_d0

/-- One direction of the layer: keys and values taken from their projected tables at the edges' first row, queries at
    the second row; messages and weight sums summed at the second row; the destination table updated. -/
def rpass (kt qt vt : Vec F S50000x128 .f32) (e : IVec S2x400000 32) (wa : Vec F S128x4 .f32) (x : Vec F S50000x128 .f32)
    (wm : Vec F S128x128 .f32) (bm : Vec F S128 .f32) (wg : Vec F S128x128 .f32) (bg g b : Vec F S128 .f32) : Vec F S50000x128 .f32 :=
  rupd (rseg2 (rrow1 e) (ratt (rsoftmax (rscores (rgather kt (rrow0 e)) (rgather qt (rrow1 e)) wa)) (rgather vt (rrow0 e))))
    (rseg1 (rrow1 e) (rws (rsoftmax (rscores (rgather kt (rrow0 e)) (rgather qt (rrow1 e)) wa)))) x wm bm wg bg g b

/-- The whole layer over the 24 arguments, in the program's order; the second table's direction comes first in the stack. -/
def rlayer (a0 a1 : Vec F S50000x128 .f32) (a2 a3 : IVec S2x400000 32) (a4 a5 a6 a7 a8 a9 : Vec F S128x128 .f32)
    (a10 a11 : Vec F S128x4 .f32) (a12 : Vec F S128x128 .f32) (a13 : Vec F S128 .f32) (a14 : Vec F S128x128 .f32) (a15 : Vec F S128 .f32)
    (a16 : Vec F S128x128 .f32) (a17 : Vec F S128 .f32) (a18 : Vec F S128x128 .f32) (a19 a20 a21 a22 a23 : Vec F S128 .f32) :
    Vec F S2x50000x128 .f32 :=
  rstack (rpass (rproj a1 a7) (rproj a0 a5) (rproj a1 a9) a3 a11 a0 a12 a13 a16 a17 a20 a21)
    (rpass (rproj a0 a4) (rproj a1 a8) (rproj a0 a6) a2 a10 a1 a14 a15 a18 a19 a22 a23)

end Cert.ReferenceIdeal.RefVal

end
-- ==== Proof.Bridge.HostBridge.lean ====
/- The two programs' shared host operations are the same functions. Each program prints its shapes, its dimension records
   and their side conditions under its own names; the shapes are the same literals, the records have the same fields, and
   the side conditions are propositions, so the named compositions on the two sides are equal term by term. On in-range
   indices the kernel program's guarded row gather is the reference's gather, and each column slice of the product with
   the three weight matrices side by side is the reference's product with the one matrix. -/
import proofs.«412788_j87737591923455_1_alg».proof.Proof.Val.HostDefs
import proofs.«412788_j87737591923455_1_alg».proof.Proof.Val.Take
import proofs.«412788_j87737591923455_1_alg».proof.Proof.Val.HostApply
import proofs.«412788_j87737591923455_1_alg».proof.Proof.Ref.RefDefs
import proofs.«412788_j87737591923455_1_alg».proof.Proof.Spec
import proofs.«412788_j87737591923455_1_alg».proof.Proof.Gen.ReferenceIdeal
import Idealize.ShloMosaic.Lib.ValueIdx
import Idealize.ShloMosaic.PureOps.Ideal.Laws

noncomputable section

open scoped BigOperators

namespace Cert.Bridge

open Idealize.ShloMosaic Idealize.ShloMosaic.ValueIdx

/-! ## The same terms under two sets of names -/

/-- The rows of the edge list. -/
theorem row0_eq (e : IVec Cert.KernelIdeal.S2x400000 32) : Cert.KernelIdeal.HostVal.row0 e = Cert.ReferenceIdeal.RefVal.rrow0 e := rfl
theorem row1_eq (e : IVec Cert.KernelIdeal.S2x400000 32) : Cert.KernelIdeal.HostVal.row1 e = Cert.ReferenceIdeal.RefVal.rrow1 e := rfl

/-- The normalised index column. -/
theorem idx_eq (i : IVec Cert.KernelIdeal.S400000 32) : Cert.KernelIdeal.HostVal.idxCol (Cert.KernelIdeal.HostVal.normIdx i) = Cert.ReferenceIdeal.RefVal.rcol (Cert.ReferenceIdeal.RefVal.rnorm i) := rfl

/-- The sums by destination: both scatter at the destination row as given, laid out as a column. -/
theorem seg2_eq (dst : IVec Cert.KernelIdeal.S400000 32) (u : Vec Ideal Cert.KernelIdeal.S400000x128 .f32) :
    Cert.KernelIdeal.HostVal.segSum2 (F := Ideal) dst u = Cert.ReferenceIdeal.RefVal.rseg2 (F := Ideal) dst u := rfl
theorem seg1_eq (dst : IVec Cert.KernelIdeal.S400000 32) (u : Vec Ideal Cert.KernelIdeal.S400000 .f32) :
    Cert.KernelIdeal.HostVal.segSum1 (F := Ideal) dst u = Cert.ReferenceIdeal.RefVal.rseg1 (F := Ideal) dst u := rfl

/-- The stacking of two tables. -/
theorem stack_eq (a b : Vec Ideal Cert.KernelIdeal.S50000x128 .f32) : Cert.KernelIdeal.HostVal.stack2 (F := Ideal) a b = Cert.ReferenceIdeal.RefVal.rstack (F := Ideal) a b := rfl

/-! ## The guarded gather on in-range indices -/

/-- On in-range indices the kernel program's guarded gather is the reference's gather. -/
theorem take_eq (x : Vec Ideal Cert.KernelIdeal.S50000x128 .f32) (i : IVec Cert.KernelIdeal.S400000 32)
    (hi : ∀ j, (0 : Int) ≤ (i j).toInt ∧ (i j).toInt < 50000) :
    Cert.KernelIdeal.HostVal.takeRows (F := Ideal) x i = Cert.ReferenceIdeal.RefVal.rgather (F := Ideal) x i := by
  refine (Cert.KernelIdeal.HostVal.takeRows_eq x i hi).trans ?_
  unfold Cert.ReferenceIdeal.RefVal.rgather
  rw [← idx_eq i]
  rfl

/-! ## The reference's projection at an index -/

/-- The product's operand indices, axis by axis. -/
theorem lhs_rdot_0 (i : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.lhsIdx i k 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem lhs_rdot_1 (i : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.lhsIdx i k 1).val = (k ⟨0, by decide⟩).val :=
  Cert.ReferenceIdeal.dot_S50000x128_S128x128_S50000x128_1_0_0_1_n_n.lhsIdx_val_of_single rfl i k
theorem rhs_rdot_0 (i : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.rhsIdx i k 0).val = (k ⟨0, by decide⟩).val :=
  Cert.ReferenceIdeal.dot_S50000x128_S128x128_S50000x128_1_0_0_1_n_n.rhsIdx_val_of_single rfl i k
theorem rhs_rdot_1 (i : Cert.ReferenceIdeal.S50000x128.Idx) (k : Cert.ReferenceIdeal.dot_S50000x128_S128x128_S50000x128_1_0_0_1_n_n.contr.Idx) :
    (Cert.ReferenceIdeal.dot_S50000x128_S128x128_S50000x128_1_0_0_1_n_n.rhsIdx i k 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The reference's projection at `(r, q)` is the matrix product's entry. -/
theorem rproj_apply (x : Vec Ideal Cert.ReferenceIdeal.S50000x128 .f32) (w : Vec Ideal Cert.ReferenceIdeal.S128x128 .f32) (r : Fin 50000) (q : Fin 128) :
    Cert.ReferenceIdeal.RefVal.rproj (F := Ideal) x w (ix2 r q) = Cert.Spec.mm x w r q := by
  unfold Cert.ReferenceIdeal.RefVal.rproj Cert.Spec.mm
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact lhs_rdot_0 _ _
    | ⟨1, _⟩ => exact (lhs_rdot_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (rhs_rdot_0 _ _).trans hk
    | ⟨1, _⟩ => exact rhs_rdot_1 _ _)
  rw [el, er]

/-! ## The three projections -/

/-- Columns 0 … 127 of the product with the three matrices side by side are the reference's product with the first. -/
theorem proj_eq0 (x : Vec Ideal Cert.KernelIdeal.S50000x128 .f32) (w0 w1 w2 : Vec Ideal Cert.KernelIdeal.S128x128 .f32) :
    Cert.KernelIdeal.HostVal.sl0 (F := Ideal) (fun i => Cert.Spec.mm (x : Cert.Spec.Arr2 50000 128) (Cert.KernelIdeal.HostVal.wcat w0 w1 w2 : Cert.Spec.Arr2 128 384) (i 0) (i 1))
      = Cert.ReferenceIdeal.RefVal.rproj (F := Ideal) x w0 := by
  funext j
  obtain ⟨r, q, rfl⟩ : ∃ (r : Fin 50000) (q : Fin 128), j = ix2 r q := ⟨j 0, j 1, eq_ix2 j⟩
  exact (Cert.KernelIdeal.HostVal.projSlice0 x w0 w1 w2 r q).trans (rproj_apply x w0 r q).symm

/-- Columns 128 … 255 of the product with the three matrices side by side are the reference's product with the second. -/
theorem proj_eq1 (x : Vec Ideal Cert.KernelIdeal.S50000x128 .f32) (w0 w1 w2 : Vec Ideal Cert.KernelIdeal.S128x128 .f32) :
    Cert.KernelIdeal.HostVal.sl1 (F := Ideal) (fun i => Cert.Spec.mm (x : Cert.Spec.Arr2 50000 128) (Cert.KernelIdeal.HostVal.wcat w0 w1 w2 : Cert.Spec.Arr2 128 384) (i 0) (i 1))
      = Cert.ReferenceIdeal.RefVal.rproj (F := Ideal) x w1 := by
  funext j
  obtain ⟨r, q, rfl⟩ : ∃ (r : Fin 50000) (q : Fin 128), j = ix2 r q := ⟨j 0, j 1, eq_ix2 j⟩
  exact (Cert.KernelIdeal.HostVal.projSlice1 x w0 w1 w2 r q).trans (rproj_apply x w1 r q).symm

/-- Columns 256 … 383 of the product with the three matrices side by side are the reference's product with the third. -/
theorem proj_eq2 (x : Vec Ideal Cert.KernelIdeal.S50000x128 .f32) (w0 w1 w2 : Vec Ideal Cert.KernelIdeal.S128x128 .f32) :
    Cert.KernelIdeal.HostVal.sl2 (F := Ideal) (fun i => Cert.Spec.mm (x : Cert.Spec.Arr2 50000 128) (Cert.KernelIdeal.HostVal.wcat w0 w1 w2 : Cert.Spec.Arr2 128 384) (i 0) (i 1))
      = Cert.ReferenceIdeal.RefVal.rproj (F := Ideal) x w2 := by
  funext j
  obtain ⟨r, q, rfl⟩ : ∃ (r : Fin 50000) (q : Fin 128), j = ix2 r q := ⟨j 0, j 1, eq_ix2 j⟩
  exact (Cert.KernelIdeal.HostVal.projSlice2 x w0 w1 w2 r q).trans (rproj_apply x w2 r q).symm

end Cert.Bridge

end
-- ==== Proof.Ref.RefEdge.lean ====
/- The reference's edge arithmetic read at one entry, over the extended reals: the host's broadcasts and reshapes at an
   index (a row of 128 is four heads of 32: column 32 h + j is entry (h, j)), its sums and its row maximum as a sum and a
   fold over the reduced axis, the product with the bias matrix as a sum over the 128 contracted positions, and the
   constant divisor 11863283 / 2^21, whose reciprocal is the specification's constant. With them the reference's scores
   are the specification's scores, their softmax its attention weights, and so the attended values and the weight sums
   are the specification's, entry by entry. -/
import proofs.«412788_j87737591923455_1_alg».proof.Proof.Spec
import proofs.«412788_j87737591923455_1_alg».proof.Proof.Ref.RefDefs
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefVal

open Cert.ReferenceIdeal Idealize.ShloMosaic Idealize.ShloMosaic.ValueIdx
open Cert.ReferenceIdeal.Facts₀

variable [Facts₀]

/-! ## Layouts read at an index -/

/-- A scalar broadcast to any shape reads the scalar everywhere. -/
theorem bcast0_apply {α : Type} {t : Shape} (h : S_.BroadcastsInDim t ![]) (v : S_.Idx → α) (j : t.Idx) :
    broadcastInDim t ![] h v j = v ix0 :=
  broadcastInDim_apply ![] h v j ix0 (fun a => a.elim0)

/-- A vector of 400000 kept as a column and laid along the four columns reads, at `(e, c)`, the vector at `e`. -/
theorem bcastRows_apply {α : Type} (v : S400000.Idx → α) (e : Fin 400000) (c : Fin 4) :
    broadcastInDim S400000x4 ![0, 1] bcast_S400000x1_S400000x4_0_1 (broadcastInDim S400000x1 ![0] bcast_S400000_S400000x1_0 v) (ix2 e c)
      = v (ix1 e) := by
  refine (broadcastInDim_apply ![0, 1] bcast_S400000x1_S400000x4_0_1 _ (ix2 e c) (ix2 e (0 : Fin 1)) fun a => ?_).trans
    (broadcastInDim_apply ![0] bcast_S400000_S400000x1_0 v (ix2 e (0 : Fin 1)) (ix1 e) fun a => ?_)
  · match a with
    | ⟨0, _⟩ => rfl
    | ⟨1, _⟩ => rfl
  · match a with
    | ⟨0, _⟩ => rfl

/-- The weights laid along each head's 32 columns read, at `(e, h, j)`, the weight at `(e, h)`. -/
theorem bcastHeads_apply {α : Type} (a : S400000x4.Idx → α) (e : Fin 400000) (h : Fin 4) (j : Fin 32) :
    broadcastInDim S400000x4x32 ![0, 1, 2] bcast_S400000x4x1_S400000x4x32_0_1_2
      (broadcastInDim S400000x4x1 ![0, 1] bcast_S400000x4_S400000x4x1_0_1 a) (ix3 e h j) = a (ix2 e h) := by
  refine (broadcastInDim_apply ![0, 1, 2] bcast_S400000x4x1_S400000x4x32_0_1_2 _ (ix3 e h j) (ix3 e h (0 : Fin 1)) fun b => ?_).trans
    (broadcastInDim_apply ![0, 1] bcast_S400000x4_S400000x4x1_0_1 a (ix3 e h (0 : Fin 1)) (ix2 e h) fun b => ?_)
  · match b with
    | ⟨0, _⟩ => rfl
    | ⟨1, _⟩ => rfl
    | ⟨2, _⟩ => rfl
  · match b with
    | ⟨0, _⟩ => rfl
    | ⟨1, _⟩ => rfl

/-- A row of 128 read as four heads of 32: entry `(e, h, j)` is column `32 h + j` of row `e`. -/
theorem toHeads_apply {α : Type} (x : S400000x128.Idx → α) (e : Fin 400000) (h : Fin 4) (j : Fin 32) :
    shapeCast S400000x4x32 x shapeCasts_S400000x128_S400000x4x32 (ix3 e h j) = x (ix2 e (Cert.Spec.feat h j)) :=
  shapeCast_apply x _ _ _ (by
    rw [Shape.rowMajor_val_two, Shape.rowMajor_val_three]
    show e.val * 128 + (32 * h.val + j.val) = (e.val * 4 + h.val) * 32 + j.val
    omega)

/-- And back: column `d` of row `e` is entry `(e, d / 32, d % 32)`. -/
theorem fromHeads_apply {α : Type} (y : S400000x4x32.Idx → α) (e : Fin 400000) (d : Fin 128) :
    shapeCast S400000x128 y shapeCasts_S400000x4x32_S400000x128 (ix2 e d)
      = y (ix3 e (Cert.Spec.headOf d) (⟨d.val % 32, Nat.mod_lt _ (by decide)⟩ : Fin 32)) :=
  shapeCast_apply y _ _ _ (by
    rw [Shape.rowMajor_val_three, Shape.rowMajor_val_two]
    show (e.val * 4 + d.val / 32) * 32 + d.val % 32 = e.val * 128 + d.val
    omega)

/-! ## Reductions read at an index -/

/-- The word of minus infinity denotes the bottom element. -/
theorem ofBits_neg_inf : Ideal.ofBits .f32 0xFF800000#32 = ⊥ := by simp [Ideal.ofBits, Ideal.ieee]

/-- The sum over a head's 32 columns, from zero. -/
theorem sumLast_apply (x : FVec Ideal S400000x4x32 .f32) (e : Fin 400000) (h : Fin 4) :
    Host.reduceAdd x (constant (F := Ideal) S_ .f32 0x00000000#32) reducesTo_S400000x4x32_S400000x4_d2 h_S_ (ix2 e h)
      = ∑ j : Fin 32, x (ix3 e h j) := by
  have hr : S400000x4x32.Reduces [2] S400000x4 := by decide
  show Ideal.hostReduceAdd reducesTo_S400000x4x32_S400000x4_d2 x (Ideal.ofBits .f32 0x00000000#32) (ix2 e h) = _
  rw [Ideal.hostReduceAdd_single reducesTo_S400000x4x32_S400000x4_d2 hr x _ (ix2 e h), Ideal.ofBits_zero_f32, zero_add]
  show ∑ k : Fin 32, x (hr.lift (ix2 e h) k) = _
  refine Finset.sum_congr rfl fun k _ => congrArg x (funext fun a => ?_)
  match a with
  | ⟨0, _⟩ => exact Fin.ext rfl
  | ⟨1, _⟩ => exact Fin.ext rfl
  | ⟨2, _⟩ => exact Fin.ext rfl

/-- The sum over a row's four entries, from zero. -/
theorem sumRow_apply (x : FVec Ideal S400000x4 .f32) (e : Fin 400000) :
    Host.reduceAdd x (constant (F := Ideal) S_ .f32 0x00000000#32) reducesTo_S400000x4_S400000_d1 h_S_ (ix1 e)
      = ∑ c : Fin 4, x (ix2 e c) := by
  have hr : S400000x4.Reduces [1] S400000 := by decide
  show Ideal.hostReduceAdd reducesTo_S400000x4_S400000_d1 x (Ideal.ofBits .f32 0x00000000#32) (ix1 e) = _
  rw [Ideal.hostReduceAdd_single reducesTo_S400000x4_S400000_d1 hr x _ (ix1 e), Ideal.ofBits_zero_f32, zero_add]
  show ∑ k : Fin 4, x (hr.lift (ix1 e) k) = _
  refine Finset.sum_congr rfl fun k _ => congrArg x (funext fun a => ?_)
  match a with
  | ⟨0, _⟩ => exact Fin.ext rfl
  | ⟨1, _⟩ => exact Fin.ext rfl

/-- The largest of a row's four entries, folded from minus infinity. -/
theorem maxRow_apply (s : FVec Ideal S400000x4 .f32) (e : Fin 400000) :
    Host.reduce FloatOps.maximumf s (constant (F := Ideal) S_ .f32 0xFF800000#32) reducesTo_S400000x4_S400000_d1 h_S_ (ix1 e)
      = Cert.Spec.smax fun c => s (ix2 e c) := by
  have hr : S400000x4.Reduces [1] S400000 := by decide
  refine (Host.reduce_eq_fold_single FloatOps.maximumf s _ reducesTo_S400000x4_S400000_d1 hr h_S_ (ix1 e)).trans ?_
  show (Finset.univ : Finset (Fin 4)).fold max (Ideal.ofBits .f32 0xFF800000#32) (s ∘ hr.lift (ix1 e)) = _
  rw [ofBits_neg_inf, show (s ∘ hr.lift (ix1 e)) = fun c => s (ix2 e c) from funext fun k => congrArg s (funext fun a => by
    match a with
    | ⟨0, _⟩ => exact Fin.ext rfl
    | ⟨1, _⟩ => exact Fin.ext rfl)]
  rfl

/-! ## The product with the bias matrix read at an index -/

theorem lhs_biasDot_0 (i : S400000x4.Idx) (q : dot_S400000x128_S128x4_S400000x4_1_0_0_1_n_n.contr.Idx) :
    (dot_S400000x128_S128x4_S400000x4_1_0_0_1_n_n.lhsIdx i q 0).val = (i 0).val := by
  unfold DotDims.lhsIdx
  rw [dif_neg (show ¬(0 : Fin S400000x128.rank) ∈ dot_S400000x128_S128x4_S400000x4_1_0_0_1_n_n.lhsBatch from List.not_mem_nil), dif_pos (show (0 : Fin S400000x128.rank) ∈ dot_S400000x128_S128x4_S400000x4_1_0_0_1_n_n.lhsNonContracting from List.mem_singleton.mpr rfl)]
  rfl
theorem lhs_biasDot_1 (i : S400000x4.Idx) (q : dot_S400000x128_S128x4_S400000x4_1_0_0_1_n_n.contr.Idx) :
    (dot_S400000x128_S128x4_S400000x4_1_0_0_1_n_n.lhsIdx i q 1).val = (q ⟨0, Nat.one_pos⟩).val :=
  dot_S400000x128_S128x4_S400000x4_1_0_0_1_n_n.lhsIdx_val_of_single rfl i q
theorem rhs_biasDot_0 (i : S400000x4.Idx) (q : dot_S400000x128_S128x4_S400000x4_1_0_0_1_n_n.contr.Idx) :
    (dot_S400000x128_S128x4_S400000x4_1_0_0_1_n_n.rhsIdx i q 0).val = (q ⟨0, Nat.one_pos⟩).val :=
  dot_S400000x128_S128x4_S400000x4_1_0_0_1_n_n.rhsIdx_val_of_single rfl i q
theorem rhs_biasDot_1 (i : S400000x4.Idx) (q : dot_S400000x128_S128x4_S400000x4_1_0_0_1_n_n.contr.Idx) :
    (dot_S400000x128_S128x4_S400000x4_1_0_0_1_n_n.rhsIdx i q 1).val = (i 1).val := by
  unfold DotDims.rhsIdx
  rw [dif_neg (show ¬(1 : Fin S128x4.rank) ∈ dot_S400000x128_S128x4_S400000x4_1_0_0_1_n_n.rhsBatch from List.not_mem_nil), dif_pos (show (1 : Fin S128x4.rank) ∈ dot_S400000x128_S128x4_S400000x4_1_0_0_1_n_n.rhsNonContracting from List.mem_singleton.mpr rfl)]
  rfl

/-- The 400000 x 128 rows times the 128 x 4 matrix, read at `(e, c)`: the sum over the 128 contracted positions. -/
theorem biasDot_apply (l : FVec Ideal S400000x128 .f32) (r : FVec Ideal S128x4 .f32) (e : Fin 400000) (c : Fin 4) :
    Host.dotGeneral dot_S400000x128_S128x4_S400000x4_1_0_0_1_n_n none l r (ix2 e c) = ∑ k : Fin 128, l (ix2 e k) * r (ix2 k c) := by
  refine (Ideal.dotGeneral_apply dot_S400000x128_S128x4_S400000x4_1_0_0_1_n_n none .single l r (ix2 e c)).trans ?_
  rw [← Equiv.sum_comp (contrEquiv1 dot_S400000x128_S128x4_S400000x4_1_0_0_1_n_n 128 rfl rfl).symm]
  refine Finset.sum_congr rfl fun k _ => ?_
  have hk := contrEquiv1_symm_val dot_S400000x128_S128x4_S400000x4_1_0_0_1_n_n 128 rfl rfl k
  have el : dot_S400000x128_S128x4_S400000x4_1_0_0_1_n_n.lhsIdx (ix2 e c) ((contrEquiv1 dot_S400000x128_S128x4_S400000x4_1_0_0_1_n_n 128 rfl rfl).symm k) = ix2 e k := funext fun a => Fin.ext (by
    match a with
    | ⟨0, _⟩ => exact lhs_biasDot_0 _ _
    | ⟨1, _⟩ => exact (lhs_biasDot_1 _ _).trans hk)
  have er : dot_S400000x128_S128x4_S400000x4_1_0_0_1_n_n.rhsIdx (ix2 e c) ((contrEquiv1 dot_S400000x128_S128x4_S400000x4_1_0_0_1_n_n 128 rfl rfl).symm k) = ix2 k c := funext fun a => Fin.ext (by
    match a with
    | ⟨0, _⟩ => exact (rhs_biasDot_0 _ _).trans hk
    | ⟨1, _⟩ => exact rhs_biasDot_1 _ _)
  rw [el, er]

/-! ## The constant divisor -/

/-- The divisor's word denotes 11863283 / 2^21. -/
theorem ofBits_sqrt_dk : Ideal.ofBits .f32 0x40B504F3#32 = ((11863283 / 2097152 : ℝ) : EReal) := by
  simp [Ideal.ofBits, Ideal.ieee, -EReal.coe_mul]; norm_num

/-- Dividing by it is multiplying by the specification's reciprocal. -/
theorem div_sqrt_dk (x : EReal) : Ideal.div x (Ideal.ofBits .f32 0x40B504F3#32) = x * Cert.Spec.cinv := by
  rw [ofBits_sqrt_dk, Ideal.div_coe (by norm_num : (11863283 / 2097152 : ℝ) ≠ 0)]
  unfold Cert.Spec.cinv
  norm_num

/-! ## Scores, softmax, attended values and weight sums read at an index -/

/-- The host's exponential and division read at an index. -/
theorem hostExp_apply {s : Shape} {φ : FTy} (x : FVec Ideal s φ) (i : s.Idx) : Host.exp x i = Ideal.exp (x i) := rfl
theorem hostDivf_apply {s : Shape} {φ : FTy} (x y : FVec Ideal s φ) (i : s.Idx) : Host.divf x y i = Ideal.div (x i) (y i) := rfl

/-- The reference's scores are the specification's. -/
theorem rscores_apply (ek eq : Vec Ideal S400000x128 .f32) (wa : Vec Ideal S128x4 .f32) (e : Fin 400000) (h : Fin 4) :
    rscores ek eq wa (ix2 e h) = Cert.Spec.score (E := 400000) ek eq wa e h := by
  unfold rscores Cert.Spec.score
  rw [addf_apply, hostDivf_apply, sumLast_apply, bcast0_apply, biasDot_apply]
  simp only [mulf_apply, toHeads_apply, constant_apply, div_sqrt_dk]

/-- The row's largest score laid back along the row. -/
theorem rmaxb_apply (s : Vec Ideal S400000x4 .f32) (e : Fin 400000) (c : Fin 4) :
    rmaxb s (ix2 e c) = Cert.Spec.smax fun k => s (ix2 e k) := by
  unfold rmaxb
  rw [bcastRows_apply, maximumf_apply, maxRow_apply, bcast0_apply, constant_apply, ofBits_neg_inf]
  exact max_eq_right bot_le

/-- The exponentials. -/
theorem rexp_apply (s : Vec Ideal S400000x4 .f32) (e : Fin 400000) (c : Fin 4) :
    rexp s (ix2 e c) = Ideal.exp (s (ix2 e c) - Cert.Spec.smax fun k => s (ix2 e k)) := by
  unfold rexp
  rw [hostExp_apply, subf_apply, rmaxb_apply]

/-- The softmax of a score block at an index. -/
theorem rsoftmax_apply (s : Vec Ideal S400000x4 .f32) (e : Fin 400000) (c : Fin 4) :
    rsoftmax s (ix2 e c) = Ideal.div (Ideal.exp (s (ix2 e c) - Cert.Spec.smax fun k => s (ix2 e k)))
      (∑ k : Fin 4, Ideal.exp (s (ix2 e k) - Cert.Spec.smax fun j => s (ix2 e j))) := by
  unfold rsoftmax
  rw [hostDivf_apply, bcastRows_apply, sumRow_apply]
  simp only [rexp_apply]

/-- The reference's attention weights are the specification's. -/
theorem rattn_apply (ek eq : Vec Ideal S400000x128 .f32) (wa : Vec Ideal S128x4 .f32) (e : Fin 400000) (h : Fin 4) :
    rsoftmax (rscores ek eq wa) (ix2 e h) = Cert.Spec.attn (E := 400000) ek eq wa e h := by
  rw [rsoftmax_apply]
  have hs : (fun k => rscores ek eq wa (ix2 e k)) = Cert.Spec.score (E := 400000) ek eq wa e :=
    funext fun k => rscores_apply ek eq wa e k
  unfold Cert.Spec.attn Cert.Spec.expo
  simp only [hs, rscores_apply]

/-- The attended values. -/
theorem ratt_apply (ek eq ev : Vec Ideal S400000x128 .f32) (wa : Vec Ideal S128x4 .f32) (e : Fin 400000) (d : Fin 128) :
    ratt (rsoftmax (rscores ek eq wa)) ev (ix2 e d) = Cert.Spec.attended (E := 400000) ek eq ev wa e d := by
  unfold ratt
  rw [fromHeads_apply, mulf_apply, bcastHeads_apply, toHeads_apply, rattn_apply]
  unfold Cert.Spec.attended
  have hd : Cert.Spec.feat (Cert.Spec.headOf d) (⟨d.val % 32, Nat.mod_lt _ (by decide)⟩ : Fin 32) = d :=
    Fin.ext (by show 32 * (d.val / 32) + d.val % 32 = d.val; omega)
  rw [hd]

/-- The weight sums. -/
theorem rws_apply (ek eq : Vec Ideal S400000x128 .f32) (wa : Vec Ideal S128x4 .f32) (e : Fin 400000) :
    rws (rsoftmax (rscores ek eq wa)) (ix1 e) = Cert.Spec.wsum (E := 400000) ek eq wa e := by
  unfold rws
  rw [sumRow_apply]
  unfold Cert.Spec.wsum
  exact Finset.sum_congr rfl fun h _ => rattn_apply ek eq wa e h

end Cert.ReferenceIdeal.RefVal

end
-- ==== Proof.Ref.RefUpd.lean ====
/- The reference's node update read at one index, at the ideal floats. First the operations it is made of, each read at
   an index: a vector kept as a column, a column and a parameter row broadcast over the array, the sum along a row from an
   initial value, the product of the array with a square matrix. Then the stages built from them (the message over the
   clamped weight sum, an affine map, a row's mean kept as a column, the layer normalisation), each equal to the
   specification's function of the same name; last the whole update. -/
import proofs.«412788_j87737591923455_1_alg».proof.ReferenceIdeal
import proofs.«412788_j87737591923455_1_alg».proof.Proof.Spec
import proofs.«412788_j87737591923455_1_alg».proof.Proof.Ref.RefDefs
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

open scoped BigOperators

namespace Cert.ReferenceIdeal.RefVal

open Cert.ReferenceIdeal Idealize.ShloMosaic Idealize.ShloMosaic.ValueIdx

variable [Facts₀]
open Facts₀

/-! ## Layout operations read at an index -/

/-- A vector of 50000 entries kept as a column reads, at row `r`, its entry `r`, whatever the unit coordinate. -/
theorem col_apply {α : Type} (v : S50000.Idx → α) (r : Fin 50000) (u : Fin 1) :
    broadcastInDim S50000x1 ![0] bcast_S50000_S50000x1_0 v (ix2 r u) = v (ix1 r) := by
  refine broadcastInDim_apply ![0] bcast_S50000_S50000x1_0 v (ix2 r u) (ix1 r) ?_
  intro a
  match a with
  | ⟨0, _⟩ => rfl

/-- A column broadcast over the 128 columns reads, at `(r, q)`, the column's entry of row `r`. -/
theorem full_apply {α : Type} (c : S50000x1.Idx → α) (r : Fin 50000) (q : Fin 128) :
    broadcastInDim S50000x128 ![0, 1] bcast_S50000x1_S50000x128_0_1 c (ix2 r q) = c (ix2 r (0 : Fin 1)) := by
  refine broadcastInDim_apply ![0, 1] bcast_S50000x1_S50000x128_0_1 c (ix2 r q) (ix2 r (0 : Fin 1)) ?_
  intro a
  match a with
  | ⟨0, _⟩ => rfl
  | ⟨1, _⟩ => rfl

/-- A parameter vector made a one-row matrix and broadcast down the rows reads, at `(r, q)`, its entry `q`. -/
theorem row_apply {α : Type} (v : S128.Idx → α) (r : Fin 50000) (q : Fin 128) :
    broadcastInDim S50000x128 ![0, 1] bcast_S1x128_S50000x128_0_1 (broadcastInDim S1x128 ![1] bcast_S128_S1x128_1 v) (ix2 r q)
      = v (ix1 q) := by
  refine (broadcastInDim_oneRow_apply bcast_S1x128_S50000x128_0_1 _ r q).trans ?_
  refine broadcastInDim_apply ![1] bcast_S128_S1x128_1 v (ix2 (0 : Fin 1) q) (ix1 q) ?_
  intro a
  match a with
  | ⟨0, _⟩ => rfl

/-! ## The sum along a row and the matrix product -/

/-- The sum along a row from an initial value: that value plus the sum of the row's 128 entries. -/
theorem rowSum_apply (y : FVec Ideal S50000x128 .f32) (init : S_.Idx → Ideal .f32) (r : Fin 50000) :
    Host.reduceAdd y init reducesTo_S50000x128_S50000_d1 h_S_ (ix1 r) = init ix0 + ∑ k : Fin 128, y (ix2 r k) := by
  refine (hostReduceAdd_apply y init reducesTo_S50000x128_S50000_d1 h_S_ (ix1 r)).trans ?_
  refine (Ideal.hostReduceAdd_single reducesTo_S50000x128_S50000_d1 (by decide) y _ (ix1 r)).trans ?_
  refine congrArg₂ (· + ·) (congrArg init (eq_ix0 _)) (Finset.sum_congr rfl fun k _ => congrArg y ?_)
  funext a
  match a with
  | ⟨0, _⟩ => rfl
  | ⟨1, _⟩ => rfl

/-- The product's operand indices, axis by axis: the row and the column come from the output index, the other two
    coordinates are the contracted one. -/
theorem lhs_dot_0 (i : S50000x128.Idx) (k : dot_S50000x128_S128x128_S50000x128_1_0_0_1_n_n.contr.Idx) :
    (dot_S50000x128_S128x128_S50000x128_1_0_0_1_n_n.lhsIdx i k 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
theorem lhs_dot_1 (i : S50000x128.Idx) (k : dot_S50000x128_S128x128_S50000x128_1_0_0_1_n_n.contr.Idx) :
    (dot_S50000x128_S128x128_S50000x128_1_0_0_1_n_n.lhsIdx i k 1).val = (k ⟨0, Nat.one_pos⟩).val :=
  dot_S50000x128_S128x128_S50000x128_1_0_0_1_n_n.lhsIdx_val_of_single rfl i k
theorem rhs_dot_0 (i : S50000x128.Idx) (k : dot_S50000x128_S128x128_S50000x128_1_0_0_1_n_n.contr.Idx) :
    (dot_S50000x128_S128x128_S50000x128_1_0_0_1_n_n.rhsIdx i k 0).val = (k ⟨0, Nat.one_pos⟩).val :=
  dot_S50000x128_S128x128_S50000x128_1_0_0_1_n_n.rhsIdx_val_of_single rfl i k
theorem rhs_dot_1 (i : S50000x128.Idx) (k : dot_S50000x128_S128x128_S50000x128_1_0_0_1_n_n.contr.Idx) :
    (dot_S50000x128_S128x128_S50000x128_1_0_0_1_n_n.rhsIdx i k 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The product of the array with a square matrix, at `(r, q)`: the sum over the 128 contracted coordinates of the
    row's entries times the column's. -/
theorem dot_apply {φ₁ φ₂ : FTy} (L : FVec Ideal S50000x128 φ₁) (R : FVec Ideal S128x128 φ₂) (r : Fin 50000) (q : Fin 128) :
    Host.dotGeneral dot_S50000x128_S128x128_S50000x128_1_0_0_1_n_n none L R (ix2 r q) = ∑ k : Fin 128, L (ix2 r k) * R (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The stages -/

/-- The message over the clamped weight sum, at `(r, k)`: the clamp is the larger of the bound and the sum, in either
    order. -/
theorem agg_apply (msg : FVec Ideal S50000x128 .f32) (cw : FVec Ideal S50000 .f32) (ws : FVec Ideal S50000 .f32)
    (hcw : ∀ r : Fin 50000, cw (ix1 r) = max (Cert.Spec.eps8) (ws (ix1 r))) (r : Fin 50000) (k : Fin 128) :
    Host.divf msg (broadcastInDim S50000x128 ![0, 1] bcast_S50000x1_S50000x128_0_1
        (broadcastInDim S50000x1 ![0] bcast_S50000_S50000x1_0 cw)) (ix2 r k)
      = Cert.Spec.agg (N := 50000) msg (fun r => ws (ix1 r)) r k := by
  refine (hostDivf_apply _ _ _).trans ?_
  rw [full_apply, col_apply, hcw, max_comm]
  rfl

/-- An affine map of the array: the product with a square matrix plus the bias row, at `(r, q)`. -/
theorem affine_apply (A : FVec Ideal S50000x128 .f32) (w : FVec Ideal S128x128 .f32) (bv : FVec Ideal S128 .f32)
    (r : Fin 50000) (q : Fin 128) :
    addf (Host.dotGeneral dot_S50000x128_S128x128_S50000x128_1_0_0_1_n_n none A w)
        (broadcastInDim S50000x128 ![0, 1] bcast_S1x128_S50000x128_0_1 (broadcastInDim S1x128 ![1] bcast_S128_S1x128_1 bv)) (ix2 r q)
      = (∑ k : Fin 128, A (ix2 r k) * w (ix2 k q)) + bv (ix1 q) := by
  refine (addf_apply _ _ _).trans ?_
  exact congrArg₂ (· + ·) (dot_apply A w r q) (row_apply bv r q)

/-- A row's sum from zero, kept as a column and divided by the row length: the row's mean. -/
theorem mean_apply (y : FVec Ideal S50000x128 .f32) (r : Fin 50000) (u : Fin 1) :
    Host.divf (broadcastInDim S50000x1 ![0] bcast_S50000_S50000x1_0
          (Host.reduceAdd y (constant (F := Ideal) S_ .f32 0x00000000#32) reducesTo_S50000x128_S50000_d1 h_S_))
        (broadcastInDim S50000x1 ![] bcast_S_S50000x1 (constant (F := Ideal) S_ .f32 0x43000000#32)) (ix2 r u)
      = Cert.Spec.rowMean (fun q => y (ix2 r q)) := by
  refine (hostDivf_apply _ _ _).trans ?_
  rw [col_apply, rowSum_apply, broadcastInDim_scalar_apply, constant_apply, constant_apply, Ideal.ofBits_zero_f32, zero_add]
  rfl

/-- The host's reciprocal square root at an index is the ideal one of the element. -/
theorem hostRsqrt_apply {s : Shape} {φ : FTy} (a : FVec Ideal s φ) (i : s.Idx) : Host.rsqrt a i = Ideal.rsqrt (a i) := rfl

/-- The row's squared deviations from a column `M` that holds the row means, summed from zero, kept as a column and
    divided by the row length: the row's variance. -/
theorem var_apply (y : FVec Ideal S50000x128 .f32) (M : FVec Ideal S50000x1 .f32)
    (hM : ∀ r : Fin 50000, M (ix2 r (0 : Fin 1)) = Cert.Spec.rowMean (fun q => y (ix2 r q))) (r : Fin 50000) (u : Fin 1) :
    Host.divf (broadcastInDim S50000x1 ![0] bcast_S50000_S50000x1_0
          (Host.reduceAdd
            (mulf (subf y (broadcastInDim S50000x128 ![0, 1] bcast_S50000x1_S50000x128_0_1 M))
              (subf y (broadcastInDim S50000x128 ![0, 1] bcast_S50000x1_S50000x128_0_1 M)))
            (constant (F := Ideal) S_ .f32 0x00000000#32) reducesTo_S50000x128_S50000_d1 h_S_))
        (broadcastInDim S50000x1 ![] bcast_S_S50000x1 (constant (F := Ideal) S_ .f32 0x43000000#32)) (ix2 r u)
      = Cert.Spec.rowVar (fun q => y (ix2 r q)) := by
  refine (hostDivf_apply _ _ _).trans ?_
  rw [col_apply, rowSum_apply, broadcastInDim_scalar_apply, constant_apply, constant_apply, Ideal.ofBits_zero_f32, zero_add]
  refine congrArg₂ Ideal.div (Finset.sum_congr rfl fun k _ => ?_) rfl
  refine (mulf_apply _ _ _).trans ?_
  have e : subf y (broadcastInDim S50000x128 ![0, 1] bcast_S50000x1_S50000x128_0_1 M) (ix2 r k)
      = y (ix2 r k) - Cert.Spec.rowMean (fun q => y (ix2 r q)) := by
    refine (subf_apply _ _ _).trans ?_
    rw [full_apply, hM]
  rw [e]

/-- The layer normalisation over columns `M` and `V` that hold the row means and variances: the deviation from the
    mean times the reciprocal square root of the variance plus the small constant, times the gain, plus the shift. -/
theorem lnorm_apply (y : FVec Ideal S50000x128 .f32) (M V : FVec Ideal S50000x1 .f32) (g b : FVec Ideal S128 .f32)
    (hM : ∀ r : Fin 50000, M (ix2 r (0 : Fin 1)) = Cert.Spec.rowMean (fun q => y (ix2 r q)))
    (hV : ∀ r : Fin 50000, V (ix2 r (0 : Fin 1)) = Cert.Spec.rowVar (fun q => y (ix2 r q))) (r : Fin 50000) (q : Fin 128) :
    addf (mulf (mulf (subf y (broadcastInDim S50000x128 ![0, 1] bcast_S50000x1_S50000x128_0_1 M))
            (broadcastInDim S50000x128 ![0, 1] bcast_S50000x1_S50000x128_0_1
              (Host.rsqrt (addf V (broadcastInDim S50000x1 ![] bcast_S_S50000x1 (constant (F := Ideal) S_ .f32 0x3727C5AC#32))))))
          (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 b)) (ix2 r q)
      = Cert.Spec.lnorm (fun q => y (ix2 r q)) (fun q => g (ix1 q)) (fun q => b (ix1 q)) q := by
  refine (addf_apply _ _ _).trans ?_
  refine congrArg₂ (· + ·) ?_ (row_apply b r q)
  refine (mulf_apply _ _ _).trans ?_
  refine congrArg₂ (· * ·) ?_ (row_apply g r q)
  refine (mulf_apply _ _ _).trans ?_
  refine congrArg₂ (· * ·) ?_ ?_
  · refine (subf_apply _ _ _).trans ?_
    rw [full_apply, hM]
  · rw [full_apply]
    refine (hostRsqrt_apply _ _).trans ?_
    refine congrArg Ideal.rsqrt ?_
    refine (addf_apply _ _ _).trans ?_
    rw [hV, broadcastInDim_scalar_apply, constant_apply]
    rfl

/-! ## The update -/

/-- The clamped weight sum at row `r`: the larger of the bound and the sum. -/
theorem rclip_apply (ws : Vec Ideal S50000 .f32) (r : Fin 50000) :
    rclip ws (ix1 r) = max Cert.Spec.eps8 (ws (ix1 r)) := by
  unfold rclip
  refine (maximumf_apply _ _ _).trans ?_
  rw [broadcastInDim_scalar_apply]
  rfl

/-- The aggregate is the specification's. -/
theorem ragg_apply (msg : Vec Ideal S50000x128 .f32) (ws : Vec Ideal S50000 .f32) (r : Fin 50000) (k : Fin 128) :
    ragg msg ws (ix2 r k) = Cert.Spec.agg (N := 50000) msg (fun r => ws (ix1 r)) r k := by
  unfold ragg rspread rcol1
  exact agg_apply msg (rclip ws) ws (rclip_apply ws) r k

/-- An affine map at `(r, q)`. -/
theorem rlin_apply (y : Vec Ideal S50000x128 .f32) (w : Vec Ideal S128x128 .f32) (bv : Vec Ideal S128 .f32) (r : Fin 50000) (q : Fin 128) :
    rlin y w bv (ix2 r q) = (∑ k : Fin 128, y (ix2 r k) * w (ix2 k q)) + bv (ix1 q) := by
  unfold rlin rrowb
  exact affine_apply y w bv r q

/-- Two affine maps of the aggregate plus the table: the specification's residual. -/
theorem rresid_apply (msg : Vec Ideal S50000x128 .f32) (ws : Vec Ideal S50000 .f32) (x : Vec Ideal S50000x128 .f32)
    (wm : Vec Ideal S128x128 .f32) (bm : Vec Ideal S128 .f32) (wg : Vec Ideal S128x128 .f32) (bg : Vec Ideal S128 .f32)
    (r : Fin 50000) (q : Fin 128) :
    rresid msg ws x wm bm wg bg (ix2 r q)
      = Cert.Spec.resid (N := 50000) msg (fun r => ws (ix1 r)) x wm (fun q => bm (ix1 q)) wg (fun q => bg (ix1 q)) r q := by
  unfold rresid
  refine (addf_apply _ _ _).trans ?_
  rw [rlin_apply]
  unfold Cert.Spec.resid
  refine congrArg₂ (· + ·) (congrArg₂ (· + ·) (Finset.sum_congr rfl fun k _ => ?_) rfl) rfl
  rw [rlin_apply]
  unfold Cert.Spec.lin1
  refine congrArg₂ (· * ·) (congrArg₂ (· + ·) (Finset.sum_congr rfl fun j _ => ?_) rfl) rfl
  rw [ragg_apply]

/-- The column of row means holds the specification's mean of each row. -/
theorem rmeanc_apply (y : Vec Ideal S50000x128 .f32) (r : Fin 50000) (u : Fin 1) :
    rmeanc y (ix2 r u) = Cert.Spec.rowMean (fun q => y (ix2 r q)) := by
  unfold rmeanc rcol1
  exact mean_apply y r u

/-- The column of row variances holds the specification's variance of each row. -/
theorem rvarc_apply (y : Vec Ideal S50000x128 .f32) (r : Fin 50000) (u : Fin 1) :
    rvarc y (ix2 r u) = Cert.Spec.rowVar (fun q => y (ix2 r q)) := by
  unfold rvarc rcent rmeanc rspread rcol1
  exact var_apply y _ (fun r => mean_apply y r 0) r u

/-- The layer normalisation is the specification's, row by row. -/
theorem rlnorm_apply (y : Vec Ideal S50000x128 .f32) (g b : Vec Ideal S128 .f32) (r : Fin 50000) (q : Fin 128) :
    rlnorm y g b (ix2 r q) = Cert.Spec.lnorm (fun q => y (ix2 r q)) (fun q => g (ix1 q)) (fun q => b (ix1 q)) q := by
  unfold rlnorm rcent rspread rrowb
  exact lnorm_apply y (rmeanc y) (rvarc y) g b (fun r => rmeanc_apply y r 0) (fun r => rvarc_apply y r 0) r q

/-- The reference's node update, read at `(r, q)`, is the specification's update of row `r` at column `q`. -/
theorem rupd_apply (msg : Vec Ideal S50000x128 .f32) (ws : Vec Ideal S50000 .f32) (x : Vec Ideal S50000x128 .f32)
    (wm : Vec Ideal S128x128 .f32) (bm : Vec Ideal S128 .f32) (wg : Vec Ideal S128x128 .f32) (bg g b : Vec Ideal S128 .f32)
    (r : Fin 50000) (q : Fin 128) :
    rupd msg ws x wm bm wg bg g b (ix2 r q)
      = Cert.Spec.upd (N := 50000) msg (fun r => ws (ix1 r)) x wm (fun q => bm (ix1 q)) wg (fun q => bg (ix1 q))
          (fun q => g (ix1 q)) (fun q => b (ix1 q)) r q := by
  unfold rupd
  refine (rlnorm_apply _ g b r q).trans ?_
  unfold Cert.Spec.upd
  refine congrArg (fun y => Cert.Spec.lnorm y (fun q => g (ix1 q)) (fun q => b (ix1 q)) q) (funext fun q' => ?_)
  exact rresid_apply msg ws x wm bm wg bg r q'

end Cert.ReferenceIdeal.RefVal

end
-- ==== Proof.Assembly.lean ====
/- The two programs compute the same layer. One direction of the layer - keys and values taken at the edges' first row,
   queries at the second, attention over the four heads, messages and weight sums summed at the second row, the
   destination table updated - is the same function in both programs: entry by entry both are the layer's update of the
   same message sums, weight sums and parameters; the message sums agree because both sum, at the same destinations, the
   attended values of the same gathered rows; the gathered rows agree because on in-range indices the kernel program's
   guarded row gather is the plain one; and the projected tables agree because a column slice of the product with three
   matrices side by side is the product with one of them. -/
import proofs.«412788_j87737591923455_1_alg».proof.Defs
import proofs.«412788_j87737591923455_1_alg».proof.Proof.Gen.Pre_finite_inputs
import proofs.«412788_j87737591923455_1_alg».proof.Proof.Val.KernelValue
import proofs.«412788_j87737591923455_1_alg».proof.Proof.KernelIdeal.Outs
import proofs.«412788_j87737591923455_1_alg».proof.Proof.Bridge.HostBridge
import proofs.«412788_j87737591923455_1_alg».proof.Proof.Ref.RefEdge
import proofs.«412788_j87737591923455_1_alg».proof.Proof.Ref.RefUpd
import proofs.«412788_j87737591923455_1_alg».proof.Proof.Ref.RunP

set_option maxRecDepth 16384

noncomputable section

namespace Cert.Bridge

open Idealize.ShloMosaic Idealize.ShloMosaic.ValueIdx Idealize.ShloMosaic.TcCoe Idealize.SL.Sem
open Cert.KernelIdeal.HostVal (row0 row1 takeRows segSum2 segSum1 flat col rowv sl0 sl1 sl2 wcat stack2)
open Cert.ReferenceIdeal.RefVal (rpass rupd rseg2 rseg1 rrow0 rrow1 rgather ratt rws rsoftmax rscores rproj rstack rlayer)

/-- A table of 400000 index words, each in [0, 50000). -/
def InRange (i : IVec Cert.KernelIdeal.S400000 32) : Prop := ∀ j, (0 : Int) ≤ (i j).toInt ∧ (i j).toInt < 50000

set_option maxHeartbeats 2000000 in
/-- One direction of the layer, as the kernel program computes it and as the reference does. -/
theorem pass_eq (kt qt vt : Vec Ideal Cert.KernelIdeal.S50000x128 .f32) (e : IVec Cert.KernelIdeal.S2x400000 32)
    (h0 : InRange (row0 e)) (h1 : InRange (row1 e))
    (wa : Vec Ideal Cert.KernelIdeal.S128x4 .f32) (x : Vec Ideal Cert.KernelIdeal.S50000x128 .f32) (wm : Vec Ideal Cert.KernelIdeal.S128x128 .f32)
    (bm : Vec Ideal Cert.KernelIdeal.S128 .f32) (wg : Vec Ideal Cert.KernelIdeal.S128x128 .f32) (bg g b : Vec Ideal Cert.KernelIdeal.S128 .f32) :
    (fun i => Cert.Spec.upd (N := 50000)
        (segSum2 (F := Ideal) (row1 e) (fun i => Cert.Spec.attended (E := 400000) (takeRows (F := Ideal) kt (row0 e)) (takeRows (F := Ideal) qt (row1 e)) (takeRows (F := Ideal) vt (row0 e)) wa (i 0) (i 1)))
        (fun r => col (F := Ideal) (segSum1 (F := Ideal) (row1 e) (flat (F := Ideal) (fun i => Cert.Spec.wsum (E := 400000) (takeRows (F := Ideal) kt (row0 e)) (takeRows (F := Ideal) qt (row1 e)) wa (i 0)))) (ix2 r 0))
        x wm (fun q => rowv (F := Ideal) bm (ix2 0 q)) wg (fun q => rowv (F := Ideal) bg (ix2 0 q)) (fun q => rowv (F := Ideal) g (ix2 0 q)) (fun q => rowv (F := Ideal) b (ix2 0 q)) (i 0) (i 1))
      = rpass (F := Ideal) kt qt vt e wa x wm bm wg bg g b := by
  -- the gathered rows
  have hk : takeRows (F := Ideal) kt (row0 e) = rgather (F := Ideal) kt (rrow0 e) := (take_eq kt (row0 e) h0).trans (by rw [row0_eq])
  have hq : takeRows (F := Ideal) qt (row1 e) = rgather (F := Ideal) qt (rrow1 e) := (take_eq qt (row1 e) h1).trans (by rw [row1_eq])
  have hv : takeRows (F := Ideal) vt (row0 e) = rgather (F := Ideal) vt (rrow0 e) := (take_eq vt (row0 e) h0).trans (by rw [row0_eq])
  rw [hk, hq, hv]
  -- the attended values and the weight sums, as arrays
  have hatt : (fun i => Cert.Spec.attended (E := 400000) (rgather (F := Ideal) kt (rrow0 e)) (rgather (F := Ideal) qt (rrow1 e)) (rgather (F := Ideal) vt (rrow0 e)) wa (i 0) (i 1))
      = ratt (F := Ideal) (rsoftmax (rscores (rgather (F := Ideal) kt (rrow0 e)) (rgather (F := Ideal) qt (rrow1 e)) wa)) (rgather (F := Ideal) vt (rrow0 e)) := by
    funext j
    obtain ⟨e', d, rfl⟩ : ∃ (e' : Fin 400000) (d : Fin 128), j = ix2 e' d := ⟨j 0, j 1, eq_ix2 j⟩
    exact (Cert.ReferenceIdeal.RefVal.ratt_apply _ _ _ wa e' d).symm
  have hws : flat (F := Ideal) (fun i => Cert.Spec.wsum (E := 400000) (rgather (F := Ideal) kt (rrow0 e)) (rgather (F := Ideal) qt (rrow1 e)) wa (i 0))
      = rws (F := Ideal) (rsoftmax (rscores (rgather (F := Ideal) kt (rrow0 e)) (rgather (F := Ideal) qt (rrow1 e)) wa)) := by
    funext j
    obtain ⟨e', rfl⟩ : ∃ e' : Fin 400000, j = ix1 e' := ⟨j 0, eq_ix1 j⟩
    rw [Cert.KernelIdeal.HostVal.flat_apply]
    exact (Cert.ReferenceIdeal.RefVal.rws_apply _ _ wa e').symm
  rw [hatt, hws, seg2_eq, seg1_eq, row1_eq]
  -- the column of weight sums and the four parameter rows, read as vectors
  have hcol : ∀ v : Vec Ideal Cert.KernelIdeal.S50000 .f32, (fun r : Fin 50000 => col (F := Ideal) v (ix2 r 0)) = fun r => v (ix1 r) :=
    fun v => funext fun r => Cert.KernelIdeal.HostVal.col_apply v r
  have hrow : ∀ b' : Vec Ideal Cert.KernelIdeal.S128 .f32, (fun q : Fin 128 => rowv (F := Ideal) b' (ix2 0 q)) = fun q => b' (ix1 q) :=
    fun b' => funext fun q => Cert.KernelIdeal.HostVal.rowv_apply b' q
  rw [hcol, hrow bm, hrow bg, hrow g, hrow b]
  funext i
  obtain ⟨r, q, rfl⟩ : ∃ (r : Fin 50000) (q : Fin 128), i = ix2 r q := ⟨i 0, i 1, eq_ix2 i⟩
  unfold rpass
  rw [Cert.ReferenceIdeal.RefVal.rupd_apply]

set_option maxHeartbeats 4000000 in
/-- The reference's result is the kernel program's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) = (fun _ => 1#1))
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))) :
    Cert.ReferenceIdeal.ValueP.res_main_v194 m' c
      = Cert.KernelIdeal.Gen.V20 m (Cert.KernelIdeal.Hand.outsC m) c Cert.KernelIdeal.main_v64 := by
  obtain ⟨g0, g1, g2, g3, g4, g5, g6, g7, g8, g9, g10, g11, g12, g13, g14, g15, g16, g17, g18, g19, g20, g21, g22, g23⟩ := hagree
  obtain ⟨hr2, hr3⟩ := Cert.PreIdx.idx_range_of_pre _ _ _ _ _ _ _ _ _ _ _ _ _ _ _ _ _ _ _ _ _ _ _ _ hpre
  rw [Cert.KernelIdeal.KVal.result_eq m _ (Cert.KernelIdeal.Hand.outsC_ok m) c]
  show rlayer (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = _
  rw [g0, g1, g2, g3, g4, g5, g6, g7, g8, g9, g10, g11, g12, g13, g14, g15, g16, g17, g18, g19, g20, g21, g22, g23]
  unfold Cert.ReferenceIdeal.RefVal.rlayer
  rw [← stack_eq]
  have hU := pass_eq (sl0 (F := Ideal) (Cert.KernelIdeal.KVal.projI m c)) (sl1 (F := Ideal) (Cert.KernelIdeal.KVal.projU m c)) (sl2 (F := Ideal) (Cert.KernelIdeal.KVal.projI m c))
    (m ((c.tc : Thread Cert.KernelIdeal.nD Cert.KernelIdeal.τ).loc Cert.KernelIdeal.main_arg3)) (Cert.KernelIdeal.HostVal.row0_range _ hr3) (Cert.KernelIdeal.HostVal.row1_range _ hr3)
    (m ((c.tc : Thread Cert.KernelIdeal.nD Cert.KernelIdeal.τ).loc Cert.KernelIdeal.main_arg11)) (m ((c.tc : Thread Cert.KernelIdeal.nD Cert.KernelIdeal.τ).loc Cert.KernelIdeal.main_arg0)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
  have hI := pass_eq (sl0 (F := Ideal) (Cert.KernelIdeal.KVal.projU m c)) (sl1 (F := Ideal) (Cert.KernelIdeal.KVal.projI m c)) (sl2 (F := Ideal) (Cert.KernelIdeal.KVal.projU m c))
    (m ((c.tc : Thread Cert.KernelIdeal.nD Cert.KernelIdeal.τ).loc Cert.KernelIdeal.main_arg2)) (Cert.KernelIdeal.HostVal.row0_range _ hr2) (Cert.KernelIdeal.HostVal.row1_range _ hr2)
    (m ((c.tc : Thread Cert.KernelIdeal.nD Cert.KernelIdeal.τ).loc Cert.KernelIdeal.main_arg10)) (m ((c.tc : Thread Cert.KernelIdeal.nD Cert.KernelIdeal.τ).loc Cert.KernelIdeal.main_arg1)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
  have pU0 : sl0 (F := Ideal) (Cert.KernelIdeal.KVal.projU m c) = rproj (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := proj_eq0 _ _ _ _
  have pU1 : sl1 (F := Ideal) (Cert.KernelIdeal.KVal.projU m c) = rproj (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) := proj_eq1 _ _ _ _
  have pU2 : sl2 (F := Ideal) (Cert.KernelIdeal.KVal.projU m c) = rproj (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) := proj_eq2 _ _ _ _
  have pI0 : sl0 (F := Ideal) (Cert.KernelIdeal.KVal.projI m c) = rproj (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) := proj_eq0 _ _ _ _
  have pI1 : sl1 (F := Ideal) (Cert.KernelIdeal.KVal.projI m c) = rproj (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) := proj_eq1 _ _ _ _
  have pI2 : sl2 (F := Ideal) (Cert.KernelIdeal.KVal.projI m c) = rproj (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) := proj_eq2 _ _ _ _
  rw [← pU0, ← pU1, ← pU2, ← pI0, ← pI1, ← pI2, ← hU, ← hI]
  rfl

end Cert.Bridge

end
-- ==== Proof.lean ====
/- The certificate: the three frames, the idealization's two ledger entries, and the equality of the two programs' results
   over the extended reals.

   The layer is one step of heterogeneous-graph attention over two node tables of 50000 rows: keys, queries and values are
   projections of the tables; for each of the 400000 edges of a type, the four heads' scores are the head-wise dot products
   of the source's key and the destination's query, scaled, plus a bias projection of the key; the softmax of the scores over
   the heads weights the source's value head by head; the weighted values and the weights are summed at the destinations;
   each destination row is the sum over the clamped weight sum, passed through two affine maps, added to the row itself and
   layer-normalised. The kernel program computes the projections, the per-edge attention and the update in six kernel
   regions (projection with the three weight matrices side by side; scores through products with the head-indicator
   matrices; scaling by a folded reciprocal), gathering and scatter-summing on the host; the reference does everything on
   the host. The statement names the kernel's folded scale as the exact reciprocal of the reference's divisor, and asks the
   edge indices to lie in the tables (outside that the reference indexes out of range): then the kernel program's guarded
   row gather is the reference's plain one, and entry by entry both programs compute the same sums, quotients,
   exponentials and inverse square roots of the same numbers. No finiteness of the inputs is needed: only commutativity
   and associativity of sums, and multiplication by zero and one, relate the two arrangements. -/
import proofs.«412788_j87737591923455_1_alg».proof.Defs
import proofs.«412788_j87737591923455_1_alg».proof.Proof.Gen.Kernel
import proofs.«412788_j87737591923455_1_alg».proof.Proof.Gen.KernelIdeal
import proofs.«412788_j87737591923455_1_alg».proof.Proof.Gen.ReferenceIdeal
import proofs.«412788_j87737591923455_1_alg».proof.Proof.Gen.Pre_finite_inputs
import proofs.«412788_j87737591923455_1_alg».proof.Proof.Kernel.Main
import proofs.«412788_j87737591923455_1_alg».proof.Proof.KernelIdeal.Main
import proofs.«412788_j87737591923455_1_alg».proof.Proof.Ref.RunP
import proofs.«412788_j87737591923455_1_alg».proof.Proof.Assembly
import Idealize.ShloMosaic.Adequacy
import Idealize.ShloMosaic.Init

noncomputable section

namespace Cert.Proof

open Idealize.ShloMosaic Idealize.ShloMosaic.TcCoe Idealize.SL.Sem

/-- The word-level program terminates, faults nowhere and keeps its arguments. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two ledger entries: the scale constant of each edge region is named, and the table gives the name the exact
    reciprocal of the reference's divisor. -/
theorem preserves : Cert.preserves_Kernel_KernelIdeal :=
  ⟨IdealRules.named_const.statement Cert.KernelIdeal.κ "inv_sqrt_dk" .f32 0x3E3504F3#32 ((2097152 / 11863283 : ℝ) : EReal) rfl,
   IdealRules.named_const.statement Cert.KernelIdeal.κ "inv_sqrt_dk" .f32 0x3E3504F3#32 ((2097152 / 11863283 : ℝ) : EReal) rfl⟩

/-- The two programs' results are equal. -/
theorem algebraic : Cert.algebraic_KernelIdeal_ReferenceIdeal := by
  intro m ρ m' ρ' hpre hagree
  refine ⟨fun c => Cert.KernelIdeal.Gen.V20 m (Cert.KernelIdeal.Hand.outsC m) c Cert.KernelIdeal.main_v64, Cert.KernelIdeal.Hand.run_main m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.value_eq m m' c (hpre c) (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
